-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S500x1024 : Shape := ⟨2, ![500, 1024]⟩
abbrev S2x4000 : Shape := ⟨2, ![2, 4000]⟩
abbrev S1024x256 : Shape := ⟨2, ![1024, 256]⟩
abbrev S256 : Shape := ⟨1, ![256]⟩
abbrev S256x256 : Shape := ⟨2, ![256, 256]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S500x1024 : S_.BroadcastsInDim S500x1024 (![] : Fin 0 → Fin S500x1024.rank)
  reducesTo_S500x1024_S_d0_1 : S500x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2x4000 : S_.BroadcastsInDim S2x4000 (![] : Fin 0 → Fin S2x4000.rank)
  reducesTo_S2x4000_S_d0_1 : S2x4000.ReducesTo [0, 1] S_

variable [Facts]

def fn_part4 {F : FTy → Type} [FloatOps F] (main_arg2 : IVec S2x4000 32) (main_v63 : IVec S_ 1) (main_v67 : IVec S_ 1) : IVec S_ 1 :=
  let main_v68 : IVec S_ 1 := andi main_v63 main_v67
  let main_c_26 : IVec S_ 32 := constantI S_ 32 4294966794#32
  let main_v69 : IVec S2x4000 32 := broadcastInDim S2x4000 ![] bcast_S_S2x4000 main_c_26
  let main_v70 : IVec S2x4000 1 := cmpi .sge main_arg2 main_v69
  let main_c_27 : IVec S_ 32 := constantI S_ 32 502#32
  let main_v71 : IVec S2x4000 32 := broadcastInDim S2x4000 ![] bcast_S_S2x4000 main_c_27
  let main_v72 : IVec S2x4000 1 := cmpi .slt main_arg2 main_v71
  let main_v73 : IVec S2x4000 1 := andi main_v70 main_v72
  let main_c_28 : IVec S_ 1 := constantI S_ 1 1#1
  let main_v74 : IVec S_ 1 := (fun x v => Host.reduce IntOp.andi x v reducesTo_S2x4000_S_d0_1 h_S_) main_v73 main_c_28
  let main_v75 : IVec S_ 1 := andi main_v68 main_v74
  main_v75

def fn_part3 {F : FTy → Type} [FloatOps F] (main_arg2 : IVec S2x4000 32) (main_arg12 : FVec F S256 .f32) (main_arg13 : FVec F S256 .f32) (main_arg14 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg2 main_v63 main_v67

def fn_part2 {F : FTy → Type} [FloatOps F] (main_arg2 : IVec S2x4000 32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg2 main_arg12 main_arg13 main_arg14 main_v48 main_v49 main_v50

def fn_part1 {F : FTy → Type} [FloatOps F] (main_arg2 : IVec S2x4000 32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S128x1024 .f32) (main_arg1 : FVec F S500x1024 .f32) (main_arg2 : IVec S2x4000 32) (main_arg3 : FVec F S1024x256 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S500x1024 .f32 := Host.absf main_arg1
  let main_cst_0 : FVec F S_ .f32 := constant S_ .f32 0x7F800000#32
  let main_v5 : FVec F S500x1024 .f32 := broadcastInDim S500x1024 ![] bcast_S_S500x1024 main_cst_0
  let main_v6 : IVec S500x1024 1 := cmpf .olt main_v4 main_v5
  let main_c_1 : IVec S_ 1 := constantI S_ 1 1#1
  let main_v7 : IVec S_ 1 := (fun x v => Host.reduce IntOp.andi x v reducesTo_S500x1024_S_d0_1 h_S_) main_v6 main_c_1
  let main_v8 : IVec S_ 1 := andi main_v3 main_v7
  let main_v9 : FVec F S1024x256 .f32 := Host.absf main_arg3
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S128x1024 : Shape := ⟨2, ![128, 1024]⟩
abbrev S500x1024 : Shape := ⟨2, ![500, 1024]⟩
abbrev S2x4000 : Shape := ⟨2, ![2, 4000]⟩
abbrev S1024x256 : Shape := ⟨2, ![1024, 256]⟩
abbrev S256 : Shape := ⟨1, ![256]⟩
abbrev S256x256 : Shape := ⟨2, ![256, 256]⟩
abbrev S502 : Shape := ⟨1, ![502]⟩
abbrev S1x4000 : Shape := ⟨2, ![1, 4000]⟩
abbrev S4000 : Shape := ⟨1, ![4000]⟩
abbrev S4502 : Shape := ⟨1, ![4502]⟩
abbrev S_ : Shape := ⟨0, ![]⟩
abbrev S4502x1 : Shape := ⟨2, ![4502, 1]⟩
abbrev S502x502 : Shape := ⟨2, ![502, 502]⟩
abbrev S4502x2 : Shape := ⟨2, ![4502, 2]⟩
abbrev S500x256 : Shape := ⟨2, ![500, 256]⟩
abbrev S502x500 : Shape := ⟨2, ![502, 500]⟩
abbrev S502x256 : Shape := ⟨2, ![502, 256]⟩
abbrev S128x256 : Shape := ⟨2, ![128, 256]⟩
abbrev S502x1 : Shape := ⟨2, ![502, 1]⟩
abbrev S1x256 : Shape := ⟨2, ![1, 256]⟩
abbrev S128x1x256 : Shape := ⟨3, ![128, 1, 256]⟩
abbrev S128x502x256 : Shape := ⟨3, ![128, 502, 256]⟩
abbrev S16x1x256 : Shape := ⟨3, ![16, 1, 256]⟩
abbrev S8x1x256 : Shape := ⟨3, ![8, 1, 256]⟩
abbrev S8x502x256 : Shape := ⟨3, ![8, 502, 256]⟩
abbrev S1x1x256 : Shape := ⟨3, ![1, 1, 256]⟩
abbrev S1x502x256 : Shape := ⟨3, ![1, 502, 256]⟩
abbrev S16x256 : Shape := ⟨2, ![16, 256]⟩

abbrev nBuf : Space → Nat
  | .hbm => 182
  | .vmem => 49
  | .smem => 0
  | _ => 0

abbrev hbmTy0_0 (i : Nat) : BufTy := match i % 128 with
  | 0 => ⟨S128x1024, .f32⟩
  | 1 => ⟨S500x1024, .f32⟩
  | 2 => ⟨S2x4000, .i32⟩
  | 3 => ⟨S1024x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256, .f32⟩
  | 14 => ⟨S256, .f32⟩
  | 15 => ⟨S502, .i32⟩
  | 16 => ⟨S1x4000, .i32⟩
  | 17 => ⟨S4000, .i32⟩
  | 18 => ⟨S4502, .i32⟩
  | 19 => ⟨S1x4000, .i32⟩
  | 20 => ⟨S4000, .i32⟩
  | 21 => ⟨S4502, .i32⟩
  | 22 => ⟨S_, .f32⟩
  | 23 => ⟨S502, .f32⟩
  | 24 => ⟨S_, .i32⟩
  | 25 => ⟨S4502, .i32⟩
  | 26 => ⟨S4502, .i1⟩
  | 27 => ⟨S_, .i32⟩
  | 28 => ⟨S4502, .i32⟩
  | 29 => ⟨S4502, .i32⟩
  | 30 => ⟨S4502, .i32⟩
  | 31 => ⟨S4502x1, .i32⟩
  | 32 => ⟨S_, .f32⟩
  | 33 => ⟨S4502, .f32⟩
  | 34 => ⟨S502, .f32⟩
  | 35 => ⟨S_, .f32⟩
  | 36 => ⟨S502, .f32⟩
  | 37 => ⟨S502, .i1⟩
  | 38 => ⟨S502, .f32⟩
  | 39 => ⟨S_, .f32⟩
  | 40 => ⟨S_, .f32⟩
  | 41 => ⟨S502, .f32⟩
  | 42 => ⟨S502, .f32⟩
  | 43 => ⟨S_, .i32⟩
  | 44 => ⟨S4502, .i32⟩
  | 45 => ⟨S4502, .i1⟩
  | 46 => ⟨S_, .i32⟩
  | 47 => ⟨S4502, .i32⟩
  | 48 => ⟨S4502, .i32⟩
  | 49 => ⟨S4502, .i32⟩
  | 50 => ⟨S4502x1, .i32⟩
  | 51 => ⟨S4502, .f32⟩
  | 52 => ⟨S_, .i32⟩
  | 53 => ⟨S4502, .i32⟩
  | 54 => ⟨S4502, .i1⟩
  | 55 => ⟨S_, .i32⟩
  | 56 => ⟨S4502, .i32⟩
  | 57 => ⟨S4502, .i32⟩
  | 58 => ⟨S4502, .i32⟩
  | 59 => ⟨S4502x1, .i32⟩
  | 60 => ⟨S4502, .f32⟩
  | 61 => ⟨S4502, .f32⟩
  | 62 => ⟨S_, .f32⟩
  | 63 => ⟨S502x502, .f32⟩
  | 64 => ⟨S_, .i32⟩
  | 65 => ⟨S4502, .i32⟩
  | 66 => ⟨S4502, .i1⟩
  | 67 => ⟨S_, .i32⟩
  | 68 => ⟨S4502, .i32⟩
  | 69 => ⟨S4502, .i32⟩
  | 70 => ⟨S4502, .i32⟩
  | 71 => ⟨S_, .i32⟩
  | 72 => ⟨S4502, .i32⟩
  | 73 => ⟨S4502, .i1⟩
  | 74 => ⟨S_, .i32⟩
  | 75 => ⟨S4502, .i32⟩
  | 76 => ⟨S4502, .i32⟩
  | 77 => ⟨S4502, .i32⟩
  | 78 => ⟨S4502x1, .i32⟩
  | 79 => ⟨S4502x1, .i32⟩
  | 80 => ⟨S4502x2, .i32⟩
  | 81 => ⟨S502x502, .f32⟩
  | 82 => ⟨S502x502, .bf16⟩
  | 83 => ⟨S500x256, .f32⟩
  | 84 => ⟨S502x500, .f32⟩
  | 85 => ⟨S502x256, .f32⟩
  | 86 => ⟨S128x256, .f32⟩
  | 87 => ⟨S502x1, .f32⟩
  | 88 => ⟨S1x256, .f32⟩
  | 89 => ⟨S128x1x256, .f32⟩
  | 90 => ⟨S128x502x256, .f32⟩
  | 91 => ⟨S16x1x256, .f32⟩
  | 92 => ⟨S16x1x256, .f32⟩
  | 93 => ⟨S16x256, .f32⟩
  | 94 => ⟨S16x256, .f32⟩
  | 95 => ⟨S_, .f32⟩
  | 96 => ⟨S256, .f32⟩
  | 97 => ⟨S_, .f32⟩
  | 98 => ⟨S256, .f32⟩
  | 99 => ⟨S256, .f32⟩
  | 100 => ⟨S_, .f32⟩
  | 101 => ⟨S256, .f32⟩
  | 102 => ⟨S1x256, .f32⟩
  | 103 => ⟨S16x256, .f32⟩
  | 104 => ⟨S16x256, .f32⟩
  | 105 => ⟨S16x256, .f32⟩
  | 106 => ⟨S_, .f32⟩
  | 107 => ⟨S256, .f32⟩
  | 108 => ⟨S_, .f32⟩
  | 109 => ⟨S256, .f32⟩
  | 110 => ⟨S256, .f32⟩
  | 111 => ⟨S256, .f32⟩
  | 112 => ⟨S_, .f32⟩
  | 113 => ⟨S256, .f32⟩
  | 114 => ⟨S256, .f32⟩
  | 115 => ⟨S1x256, .f32⟩
  | 116 => ⟨S1x256, .f32⟩
  | 117 => ⟨S1x256, .f32⟩
  | 118 => ⟨S1x256, .f32⟩
  | 119 => ⟨S256x256, .bf16⟩
  | 120 => ⟨S1x256, .f32⟩
  | 121 => ⟨S128x502x256, .f32⟩
  | 122 => ⟨S16x1x256, .f32⟩
  | 123 => ⟨S16x1x256, .f32⟩
  | 124 => ⟨S16x256, .f32⟩
  | 125 => ⟨S16x256, .f32⟩
  | 126 => ⟨S_, .f32⟩
  | 127 => ⟨S256, .f32⟩
  | _ => ⟨S128x1024, .f32⟩

abbrev hbmTy0_1 (i : Nat) : BufTy := match i % 128 with
  | 0 => ⟨S_, .f32⟩
  | 1 => ⟨S256, .f32⟩
  | 2 => ⟨S256, .f32⟩
  | 3 => ⟨S_, .f32⟩
  | 4 => ⟨S256, .f32⟩
  | 5 => ⟨S1x256, .f32⟩
  | 6 => ⟨S16x256, .f32⟩
  | 7 => ⟨S16x256, .f32⟩
  | 8 => ⟨S16x256, .f32⟩
  | 9 => ⟨S_, .f32⟩
  | 10 => ⟨S256, .f32⟩
  | 11 => ⟨S_, .f32⟩
  | 12 => ⟨S256, .f32⟩
  | 13 => ⟨S256, .f32⟩
  | 14 => ⟨S256, .f32⟩
  | 15 => ⟨S_, .f32⟩
  | 16 => ⟨S256, .f32⟩
  | 17 => ⟨S256, .f32⟩
  | 18 => ⟨S1x256, .f32⟩
  | 19 => ⟨S1x256, .f32⟩
  | 20 => ⟨S1x256, .f32⟩
  | 21 => ⟨S1x256, .f32⟩
  | 22 => ⟨S256x256, .bf16⟩
  | 23 => ⟨S1x256, .f32⟩
  | 24 => ⟨S128x502x256, .f32⟩
  | 25 => ⟨S16x1x256, .f32⟩
  | 26 => ⟨S16x1x256, .f32⟩
  | 27 => ⟨S16x256, .f32⟩
  | 28 => ⟨S16x256, .f32⟩
  | 29 => ⟨S_, .f32⟩
  | 30 => ⟨S256, .f32⟩
  | 31 => ⟨S_, .f32⟩
  | 32 => ⟨S256, .f32⟩
  | 33 => ⟨S256, .f32⟩
  | 34 => ⟨S_, .f32⟩
  | 35 => ⟨S256, .f32⟩
  | 36 => ⟨S1x256, .f32⟩
  | 37 => ⟨S16x256, .f32⟩
  | 38 => ⟨S16x256, .f32⟩
  | 39 => ⟨S16x256, .f32⟩
  | 40 => ⟨S_, .f32⟩
  | 41 => ⟨S256, .f32⟩
  | 42 => ⟨S_, .f32⟩
  | 43 => ⟨S256, .f32⟩
  | 44 => ⟨S256, .f32⟩
  | 45 => ⟨S256, .f32⟩
  | 46 => ⟨S_, .f32⟩
  | 47 => ⟨S256, .f32⟩
  | 48 => ⟨S256, .f32⟩
  | 49 => ⟨S1x1x256, .f32⟩
  | 50 => ⟨S1x1x256, .f32⟩
  | 51 => ⟨S1x1x256, .f32⟩
  | 52 => ⟨S1x1x256, .f32⟩
  | 53 => ⟨S128x502x256, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | .local _ .vmem, ⟨0, _⟩ => ⟨S502x256, .f32⟩
  | .local _ .vmem, ⟨1, _⟩ => ⟨S502x1, .f32⟩
  | .local _ .vmem, ⟨2, _⟩ => ⟨S8x1x256, .f32⟩
  | .local _ .vmem, ⟨3, _⟩ => ⟨S8x1x256, .f32⟩
  | .local _ .vmem, ⟨4, _⟩ => ⟨S1x256, .f32⟩
  | .local _ .vmem, ⟨5, _⟩ => ⟨S8x502x256, .f32⟩
  | .local _ .vmem, ⟨6, _⟩ => ⟨S8x502x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S8x502x256, .f32⟩
  | .local _ .vmem, ⟨12, _⟩ => ⟨S8x502x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S256x256, .bf16⟩
  | .local _ .vmem, ⟨18, _⟩ => ⟨S502x502, .bf16⟩
  | .local _ .vmem, ⟨19, _⟩ => ⟨S1x256, .f32⟩
  | .local _ .vmem, ⟨20, _⟩ => ⟨S8x502x256, .f32⟩
  | .local _ .vmem, ⟨21, _⟩ => ⟨S8x502x256, .f32⟩
  | .local _ .vmem, ⟨22, _⟩ => ⟨S1x1x256, .f32⟩
  | .local _ .vmem, ⟨23, _⟩ => ⟨S1x1x256, .f32⟩
  | .local _ .vmem, ⟨24, _⟩ => ⟨S1x1x256, .f32⟩
  | .local _ .vmem, ⟨25, _⟩ => ⟨S1x1x256, .f32⟩
  | .local _ .vmem, ⟨26, _⟩ => ⟨S8x502x256, .f32⟩
  | .local _ .vmem, ⟨27, _⟩ => ⟨S8x502x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S256x256, .bf16⟩
  | .local _ .vmem, ⟨33, _⟩ => ⟨S502x502, .bf16⟩
  | .local _ .vmem, ⟨34, _⟩ => ⟨S1x256, .f32⟩
  | .local _ .vmem, ⟨35, _⟩ => ⟨S8x502x256, .f32⟩
  | .local _ .vmem, ⟨36, _⟩ => ⟨S8x502x256, .f32⟩
  | .local _ .vmem, ⟨37, _⟩ => ⟨S1x1x256, .f32⟩
  | .local _ .vmem, ⟨38, _⟩ => ⟨S1x1x256, .f32⟩
  | .local _ .vmem, ⟨39, _⟩ => ⟨S1x1x256, .f32⟩
  | .local _ .vmem, ⟨40, _⟩ => ⟨S1x1x256, .f32⟩
  | .local _ .vmem, ⟨41, _⟩ => ⟨S8x502x256, .f32⟩
  | .local _ .vmem, ⟨42, _⟩ => ⟨S8x502x256, .f32⟩
  | .local _ .vmem, ⟨43, _⟩ => ⟨S1x1x256, .f32⟩
  | .local _ .vmem, ⟨44, _⟩ => ⟨S1x1x256, .f32⟩
  | .local _ .vmem, ⟨45, _⟩ => ⟨S1x1x256, .f32⟩
  | .local _ .vmem, ⟨46, _⟩ => ⟨S1x1x256, .f32⟩
  | .local _ .vmem, ⟨47, _⟩ => ⟨S8x502x256, .f32⟩
  | .local _ .vmem, ⟨48, _⟩ => ⟨S8x502x256, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_c_7 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_c_9 : Ref sig .tc := ⟨.hbm, 64, rfl⟩
abbrev main_v36 : Ref sig .tc := ⟨.hbm, 65, rfl⟩
abbrev main_v37 : Ref sig .tc := ⟨.hbm, 66, rfl⟩
abbrev main_c_10 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_11 : Ref sig .tc := ⟨.hbm, 71, rfl⟩
abbrev main_v41 : Ref sig .tc := ⟨.hbm, 72, rfl⟩
abbrev main_v42 : Ref sig .tc := ⟨.hbm, 73, rfl⟩
abbrev main_c_12 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58_0 : Ref sig .tc := ⟨.hbm, 90, rfl⟩
abbrev main_v58_1 : Ref sig .tc := ⟨.hbm, 91, rfl⟩
abbrev main_v58_2 : Ref sig .tc := ⟨.hbm, 92, rfl⟩
abbrev main_v59 : Ref sig .tc := ⟨.hbm, 93, rfl⟩
abbrev main_v60 : Ref sig .tc := ⟨.hbm, 94, rfl⟩
abbrev main_cst_13 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_cst_15 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_16 : Ref sig .tc := ⟨.hbm, 106, rfl⟩
abbrev main_v69 : Ref sig .tc := ⟨.hbm, 107, rfl⟩
abbrev main_cst_17 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_18 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81_0 : Ref sig .tc := ⟨.hbm, 121, rfl⟩
abbrev main_v81_1 : Ref sig .tc := ⟨.hbm, 122, rfl⟩
abbrev main_v81_2 : Ref sig .tc := ⟨.hbm, 123, rfl⟩
abbrev main_v82 : Ref sig .tc := ⟨.hbm, 124, rfl⟩
abbrev main_v83 : Ref sig .tc := ⟨.hbm, 125, rfl⟩
abbrev main_cst_19 : Ref sig .tc := ⟨.hbm, 126, rfl⟩
abbrev main_v84 : Ref sig .tc := ⟨.hbm, 127, rfl⟩
abbrev main_cst_20 : Ref sig .tc := ⟨.hbm, 128, rfl⟩
abbrev main_v85 : Ref sig .tc := ⟨.hbm, 129, rfl⟩
abbrev main_v86 : Ref sig .tc := ⟨.hbm, 130, rfl⟩
abbrev main_cst_21 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_22 : Ref sig .tc := ⟨.hbm, 137, rfl⟩
abbrev main_v92 : Ref sig .tc := ⟨.hbm, 138, rfl⟩
abbrev main_cst_23 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_24 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104_0 : Ref sig .tc := ⟨.hbm, 152, rfl⟩
abbrev main_v104_1 : Ref sig .tc := ⟨.hbm, 153, rfl⟩
abbrev main_v104_2 : Ref sig .tc := ⟨.hbm, 154, rfl⟩
abbrev main_v105 : Ref sig .tc := ⟨.hbm, 155, rfl⟩
abbrev main_v106 : Ref sig .tc := ⟨.hbm, 156, rfl⟩
abbrev main_cst_25 : Ref sig .tc := ⟨.hbm, 157, rfl⟩
abbrev main_v107 : Ref sig .tc := ⟨.hbm, 158, rfl⟩
abbrev main_cst_26 : Ref sig .tc := ⟨.hbm, 159, rfl⟩
abbrev main_v108 : Ref sig .tc := ⟨.hbm, 160, rfl⟩
abbrev main_v109 : Ref sig .tc := ⟨.hbm, 161, rfl⟩
abbrev main_cst_27 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_28 : Ref sig .tc := ⟨.hbm, 168, rfl⟩
abbrev main_v115 : Ref sig .tc := ⟨.hbm, 169, rfl⟩
abbrev main_cst_29 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_30 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg8_1 : Ref sig .tc := ⟨.vmem, 36, rfl⟩
abbrev cc2_stg9_0 : Ref sig .tc := ⟨.vmem, 37, rfl⟩
abbrev cc2_stg9_1 : Ref sig .tc := ⟨.vmem, 38, rfl⟩
abbrev cc2_stg10_0 : Ref sig .tc := ⟨.vmem, 39, rfl⟩
abbrev cc2_stg10_1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg5_1 : Ref sig .tc := ⟨.vmem, 48, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem8_1 : DmaSem sig := 36
abbrev cc2_sem9_0 : DmaSem sig := 37
abbrev cc2_sem9_1 : DmaSem sig := 38
abbrev cc2_sem10_0 : DmaSem sig := 39
abbrev cc2_sem10_1 : DmaSem sig := 40
abbrev cc3_sem0_0 : DmaSem sig := 41
abbrev cc3_sem0_1 : DmaSem sig := 42
abbrev cc3_sem1_0 : DmaSem sig := 43
abbrev cc3_sem2_0 : DmaSem sig := 44
abbrev cc3_sem3_0 : DmaSem sig := 45
abbrev cc3_sem4_0 : DmaSem sig := 46
abbrev cc3_sem5_0 : DmaSem sig := 47
abbrev cc3_sem5_1 : DmaSem sig := 48

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v20 : Index := Scalar.indexCast arg8
  let c0_18 : Index := 0#32
  let c0_19 : Index := 0#32
  ![v20.toNat, 0, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let v29 : Index := Scalar.indexCast arg8
  let c0_20 : Index := 0#32
  let c0_21 : Index := 0#32
  ![v29.toNat, 0, 0]
@[reducible] def k0_t2_loop : Scf.Loop 32 :=
  let c0_i32_11 : BitVec 32 := 0#32
  let c8_i32_12 : BitVec 32 := 8#32
  let v15 : BitVec 32 := Scalar.addi c0_i32_11 c8_i32_12
  let c1_i32_13 : BitVec 32 := 1#32
  ⟨c0_i32_11, v15, c1_i32_13⟩
def k0_off3 (k0_t2 : Fin k0_t2_loop.trips) : Fin 3 → Nat :=
  let c0_i32_11 : BitVec 32 := 0#32
  let c1_i32_13 : BitVec 32 := 1#32
  let arg8 : BitVec 32 := Scf.iv c0_i32_11 c1_i32_13 k0_t2
  let v20 : Index := Scalar.indexCast arg8
  let c0_18 : Index := 0#32
  let c0_19 : Index := 0#32
  ![v20.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S502x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S502x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x502x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

@[reducible] def k1_t1_loop : Scf.Loop 32 :=
  let c0_i32 : BitVec 32 := 0#32
  let c8_i32 : BitVec 32 := 8#32
  let v18 : BitVec 32 := Scalar.addi c0_i32 c8_i32
  let c1_i32 : BitVec 32 := 1#32
  ⟨c0_i32, v18, c1_i32⟩
def k1_off1 (k1_t1 : Fin k1_t1_loop.trips) : Fin 3 → Nat :=
  let c0_i32 : BitVec 32 := 0#32
  let c1_i32 : BitVec 32 := 1#32
  let arg12 : BitVec 32 := Scf.iv c0_i32 c1_i32 k1_t1
  let v31 : Index := Scalar.indexCast arg12
  let c0_27 : Index := 0#32
  let c0_28 : Index := 0#32
  ![v31.toNat, 0, 0]
@[reducible] def k1_t2_loop : Scf.Loop 32 :=
  let c0_i32_20 : BitVec 32 := 0#32
  let c8_i32_21 : BitVec 32 := 8#32
  let v26 : BitVec 32 := Scalar.addi c0_i32_20 c8_i32_21
  let c1_i32_22 : BitVec 32 := 1#32
  ⟨c0_i32_20, v26, c1_i32_22⟩
def k1_off2 (k1_t2 : Fin k1_t2_loop.trips) : Fin 3 → Nat :=
  let c0_i32_20 : BitVec 32 := 0#32
  let c1_i32_22 : BitVec 32 := 1#32
  let arg12 : BitVec 32 := Scf.iv c0_i32_20 c1_i32_22 k1_t2
  let v31 : Index := Scalar.indexCast arg12
  let c0_27 : Index := 0#32
  let c0_28 : Index := 0#32
  ![v31.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x502x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S502x502 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S8x502x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![16], ![false]⟩

@[reducible] def k2_t1_loop : Scf.Loop 32 :=
  let c0_i32 : BitVec 32 := 0#32
  let c8_i32 : BitVec 32 := 8#32
  let v18 : BitVec 32 := Scalar.addi c0_i32 c8_i32
  let c1_i32 : BitVec 32 := 1#32
  ⟨c0_i32, v18, c1_i32⟩
def k2_off1 (k2_t1 : Fin k2_t1_loop.trips) : Fin 3 → Nat :=
  let c0_i32 : BitVec 32 := 0#32
  let c1_i32 : BitVec 32 := 1#32
  let arg12 : BitVec 32 := Scf.iv c0_i32 c1_i32 k2_t1
  let v31 : Index := Scalar.indexCast arg12
  let c0_27 : Index := 0#32
  let c0_28 : Index := 0#32
  ![v31.toNat, 0, 0]
@[reducible] def k2_t2_loop : Scf.Loop 32 :=
  let c0_i32_20 : BitVec 32 := 0#32
  let c8_i32_21 : BitVec 32 := 8#32
  let v26 : BitVec 32 := Scalar.addi c0_i32_20 c8_i32_21
  let c1_i32_22 : BitVec 32 := 1#32
  ⟨c0_i32_20, v26, c1_i32_22⟩
def k2_off2 (k2_t2 : Fin k2_t2_loop.trips) : Fin 3 → Nat :=
  let c0_i32_20 : BitVec 32 := 0#32
  let c1_i32_22 : BitVec 32 := 1#32
  let arg12 : BitVec 32 := Scf.iv c0_i32_20 c1_i32_22 k2_t2
  let v31 : Index := Scalar.indexCast arg12
  let c0_27 : Index := 0#32
  let c0_28 : Index := 0#32
  ![v31.toNat, 0, 0]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x502x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S502x502 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S8x502x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x1x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S8x502x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8x502x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x4000_S1x4000_0_0 : S2x4000.Slices ![0, 0] S1x4000
  shapeCasts_S1x4000_S4000 : S1x4000.ShapeCasts S4000
  concatenates_S4000_S502_S4502_d0 : Shape.Concatenates [S4000, S502] S4502 0
  slices_S2x4000_S1x4000_1_0 : S2x4000.Slices ![1, 0] S1x4000
  bcast_S_S502 : S_.BroadcastsInDim S502 (![] : Fin 0 → Fin S502.rank)
  bcast_S_S4502 : S_.BroadcastsInDim S4502 (![] : Fin 0 → Fin S4502.rank)
  bcast_S4502_S4502x1_0 : S4502.BroadcastsInDim S4502x1 (![0] : Fin 1 → Fin S4502x1.rank)
  bcast_S_S502x502 : S_.BroadcastsInDim S502x502 (![] : Fin 0 → Fin S502x502.rank)
  concatenates_S4502x1_S4502x1_S4502x2_d1 : Shape.Concatenates [S4502x1, S4502x1] S4502x2 1
  bitsLt_bf16_f32 : FTy.bits .bf16 < FTy.bits .f32
  slices_S502x502_S502x500_0_0 : S502x502.Slices ![0, 0] S502x500
  slices_S502x502_S502x1_0_500 : S502x502.Slices ![0, 500] S502x1
  shapeCasts_S256_S1x256 : S256.ShapeCasts S1x256
  shapeCasts_S128x256_S128x1x256 : S128x256.ShapeCasts S128x1x256
  inb_S502x256_S502x256_0_0 : ∀ a, (![0, 0] : Fin 2 → Nat) a + S502x256.size a ≤ S502x256.size a
  h_S502x256 : 0 < S502x256.numel
  shapeCasts_S502x256_S502x256 : S502x256.ShapeCasts S502x256
  inb_S502x1_S502x1_0_0 : ∀ a, (![0, 0] : Fin 2 → Nat) a + S502x1.size a ≤ S502x1.size a
  h_S502x1 : 0 < S502x1.numel
  shapeCasts_S502x1_S502x1 : S502x1.ShapeCasts S502x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S1x1x256 : 0 < S1x1x256.numel
  shapeCasts_S1x1x256_S1x256 : S1x1x256.ShapeCasts S1x256
  broadcasts_S502x1_S502x256 : S502x1.Broadcasts S502x256
  broadcasts_S1x256_S502x256 : S1x256.Broadcasts S502x256
  h_S1x502x256 : 0 < S1x502x256.numel
  shapeCasts_S1x502x256_S502x256 : S1x502x256.ShapeCasts S502x256
  shapeCasts_S502x256_S1x502x256 : S502x256.ShapeCasts S1x502x256
  reduces_S502x256_S256 : S502x256.Reduces [0] S256
  inb_S1x1x256_S1x1x256_0_0_0 : ∀ a, (![0, 0, 0] : Fin 3 → Nat) a + S1x1x256.size a ≤ S1x1x256.size a
  shapeCasts_S1x256_S1x1x256 : S1x256.ShapeCasts S1x1x256
  shapeCasts_S16x1x256_S16x256 : S16x1x256.ShapeCasts S16x256
  reducesTo_S16x256_S256_d0 : S16x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S502x502_S502x502_0_0 : ∀ a, (![0, 0] : Fin 2 → Nat) a + S502x502.size a ≤ S502x502.size a
  h_S502x502 : 0 < S502x502.numel
  shapeCasts_S502x502_S502x502 : S502x502.ShapeCasts S502x502
  shapeCasts_S256_S1x1x256 : S256.ShapeCasts S1x1x256
  inb_S8x502x256_S8x502x256_0_0_0 : ∀ a, (![0, 0, 0] : Fin 3 → Nat) a + S8x502x256.size a ≤ S8x502x256.size a
  h_S8x502x256 : 0 < S8x502x256.numel
  shapeCasts_S8x502x256_S8x502x256 : S8x502x256.ShapeCasts S8x502x256
  shapeCasts_S1x1x256_S1x1x256 : S1x1x256.ShapeCasts S1x1x256
  broadcasts_S1x1x256_S8x502x256 : S1x1x256.Broadcasts S8x502x256
  scatter_S502_S4502x1_S4502_n_0_0_1_wf : ScatterDims.WF S502 S4502x1 S4502 [] [0] [0] 1
  gather_S502_S4502x1_S4502_n_0_n_n_0_1_1_wf : GatherDims.WF S502 S4502x1 S4502 [] [0] [] [0] [] 1 ![1]
  scatter_S502x502_S4502x2_S4502_n_01_01_1_wf : ScatterDims.WF S502x502 S4502x2 S4502 [] [0, 1] [0, 1] 1
  dot_S500x1024_S1024x256_S500x256_1_0_0_1_n_n_wf : DotDims.WF S500x1024 S1024x256 S500x256 [1] [0] [0] [1] [] []
  dot_S502x500_S500x256_S502x256_1_0_0_1_n_n_wf : DotDims.WF S502x500 S500x256 S502x256 [1] [0] [0] [1] [] []
  dot_S128x1024_S1024x256_S128x256_1_0_0_1_n_n_wf : DotDims.WF S128x1024 S1024x256 S128x256 [1] [0] [0] [1] [] []
  dot_S502x256_S256x256_S502x256_1_0_0_1_n_n_wf : DotDims.WF S502x256 S256x256 S502x256 [1] [0] [0] [1] [] []
  dot_S502x502_S502x256_S502x256_1_0_0_1_n_n_wf : DotDims.WF S502x502 S502x256 S502x256 [1] [0] [0] [1] [] []
  hrank0 : 0 < grid0.rank
  k0_t1_ok : k0_t1_loop.OK
  k0_off1_inb : ∀ k0_t1 : Fin k0_t1_loop.trips, ∀ a, (k0_off1 k0_t1) a + S1x1x256.size a ≤ S8x1x256.size a
  k0_off2_inb : ∀ k0_t1 : Fin k0_t1_loop.trips, ∀ a, (k0_off2 k0_t1) a + S1x502x256.size a ≤ S8x502x256.size a
  k0_t2_ok : k0_t2_loop.OK
  k0_off3_inb : ∀ k0_t2 : Fin k0_t2_loop.trips, ∀ a, (k0_off3 k0_t2) a + S1x502x256.size a ≤ S8x502x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S502x256.size a ≤ S502x256.size a
  hwx0_0 : ∀ i : grid0.Coords, EltTy.bits .f32 = 32 ∨ (Rect.block (s := S502x256) S502x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S502x1.size a ≤ S502x1.size a
  hwx0_1 : ∀ i : grid0.Coords, EltTy.bits .f32 = 32 ∨ (Rect.block (s := S502x1) S502x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x256.size a ≤ S128x1x256.size a
  hwx0_2 : ∀ i : grid0.Coords, EltTy.bits .f32 = 32 ∨ (Rect.block (s := S128x1x256) S8x1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x502x256.size a ≤ S128x502x256.size a
  hwx0_4 : ∀ i : grid0.Coords, EltTy.bits .f32 = 32 ∨ (Rect.block (s := S128x502x256) S8x502x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S16x1x256.size a
  hwx0_5 : ∀ i : grid0.Coords, EltTy.bits .f32 = 32 ∨ (Rect.block (s := S16x1x256) S1x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S16x1x256.size a
  hwx0_6 : ∀ i : grid0.Coords, EltTy.bits .f32 = 32 ∨ (Rect.block (s := S16x1x256) S1x1x256.size (cc0_transform_6 i) (hinb0_6 i)).WholeWords (EltTy.packing .f32)
  hrank1 : 0 < grid1.rank
  k1_t1_ok : k1_t1_loop.OK
  k1_off1_inb : ∀ k1_t1 : Fin k1_t1_loop.trips, ∀ a, (k1_off1 k1_t1) a + S1x502x256.size a ≤ S8x502x256.size a
  k1_t2_ok : k1_t2_loop.OK
  k1_off2_inb : ∀ k1_t2 : Fin k1_t2_loop.trips, ∀ a, (k1_off2 k1_t2) a + S1x502x256.size a ≤ S8x502x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x502x256.size a ≤ S128x502x256.size a
  hwx1_0 : ∀ i : grid1.Coords, EltTy.bits .f32 = 32 ∨ (Rect.block (s := S128x502x256) S8x502x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S502x502.size a ≤ S502x502.size a
  hwx1_6 : ∀ i : grid1.Coords, EltTy.bits .bf16 = 32 ∨ (Rect.block (s := S502x502) S502x502.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x502x256.size a ≤ S128x502x256.size a
  hwx1_8 : ∀ i : grid1.Coords, EltTy.bits .f32 = 32 ∨ (Rect.block (s := S128x502x256) S8x502x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x256.size a ≤ S16x1x256.size a
  hwx1_9 : ∀ i : grid1.Coords, EltTy.bits .f32 = 32 ∨ (Rect.block (s := S16x1x256) S1x1x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x256.size a ≤ S16x1x256.size a
  hwx1_10 : ∀ i : grid1.Coords, EltTy.bits .f32 = 32 ∨ (Rect.block (s := S16x1x256) S1x1x256.size (cc1_transform_10 i) (hinb1_10 i)).WholeWords (EltTy.packing .f32)
  hrank2 : 0 < grid2.rank
  k2_t1_ok : k2_t1_loop.OK
  k2_off1_inb : ∀ k2_t1 : Fin k2_t1_loop.trips, ∀ a, (k2_off1 k2_t1) a + S1x502x256.size a ≤ S8x502x256.size a
  k2_t2_ok : k2_t2_loop.OK
  k2_off2_inb : ∀ k2_t2 : Fin k2_t2_loop.trips, ∀ a, (k2_off2 k2_t2) a + S1x502x256.size a ≤ S8x502x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x502x256.size a ≤ S128x502x256.size a
  hwx2_0 : ∀ i : grid2.Coords, EltTy.bits .f32 = 32 ∨ (Rect.block (s := S128x502x256) S8x502x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S502x502.size a ≤ S502x502.size a
  hwx2_6 : ∀ i : grid2.Coords, EltTy.bits .bf16 = 32 ∨ (Rect.block (s := S502x502) S502x502.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x502x256.size a ≤ S128x502x256.size a
  hwx2_8 : ∀ i : grid2.Coords, EltTy.bits .f32 = 32 ∨ (Rect.block (s := S128x502x256) S8x502x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1x256.size a ≤ S16x1x256.size a
  hwx2_9 : ∀ i : grid2.Coords, EltTy.bits .f32 = 32 ∨ (Rect.block (s := S16x1x256) S1x1x256.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1x1x256.size a ≤ S16x1x256.size a
  hwx2_10 : ∀ i : grid2.Coords, EltTy.bits .f32 = 32 ∨ (Rect.block (s := S16x1x256) S1x1x256.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x502x256.size a ≤ S128x502x256.size a
  hwx3_0 : ∀ i : grid3.Coords, EltTy.bits .f32 = 32 ∨ (Rect.block (s := S128x502x256) S8x502x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1x256.size a ≤ S1x1x256.size a
  hwx3_1 : ∀ i : grid3.Coords, EltTy.bits .f32 = 32 ∨ (Rect.block (s := S1x1x256) S1x1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1x256.size a ≤ S1x1x256.size a
  hwx3_2 : ∀ i : grid3.Coords, EltTy.bits .f32 = 32 ∨ (Rect.block (s := S1x1x256) S1x1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1x256.size a ≤ S1x1x256.size a
  hwx3_3 : ∀ i : grid3.Coords, EltTy.bits .f32 = 32 ∨ (Rect.block (s := S1x1x256) S1x1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1x256.size a ≤ S1x1x256.size a
  hwx3_4 : ∀ i : grid3.Coords, EltTy.bits .f32 = 32 ∨ (Rect.block (s := S1x1x256) S1x1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8x502x256.size a ≤ S128x502x256.size a
  hwx3_5 : ∀ i : grid3.Coords, EltTy.bits .f32 = 32 ∨ (Rect.block (s := S128x502x256) S8x502x256.size (cc3_transform_5 i) (hinb3_5 i)).WholeWords (EltTy.packing .f32)

variable [Facts₀]

def scatter_S502_S4502x1_S4502_n_0_0_1 : ScatterDims S502 S4502x1 S4502 where
  updateWindowDims := []
  insertedWindowDims := [0]
  scatterDimsToOperandDims := [0]
  indexVectorDim := 1
  wf := scatter_S502_S4502x1_S4502_n_0_0_1_wf
def gather_S502_S4502x1_S4502_n_0_n_n_0_1_1 : GatherDims S502 S4502x1 S4502 where
  offsetDims := []
  collapsedSliceDims := [0]
  operandBatchingDims := []
  startIndicesBatchingDims := []
  startIndexMap := [0]
  indexVectorDim := 1
  sliceSizes := ![1]
  wf := gather_S502_S4502x1_S4502_n_0_n_n_0_1_1_wf
def scatter_S502x502_S4502x2_S4502_n_01_01_1 : ScatterDims S502x502 S4502x2 S4502 where
  updateWindowDims := []
  insertedWindowDims := [0, 1]
  scatterDimsToOperandDims := [0, 1]
  indexVectorDim := 1
  wf := scatter_S502x502_S4502x2_S4502_n_01_01_1_wf
def dot_S500x1024_S1024x256_S500x256_1_0_0_1_n_n : DotDims S500x1024 S1024x256 S500x256 where
  lhsContracting := [1]
  rhsContracting := [0]
  lhsNonContracting := [0]
  rhsNonContracting := [1]
  lhsBatch := []
  rhsBatch := []
  wf := dot_S500x1024_S1024x256_S500x256_1_0_0_1_n_n_wf
def dot_S502x500_S500x256_S502x256_1_0_0_1_n_n : DotDims S502x500 S500x256 S502x256 where
  lhsContracting := [1]
  rhsContracting := [0]
  lhsNonContracting := [0]
  rhsNonContracting := [1]
  lhsBatch := []
  rhsBatch := []
  wf := dot_S502x500_S500x256_S502x256_1_0_0_1_n_n_wf
def dot_S128x1024_S1024x256_S128x256_1_0_0_1_n_n : DotDims S128x1024 S1024x256 S128x256 where
  lhsContracting := [1]
  rhsContracting := [0]
  lhsNonContracting := [0]
  rhsNonContracting := [1]
  lhsBatch := []
  rhsBatch := []
  wf := dot_S128x1024_S1024x256_S128x256_1_0_0_1_n_n_wf
def dot_S502x256_S256x256_S502x256_1_0_0_1_n_n : DotDims S502x256 S256x256 S502x256 where
  lhsContracting := [1]
  rhsContracting := [0]
  lhsNonContracting := [0]
  rhsNonContracting := [1]
  lhsBatch := []
  rhsBatch := []
  wf := dot_S502x256_S256x256_S502x256_1_0_0_1_n_n_wf
def dot_S502x502_S502x256_S502x256_1_0_0_1_n_n : DotDims S502x502 S502x256 S502x256 where
  lhsContracting := [1]
  rhsContracting := [0]
  lhsNonContracting := [0]
  rhsNonContracting := [1]
  lhsBatch := []
  rhsBatch := []
  wf := dot_S502x502_S502x256_S502x256_1_0_0_1_n_n_wf

abbrev win0_0 : Pipeline.Window sig grid0 :=
  Pipeline.Window.ofSpec (Memref.whole main_v53) S502x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v55) S502x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v57) S8x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v56) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58_0) S8x502x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v58_1) S1x1x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v58_2) S1x1x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v58_0) S8x502x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v75) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v76) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v77) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v78) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v79) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S502x502.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v80) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v81_0) S8x502x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v81_1) S1x1x256.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v81_2) S1x1x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v81_0) S8x502x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v98) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v99) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v100) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v101) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v102) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S502x502.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v103) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v104_0) S8x502x256.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v104_1) S1x1x256.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v104_2) S1x1x256.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v104_0) S8x502x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v121) S1x1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v122) S1x1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v123) S1x1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v124) S1x1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v125) S8x502x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S128x1024 : Shape := ⟨2, ![128, 1024]⟩
abbrev S500x1024 : Shape := ⟨2, ![500, 1024]⟩
abbrev S2x4000 : Shape := ⟨2, ![2, 4000]⟩
abbrev S1024x256 : Shape := ⟨2, ![1024, 256]⟩
abbrev S256 : Shape := ⟨1, ![256]⟩
abbrev S256x256 : Shape := ⟨2, ![256, 256]⟩
abbrev S1x500x1024 : Shape := ⟨3, ![1, 500, 1024]⟩
abbrev S128x500x1024 : Shape := ⟨3, ![128, 500, 1024]⟩
abbrev S_ : Shape := ⟨0, ![]⟩
abbrev S128x1x1024 : Shape := ⟨3, ![128, 1, 1024]⟩
abbrev S128x502x1024 : Shape := ⟨3, ![128, 502, 1024]⟩
abbrev S502 : Shape := ⟨1, ![502]⟩
abbrev S1x4000 : Shape := ⟨2, ![1, 4000]⟩
abbrev S4000 : Shape := ⟨1, ![4000]⟩
abbrev S4502 : Shape := ⟨1, ![4502]⟩
abbrev S4502x1 : Shape := ⟨2, ![4502, 1]⟩
abbrev S128x502x256 : Shape := ⟨3, ![128, 502, 256]⟩
abbrev S128x4502x256 : Shape := ⟨3, ![128, 4502, 256]⟩
abbrev S1x4502x1 : Shape := ⟨3, ![1, 4502, 1]⟩
abbrev S1x1x256 : Shape := ⟨3, ![1, 1, 256]⟩
abbrev S64256x256 : Shape := ⟨2, ![64256, 256]⟩
abbrev S1x256 : Shape := ⟨2, ![1, 256]⟩

abbrev nBuf : Space → Nat
  | .hbm => 290
  | .vmem => 0
  | .smem => 0
  | _ => 0

abbrev hbmTy0_0 (i : Nat) : BufTy := match i % 128 with
  | 0 => ⟨S128x1024, .f32⟩
  | 1 => ⟨S500x1024, .f32⟩
  | 2 => ⟨S2x4000, .i32⟩
  | 3 => ⟨S1024x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256, .f32⟩
  | 14 => ⟨S256, .f32⟩
  | 15 => ⟨S1x500x1024, .f32⟩
  | 16 => ⟨S128x500x1024, .f32⟩
  | 17 => ⟨S_, .f32⟩
  | 18 => ⟨S128x1x1024, .f32⟩
  | 19 => ⟨S128x1x1024, .f32⟩
  | 20 => ⟨S128x502x1024, .f32⟩
  | 21 => ⟨S502, .i32⟩
  | 22 => ⟨S1x4000, .i32⟩
  | 23 => ⟨S4000, .i32⟩
  | 24 => ⟨S4502, .i32⟩
  | 25 => ⟨S1x4000, .i32⟩
  | 26 => ⟨S4000, .i32⟩
  | 27 => ⟨S4502, .i32⟩
  | 28 => ⟨S_, .f32⟩
  | 29 => ⟨S502, .f32⟩
  | 30 => ⟨S_, .i32⟩
  | 31 => ⟨S4502, .i32⟩
  | 32 => ⟨S4502, .i1⟩
  | 33 => ⟨S_, .i32⟩
  | 34 => ⟨S4502, .i32⟩
  | 35 => ⟨S4502, .i32⟩
  | 36 => ⟨S4502, .i32⟩
  | 37 => ⟨S4502x1, .i32⟩
  | 38 => ⟨S_, .f32⟩
  | 39 => ⟨S4502, .f32⟩
  | 40 => ⟨S502, .f32⟩
  | 41 => ⟨S_, .f32⟩
  | 42 => ⟨S502, .f32⟩
  | 43 => ⟨S502, .i1⟩
  | 44 => ⟨S502, .f32⟩
  | 45 => ⟨S_, .f32⟩
  | 46 => ⟨S_, .f32⟩
  | 47 => ⟨S502, .f32⟩
  | 48 => ⟨S502, .f32⟩
  | 49 => ⟨S_, .i32⟩
  | 50 => ⟨S4502, .i32⟩
  | 51 => ⟨S4502, .i1⟩
  | 52 => ⟨S_, .i32⟩
  | 53 => ⟨S4502, .i32⟩
  | 54 => ⟨S4502, .i32⟩
  | 55 => ⟨S4502, .i32⟩
  | 56 => ⟨S4502x1, .i32⟩
  | 57 => ⟨S4502, .f32⟩
  | 58 => ⟨S_, .i32⟩
  | 59 => ⟨S4502, .i32⟩
  | 60 => ⟨S4502, .i1⟩
  | 61 => ⟨S_, .i32⟩
  | 62 => ⟨S4502, .i32⟩
  | 63 => ⟨S4502, .i32⟩
  | 64 => ⟨S4502, .i32⟩
  | 65 => ⟨S4502x1, .i32⟩
  | 66 => ⟨S4502, .f32⟩
  | 67 => ⟨S4502, .f32⟩
  | 68 => ⟨S128x502x256, .f32⟩
  | 69 => ⟨S_, .i32⟩
  | 70 => ⟨S4502, .i32⟩
  | 71 => ⟨S4502, .i1⟩
  | 72 => ⟨S_, .i32⟩
  | 73 => ⟨S4502, .i32⟩
  | 74 => ⟨S4502, .i32⟩
  | 75 => ⟨S4502, .i32⟩
  | 76 => ⟨S4502x1, .i32⟩
  | 77 => ⟨S128x4502x256, .f32⟩
  | 78 => ⟨S1x4502x1, .f32⟩
  | 79 => ⟨S128x4502x256, .f32⟩
  | 80 => ⟨S128x4502x256, .f32⟩
  | 81 => ⟨S_, .f32⟩
  | 82 => ⟨S128x502x256, .f32⟩
  | 83 => ⟨S_, .i32⟩
  | 84 => ⟨S4502, .i32⟩
  | 85 => ⟨S4502, .i1⟩
  | 86 => ⟨S_, .i32⟩
  | 87 => ⟨S4502, .i32⟩
  | 88 => ⟨S4502, .i32⟩
  | 89 => ⟨S4502, .i32⟩
  | 90 => ⟨S4502x1, .i32⟩
  | 91 => ⟨S128x502x256, .f32⟩
  | 92 => ⟨S1x1x256, .f32⟩
  | 93 => ⟨S128x502x256, .f32⟩
  | 94 => ⟨S128x502x256, .f32⟩
  | 95 => ⟨S64256x256, .f32⟩
  | 96 => ⟨S_, .f32⟩
  | 97 => ⟨S256, .f32⟩
  | 98 => ⟨S_, .f32⟩
  | 99 => ⟨S256, .f32⟩
  | 100 => ⟨S256, .f32⟩
  | 101 => ⟨S1x256, .f32⟩
  | 102 => ⟨S64256x256, .f32⟩
  | 103 => ⟨S64256x256, .f32⟩
  | 104 => ⟨S64256x256, .f32⟩
  | 105 => ⟨S_, .f32⟩
  | 106 => ⟨S256, .f32⟩
  | 107 => ⟨S_, .f32⟩
  | 108 => ⟨S256, .f32⟩
  | 109 => ⟨S256, .f32⟩
  | 110 => ⟨S1x256, .f32⟩
  | 111 => ⟨S64256x256, .f32⟩
  | 112 => ⟨S64256x256, .f32⟩
  | 113 => ⟨S_, .f32⟩
  | 114 => ⟨S256, .f32⟩
  | 115 => ⟨S256, .f32⟩
  | 116 => ⟨S256, .f32⟩
  | 117 => ⟨S1x256, .f32⟩
  | 118 => ⟨S64256x256, .f32⟩
  | 119 => ⟨S64256x256, .f32⟩
  | 120 => ⟨S1x256, .f32⟩
  | 121 => ⟨S64256x256, .f32⟩
  | 122 => ⟨S64256x256, .f32⟩
  | 123 => ⟨S1x256, .f32⟩
  | 124 => ⟨S64256x256, .f32⟩
  | 125 => ⟨S64256x256, .f32⟩
  | 126 => ⟨S_, .f32⟩
  | 127 => ⟨S64256x256, .f32⟩
  | _ => ⟨S128x1024, .f32⟩

abbrev hbmTy0_1 (i : Nat) : BufTy := match i % 128 with
  | 0 => ⟨S64256x256, .i1⟩
  | 1 => ⟨S_, .f32⟩
  | 2 => ⟨S64256x256, .f32⟩
  | 3 => ⟨S64256x256, .i1⟩
  | 4 => ⟨S_, .f32⟩
  | 5 => ⟨S_, .f32⟩
  | 6 => ⟨S64256x256, .f32⟩
  | 7 => ⟨S64256x256, .f32⟩
  | 8 => ⟨S64256x256, .f32⟩
  | 9 => ⟨S_, .f32⟩
  | 10 => ⟨S64256x256, .f32⟩
  | 11 => ⟨S64256x256, .f32⟩
  | 12 => ⟨S64256x256, .f32⟩
  | 13 => ⟨S128x502x256, .f32⟩
  | 14 => ⟨S128x502x256, .f32⟩
  | 15 => ⟨S_, .i32⟩
  | 16 => ⟨S4502, .i32⟩
  | 17 => ⟨S4502, .i1⟩
  | 18 => ⟨S_, .i32⟩
  | 19 => ⟨S4502, .i32⟩
  | 20 => ⟨S4502, .i32⟩
  | 21 => ⟨S4502, .i32⟩
  | 22 => ⟨S4502x1, .i32⟩
  | 23 => ⟨S128x4502x256, .f32⟩
  | 24 => ⟨S1x4502x1, .f32⟩
  | 25 => ⟨S128x4502x256, .f32⟩
  | 26 => ⟨S128x4502x256, .f32⟩
  | 27 => ⟨S_, .f32⟩
  | 28 => ⟨S128x502x256, .f32⟩
  | 29 => ⟨S_, .i32⟩
  | 30 => ⟨S4502, .i32⟩
  | 31 => ⟨S4502, .i1⟩
  | 32 => ⟨S_, .i32⟩
  | 33 => ⟨S4502, .i32⟩
  | 34 => ⟨S4502, .i32⟩
  | 35 => ⟨S4502, .i32⟩
  | 36 => ⟨S4502x1, .i32⟩
  | 37 => ⟨S128x502x256, .f32⟩
  | 38 => ⟨S1x1x256, .f32⟩
  | 39 => ⟨S128x502x256, .f32⟩
  | 40 => ⟨S128x502x256, .f32⟩
  | 41 => ⟨S64256x256, .f32⟩
  | 42 => ⟨S_, .f32⟩
  | 43 => ⟨S256, .f32⟩
  | 44 => ⟨S_, .f32⟩
  | 45 => ⟨S256, .f32⟩
  | 46 => ⟨S256, .f32⟩
  | 47 => ⟨S1x256, .f32⟩
  | 48 => ⟨S64256x256, .f32⟩
  | 49 => ⟨S64256x256, .f32⟩
  | 50 => ⟨S64256x256, .f32⟩
  | 51 => ⟨S_, .f32⟩
  | 52 => ⟨S256, .f32⟩
  | 53 => ⟨S_, .f32⟩
  | 54 => ⟨S256, .f32⟩
  | 55 => ⟨S256, .f32⟩
  | 56 => ⟨S1x256, .f32⟩
  | 57 => ⟨S64256x256, .f32⟩
  | 58 => ⟨S64256x256, .f32⟩
  | 59 => ⟨S_, .f32⟩
  | 60 => ⟨S256, .f32⟩
  | 61 => ⟨S256, .f32⟩
  | 62 => ⟨S256, .f32⟩
  | 63 => ⟨S1x256, .f32⟩
  | 64 => ⟨S64256x256, .f32⟩
  | 65 => ⟨S64256x256, .f32⟩
  | 66 => ⟨S1x256, .f32⟩
  | 67 => ⟨S64256x256, .f32⟩
  | 68 => ⟨S64256x256, .f32⟩
  | 69 => ⟨S1x256, .f32⟩
  | 70 => ⟨S64256x256, .f32⟩
  | 71 => ⟨S64256x256, .f32⟩
  | 72 => ⟨S_, .f32⟩
  | 73 => ⟨S64256x256, .f32⟩
  | 74 => ⟨S64256x256, .i1⟩
  | 75 => ⟨S_, .f32⟩
  | 76 => ⟨S64256x256, .f32⟩
  | 77 => ⟨S64256x256, .i1⟩
  | 78 => ⟨S_, .f32⟩
  | 79 => ⟨S_, .f32⟩
  | 80 => ⟨S64256x256, .f32⟩
  | 81 => ⟨S64256x256, .f32⟩
  | 82 => ⟨S64256x256, .f32⟩
  | 83 => ⟨S_, .f32⟩
  | 84 => ⟨S64256x256, .f32⟩
  | 85 => ⟨S64256x256, .f32⟩
  | 86 => ⟨S64256x256, .f32⟩
  | 87 => ⟨S128x502x256, .f32⟩
  | 88 => ⟨S128x502x256, .f32⟩
  | 89 => ⟨S_, .i32⟩
  | 90 => ⟨S4502, .i32⟩
  | 91 => ⟨S4502, .i1⟩
  | 92 => ⟨S_, .i32⟩
  | 93 => ⟨S4502, .i32⟩
  | 94 => ⟨S4502, .i32⟩
  | 95 => ⟨S4502, .i32⟩
  | 96 => ⟨S4502x1, .i32⟩
  | 97 => ⟨S128x4502x256, .f32⟩
  | 98 => ⟨S1x4502x1, .f32⟩
  | 99 => ⟨S128x4502x256, .f32⟩
  | 100 => ⟨S128x4502x256, .f32⟩
  | 101 => ⟨S_, .f32⟩
  | 102 => ⟨S128x502x256, .f32⟩
  | 103 => ⟨S_, .i32⟩
  | 104 => ⟨S4502, .i32⟩
  | 105 => ⟨S4502, .i1⟩
  | 106 => ⟨S_, .i32⟩
  | 107 => ⟨S4502, .i32⟩
  | 108 => ⟨S4502, .i32⟩
  | 109 => ⟨S4502, .i32⟩
  | 110 => ⟨S4502x1, .i32⟩
  | 111 => ⟨S128x502x256, .f32⟩
  | 112 => ⟨S1x1x256, .f32⟩
  | 113 => ⟨S128x502x256, .f32⟩
  | 114 => ⟨S128x502x256, .f32⟩
  | 115 => ⟨S64256x256, .f32⟩
  | 116 => ⟨S_, .f32⟩
  | 117 => ⟨S256, .f32⟩
  | 118 => ⟨S_, .f32⟩
  | 119 => ⟨S256, .f32⟩
  | 120 => ⟨S256, .f32⟩
  | 121 => ⟨S1x256, .f32⟩
  | 122 => ⟨S64256x256, .f32⟩
  | 123 => ⟨S64256x256, .f32⟩
  | 124 => ⟨S64256x256, .f32⟩
  | 125 => ⟨S_, .f32⟩
  | 126 => ⟨S256, .f32⟩
  | 127 => ⟨S_, .f32⟩
  | _ => ⟨S128x1024, .f32⟩

abbrev hbmTy0_2 (i : Nat) : BufTy := match i % 128 with
  | 0 => ⟨S256, .f32⟩
  | 1 => ⟨S256, .f32⟩
  | 2 => ⟨S1x256, .f32⟩
  | 3 => ⟨S64256x256, .f32⟩
  | 4 => ⟨S64256x256, .f32⟩
  | 5 => ⟨S_, .f32⟩
  | 6 => ⟨S256, .f32⟩
  | 7 => ⟨S256, .f32⟩
  | 8 => ⟨S256, .f32⟩
  | 9 => ⟨S1x256, .f32⟩
  | 10 => ⟨S64256x256, .f32⟩
  | 11 => ⟨S64256x256, .f32⟩
  | 12 => ⟨S1x256, .f32⟩
  | 13 => ⟨S64256x256, .f32⟩
  | 14 => ⟨S64256x256, .f32⟩
  | 15 => ⟨S1x256, .f32⟩
  | 16 => ⟨S64256x256, .f32⟩
  | 17 => ⟨S64256x256, .f32⟩
  | 18 => ⟨S_, .f32⟩
  | 19 => ⟨S64256x256, .f32⟩
  | 20 => ⟨S64256x256, .i1⟩
  | 21 => ⟨S_, .f32⟩
  | 22 => ⟨S64256x256, .f32⟩
  | 23 => ⟨S64256x256, .i1⟩
  | 24 => ⟨S_, .f32⟩
  | 25 => ⟨S_, .f32⟩
  | 26 => ⟨S64256x256, .f32⟩
  | 27 => ⟨S64256x256, .f32⟩
  | 28 => ⟨S64256x256, .f32⟩
  | 29 => ⟨S_, .f32⟩
  | 30 => ⟨S64256x256, .f32⟩
  | 31 => ⟨S64256x256, .f32⟩
  | 32 => ⟨S64256x256, .f32⟩
  | 33 => ⟨S128x502x256, .f32⟩
  | _ => ⟨S128x1024, .f32⟩

abbrev hbmTy (i : Nat) : BufTy := match i / 128 with
  | 0 => hbmTy0_0 i
  | 1 => hbmTy0_1 i
  | 2 => hbmTy0_2 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_7 : Ref sig .tc := ⟨.hbm, 58, rfl⟩
abbrev main_v32 : Ref sig .tc := ⟨.hbm, 59, rfl⟩
abbrev main_v33 : Ref sig .tc := ⟨.hbm, 60, rfl⟩
abbrev main_c_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_9 : Ref sig .tc := ⟨.hbm, 69, rfl⟩
abbrev main_v41 : Ref sig .tc := ⟨.hbm, 70, rfl⟩
abbrev main_v42 : Ref sig .tc := ⟨.hbm, 71, rfl⟩
abbrev main_c_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_11 : Ref sig .tc := ⟨.hbm, 81, rfl⟩
abbrev main_v51 : Ref sig .tc := ⟨.hbm, 82, rfl⟩
abbrev main_c_12 : Ref sig .tc := ⟨.hbm, 83, rfl⟩
abbrev main_v52 : Ref sig .tc := ⟨.hbm, 84, rfl⟩
abbrev main_v53 : Ref sig .tc := ⟨.hbm, 85, rfl⟩
abbrev main_c_13 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_14 : Ref sig .tc := ⟨.hbm, 96, rfl⟩
abbrev main_v63 : Ref sig .tc := ⟨.hbm, 97, rfl⟩
abbrev main_cst_15 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_16 : Ref sig .tc := ⟨.hbm, 105, rfl⟩
abbrev main_v70 : Ref sig .tc := ⟨.hbm, 106, rfl⟩
abbrev main_cst_17 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_18 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_call1_cst : Ref sig .tc := ⟨.hbm, 126, rfl⟩
abbrev main_call1_v0 : Ref sig .tc := ⟨.hbm, 127, rfl⟩
abbrev main_call1_v1 : Ref sig .tc := ⟨.hbm, 128, rfl⟩
abbrev main_call1_cst_0 : Ref sig .tc := ⟨.hbm, 129, rfl⟩
abbrev main_call1_v2 : Ref sig .tc := ⟨.hbm, 130, rfl⟩
abbrev main_call1_v3 : Ref sig .tc := ⟨.hbm, 131, rfl⟩
abbrev main_call1_cst_1 : Ref sig .tc := ⟨.hbm, 132, rfl⟩
abbrev main_call1_call0_v0 : Ref sig .tc := ⟨.hbm, 133, rfl⟩
abbrev main_call1_call0_v1 : Ref sig .tc := ⟨.hbm, 134, rfl⟩
abbrev main_call1_v4 : Ref sig .tc := ⟨.hbm, 135, rfl⟩
abbrev main_call1_v5 : Ref sig .tc := ⟨.hbm, 136, rfl⟩
abbrev main_call1_cst_2 : Ref sig .tc := ⟨.hbm, 137, rfl⟩
abbrev main_call1_v6 : Ref sig .tc := ⟨.hbm, 138, rfl⟩
abbrev main_call1_v7 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_c_19 : Ref sig .tc := ⟨.hbm, 143, rfl⟩
abbrev main_v91 : Ref sig .tc := ⟨.hbm, 144, rfl⟩
abbrev main_v92 : Ref sig .tc := ⟨.hbm, 145, rfl⟩
abbrev main_c_20 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_21 : Ref sig .tc := ⟨.hbm, 155, rfl⟩
abbrev main_v101 : Ref sig .tc := ⟨.hbm, 156, rfl⟩
abbrev main_c_22 : Ref sig .tc := ⟨.hbm, 157, rfl⟩
abbrev main_v102 : Ref sig .tc := ⟨.hbm, 158, rfl⟩
abbrev main_v103 : Ref sig .tc := ⟨.hbm, 159, rfl⟩
abbrev main_c_23 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_cst_24 : Ref sig .tc := ⟨.hbm, 170, rfl⟩
abbrev main_v113 : Ref sig .tc := ⟨.hbm, 171, rfl⟩
abbrev main_cst_25 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_cst_26 : Ref sig .tc := ⟨.hbm, 179, rfl⟩
abbrev main_v120 : Ref sig .tc := ⟨.hbm, 180, rfl⟩
abbrev main_cst_27 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_cst_28 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_call2_cst : Ref sig .tc := ⟨.hbm, 200, rfl⟩
abbrev main_call2_v0 : Ref sig .tc := ⟨.hbm, 201, rfl⟩
abbrev main_call2_v1 : Ref sig .tc := ⟨.hbm, 202, rfl⟩
abbrev main_call2_cst_0 : Ref sig .tc := ⟨.hbm, 203, rfl⟩
abbrev main_call2_v2 : Ref sig .tc := ⟨.hbm, 204, rfl⟩
abbrev main_call2_v3 : Ref sig .tc := ⟨.hbm, 205, rfl⟩
abbrev main_call2_cst_1 : Ref sig .tc := ⟨.hbm, 206, rfl⟩
abbrev main_call2_call0_v0 : Ref sig .tc := ⟨.hbm, 207, rfl⟩
abbrev main_call2_call0_v1 : Ref sig .tc := ⟨.hbm, 208, rfl⟩
abbrev main_call2_v4 : Ref sig .tc := ⟨.hbm, 209, rfl⟩
abbrev main_call2_v5 : Ref sig .tc := ⟨.hbm, 210, rfl⟩
abbrev main_call2_cst_2 : Ref sig .tc := ⟨.hbm, 211, rfl⟩
abbrev main_call2_v6 : Ref sig .tc := ⟨.hbm, 212, rfl⟩
abbrev main_call2_v7 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_c_29 : Ref sig .tc := ⟨.hbm, 217, rfl⟩
abbrev main_v141 : Ref sig .tc := ⟨.hbm, 218, rfl⟩
abbrev main_v142 : Ref sig .tc := ⟨.hbm, 219, rfl⟩
abbrev main_c_30 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_cst_31 : Ref sig .tc := ⟨.hbm, 229, rfl⟩
abbrev main_v151 : Ref sig .tc := ⟨.hbm, 230, rfl⟩
abbrev main_c_32 : Ref sig .tc := ⟨.hbm, 231, rfl⟩
abbrev main_v152 : Ref sig .tc := ⟨.hbm, 232, rfl⟩
abbrev main_v153 : Ref sig .tc := ⟨.hbm, 233, rfl⟩
abbrev main_c_33 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_cst_34 : Ref sig .tc := ⟨.hbm, 244, rfl⟩
abbrev main_v163 : Ref sig .tc := ⟨.hbm, 245, rfl⟩
abbrev main_cst_35 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_cst_36 : Ref sig .tc := ⟨.hbm, 253, rfl⟩
abbrev main_v170 : Ref sig .tc := ⟨.hbm, 254, rfl⟩
abbrev main_cst_37 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_cst_38 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_call3_cst : Ref sig .tc := ⟨.hbm, 274, rfl⟩
abbrev main_call3_v0 : Ref sig .tc := ⟨.hbm, 275, rfl⟩
abbrev main_call3_v1 : Ref sig .tc := ⟨.hbm, 276, rfl⟩
abbrev main_call3_cst_0 : Ref sig .tc := ⟨.hbm, 277, rfl⟩
abbrev main_call3_v2 : Ref sig .tc := ⟨.hbm, 278, rfl⟩
abbrev main_call3_v3 : Ref sig .tc := ⟨.hbm, 279, rfl⟩
abbrev main_call3_cst_1 : Ref sig .tc := ⟨.hbm, 280, rfl⟩
abbrev main_call3_call0_v0 : Ref sig .tc := ⟨.hbm, 281, rfl⟩
abbrev main_call3_call0_v1 : Ref sig .tc := ⟨.hbm, 282, rfl⟩
abbrev main_call3_v4 : Ref sig .tc := ⟨.hbm, 283, rfl⟩
abbrev main_call3_v5 : Ref sig .tc := ⟨.hbm, 284, rfl⟩
abbrev main_call3_cst_2 : Ref sig .tc := ⟨.hbm, 285, rfl⟩
abbrev main_call3_v6 : Ref sig .tc := ⟨.hbm, 286, rfl⟩
abbrev main_call3_v7 : Ref sig .tc := ⟨.hbm, 287, rfl⟩
abbrev main_v188 : Ref sig .tc := ⟨.hbm, 288, rfl⟩
abbrev main_v189 : Ref sig .tc := ⟨.hbm, 289, rfl⟩

abbrev nD : Nat := 1
abbrev τ : Topo := Topo.v7x

variable {F : FTy → Type} [FloatOps F]

class Facts₀ : Prop where
  bcast_S500x1024_S1x500x1024_1_2 : S500x1024.BroadcastsInDim S1x500x1024 (![1, 2] : Fin 2 → Fin S1x500x1024.rank)
  bcast_S1x500x1024_S128x500x1024_0_1_2 : S1x500x1024.BroadcastsInDim S128x500x1024 (![0, 1, 2] : Fin 3 → Fin S128x500x1024.rank)
  bcast_S_S128x1x1024 : S_.BroadcastsInDim S128x1x1024 (![] : Fin 0 → Fin S128x1x1024.rank)
  bcast_S128x1024_S128x1x1024_0_2 : S128x1024.BroadcastsInDim S128x1x1024 (![0, 2] : Fin 2 → Fin S128x1x1024.rank)
  concatenates_S128x500x1024_S128x1x1024_S128x1x1024_S128x502x1024_d1 : Shape.Concatenates [S128x500x1024, S128x1x1024, S128x1x1024] S128x502x1024 1
  slices_S2x4000_S1x4000_0_0 : S2x4000.Slices ![0, 0] S1x4000
  shapeCasts_S1x4000_S4000 : S1x4000.ShapeCasts S4000
  concatenates_S4000_S502_S4502_d0 : Shape.Concatenates [S4000, S502] S4502 0
  slices_S2x4000_S1x4000_1_0 : S2x4000.Slices ![1, 0] S1x4000
  bcast_S_S502 : S_.BroadcastsInDim S502 (![] : Fin 0 → Fin S502.rank)
  bcast_S_S4502 : S_.BroadcastsInDim S4502 (![] : Fin 0 → Fin S4502.rank)
  bcast_S4502_S4502x1_0 : S4502.BroadcastsInDim S4502x1 (![0] : Fin 1 → Fin S4502x1.rank)
  bcast_S4502_S1x4502x1_1 : S4502.BroadcastsInDim S1x4502x1 (![1] : Fin 1 → Fin S1x4502x1.rank)
  bcast_S1x4502x1_S128x4502x256_0_1_2 : S1x4502x1.BroadcastsInDim S128x4502x256 (![0, 1, 2] : Fin 3 → Fin S128x4502x256.rank)
  bcast_S_S128x502x256 : S_.BroadcastsInDim S128x502x256 (![] : Fin 0 → Fin S128x502x256.rank)
  bcast_S256_S1x1x256_2 : S256.BroadcastsInDim S1x1x256 (![2] : Fin 1 → Fin S1x1x256.rank)
  bcast_S1x1x256_S128x502x256_0_1_2 : S1x1x256.BroadcastsInDim S128x502x256 (![0, 1, 2] : Fin 3 → Fin S128x502x256.rank)
  shapeCasts_S128x502x256_S64256x256 : S128x502x256.ShapeCasts S64256x256
  reducesTo_S64256x256_S256_d0 : S64256x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S64256x256_0_1 : S1x256.BroadcastsInDim S64256x256 (![0, 1] : Fin 2 → Fin S64256x256.rank)
  bcast_S_S64256x256 : S_.BroadcastsInDim S64256x256 (![] : Fin 0 → Fin S64256x256.rank)
  shapeCasts_S64256x256_S128x502x256 : S64256x256.ShapeCasts S128x502x256
  scatter_S502_S4502x1_S4502_n_0_0_1_wf : ScatterDims.WF S502 S4502x1 S4502 [] [0] [0] 1
  gather_S502_S4502x1_S4502_n_0_n_n_0_1_1_wf : GatherDims.WF S502 S4502x1 S4502 [] [0] [] [0] [] 1 ![1]
  dot_S128x502x1024_S1024x256_S128x502x256_2_0_01_1_n_n_wf : DotDims.WF S128x502x1024 S1024x256 S128x502x256 [2] [0] [0, 1] [1] [] []
  gather_S128x502x256_S4502x1_S128x4502x256_02_1_n_n_1_1_1281256_wf : GatherDims.WF S128x502x256 S4502x1 S128x4502x256 [0, 2] [1] [] [1] [] 1 ![128, 1, 256]
  scatter_S128x502x256_S4502x1_S128x4502x256_02_1_1_1_wf : ScatterDims.WF S128x502x256 S4502x1 S128x4502x256 [0, 2] [1] [1] 1
  dot_S128x502x256_S256x256_S128x502x256_2_0_01_1_n_n_wf : DotDims.WF S128x502x256 S256x256 S128x502x256 [2] [0] [0, 1] [1] [] []

variable [Facts₀]

def scatter_S502_S4502x1_S4502_n_0_0_1 : ScatterDims S502 S4502x1 S4502 where
  updateWindowDims := []
  insertedWindowDims := [0]
  scatterDimsToOperandDims := [0]
  indexVectorDim := 1
  wf := scatter_S502_S4502x1_S4502_n_0_0_1_wf
def gather_S502_S4502x1_S4502_n_0_n_n_0_1_1 : GatherDims S502 S4502x1 S4502 where
  offsetDims := []
  collapsedSliceDims := [0]
  operandBatchingDims := []
  startIndicesBatchingDims := []
  startIndexMap := [0]
  indexVectorDim := 1
  sliceSizes := ![1]
  wf := gather_S502_S4502x1_S4502_n_0_n_n_0_1_1_wf
def dot_S128x502x1024_S1024x256_S128x502x256_2_0_01_1_n_n : DotDims S128x502x1024 S1024x256 S128x502x256 where
  lhsContracting := [2]
  rhsContracting := [0]
  lhsNonContracting := [0, 1]
  rhsNonContracting := [1]
  lhsBatch := []
  rhsBatch := []
  wf := dot_S128x502x1024_S1024x256_S128x502x256_2_0_01_1_n_n_wf
def gather_S128x502x256_S4502x1_S128x4502x256_02_1_n_n_1_1_1281256 : GatherDims S128x502x256 S4502x1 S128x4502x256 where
  offsetDims := [0, 2]
  collapsedSliceDims := [1]
  operandBatchingDims := []
  startIndicesBatchingDims := []
  startIndexMap := [1]
  indexVectorDim := 1
  sliceSizes := ![128, 1, 256]
  wf := gather_S128x502x256_S4502x1_S128x4502x256_02_1_n_n_1_1_1281256_wf
def scatter_S128x502x256_S4502x1_S128x4502x256_02_1_1_1 : ScatterDims S128x502x256 S4502x1 S128x4502x256 where
  updateWindowDims := [0, 2]
  insertedWindowDims := [1]
  scatterDimsToOperandDims := [1]
  indexVectorDim := 1
  wf := scatter_S128x502x256_S4502x1_S128x4502x256_02_1_1_1_wf
def dot_S128x502x256_S256x256_S128x502x256_2_0_01_1_n_n : DotDims S128x502x256 S256x256 S128x502x256 where
  lhsContracting := [2]
  rhsContracting := [0]
  lhsNonContracting := [0, 1]
  rhsNonContracting := [1]
  lhsBatch := []
  rhsBatch := []
  wf := dot_S128x502x256_S256x256_S128x502x256_2_0_01_1_n_n_wf

class Facts : Prop extends Facts₀ where

variable [Facts]
-- ==== Proof.LibWritesJunk.lean ====
/-
  A whole buffer after listed writes that cover its shape holds those writes over any prior contents alike: where
  every index lies in some written piece, the contents before the writes are nowhere read.
-/
import Idealize.ShloMosaic.Lib.Exec

namespace Idealize.ShloMosaic

/-- Over a whole memref, listed writes whose pieces cover the shape give the same contents over the prior contents
    `f` as over the view's junk. -/
theorem Memref.writes_eq_junk_of_cover {sig : RefSig} {Val : EltTy → Type} [∀ e, Nonempty (Val e)] {κ : Kind} {sp : Space}
    {s : Shape} {e : EltTy} {m : Memref sig κ sp s e} (hw : m.IsWhole) (f : m.view.ty.Contents Val)
    (L : List (View.Piece Val s e)) (hcov : ∀ y : s.Idx, ∃ p ∈ L, y ∈ p.1.set) :
    m.view.writes Val f L = m.view.writes Val m.view.junk L := by
  obtain ⟨b, rfl, rfl, rfl, h⟩ := hw; cases h
  funext y
  exact View.read_writes_apply_eq (View.whole b) f (View.whole b) (View.whole b).junk y L (hcov y)

end Idealize.ShloMosaic
-- ==== Proof.Model.lean ====
/-
  The mathematics both programs compute, over the reals.

  A graph on 502 nodes is given by 4000 edge words (two rows: source, target) to which 502 self loops are
  appended.  An edge word is read as numpy reads an index: a negative word counts from the end.  The degree of
  a node is the number of edges (self loop included) that end there, `dinv` its inverse square root, an
  edge's weight the product of `dinv` at its two ends, and `A n s` the sum of the weights of the edges from
  `s` to `n`: the symmetric-normalised adjacency matrix.

  The input of the first layer holds, for every batch element, the 500 base rows, then the element's sensor
  row, then a zero row.  A layer is `x ↦ A · (x · W) + bias` on every batch element, followed by a batch
  normalisation over all 128 · 502 rows (mean, biased variance, `(y - mean) / sqrt (var + eps) * gamma + beta`)
  and the exponential linear unit.  Three layers.
-/
import Idealize.ShloMosaic.PureOps.Ideal

noncomputable section

namespace Cert.Model

open Finset

/-- An index word as numpy reads it into an axis of 502: a negative word counts from the end. -/
def normw (w : BitVec 32) : BitVec 32 := if w.slt 0#32 then w + 502#32 else w

/-- The node an edge word names (clamped into the axis, as a read is). -/
def nidx (w : BitVec 32) : Fin 502 := ⟨min (normw w).toInt.toNat 501, by omega⟩

/-- The real inputs: sensor rows, base rows, edge words, and per layer a weight matrix, a bias, a scale and a shift. -/
structure Inp where
  xs : Fin 128 → Fin 1024 → ℝ
  xb : Fin 500 → Fin 1024 → ℝ
  E : Fin 2 → Fin 4000 → BitVec 32
  W1 : Fin 1024 → Fin 256 → ℝ
  b1 : Fin 256 → ℝ
  g1 : Fin 256 → ℝ
  be1 : Fin 256 → ℝ
  W2 : Fin 256 → Fin 256 → ℝ
  b2 : Fin 256 → ℝ
  g2 : Fin 256 → ℝ
  be2 : Fin 256 → ℝ
  W3 : Fin 256 → Fin 256 → ℝ
  b3 : Fin 256 → ℝ
  g3 : Fin 256 → ℝ
  be3 : Fin 256 → ℝ

variable (I : Inp)

/-- End `r` (0 the source, 1 the target) of edge `e`: the first 4000 edges are the given ones, edge `4000 + n` is the loop at `n`. -/
def endp (r : Fin 2) (e : Fin 4502) : Fin 502 :=
  if h : e.val < 4000 then nidx (I.E r ⟨e.val, h⟩) else ⟨e.val - 4000, by omega⟩

def src (e : Fin 4502) : Fin 502 := endp I 0 e
def dst (e : Fin 4502) : Fin 502 := endp I 1 e

/-- The number of edges ending at `n`. -/
def deg (n : Fin 502) : ℝ := ∑ e : Fin 4502, if dst I e = n then (1 : ℝ) else 0

def dinv (n : Fin 502) : ℝ := if 0 < deg I n then (Real.sqrt (deg I n))⁻¹ else 0

/-- The weight of edge `e`. -/
def nrm (e : Fin 4502) : ℝ := dinv I (src I e) * dinv I (dst I e)

/-- The normalised adjacency matrix: row `n`, column `s` sums the weights of the edges from `s` to `n`. -/
def A (n s : Fin 502) : ℝ := ∑ e : Fin 4502, if dst I e = n ∧ src I e = s then nrm I e else 0

/-- The first layer's input: base rows, the batch element's sensor row, a zero row. -/
def x0 (b : Fin 128) (s : Fin 502) (f : Fin 1024) : ℝ :=
  if h : s.val < 500 then I.xb ⟨s.val, h⟩ f else if s.val = 500 then I.xs b f else 0

/-- One graph convolution with a given 502 × 502 matrix: `M · (x · W) + bias` on every batch element. -/
def convA {K : ℕ} (M : Fin 502 → Fin 502 → ℝ) (x : Fin 128 → Fin 502 → Fin K → ℝ) (W : Fin K → Fin 256 → ℝ)
    (bias : Fin 256 → ℝ) (b : Fin 128) (n : Fin 502) (h : Fin 256) : ℝ :=
  (∑ s : Fin 502, M n s * ∑ f : Fin K, x b s f * W f h) + bias h

/-- One graph convolution: `A · (x · W) + bias` on every batch element. -/
def conv {K : ℕ} (x : Fin 128 → Fin 502 → Fin K → ℝ) (W : Fin K → Fin 256 → ℝ) (bias : Fin 256 → ℝ)
    (b : Fin 128) (n : Fin 502) (h : Fin 256) : ℝ :=
  convA (A I) x W bias b n h

/-- The mean of a feature over all 128 · 502 rows. -/
def mean (y : Fin 128 → Fin 502 → Fin 256 → ℝ) (h : Fin 256) : ℝ := (∑ b : Fin 128, ∑ n : Fin 502, y b n h) / 64256

/-- The biased variance of a feature over all rows. -/
def var (y : Fin 128 → Fin 502 → Fin 256 → ℝ) (h : Fin 256) : ℝ :=
  (∑ b : Fin 128, ∑ n : Fin 502, (y b n h - mean y h) ^ 2) / 64256

/-- The value of the single-precision literal `1e-5` both programs add to the variance: `10995116 / 2 ^ 40`. -/
def eps : ℝ := 10995116 / 2 ^ 40

/-- The exponential linear unit. -/
def elu (z : ℝ) : ℝ := if 0 < z then z else Real.exp z - 1

/-- A feature normalised with a given mean and variance, scaled and shifted. -/
def nz (y : Fin 128 → Fin 502 → Fin 256 → ℝ) (mu va g be : Fin 256 → ℝ) (b : Fin 128) (n : Fin 502) (h : Fin 256) : ℝ :=
  (y b n h - mu h) * (Real.sqrt (va h + eps))⁻¹ * g h + be h

/-- The normalised feature before the unit. -/
def bnz (y : Fin 128 → Fin 502 → Fin 256 → ℝ) (g be : Fin 256 → ℝ) (b : Fin 128) (n : Fin 502) (h : Fin 256) : ℝ :=
  nz y (mean y) (var y) g be b n h

/-- Row `i` of group `g`: the 128 batch elements are taken in 16 groups of 8. -/
def grow (g : Fin 16) (i : Fin 8) : Fin 128 := ⟨8 * g.val + i.val, by omega⟩

/-- The mean of a feature over the 8 · 502 rows of group `g`. -/
def gmean (y : Fin 128 → Fin 502 → Fin 256 → ℝ) (g : Fin 16) (h : Fin 256) : ℝ :=
  (∑ i : Fin 8, ∑ n : Fin 502, y (grow g i) n h) / 4016

/-- The centred sum of squares of a feature over the rows of group `g`. -/
def gm2 (y : Fin 128 → Fin 502 → Fin 256 → ℝ) (g : Fin 16) (h : Fin 256) : ℝ :=
  ∑ i : Fin 8, ∑ n : Fin 502, (y (grow g i) n h - gmean y g h) ^ 2

/-- The mean of the group means. -/
def cmean (y : Fin 128 → Fin 502 → Fin 256 → ℝ) (h : Fin 256) : ℝ := (∑ g : Fin 16, gmean y g h) / 16

/-- The variance put together from the groups: within-group sums of squares plus the spread of the group means. -/
def cvar (y : Fin 128 → Fin 502 → Fin 256 → ℝ) (h : Fin 256) : ℝ :=
  ((∑ g : Fin 16, gm2 y g h) + 4016 * ∑ g : Fin 16, (gmean y g h - cmean y h) * (gmean y g h - cmean y h)) / 64256

/-- Batch normalisation followed by the unit. -/
def bnelu (y : Fin 128 → Fin 502 → Fin 256 → ℝ) (g be : Fin 256 → ℝ) (b : Fin 128) (n : Fin 502) (h : Fin 256) : ℝ :=
  elu (bnz y g be b n h)

def Y1 : Fin 128 → Fin 502 → Fin 256 → ℝ := conv I (x0 I) I.W1 I.b1
def X1 : Fin 128 → Fin 502 → Fin 256 → ℝ := bnelu (Y1 I) I.g1 I.be1
def Y2 : Fin 128 → Fin 502 → Fin 256 → ℝ := conv I (X1 I) I.W2 I.b2
def X2 : Fin 128 → Fin 502 → Fin 256 → ℝ := bnelu (Y2 I) I.g2 I.be2
def Y3 : Fin 128 → Fin 502 → Fin 256 → ℝ := conv I (X2 I) I.W3 I.b3
/-- The result. -/
def out : Fin 128 → Fin 502 → Fin 256 → ℝ := bnelu (Y3 I) I.g3 I.be3

theorem eps_pos : 0 < eps := by unfold eps; positivity

theorem var_nonneg (y : Fin 128 → Fin 502 → Fin 256 → ℝ) (h : Fin 256) : 0 ≤ var y h := by
  unfold var
  apply div_nonneg _ (by norm_num)
  exact Finset.sum_nonneg fun b _ => Finset.sum_nonneg fun n _ => sq_nonneg _

theorem var_eps_pos (y : Fin 128 → Fin 502 → Fin 256 → ℝ) (h : Fin 256) : 0 < var y h + eps :=
  add_pos_of_nonneg_of_pos (var_nonneg y h) eps_pos

end Cert.Model

end
-- ==== Proof.Iface.lean ====
/-
  How the programs' argument arrays are read as the real inputs of the model, and the range of the edge words.
-/
import proofs.«171858_j54966991454756_2_alg».proof.Proof.Model
import Idealize.ShloMosaic.Lib.ValueIdx

noncomputable section

namespace Cert.Iface

open Idealize.ShloMosaic Idealize.ShloMosaic.ValueIdx

abbrev S128x1024 : Shape := ⟨2, ![128, 1024]⟩
abbrev S500x1024 : Shape := ⟨2, ![500, 1024]⟩
abbrev S2x4000 : Shape := ⟨2, ![2, 4000]⟩
abbrev S1024x256 : Shape := ⟨2, ![1024, 256]⟩
abbrev S256 : Shape := ⟨1, ![256]⟩
abbrev S256x256 : Shape := ⟨2, ![256, 256]⟩
abbrev S128x502x256 : Shape := ⟨3, ![128, 502, 256]⟩

/-- The fifteen argument arrays hold the model's inputs: every float entry is the real number the model names,
    the edge words are the model's. -/
structure Agree (I : Model.Inp)
    (a0 : FVec Ideal S128x1024 .f32) (a1 : FVec Ideal S500x1024 .f32) (a2 : IVec S2x4000 32)
    (a3 : FVec Ideal S1024x256 .f32) (a4 a5 a6 : FVec Ideal S256 .f32)
    (a7 : FVec Ideal S256x256 .f32) (a8 a9 a10 : FVec Ideal S256 .f32)
    (a11 : FVec Ideal S256x256 .f32) (a12 a13 a14 : FVec Ideal S256 .f32) : Prop where
  xs : ∀ p q, a0 (ix2 p q) = ((I.xs p q : ℝ) : EReal)
  xb : ∀ p q, a1 (ix2 p q) = ((I.xb p q : ℝ) : EReal)
  E : ∀ r e, a2 (ix2 r e) = I.E r e
  W1 : ∀ p q, a3 (ix2 p q) = ((I.W1 p q : ℝ) : EReal)
  b1 : ∀ p, a4 (ix1 p) = ((I.b1 p : ℝ) : EReal)
  g1 : ∀ p, a5 (ix1 p) = ((I.g1 p : ℝ) : EReal)
  be1 : ∀ p, a6 (ix1 p) = ((I.be1 p : ℝ) : EReal)
  W2 : ∀ p q, a7 (ix2 p q) = ((I.W2 p q : ℝ) : EReal)
  b2 : ∀ p, a8 (ix1 p) = ((I.b2 p : ℝ) : EReal)
  g2 : ∀ p, a9 (ix1 p) = ((I.g2 p : ℝ) : EReal)
  be2 : ∀ p, a10 (ix1 p) = ((I.be2 p : ℝ) : EReal)
  W3 : ∀ p q, a11 (ix2 p q) = ((I.W3 p q : ℝ) : EReal)
  b3 : ∀ p, a12 (ix1 p) = ((I.b3 p : ℝ) : EReal)
  g3 : ∀ p, a13 (ix1 p) = ((I.g3 p : ℝ) : EReal)
  be3 : ∀ p, a14 (ix1 p) = ((I.be3 p : ℝ) : EReal)

/-- Every edge word, read as numpy reads an index, names a node: it lies in `[0, 502)` after a negative word is
    counted from the end. -/
def InRange (I : Model.Inp) : Prop :=
  ∀ (r : Fin 2) (e : Fin 4000), 0 ≤ (Model.normw (I.E r e)).toInt ∧ (Model.normw (I.E r e)).toInt < 502

/-- The result array of the model, as extended reals. -/
def outArr (I : Model.Inp) : S128x502x256.Idx → EReal := fun j => ((Model.out I (j 0) (j 1) (j 2) : ℝ) : EReal)

theorem outArr_ix3 (I : Model.Inp) (b : Fin 128) (n : Fin 502) (h : Fin 256) :
    outArr I (ix3 b n h) = ((Model.out I b n h : ℝ) : EReal) := rfl

/-- An array given at every `ix3` index is given everywhere. -/
theorem ext_ix3 {n0 n1 n2 : Nat} {α : Type} (f g : (⟨3, ![n0, n1, n2]⟩ : Shape).Idx → α)
    (h : ∀ a b c, f (ix3 a b c) = g (ix3 a b c)) : f = g := by
  funext j; rw [eq_ix3 j]; exact h _ _ _

end Cert.Iface

end
-- ==== Proof.KWalk.lean ====
import proofs.«171858_j54966991454756_2_alg».proof.Proof.KIFrame

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

end Cert.KernelIdeal.Gen

end
-- ==== Proof.Consts.lean ====
/-
  The single-precision literals the two programs spell, as the real numbers their patterns denote.
-/
import Idealize.ShloMosaic.PureOps.Ideal

noncomputable section

namespace Cert.Consts

open Idealize.ShloMosaic

theorem ofBits_zero : Ideal.ofBits .f32 0#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_16 : Ideal.ofBits .f32 0x41800000#32 = ((16 : ℝ) : EReal) := by
  simp [Ideal.ofBits, Ideal.ieee, -EReal.coe_mul]; norm_num

theorem ofBits_4016 : Ideal.ofBits .f32 0x457B0000#32 = ((4016 : ℝ) : EReal) := by
  simp [Ideal.ofBits, Ideal.ieee, -EReal.coe_mul]; norm_num

theorem ofBits_64256 : Ideal.ofBits .f32 0x477B0000#32 = ((64256 : ℝ) : EReal) := by
  simp [Ideal.ofBits, Ideal.ieee, -EReal.coe_mul]; norm_num

/-- The literal `1e-5` rounds to `10995116 / 2 ^ 40`. -/
theorem ofBits_eps : Ideal.ofBits .f32 0x3727C5AC#32 = ((10995116 / 2 ^ 40 : ℝ) : EReal) := by
  simp [Ideal.ofBits, Ideal.ieee, -EReal.coe_mul]; norm_num

end Cert.Consts

end
-- ==== Proof.KHost0.lean ====
/-
  What the first program computes before its first kernel, as functions of the edge words, the edge weights and the
  inputs, and what each is over the reals.

  The adjacency matrix is a zero matrix to which the weight of every edge is added at (target, source): an edge
  word is first read as an index into an axis of 502 (502 added to a negative word), the two columns of index
  words are put side by side, and an edge whose words name row `n` and column `s` adds its weight at `(n, s)`.
  Entry `(n, s)` is therefore the sum of the weights of the edges from `s` to `n`: the model's `A`.

  The first layer's product is then split: the matrix's first 500 columns against the base rows times the weights
  (the same for every batch element), column 500 against the batch element's sensor row times the weights, and the
  bias.  Each matrix product, contracted over one axis, is a plain sum of products.
-/
import proofs.«171858_j54966991454756_2_alg».proof.KernelIdeal
import proofs.«171858_j54966991454756_2_alg».proof.Proof.Gen.KernelIdeal
import proofs.«171858_j54966991454756_2_alg».proof.Proof.Model
import proofs.«171858_j54966991454756_2_alg».proof.Proof.Consts
import proofs.«171858_j54966991454756_2_alg».proof.Proof.Iface
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

set_option synthInstance.maxSize 4096

noncomputable section

namespace Cert.KernelIdeal.KHost0

open Idealize.ShloMosaic Idealize.ShloMosaic.ValueIdx
open Cert.KernelIdeal Cert.KernelIdeal.Facts₀

/-! ## The scatter's dimension numbers read at an update -/

abbrev sd := scatter_S502x502_S4502x2_S4502_n_01_01_1

theorem siIdx0 (e : Fin 4502) : sd.siIdx (ix1 e) ⟨0, by decide⟩ = ix2 e 0 := by
  funext b
  match b with
  | ⟨0, _⟩ => rfl
  | ⟨1, _⟩ => rfl

theorem siIdx1 (e : Fin 4502) : sd.siIdx (ix1 e) ⟨1, by decide⟩ = ix2 e 1 := by
  funext b
  match b with
  | ⟨0, _⟩ => rfl
  | ⟨1, _⟩ => rfl

theorem start0 (idx : IVec S4502x2 32) (e : Fin 4502) : sd.start (ix1 e) idx 0 = (idx (ix2 e 0)).toInt := by
  rw [← siIdx0 e]; rfl

theorem start1 (idx : IVec S4502x2 32) (e : Fin 4502) : sd.start (ix1 e) idx 1 = (idx (ix2 e 1)).toInt := by
  rw [← siIdx1 e]; rfl

theorem window0 (j : S4502.Idx) (a : Fin 2) : sd.window j a = 0 := by
  match a with
  | ⟨0, _⟩ => rfl
  | ⟨1, _⟩ => rfl

/-- An update whose two index words name row `n` and column `s` lands at `(n, s)`. -/
theorem resultIdx_eq (idx : IVec S4502x2 32) (e : Fin 4502) (n s : Fin 502)
    (h0 : (idx (ix2 e 0)).toInt = (n.val : ℤ)) (h1 : (idx (ix2 e 1)).toInt = (s.val : ℤ)) :
    sd.resultIdx? (ix1 e) idx = some (ix2 n s) := by
  have e0 : sd.start (ix1 e) idx 0 + sd.window (ix1 e) 0 = (n.val : ℤ) := by rw [start0, window0, h0]; simp
  have e1 : sd.start (ix1 e) idx 1 + sd.window (ix1 e) 1 = (s.val : ℤ) := by rw [start1, window0, h1]; simp
  have H : ∀ a : Fin S502x502.rank, 0 ≤ sd.start (ix1 e) idx a + sd.window (ix1 e) a ∧
      sd.start (ix1 e) idx a + sd.window (ix1 e) a < S502x502.size a := by
    intro a
    match a with
    | ⟨0, _⟩ =>
      change 0 ≤ sd.start (ix1 e) idx 0 + sd.window (ix1 e) 0 ∧ sd.start (ix1 e) idx 0 + sd.window (ix1 e) 0 < ((502 : ℕ) : ℤ)
      rw [e0]; have := n.isLt; omega
    | ⟨1, _⟩ =>
      change 0 ≤ sd.start (ix1 e) idx 1 + sd.window (ix1 e) 1 ∧ sd.start (ix1 e) idx 1 + sd.window (ix1 e) 1 < ((502 : ℕ) : ℤ)
      rw [e1]; have := s.isLt; omega
  unfold ScatterDims.resultIdx?
  rw [dif_pos H]
  congr 1
  funext a
  match a with
  | ⟨0, _⟩ =>
    apply Fin.ext
    change (sd.start (ix1 e) idx 0 + sd.window (ix1 e) 0).toNat = n.val
    rw [e0]; simp
  | ⟨1, _⟩ =>
    apply Fin.ext
    change (sd.start (ix1 e) idx 1 + sd.window (ix1 e) 1).toNat = s.val
    rw [e1]; simp

theorem ix2_inj {n0 n1 : ℕ} {a a' : Fin n0} {b b' : Fin n1} (h : ix2 a b = ix2 a' b') : a = a' ∧ b = b' :=
  ⟨congrFun h 0, congrFun h 1⟩

/-! ## The adjacency matrix as the printed operations -/

section Defs

variable {F : FTy → Type} [FloatOps F]

/-- Every word read as an index into an axis of 502: 502 added to a negative word. -/
def normIdx (v : IVec S4502 32) : IVec S4502 32 :=
  select (cmpi .slt v (broadcastInDim S4502 ![] bcast_S_S4502 (constantI S_ 32 0#32)))
    (addi v (broadcastInDim S4502 ![] bcast_S_S4502 (constantI S_ 32 502#32))) v

/-- The two columns of index words, target then source. -/
def idxFn (srcraw dstraw : IVec S4502 32) : IVec S4502x2 32 :=
  concatenate S4502x2 1 [⟨S4502x1, broadcastInDim S4502x1 ![0] bcast_S4502_S4502x1_0 (normIdx dstraw)⟩,
    ⟨S4502x1, broadcastInDim S4502x1 ![0] bcast_S4502_S4502x1_0 (normIdx srcraw)⟩] concatenates_S4502x1_S4502x1_S4502x2_d1

/-- The adjacency matrix: every edge's weight added at (target, source) of a zero matrix. -/
def adjFn (srcraw dstraw : IVec S4502 32) (w : FVec F S4502 .f32) : FVec F S502x502 .f32 :=
  Host.scatterAdd scatter_S502x502_S4502x2_S4502_n_01_01_1
    (broadcastInDim S502x502 ![] bcast_S_S502x502 (constant S_ .f32 0x00000000#32))
    (idxFn srcraw dstraw) w

end Defs

theorem normIdx_apply (v : IVec S4502 32) (e : Fin 4502) : normIdx v (ix1 e) = Cert.Model.normw (v (ix1 e)) := by
  unfold normIdx Cert.Model.normw
  rw [select_apply]
  show Scalar.select (IntOp.cmpi .slt (v (ix1 e)) 0#32) (v (ix1 e) + 502#32) (v (ix1 e)) = _
  unfold Scalar.select IntOp.cmpi
  cases (v (ix1 e)).slt 0#32 <;> rfl

theorem col_apply (v : IVec S4502 32) (e : Fin 4502) :
    broadcastInDim S4502x1 ![0] bcast_S4502_S4502x1_0 v (ix2 e (0 : Fin 1)) = v (ix1 e) := by
  refine broadcastInDim_apply _ _ _ _ (ix1 e) ?_
  intro a
  match a with
  | ⟨0, _⟩ => rfl

theorem idxFn_apply0 (srcraw dstraw : IVec S4502 32) (e : Fin 4502) :
    idxFn srcraw dstraw (ix2 e (0 : Fin 2)) = Cert.Model.normw (dstraw (ix1 e)) := by
  unfold idxFn
  refine (concatenate_pair_apply_left (s₁ := S4502x1) (s₂ := S4502x1) (1 : Fin S4502x2.rank) _ _ _ (ix2 e (0 : Fin 2)) rfl (ix2 e (0 : Fin 1)) ?_).trans ?_
  · intro b
    match b with
    | ⟨0, _⟩ => rfl
    | ⟨1, _⟩ => rfl
  · rw [col_apply, normIdx_apply]

theorem idxFn_apply1 (srcraw dstraw : IVec S4502 32) (e : Fin 4502) :
    idxFn srcraw dstraw (ix2 e (1 : Fin 2)) = Cert.Model.normw (srcraw (ix1 e)) := by
  unfold idxFn
  refine (concatenate_pair_apply_right (s₁ := S4502x1) (s₂ := S4502x1) (1 : Fin S4502x2.rank) _ _ _ (ix2 e (1 : Fin 2)) rfl rfl (ix2 e (0 : Fin 1)) ?_ ?_).trans ?_
  · intro b hb
    match b, hb with
    | ⟨0, _⟩, _ => rfl
    | ⟨1, _⟩, hb => exact absurd rfl hb
  · rfl
  · rw [col_apply, normIdx_apply]

/-! ## The adjacency matrix's value -/

/-- A position of the edge list as an index of a vector of 4502. -/
def idx1Equiv : S4502.Idx ≃ Fin 4502 where
  toFun j := j 0
  invFun e := ix1 e
  left_inv j := (eq_ix1 j).symm
  right_inv _ := rfl

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The scatter-add of the edge weights at (target, source) is the normalised adjacency matrix. -/
theorem adjFn_apply (I : Cert.Model.Inp) (srcraw dstraw : IVec S4502 32) (w : FVec Ideal S4502 .f32)
    (hs : ∀ e, (Cert.Model.normw (srcraw (ix1 e))).toInt = ((Cert.Model.src I e).val : ℤ))
    (hd : ∀ e, (Cert.Model.normw (dstraw (ix1 e))).toInt = ((Cert.Model.dst I e).val : ℤ))
    (hw : ∀ e, w (ix1 e) = ((Cert.Model.nrm I e : ℝ) : EReal)) (n s : Fin 502) :
    adjFn srcraw dstraw w (ix2 n s) = ((Cert.Model.A I n s : ℝ) : EReal) := by
  unfold adjFn Host.scatterAdd
  rw [Ideal.hostScatterAdd_def]
  unfold Ideal.hostScatterAdd
  have hz : (broadcastInDim S502x502 ![] bcast_S_S502x502 (constant (F := Ideal) S_ .f32 0x00000000#32)) (ix2 n s) = 0 := by
    rw [StableHlo.Predicate.bcast_scalar _ (by decide), constant_apply]; exact Cert.Consts.ofBits_zero
  rw [hz, zero_add, Finset.sum_filter]
  refine (Equiv.sum_comp idx1Equiv.symm _).symm.trans ?_
  unfold Cert.Model.A
  rw [coe_sum]
  refine Finset.sum_congr rfl fun e _ => ?_
  show (if sd.resultIdx? (ix1 e) _ = some (ix2 n s) then w (ix1 e) else 0) = _
  rw [resultIdx_eq _ e (Cert.Model.dst I e) (Cert.Model.src I e) (by rw [idxFn_apply0]; exact hd e)
    (by rw [idxFn_apply1]; exact hs e)]
  by_cases h : Cert.Model.dst I e = n ∧ Cert.Model.src I e = s
  · rw [if_pos h, if_pos (by rw [h.1, h.2]), hw]
  · rw [if_neg h, if_neg (fun h' => h (ix2_inj (Option.some.inj h'))), EReal.coe_zero]

/-! ## The matrix products and slices before the first kernel -/

section Defs2

variable {F : FTy → Type} [FloatOps F]

/-- The base rows through the first layer's weights. -/
def hbaseFn (xb : FVec F S500x1024 .f32) (W1 : FVec F S1024x256 .f32) : FVec F S500x256 .f32 :=
  Host.dotGeneral dot_S500x1024_S1024x256_S500x256_1_0_0_1_n_n none xb W1

/-- The adjacency matrix's first 500 columns times the transformed base rows. -/
def ybaseFn (A : FVec F S502x502 .f32) (xb : FVec F S500x1024 .f32) (W1 : FVec F S1024x256 .f32) : FVec F S502x256 .f32 :=
  Host.dotGeneral dot_S502x500_S500x256_S502x256_1_0_0_1_n_n none
    (extractStridedSlice S502x500 ![0, 0] A slices_S502x502_S502x500_0_0) (hbaseFn xb W1)

/-- The sensor rows through the first layer's weights. -/
def hsensFn (xs : FVec F S128x1024 .f32) (W1 : FVec F S1024x256 .f32) : FVec F S128x256 .f32 :=
  Host.dotGeneral dot_S128x1024_S1024x256_S128x256_1_0_0_1_n_n none xs W1

/-- The same with a unit middle axis. -/
def hsens3Fn (xs : FVec F S128x1024 .f32) (W1 : FVec F S1024x256 .f32) : FVec F S128x1x256 .f32 :=
  shapeCast S128x1x256 (hsensFn xs W1) shapeCasts_S128x256_S128x1x256

/-- Column 500 of the adjacency matrix. -/
def asensFn (A : FVec F S502x502 .f32) : FVec F S502x1 .f32 :=
  extractStridedSlice S502x1 ![0, 500] A slices_S502x502_S502x1_0_500

/-- The bias as a row. -/
def bias2dFn (b : FVec F S256 .f32) : FVec F S1x256 .f32 :=
  shapeCast S1x256 b shapeCasts_S256_S1x256

end Defs2

/-- A product of an [M, K] by a [K, N] matrix over the one contracted axis, read at (p, h), is the plain sum. -/
theorem dot2_apply {M K N : ℕ} (D : DotDims ⟨2, ![M, K]⟩ ⟨2, ![K, N]⟩ ⟨2, ![M, N]⟩) (hr : D.contr.rank = 1)
    (hs : D.contr.size ⟨0, by omega⟩ = K)
    (hl0 : ∀ j k, (D.lhsIdx j k 0 : ℕ) = j 0) (hl1 : ∀ j k, (D.lhsIdx j k 1 : ℕ) = k ⟨0, by omega⟩)
    (hr0 : ∀ j k, (D.rhsIdx j k 0 : ℕ) = k ⟨0, by omega⟩) (hr1 : ∀ j k, (D.rhsIdx j k 1 : ℕ) = j 1)
    (lhs : FVec Ideal ⟨2, ![M, K]⟩ .f32) (rhs : FVec Ideal ⟨2, ![K, N]⟩ .f32) (p : Fin M) (h : Fin N) :
    Host.dotGeneral D none lhs rhs (ix2 p h) = ∑ f : Fin K, lhs (ix2 p f) * rhs (ix2 f h) := by
  show FloatOps.dotGeneral D none .single lhs rhs (ix2 p h) = _
  rw [Ideal.dotGeneral_apply]
  refine (Equiv.sum_comp (contrEquiv1 D K hr hs).symm _).symm.trans ?_
  refine Finset.sum_congr rfl fun f _ => ?_
  have e1 : D.lhsIdx (ix2 p h) ((contrEquiv1 D K hr hs).symm f) = ix2 p f := by
    funext a
    match a with
    | ⟨0, _⟩ => exact Fin.ext (hl0 _ _)
    | ⟨1, _⟩ => exact Fin.ext ((hl1 _ _).trans (contrEquiv1_symm_val D K hr hs f))
  have e2 : D.rhsIdx (ix2 p h) ((contrEquiv1 D K hr hs).symm f) = ix2 f h := by
    funext a
    match a with
    | ⟨0, _⟩ => exact Fin.ext ((hr0 _ _).trans (contrEquiv1_symm_val D K hr hs f))
    | ⟨1, _⟩ => exact Fin.ext (hr1 _ _)
  rw [e1, e2]

abbrev Dhb := dot_S500x1024_S1024x256_S500x256_1_0_0_1_n_n
abbrev Dyb := dot_S502x500_S500x256_S502x256_1_0_0_1_n_n
abbrev Dhs := dot_S128x1024_S1024x256_S128x256_1_0_0_1_n_n

theorem hbaseFn_dot (xb : FVec Ideal S500x1024 .f32) (W1 : FVec Ideal S1024x256 .f32) (p : Fin 500) (h : Fin 256) :
    hbaseFn xb W1 (ix2 p h) = ∑ f : Fin 1024, xb (ix2 p f) * W1 (ix2 f h) :=
  dot2_apply Dhb rfl rfl (fun _ _ => rfl) (fun _ _ => rfl) (fun _ _ => rfl) (fun _ _ => rfl) xb W1 p h

theorem hsensFn_dot (xs : FVec Ideal S128x1024 .f32) (W1 : FVec Ideal S1024x256 .f32) (p : Fin 128) (h : Fin 256) :
    hsensFn xs W1 (ix2 p h) = ∑ f : Fin 1024, xs (ix2 p f) * W1 (ix2 f h) :=
  dot2_apply Dhs rfl rfl (fun _ _ => rfl) (fun _ _ => rfl) (fun _ _ => rfl) (fun _ _ => rfl) xs W1 p h

theorem ybase_dot (L : FVec Ideal S502x500 .f32) (R : FVec Ideal S500x256 .f32) (p : Fin 502) (h : Fin 256) :
    Host.dotGeneral Dyb none L R (ix2 p h) = ∑ f : Fin 500, L (ix2 p f) * R (ix2 f h) :=
  dot2_apply Dyb rfl rfl (fun _ _ => rfl) (fun _ _ => rfl) (fun _ _ => rfl) (fun _ _ => rfl) L R p h

/-! ## Their values -/

theorem coe_sum_mul {K : ℕ} (a b : Fin K → ℝ) :
    (∑ f : Fin K, ((a f : ℝ) : EReal) * ((b f : ℝ) : EReal)) = ((∑ f : Fin K, a f * b f : ℝ) : EReal) := by
  rw [coe_sum]
  exact Finset.sum_congr rfl fun f _ => (EReal.coe_mul _ _).symm

/-- The transformed base rows. -/
theorem hbaseFn_apply (xb : Fin 500 → Fin 1024 → ℝ) (W1 : Fin 1024 → Fin 256 → ℝ)
    (a1 : FVec Ideal S500x1024 .f32) (a3 : FVec Ideal S1024x256 .f32)
    (hxb : ∀ p q, a1 (ix2 p q) = ((xb p q : ℝ) : EReal)) (hW : ∀ p q, a3 (ix2 p q) = ((W1 p q : ℝ) : EReal))
    (p : Fin 500) (h : Fin 256) :
    hbaseFn a1 a3 (ix2 p h) = ((∑ f : Fin 1024, xb p f * W1 f h : ℝ) : EReal) := by
  rw [hbaseFn_dot, ← coe_sum_mul]
  exact Finset.sum_congr rfl fun f _ => by rw [hxb, hW]

/-- The transformed sensor rows. -/
theorem hsensFn_apply (xs : Fin 128 → Fin 1024 → ℝ) (W1 : Fin 1024 → Fin 256 → ℝ)
    (a0 : FVec Ideal S128x1024 .f32) (a3 : FVec Ideal S1024x256 .f32)
    (hxs : ∀ p q, a0 (ix2 p q) = ((xs p q : ℝ) : EReal)) (hW : ∀ p q, a3 (ix2 p q) = ((W1 p q : ℝ) : EReal))
    (b : Fin 128) (h : Fin 256) :
    hsensFn a0 a3 (ix2 b h) = ((∑ f : Fin 1024, xs b f * W1 f h : ℝ) : EReal) := by
  rw [hsensFn_dot, ← coe_sum_mul]
  exact Finset.sum_congr rfl fun f _ => by rw [hxs, hW]

/-- The same read with the unit middle coordinate. -/
theorem hsens3Fn_apply (xs : Fin 128 → Fin 1024 → ℝ) (W1 : Fin 1024 → Fin 256 → ℝ)
    (a0 : FVec Ideal S128x1024 .f32) (a3 : FVec Ideal S1024x256 .f32)
    (hxs : ∀ p q, a0 (ix2 p q) = ((xs p q : ℝ) : EReal)) (hW : ∀ p q, a3 (ix2 p q) = ((W1 p q : ℝ) : EReal))
    (b : Fin 128) (u : Fin 1) (h : Fin 256) :
    hsens3Fn a0 a3 (ix3 b u h) = ((∑ f : Fin 1024, xs b f * W1 f h : ℝ) : EReal) := by
  unfold hsens3Fn
  refine (shapeCast_apply _ _ (ix3 b u h) (ix2 b h) ?_).trans (hsensFn_apply xs W1 a0 a3 hxs hW b h)
  have hu : u.val = 0 := by omega
  rw [Shape.rowMajor_val_three, Shape.rowMajor_val_two]
  show b.val * 256 + h.val = (b.val * 1 + u.val) * 256 + h.val
  rw [hu]; omega

theorem slice500_apply (A : FVec Ideal S502x502 .f32) (n : Fin 502) (s : Fin 500) :
    extractStridedSlice S502x500 ![0, 0] A slices_S502x502_S502x500_0_0 (ix2 n s) = A (ix2 n ⟨s.val, by omega⟩) := by
  refine extractStridedSlice_apply _ _ _ _ (ix2 n ⟨s.val, by omega⟩) ?_
  intro a
  match a with
  | ⟨0, _⟩ => exact (Nat.zero_add _).symm
  | ⟨1, _⟩ => exact (Nat.zero_add _).symm

/-- The base part of the first layer's product: the first 500 columns of the matrix against the transformed base rows. -/
theorem ybaseFn_apply (Ar : Fin 502 → Fin 502 → ℝ) (xb : Fin 500 → Fin 1024 → ℝ) (W1 : Fin 1024 → Fin 256 → ℝ)
    (A : FVec Ideal S502x502 .f32) (a1 : FVec Ideal S500x1024 .f32) (a3 : FVec Ideal S1024x256 .f32)
    (hA : ∀ n s, A (ix2 n s) = ((Ar n s : ℝ) : EReal))
    (hxb : ∀ p q, a1 (ix2 p q) = ((xb p q : ℝ) : EReal)) (hW : ∀ p q, a3 (ix2 p q) = ((W1 p q : ℝ) : EReal))
    (n : Fin 502) (h : Fin 256) :
    ybaseFn A a1 a3 (ix2 n h)
      = ((∑ s : Fin 500, Ar n ⟨s.val, by omega⟩ * ∑ f : Fin 1024, xb s f * W1 f h : ℝ) : EReal) := by
  unfold ybaseFn
  rw [ybase_dot, ← coe_sum_mul]
  exact Finset.sum_congr rfl fun s _ => by rw [slice500_apply, hA, hbaseFn_apply xb W1 a1 a3 hxb hW]

/-- Column 500 of the matrix. -/
theorem asensFn_apply (Ar : Fin 502 → Fin 502 → ℝ) (A : FVec Ideal S502x502 .f32)
    (hA : ∀ n s, A (ix2 n s) = ((Ar n s : ℝ) : EReal)) (n : Fin 502) (u : Fin 1) :
    asensFn A (ix2 n u) = ((Ar n ⟨500, by omega⟩ : ℝ) : EReal) := by
  unfold asensFn
  refine (extractStridedSlice_apply _ _ _ (ix2 n u) (ix2 n ⟨500, by omega⟩) ?_).trans (hA _ _)
  intro a
  match a with
  | ⟨0, _⟩ => exact (Nat.zero_add _).symm
  | ⟨1, _⟩ =>
    have hu : u.val = 0 := by omega
    show 500 = 500 + u.val
    rw [hu]

/-- The bias as a row. -/
theorem bias2dFn_apply (b1 : Fin 256 → ℝ) (a4 : FVec Ideal S256 .f32) (hb : ∀ p, a4 (ix1 p) = ((b1 p : ℝ) : EReal))
    (u : Fin 1) (h : Fin 256) : bias2dFn a4 (ix2 u h) = ((b1 h : ℝ) : EReal) := by
  unfold bias2dFn
  exact (shapeCast_a_1a_apply _ _ u h).trans (hb h)

/-! ## The first layer's product split as the first kernel takes it -/

/-- The first layer before normalisation: the base part, plus column 500 of the matrix times the batch element's
    transformed sensor row, plus the bias (the input's last row is zero). -/
theorem Y1_split (I : Cert.Model.Inp) (b : Fin 128) (n : Fin 502) (h : Fin 256) :
    Cert.Model.Y1 I b n h
      = (∑ s : Fin 500, Cert.Model.A I n ⟨s.val, by omega⟩ * ∑ f : Fin 1024, I.xb s f * I.W1 f h)
        + Cert.Model.A I n ⟨500, by omega⟩ * (∑ f : Fin 1024, I.xs b f * I.W1 f h) + I.b1 h := by
  unfold Cert.Model.Y1 Cert.Model.conv Cert.Model.convA
  congr 1
  rw [Fin.sum_univ_castSucc, Fin.sum_univ_castSucc]
  have h1 : ∀ (s : Fin 500) (f : Fin 1024), Cert.Model.x0 I b (Fin.castSucc (Fin.castSucc s)) f = I.xb s f := by
    intro s f
    unfold Cert.Model.x0
    rw [dif_pos (show (Fin.castSucc (Fin.castSucc s)).val < 500 from s.isLt)]
    rfl
  have h2 : ∀ f : Fin 1024, Cert.Model.x0 I b (Fin.castSucc (Fin.last 500)) f = I.xs b f := by
    intro f
    unfold Cert.Model.x0
    rw [dif_neg (show ¬ (Fin.castSucc (Fin.last 500)).val < 500 from by decide),
      if_pos (show (Fin.castSucc (Fin.last 500)).val = 500 from rfl)]
  have h3 : ∀ f : Fin 1024, Cert.Model.x0 I b (Fin.last 501) f = 0 := by
    intro f
    unfold Cert.Model.x0
    rw [dif_neg (show ¬ (Fin.last 501).val < 500 from by decide),
      if_neg (show ¬ (Fin.last 501).val = 500 from by decide)]
  simp only [h1, h2, h3, zero_mul, Finset.sum_const_zero, mul_zero, add_zero]
  rfl

end Cert.KernelIdeal.KHost0

end
-- ==== Proof.GraphPre.lean ====
/-
  The graph preamble both programs begin with, as pure functions of the edge array, and what each computes.

  The two rows of the edge array are cut out and the 502 self loops appended, giving 4502 source words and 4502
  target words.  A word is read as an index into an axis of 502 is read (a negative word counts from the end).  The degree of a
  node is the scatter-add of ones at the target nodes, `dinv` its inverse square root where the degree is
  positive, and an edge's weight the product of `dinv` read at its two ends.
-/
import proofs.«171858_j54966991454756_2_alg».proof.Proof.Model
import proofs.«171858_j54966991454756_2_alg».proof.Proof.Consts
import proofs.«171858_j54966991454756_2_alg».proof.Proof.Iface
import Idealize.ShloMosaic.Lib.ValueLayout
import Idealize.ShloMosaic.Lib.StableHlo.Predicate

set_option synthInstance.maxSize 4096

noncomputable section

namespace Cert.GraphPre

open Idealize.ShloMosaic Idealize.ShloMosaic.ValueIdx Idealize.ShloMosaic.StableHlo.Predicate

abbrev S2x4000 : Shape := ⟨2, ![2, 4000]⟩
abbrev S1x4000 : Shape := ⟨2, ![1, 4000]⟩
abbrev S4000 : Shape := ⟨1, ![4000]⟩
abbrev S502 : Shape := ⟨1, ![502]⟩
abbrev S4502 : Shape := ⟨1, ![4502]⟩
abbrev S4502x1 : Shape := ⟨2, ![4502, 1]⟩
abbrev S_ : Shape := ⟨0, ![]⟩

/-! ## The shape relations the operations cite -/

theorem sl0 : S2x4000.Slices ![0, 0] S1x4000 := by decide
theorem sl1 : S2x4000.Slices ![1, 0] S1x4000 := by decide
theorem sc : S1x4000.ShapeCasts S4000 := by decide
theorem cat : Shape.Concatenates [S4000, S502] S4502 0 := by decide
theorem b502 : S_.BroadcastsInDim S502 (![] : Fin 0 → Fin S502.rank) := by decide
theorem b4502 : S_.BroadcastsInDim S4502 (![] : Fin 0 → Fin S4502.rank) := by decide
theorem bcol : S4502.BroadcastsInDim S4502x1 (![0] : Fin 1 → Fin S4502x1.rank) := by decide
theorem swf : ScatterDims.WF S502 S4502x1 S4502 [] [0] [0] 1 := by decide
theorem gwf : GatherDims.WF S502 S4502x1 S4502 [] [0] [] [0] [] 1 ![1] := by decide

/-- The scatter's dimension numbers: one scalar index per update, the operand's one axis inserted. -/
def scat : ScatterDims S502 S4502x1 S4502 where
  updateWindowDims := []
  insertedWindowDims := [0]
  scatterDimsToOperandDims := [0]
  indexVectorDim := 1
  wf := swf

/-- The gather's dimension numbers: a take, the operand's one axis collapsed. -/
def gath : GatherDims S502 S4502x1 S4502 where
  offsetDims := []
  collapsedSliceDims := [0]
  operandBatchingDims := []
  startIndicesBatchingDims := []
  startIndexMap := [0]
  indexVectorDim := 1
  sliceSizes := ![1]
  wf := gwf

/-! ## The preamble as pure functions -/

section Defs

variable {F : FTy → Type} [FloatOps F]

/-- The source words: row 0 of the edge array, then the positions `0 … 501`. -/
def srcRaw (a2 : IVec S2x4000 32) : IVec S4502 32 :=
  concatenate S4502 0 [⟨S4000, shapeCast S4000 (extractStridedSlice S1x4000 ![0, 0] a2 sl0) sc⟩, ⟨S502, iotaInDim S502 32 0⟩] cat

/-- The target words: row 1 of the edge array, then the positions `0 … 501`. -/
def dstRaw (a2 : IVec S2x4000 32) : IVec S4502 32 :=
  concatenate S4502 0 [⟨S4000, shapeCast S4000 (extractStridedSlice S1x4000 ![1, 0] a2 sl1) sc⟩, ⟨S502, iotaInDim S502 32 0⟩] cat

/-- Every word read as an index into an axis of 502: 502 added to a negative word. -/
def normIdx (v : IVec S4502 32) : IVec S4502 32 :=
  select (cmpi .slt v (broadcastInDim S4502 ![] b4502 (constantI S_ 32 0#32)))
    (addi v (broadcastInDim S4502 ![] b4502 (constantI S_ 32 502#32))) v

/-- The normalised words as a column of one-component indices. -/
def colIdx (v : IVec S4502 32) : IVec S4502x1 32 :=
  broadcastInDim S4502x1 ![0] bcol (normIdx v)

/-- The degrees: ones added at the target nodes. -/
def degFn (a2 : IVec S2x4000 32) : FVec F S502 .f32 :=
  Host.scatterAdd scat (broadcastInDim S502 ![] b502 (constant S_ .f32 0x00000000#32)) (colIdx (dstRaw a2))
    (broadcastInDim S4502 ![] b4502 (constant S_ .f32 0x3F800000#32))

/-- The inverse square roots of the positive degrees, zero elsewhere. -/
def dinvFn (a2 : IVec S2x4000 32) : FVec F S502 .f32 :=
  select (cmpf (F := F) .ogt (degFn a2) (broadcastInDim S502 ![] b502 (constant S_ .f32 0x00000000#32)))
    (Host.rsqrt (degFn a2)) (broadcastInDim S502 ![] b502 (id (constant S_ .f32 0x00000000#32)))

/-- The edge weights: `dinv` at the source times `dinv` at the target. -/
def nrmFn (a2 : IVec S2x4000 32) : FVec F S4502 .f32 :=
  mulf (Host.gather gath (dinvFn a2) (colIdx (srcRaw a2))) (Host.gather gath (dinvFn a2) (colIdx (dstRaw a2)))

end Defs

/-! ## Words -/

/-- The rank-1 index at a coordinate, in its two spellings. -/
theorem ofFin_eq_ix1 {n : Nat} (p : Fin n) : (Shape.Idx.ofFin p : (⟨1, ![n]⟩ : Shape).Idx) = ix1 p := by
  funext d
  match d with
  | ⟨0, _⟩ => rfl

/-- A row of the edge array followed by the positions, read at an edge below 4000: the row's word. -/
theorem cat_left (r : Fin 2) (h : S2x4000.Slices ![r.val, 0] S1x4000) (a2 : IVec S2x4000 32) (e : Fin 4502)
    (he : e.val < 4000) :
    concatenate S4502 0 [⟨S4000, shapeCast S4000 (extractStridedSlice S1x4000 ![r.val, 0] a2 h) sc⟩,
      ⟨S502, iotaInDim S502 32 0⟩] cat (ix1 e) = a2 (ix2 r ⟨e.val, he⟩) := by
  rw [concatenate_pair_apply_left (s₁ := S4000) (s₂ := S502) (0 : Fin 1) _ _ cat (ix1 e) rfl (ix1 (⟨e.val, he⟩ : Fin 4000))
    (fun b => by obtain rfl : b = 0 := Subsingleton.elim _ _; rfl)]
  rw [shapeCast_1a_a_apply]
  exact slice2_axis0_apply r.val a2 h (0 : Fin 1) ⟨e.val, he⟩ r (by simp)

/-- The same read at an edge from 4000 on: the position `e - 4000` as a word. -/
theorem cat_right (r : Fin 2) (h : S2x4000.Slices ![r.val, 0] S1x4000) (a2 : IVec S2x4000 32) (e : Fin 4502)
    (he : 4000 ≤ e.val) :
    concatenate S4502 0 [⟨S4000, shapeCast S4000 (extractStridedSlice S1x4000 ![r.val, 0] a2 h) sc⟩,
      ⟨S502, iotaInDim S502 32 0⟩] cat (ix1 e) = BitVec.ofNat 32 (e.val - 4000) := by
  rw [concatenate_pair_apply_right (s₁ := S4000) (s₂ := S502) (0 : Fin 1) _ _ cat (ix1 e) rfl rfl (ix1 (⟨e.val - 4000, by omega⟩ : Fin 502))
    (fun b hb => by obtain rfl : b = 0 := Subsingleton.elim _ _; exact absurd rfl hb)
    (by show e.val - 4000 + 4000 = e.val; omega)]
  rfl

theorem srcRaw_lt (a2 : IVec S2x4000 32) (e : Fin 4502) (he : e.val < 4000) :
    srcRaw a2 (ix1 e) = a2 (ix2 (0 : Fin 2) ⟨e.val, he⟩) := cat_left 0 sl0 a2 e he

theorem srcRaw_ge (a2 : IVec S2x4000 32) (e : Fin 4502) (he : 4000 ≤ e.val) :
    srcRaw a2 (ix1 e) = BitVec.ofNat 32 (e.val - 4000) := cat_right 0 sl0 a2 e he

theorem dstRaw_lt (a2 : IVec S2x4000 32) (e : Fin 4502) (he : e.val < 4000) :
    dstRaw a2 (ix1 e) = a2 (ix2 (1 : Fin 2) ⟨e.val, he⟩) := cat_left 1 sl1 a2 e he

theorem dstRaw_ge (a2 : IVec S2x4000 32) (e : Fin 4502) (he : 4000 ≤ e.val) :
    dstRaw a2 (ix1 e) = BitVec.ofNat 32 (e.val - 4000) := cat_right 1 sl1 a2 e he

/-- The normalised word at an index is the model's reading of the raw word. -/
theorem normIdx_apply (v : IVec S4502 32) (i : S4502.Idx) : normIdx v i = Cert.Model.normw (v i) := by
  unfold normIdx Cert.Model.normw
  rw [select_apply]
  show Scalar.select (BitVec.ofBool ((v i).slt 0#32)) (v i + 502#32) (v i) = _
  cases h : (v i).slt 0#32
  · rw [show BitVec.ofBool false = 0#1 from rfl, select_zero]; simp
  · rw [show BitVec.ofBool true = 1#1 from rfl, select_one]; simp

/-- The column of indices at row `e` is the normalised word of edge `e`. -/
theorem colIdx_apply (v : IVec S4502 32) (e : Fin 4502) : colIdx v (ixP e) = Cert.Model.normw (v (ix1 e)) := by
  unfold colIdx
  rw [bcast_col1 bcol (normIdx v) e, ofFin_eq_ix1, normIdx_apply]

/-- A position below 502 as a word is its own reading. -/
theorem normw_ofNat (k : ℕ) (hk : k < 502) : (Cert.Model.normw (BitVec.ofNat 32 k)).toInt = (k : ℤ) := by
  have h0 : (BitVec.ofNat 32 k).toInt = (k : ℤ) := toInt_ofNat_small k (by omega)
  unfold Cert.Model.normw
  rw [if_neg]
  · exact h0
  · rw [BitVec.slt_iff_toInt_lt, h0]; simp

/-! ## The nodes the words name -/

section Values

variable (I : Cert.Model.Inp) (a2 : IVec S2x4000 32)

/-- A row of words followed by the positions names, edge by edge, the model's end of that edge. -/
theorem raw_endp (hE : ∀ r e, a2 (ix2 r e) = I.E r e) (hR : Cert.Iface.InRange I) (r : Fin 2) (raw : IVec S4502 32)
    (hlt : ∀ (e : Fin 4502) (he : e.val < 4000), raw (ix1 e) = a2 (ix2 r ⟨e.val, he⟩))
    (hge : ∀ e : Fin 4502, 4000 ≤ e.val → raw (ix1 e) = BitVec.ofNat 32 (e.val - 4000)) (e : Fin 4502) :
    (Cert.Model.normw (raw (ix1 e))).toInt = ((Cert.Model.endp I r e).val : ℤ) := by
  unfold Cert.Model.endp
  by_cases he : e.val < 4000
  · rw [dif_pos he, hlt e he, hE]
    have := hR r ⟨e.val, he⟩
    unfold Cert.Model.nidx
    show _ = ((min (Cert.Model.normw (I.E r ⟨e.val, he⟩)).toInt.toNat 501 : ℕ) : ℤ)
    omega
  · rw [dif_neg he, hge e (by omega), normw_ofNat _ (by omega)]

theorem src_toInt (hE : ∀ r e, a2 (ix2 r e) = I.E r e) (hR : Cert.Iface.InRange I) (e : Fin 4502) :
    (Cert.Model.normw (srcRaw a2 (ix1 e))).toInt = ((Cert.Model.src I e).val : ℤ) :=
  raw_endp I a2 hE hR 0 (srcRaw a2) (srcRaw_lt a2) (srcRaw_ge a2) e

theorem dst_toInt (hE : ∀ r e, a2 (ix2 r e) = I.E r e) (hR : Cert.Iface.InRange I) (e : Fin 4502) :
    (Cert.Model.normw (dstRaw a2 (ix1 e))).toInt = ((Cert.Model.dst I e).val : ℤ) :=
  raw_endp I a2 hE hR 1 (dstRaw a2) (dstRaw_lt a2) (dstRaw_ge a2) e

/-! ## The degrees -/

/-- Any coordinate of a rank-1 index is its one coordinate. -/
theorem ix1_val {n : Nat} (e : Fin n) (X : Fin 1) : ((ix1 e : (⟨1, ![n]⟩ : Shape).Idx) X).val = e.val := by
  obtain rfl : X = 0 := Subsingleton.elim _ _; rfl

/-- Update `e` reads its one index component at row `e` of the column of indices. -/
theorem scat_siIdx (e : Fin 4502) (c : Fin scat.scatterDimsToOperandDims.length) : scat.siIdx (ix1 e) c = ixP e := by
  funext b
  match b with
  | ⟨0, _⟩ =>
    unfold ScatterDims.siIdx
    rw [dif_neg (by show ¬ (0 : ℕ) = 1; omega)]
    unfold ScatterDims.siCoord
    apply Fin.ext
    simp only [Fin.val_cast]
    exact ix1_val e _
  | ⟨1, _⟩ =>
    unfold ScatterDims.siIdx
    rw [dif_pos (by rfl)]
    apply Fin.ext
    have := c.isLt
    show c.val = 0
    change c.val < 1 at this
    omega

/-- An update whose index names node `k` lands at node `k`. -/
theorem scat_resultIdx (idx : IVec S4502x1 32) (e : Fin 4502) (k : Fin 502) (hk : (idx (ixP e)).toInt = (k.val : ℤ)) :
    scat.resultIdx? (ix1 e) idx = some (ix1 k) := by
  have hstart : scat.start (ix1 e) idx 0 = (k.val : ℤ) := by
    unfold ScatterDims.start
    rw [dif_pos (show (0 : Fin 1) ∈ scat.scatterDimsToOperandDims from List.mem_singleton.mpr rfl), scat_siIdx, hk]
  have hwin : scat.window (ix1 e) 0 = 0 := by
    unfold ScatterDims.window
    rw [dif_neg (by decide)]
  have h : ∀ a, 0 ≤ scat.start (ix1 e) idx a + scat.window (ix1 e) a ∧
      scat.start (ix1 e) idx a + scat.window (ix1 e) a < S502.size a := by
    intro a
    obtain rfl : a = 0 := Subsingleton.elim _ _
    rw [hstart, hwin]
    have := k.isLt
    show 0 ≤ (k.val : ℤ) + ((0 : ℕ) : ℤ) ∧ (k.val : ℤ) + ((0 : ℕ) : ℤ) < ((502 : ℕ) : ℤ)
    omega
  unfold ScatterDims.resultIdx?
  rw [dif_pos h]
  congr 1
  funext a
  obtain rfl : a = 0 := Subsingleton.elim _ _
  apply Fin.ext
  show (scat.start (ix1 e) idx 0 + scat.window (ix1 e) 0).toNat = k.val
  rw [hstart, hwin]
  simp

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A rank-1 index is its coordinate. -/
def idx1Equiv (n : ℕ) : (⟨1, ![n]⟩ : Shape).Idx ≃ Fin n where
  toFun j := j 0
  invFun := ix1
  left_inv j := (eq_ix1 j).symm
  right_inv _ := rfl

theorem ix1_inj {n : ℕ} {a b : Fin n} (h : (ix1 a : (⟨1, ![n]⟩ : Shape).Idx) = ix1 b) : a = b := congrFun h 0

theorem zeros_apply (t : Shape) (h : S_.BroadcastsInDim t (![] : Fin 0 → Fin t.rank)) (j : t.Idx) :
    broadcastInDim t ![] h (constant (F := Ideal) S_ .f32 0x00000000#32) j = 0 := by
  rw [bcast_scalar h (by decide)]; exact Cert.Consts.ofBits_zero

theorem ones_apply (t : Shape) (h : S_.BroadcastsInDim t (![] : Fin 0 → Fin t.rank)) (j : t.Idx) :
    broadcastInDim t ![] h (constant (F := Ideal) S_ .f32 0x3F800000#32) j = ((1 : ℝ) : EReal) := by
  rw [bcast_scalar h (by decide)]; exact Cert.Consts.ofBits_one

/-- The scatter-add of ones at the target nodes counts, at every node, the edges that end there. -/
theorem degFn_apply (hE : ∀ r e, a2 (ix2 r e) = I.E r e) (hR : Cert.Iface.InRange I) (n : Fin 502) :
    degFn (F := Ideal) a2 (ix1 n) = ((Cert.Model.deg I n : ℝ) : EReal) := by
  unfold degFn Host.scatterAdd
  rw [Ideal.hostScatterAdd_def]
  unfold Ideal.hostScatterAdd
  rw [zeros_apply, zero_add]
  calc _ = ∑ e : Fin 4502, (if Cert.Model.dst I e = n then ((1 : ℝ) : EReal) else 0) := by
        rw [Finset.sum_filter, ← Equiv.sum_comp (idx1Equiv 4502).symm]
        refine Finset.sum_congr rfl fun e _ => ?_
        show (if scat.resultIdx? (ix1 e) (colIdx (dstRaw a2)) = some (ix1 n) then _ else 0) = _
        rw [scat_resultIdx (colIdx (dstRaw a2)) e (Cert.Model.dst I e)
          (by rw [colIdx_apply]; exact dst_toInt I a2 hE hR e), ones_apply]
        by_cases h : Cert.Model.dst I e = n
        · rw [if_pos h, if_pos (by rw [h])]
        · rw [if_neg h, if_neg (fun h' => h (ix1_inj (Option.some.inj h')))]
    _ = ((Cert.Model.deg I n : ℝ) : EReal) := by
        unfold Cert.Model.deg
        rw [coe_sum]
        refine Finset.sum_congr rfl fun e _ => ?_
        split <;> simp

/-! ## The inverse square roots and the edge weights -/

/-- Where the degree is positive its inverse square root, zero elsewhere: the model's `dinv`. -/
theorem dinvFn_apply (hE : ∀ r e, a2 (ix2 r e) = I.E r e) (hR : Cert.Iface.InRange I) (n : Fin 502) :
    dinvFn (F := Ideal) a2 (ix1 n) = ((Cert.Model.dinv I n : ℝ) : EReal) := by
  have hd := degFn_apply I a2 hE hR n
  have hc : cmpf (F := Ideal) .ogt (degFn a2) (broadcastInDim S502 ![] b502 (constant S_ .f32 0x00000000#32)) (ix1 n)
      = BitVec.ofBool (decide ((0 : EReal) < ((Cert.Model.deg I n : ℝ) : EReal))) := by
    rw [cmpf_apply, hd, zeros_apply]; rfl
  have hr : Host.rsqrt (degFn (F := Ideal) a2) (ix1 n) = Ideal.rsqrt ((Cert.Model.deg I n : ℝ) : EReal) := by
    show Ideal.rsqrt (degFn (F := Ideal) a2 (ix1 n)) = _
    rw [hd]
  have hz : broadcastInDim S502 ![] b502 (id (constant (F := Ideal) S_ .f32 0x00000000#32)) (ix1 n) = 0 :=
    zeros_apply S502 b502 (ix1 n)
  unfold dinvFn
  rw [select_apply, hc, hr, hz]
  unfold Cert.Model.dinv
  by_cases hp : 0 < Cert.Model.deg I n
  · have h' : (0 : EReal) < ((Cert.Model.deg I n : ℝ) : EReal) := by exact_mod_cast hp
    rw [if_pos hp, decide_eq_true h', show BitVec.ofBool true = 1#1 from rfl, select_one, Ideal.rsqrt_coe,
      if_neg (not_lt.2 hp.le), if_neg hp.ne']
  · have h' : ¬ (0 : EReal) < ((Cert.Model.deg I n : ℝ) : EReal) := fun h => hp (by exact_mod_cast h)
    rw [if_neg hp, decide_eq_false h', show BitVec.ofBool false = 0#1 from rfl, select_zero]
    simp

/-- A take at a row whose index names node `k` reads node `k`. -/
theorem gath_apply {α : Type} (x : S502.Idx → α) (idx : IVec S4502x1 32) (e : Fin 4502) (k : Fin 502)
    (hk : (idx (ixP e)).toInt = (k.val : ℤ)) : Host.gather gath x idx (ix1 e) = x (ix1 k) := by
  rw [← ofFin_eq_ix1 e, gather_take gath rfl rfl rfl rfl x idx e (by decide), ofFin_eq_ix1]
  congr 2
  apply Fin.ext
  show min (idx (ixP e)).toInt.toNat (502 - 1) = k.val
  have := k.isLt
  omega

/-- The edge weight: `dinv` at the source times `dinv` at the target. -/
theorem nrmFn_apply (hE : ∀ r e, a2 (ix2 r e) = I.E r e) (hR : Cert.Iface.InRange I) (e : Fin 4502) :
    nrmFn (F := Ideal) a2 (ix1 e) = ((Cert.Model.nrm I e : ℝ) : EReal) := by
  unfold nrmFn
  rw [mulf_apply,
    gath_apply _ _ e (Cert.Model.src I e) (by rw [colIdx_apply]; exact src_toInt I a2 hE hR e),
    gath_apply _ _ e (Cert.Model.dst I e) (by rw [colIdx_apply]; exact dst_toInt I a2 hE hR e),
    dinvFn_apply I a2 hE hR, dinvFn_apply I a2 hE hR, ← EReal.coe_mul]
  rfl

end Values

end Cert.GraphPre

end
-- ==== Proof.KBridge0.lean ====
/-
  What the first program's host operations before its first kernel leave in their buffers, as functions of the
  argument arrays.

  The edge array's two rows are each followed by the 502 loop words `0 … 501`: the source words and the target
  words of the 4502 edges.  A node's degree is a zero vector to which one is added at every edge's target (a word
  first read as an index into an axis of 502: 502 added to a negative word), its inverse square root is kept where
  the degree is positive and replaced by zero elsewhere, and an edge's weight is the product of that at its two ends.
-/
import proofs.«171858_j54966991454756_2_alg».proof.Proof.Gen.KernelIdeal.Launch
import proofs.«171858_j54966991454756_2_alg».proof.Proof.KHost0
import proofs.«171858_j54966991454756_2_alg».proof.Proof.GraphPre
import Idealize.ShloMosaic.Lib.StableHlo.Run

set_option maxHeartbeats 1000000

noncomputable section

namespace Cert.KernelIdeal.KBridge0

open Idealize.ShloMosaic Idealize.ShloMosaic.TcCoe Idealize.SL.Sem Idealize.ShloMosaic.StableHlo Idealize.ShloMosaic.ValueIdx
open Cert.KernelIdeal Cert.KernelIdeal.Facts₀ Cert.KernelIdeal.Facts

section Defs

/-- %0 .. %3: the source words of the 4502 edges (row 0 of the edge array, then the loop words). -/
def srcRawK (E : IVec S2x4000 32) : IVec S4502 32 :=
  let v0 : IVec S502 32 := iotaInDim S502 32 0
  let v1 : IVec S1x4000 32 := extractStridedSlice S1x4000 ![0, 0] E slices_S2x4000_S1x4000_0_0
  let v2 : IVec S4000 32 := shapeCast S4000 v1 shapeCasts_S1x4000_S4000
  concatenate S4502 0 [⟨S4000, v2⟩, ⟨S502, v0⟩] concatenates_S4000_S502_S4502_d0

/-- %0, %4 .. %6: the target words of the 4502 edges (row 1 of the edge array, then the loop words). -/
def dstRawK (E : IVec S2x4000 32) : IVec S4502 32 :=
  let v0 : IVec S502 32 := iotaInDim S502 32 0
  let v4 : IVec S1x4000 32 := extractStridedSlice S1x4000 ![1, 0] E slices_S2x4000_S1x4000_1_0
  let v5 : IVec S4000 32 := shapeCast S4000 v4 shapeCasts_S1x4000_S4000
  concatenate S4502 0 [⟨S4000, v5⟩, ⟨S502, v0⟩] concatenates_S4000_S502_S4502_d0

variable {F : FTy → Type} [FloatOps F]

/-- %cst .. %15: the degree of every node, from the target words. -/
def degFnK (v6 : IVec S4502 32) : FVec F S502 .f32 :=
  let cst : FVec F S_ .f32 := constant S_ .f32 0x00000000#32
  let v7 : FVec F S502 .f32 := broadcastInDim S502 ![] bcast_S_S502 cst
  let c : IVec S_ 32 := constantI S_ 32 0#32
  let v8 : IVec S4502 32 := broadcastInDim S4502 ![] bcast_S_S4502 c
  let v9 : IVec S4502 1 := cmpi .slt v6 v8
  let c_0 : IVec S_ 32 := constantI S_ 32 502#32
  let v10 : IVec S4502 32 := broadcastInDim S4502 ![] bcast_S_S4502 c_0
  let v11 : IVec S4502 32 := addi v6 v10
  let v12 : IVec S4502 32 := select v9 v11 v6
  let v13 : IVec S4502x1 32 := broadcastInDim S4502x1 ![0] bcast_S4502_S4502x1_0 v12
  let cst_1 : FVec F S_ .f32 := constant S_ .f32 0x3F800000#32
  let v14 : FVec F S4502 .f32 := broadcastInDim S4502 ![] bcast_S_S4502 cst_1
  Host.scatterAdd scatter_S502_S4502x1_S4502_n_0_0_1 v7 v13 v14

/-- %cst_2 .. %17: where the degree is positive. -/
def posFnK (v15 : FVec F S502 .f32) : IVec S502 1 :=
  let cst_2 : FVec F S_ .f32 := constant S_ .f32 0x00000000#32
  let v16 : FVec F S502 .f32 := broadcastInDim S502 ![] bcast_S_S502 cst_2
  cmpf .ogt v15 v16

/-- The call of the selection (%19): the first value where the flag is set, the broadcast scalar elsewhere. -/
def whereFnK (c : IVec S502 1) (a : FVec F S502 .f32) (z : FVec F S_ .f32) : FVec F S502 .f32 :=
  let w0 : FVec F S_ .f32 := id z
  let w1 : FVec F S502 .f32 := broadcastInDim S502 ![] bcast_S_S502 w0
  select c a w1

/-- %cst .. %19: the inverse square root of every node's degree, zero where the degree is not positive. -/
def dinvFnK (v6 : IVec S4502 32) : FVec F S502 .f32 :=
  let v15 : FVec F S502 .f32 := degFnK v6
  let v17 : IVec S502 1 := posFnK v15
  let v18 : FVec F S502 .f32 := Host.rsqrt v15
  let cst_3 : FVec F S_ .f32 := constant S_ .f32 0x00000000#32
  whereFnK v17 v18 cst_3

/-- %c_4 .. %34: an edge's weight, the product of the values at its two ends. -/
def wgtFnK (v3 v6 : IVec S4502 32) (v19 : FVec F S502 .f32) : FVec F S4502 .f32 :=
  let c_4 : IVec S_ 32 := constantI S_ 32 0#32
  let v20 : IVec S4502 32 := broadcastInDim S4502 ![] bcast_S_S4502 c_4
  let v21 : IVec S4502 1 := cmpi .slt v3 v20
  let c_5 : IVec S_ 32 := constantI S_ 32 502#32
  let v22 : IVec S4502 32 := broadcastInDim S4502 ![] bcast_S_S4502 c_5
  let v23 : IVec S4502 32 := addi v3 v22
  let v24 : IVec S4502 32 := select v21 v23 v3
  let v25 : IVec S4502x1 32 := broadcastInDim S4502x1 ![0] bcast_S4502_S4502x1_0 v24
  let v26 : FVec F S4502 .f32 := Host.gather gather_S502_S4502x1_S4502_n_0_n_n_0_1_1 v19 v25
  let c_6 : IVec S_ 32 := constantI S_ 32 0#32
  let v27 : IVec S4502 32 := broadcastInDim S4502 ![] bcast_S_S4502 c_6
  let v28 : IVec S4502 1 := cmpi .slt v6 v27
  let c_7 : IVec S_ 32 := constantI S_ 32 502#32
  let v29 : IVec S4502 32 := broadcastInDim S4502 ![] bcast_S_S4502 c_7
  let v30 : IVec S4502 32 := addi v6 v29
  let v31 : IVec S4502 32 := select v28 v30 v6
  let v32 : IVec S4502x1 32 := broadcastInDim S4502x1 ![0] bcast_S4502_S4502x1_0 v31
  let v33 : FVec F S4502 .f32 := Host.gather gather_S502_S4502x1_S4502_n_0_n_n_0_1_1 v19 v32
  mulf v26 v33

/-- %0 .. %34: the weights of the 4502 edges, from the edge array. -/
def nrmFnK (E : IVec S2x4000 32) : FVec F S4502 .f32 :=
  wgtFnK (srcRawK E) (dstRawK E) (dinvFnK (dstRawK E))

end Defs

variable {F : FTy → Type} [FloatOps F]

/-! ## The first stretch (%0 .. %cst_3) -/

theorem s0_v3 (W : Valuation τ sig (Elt F)) :
    StableHlo.after (Gen.hostOps0 (F := F)) W (Proc.devRef .tc main_v3) = srcRawK (W (Proc.devRef .tc main_arg2)) := by
  after_results <;> rfl

theorem s0_v6 (W : Valuation τ sig (Elt F)) :
    StableHlo.after (Gen.hostOps0 (F := F)) W (Proc.devRef .tc main_v6) = dstRawK (W (Proc.devRef .tc main_arg2)) := by
  after_results <;> rfl

theorem s0_v17 (W : Valuation τ sig (Elt F)) :
    StableHlo.after (Gen.hostOps0 (F := F)) W (Proc.devRef .tc main_v17)
      = posFnK (degFnK (F := F) (dstRawK (W (Proc.devRef .tc main_arg2)))) := by
  after_results <;> rfl

theorem s0_v18 (W : Valuation τ sig (Elt F)) :
    StableHlo.after (Gen.hostOps0 (F := F)) W (Proc.devRef .tc main_v18)
      = Host.rsqrt (degFnK (F := F) (dstRawK (W (Proc.devRef .tc main_arg2)))) := by
  after_results <;> rfl

theorem s0_cst_3 (W : Valuation τ sig (Elt F)) :
    StableHlo.after (Gen.hostOps0 (F := F)) W (Proc.devRef .tc main_cst_3) = constant (F := F) S_ .f32 0x00000000#32 := by
  after_results <;> rfl

/-! ## The call of the selection -/

theorem s1_v19 (V : Valuation τ sig (Elt F)) :
    StableHlo.after (Gen.hostOps0_1 (F := F)) V (Proc.devRef .tc main_v19)
      = whereFnK (V (Proc.devRef .tc main_v17)) (V (Proc.devRef .tc main_v18)) (V (Proc.devRef .tc main_cst_3)) := by
  after_results <;> rfl

theorem s1_v3 (V : Valuation τ sig (Elt F)) :
    StableHlo.after (Gen.hostOps0_1 (F := F)) V (Proc.devRef .tc main_v3) = V (Proc.devRef .tc main_v3) := by
  after_results <;> rfl

theorem s1_v6 (V : Valuation τ sig (Elt F)) :
    StableHlo.after (Gen.hostOps0_1 (F := F)) V (Proc.devRef .tc main_v6) = V (Proc.devRef .tc main_v6) := by
  after_results <;> rfl

/-! ## The arguments are not written -/

theorem s0_arg0 (W : Valuation τ sig (Elt F)) :
    StableHlo.after (Gen.hostOps0 (F := F)) W (Proc.devRef .tc main_arg0) = W (Proc.devRef .tc main_arg0) := by
  after_results_simp <;> rfl
theorem s0_arg1 (W : Valuation τ sig (Elt F)) :
    StableHlo.after (Gen.hostOps0 (F := F)) W (Proc.devRef .tc main_arg1) = W (Proc.devRef .tc main_arg1) := by
  after_results_simp <;> rfl
theorem s0_arg3 (W : Valuation τ sig (Elt F)) :
    StableHlo.after (Gen.hostOps0 (F := F)) W (Proc.devRef .tc main_arg3) = W (Proc.devRef .tc main_arg3) := by
  after_results_simp <;> rfl
theorem s0_arg4 (W : Valuation τ sig (Elt F)) :
    StableHlo.after (Gen.hostOps0 (F := F)) W (Proc.devRef .tc main_arg4) = W (Proc.devRef .tc main_arg4) := by
  after_results_simp <;> rfl
theorem s1_arg0 (V : Valuation τ sig (Elt F)) :
    StableHlo.after (Gen.hostOps0_1 (F := F)) V (Proc.devRef .tc main_arg0) = V (Proc.devRef .tc main_arg0) := by
  after_results_simp <;> rfl
theorem s1_arg1 (V : Valuation τ sig (Elt F)) :
    StableHlo.after (Gen.hostOps0_1 (F := F)) V (Proc.devRef .tc main_arg1) = V (Proc.devRef .tc main_arg1) := by
  after_results_simp <;> rfl
theorem s1_arg3 (V : Valuation τ sig (Elt F)) :
    StableHlo.after (Gen.hostOps0_1 (F := F)) V (Proc.devRef .tc main_arg3) = V (Proc.devRef .tc main_arg3) := by
  after_results_simp <;> rfl
theorem s1_arg4 (V : Valuation τ sig (Elt F)) :
    StableHlo.after (Gen.hostOps0_1 (F := F)) V (Proc.devRef .tc main_arg4) = V (Proc.devRef .tc main_arg4) := by
  after_results_simp <;> rfl

/-! ## The last stretch before the first kernel (%c_4 .. %57) -/

theorem s2_v3 (V : Valuation τ sig (Elt F)) :
    StableHlo.after (Gen.hostOps0_2 (F := F)) V (Proc.devRef .tc main_v3) = V (Proc.devRef .tc main_v3) := by
  after_results_simp <;> rfl

theorem s2_v6 (V : Valuation τ sig (Elt F)) :
    StableHlo.after (Gen.hostOps0_2 (F := F)) V (Proc.devRef .tc main_v6) = V (Proc.devRef .tc main_v6) := by
  after_results_simp <;> rfl

theorem s2_v34 (V : Valuation τ sig (Elt F)) :
    StableHlo.after (Gen.hostOps0_2 (F := F)) V (Proc.devRef .tc main_v34)
      = wgtFnK (V (Proc.devRef .tc main_v3)) (V (Proc.devRef .tc main_v6)) (V (Proc.devRef .tc main_v19)) := by
  after_results_simp <;> rfl

/-! ## The graph preamble, from the edge array -/

/-- The contents after the three stretches. -/
abbrev W3 (W : Valuation τ sig (Elt F)) : Valuation τ sig (Elt F) :=
  StableHlo.after (Gen.hostOps0_2 (F := F)) (StableHlo.after (Gen.hostOps0_1 (F := F)) (StableHlo.after (Gen.hostOps0 (F := F)) W))

theorem k0_src (W : Valuation τ sig (Elt F)) :
    W3 W (Proc.devRef .tc main_v3) = srcRawK (W (Proc.devRef .tc main_arg2)) := by
  rw [W3, s2_v3, s1_v3, s0_v3]

theorem k0_dst (W : Valuation τ sig (Elt F)) :
    W3 W (Proc.devRef .tc main_v6) = dstRawK (W (Proc.devRef .tc main_arg2)) := by
  rw [W3, s2_v6, s1_v6, s0_v6]

theorem k0_nrm (W : Valuation τ sig (Elt F)) :
    W3 W (Proc.devRef .tc main_v34) = nrmFnK (F := F) (W (Proc.devRef .tc main_arg2)) := by
  rw [W3, s2_v34, s1_v3, s1_v6, s1_v19, s0_v3, s0_v6, s0_v17, s0_v18, s0_cst_3]
  rfl

/-! ## What the first kernel and the first layer's split product read -/

/-- %35 .. %49 after a stretch's start: the adjacency matrix from the words, the weights being computed on the way. -/
abbrev adjOf (V : Valuation τ sig (Elt F)) : FVec F S502x502 .f32 :=
  KHost0.adjFn (V (Proc.devRef .tc main_v3)) (V (Proc.devRef .tc main_v6))
    (wgtFnK (V (Proc.devRef .tc main_v3)) (V (Proc.devRef .tc main_v6)) (V (Proc.devRef .tc main_v19)))

theorem s2_v50 (V : Valuation τ sig (Elt F)) :
    StableHlo.after (Gen.hostOps0_2 (F := F)) V (Proc.devRef .tc main_v50) = truncf .bf16 (adjOf V) bitsLt_bf16_f32 := by
  after_results_simp <;> rfl

theorem s2_v53 (V : Valuation τ sig (Elt F)) :
    StableHlo.after (Gen.hostOps0_2 (F := F)) V (Proc.devRef .tc main_v53)
      = KHost0.ybaseFn (adjOf V) (V (Proc.devRef .tc main_arg1)) (V (Proc.devRef .tc main_arg3)) := by
  after_results_simp <;> rfl

theorem s2_v55 (V : Valuation τ sig (Elt F)) :
    StableHlo.after (Gen.hostOps0_2 (F := F)) V (Proc.devRef .tc main_v55) = KHost0.asensFn (adjOf V) := by
  after_results_simp <;> rfl

theorem s2_v57 (V : Valuation τ sig (Elt F)) :
    StableHlo.after (Gen.hostOps0_2 (F := F)) V (Proc.devRef .tc main_v57)
      = KHost0.hsens3Fn (V (Proc.devRef .tc main_arg0)) (V (Proc.devRef .tc main_arg3)) := by
  after_results_simp <;> rfl

theorem s2_v56 (V : Valuation τ sig (Elt F)) :
    StableHlo.after (Gen.hostOps0_2 (F := F)) V (Proc.devRef .tc main_v56) = KHost0.bias2dFn (V (Proc.devRef .tc main_arg4)) := by
  after_results_simp <;> rfl

/-- The adjacency matrix from the edge array. -/
def adjFnK (E : IVec S2x4000 32) : FVec F S502x502 .f32 :=
  KHost0.adjFn (srcRawK E) (dstRawK E) (nrmFnK (F := F) E)

theorem adjOf_W2 (W : Valuation τ sig (Elt F)) :
    adjOf (StableHlo.after (Gen.hostOps0_1 (F := F)) (StableHlo.after (Gen.hostOps0 (F := F)) W))
      = adjFnK (F := F) (W (Proc.devRef .tc main_arg2)) := by
  rw [adjOf, s1_v3, s1_v6, s1_v19, s0_v3, s0_v6, s0_v17, s0_v18, s0_cst_3]
  rfl

theorem k0_abf (W : Valuation τ sig (Elt F)) :
    W3 W (Proc.devRef .tc main_v50) = truncf .bf16 (adjFnK (F := F) (W (Proc.devRef .tc main_arg2))) bitsLt_bf16_f32 := by
  rw [W3, s2_v50, adjOf_W2]

theorem k0_ybase (W : Valuation τ sig (Elt F)) :
    W3 W (Proc.devRef .tc main_v53)
      = KHost0.ybaseFn (adjFnK (F := F) (W (Proc.devRef .tc main_arg2))) (W (Proc.devRef .tc main_arg1)) (W (Proc.devRef .tc main_arg3)) := by
  rw [W3, s2_v53, adjOf_W2, s1_arg1, s1_arg3, s0_arg1, s0_arg3]

theorem k0_asens (W : Valuation τ sig (Elt F)) :
    W3 W (Proc.devRef .tc main_v55) = KHost0.asensFn (adjFnK (F := F) (W (Proc.devRef .tc main_arg2))) := by
  rw [W3, s2_v55, adjOf_W2]

theorem k0_hsens (W : Valuation τ sig (Elt F)) :
    W3 W (Proc.devRef .tc main_v57) = KHost0.hsens3Fn (W (Proc.devRef .tc main_arg0)) (W (Proc.devRef .tc main_arg3)) := by
  rw [W3, s2_v57, s1_arg0, s1_arg3, s0_arg0, s0_arg3]

theorem k0_bias (W : Valuation τ sig (Elt F)) :
    W3 W (Proc.devRef .tc main_v56) = KHost0.bias2dFn (W (Proc.devRef .tc main_arg4)) := by
  rw [W3, s2_v56, s1_arg4, s0_arg4]

/-! ## The same preamble stated over the other program's names -/

theorem srcRawK_eq (E : IVec S2x4000 32) : srcRawK E = Cert.GraphPre.srcRaw E := rfl

theorem dstRawK_eq (E : IVec S2x4000 32) : dstRawK E = Cert.GraphPre.dstRaw E := rfl

theorem degFnK_eq (E : IVec S2x4000 32) : degFnK (F := F) (dstRawK E) = Cert.GraphPre.degFn (F := F) E := rfl

theorem dinvFnK_eq (E : IVec S2x4000 32) : dinvFnK (F := F) (dstRawK E) = Cert.GraphPre.dinvFn (F := F) E := rfl

theorem nrmFnK_eq (E : IVec S2x4000 32) : nrmFnK (F := F) E = Cert.GraphPre.nrmFn (F := F) E := rfl

/-! ## The preamble's values -/

section Values

variable (I : Cert.Model.Inp) (E : IVec S2x4000 32)

theorem srcRawK_toInt (hE : ∀ r e, E (ix2 r e) = I.E r e) (hR : Cert.Iface.InRange I) (e : Fin 4502) :
    (Cert.Model.normw (srcRawK E (ix1 e))).toInt = ((Cert.Model.src I e).val : ℤ) :=
  Cert.GraphPre.src_toInt I E hE hR e

theorem dstRawK_toInt (hE : ∀ r e, E (ix2 r e) = I.E r e) (hR : Cert.Iface.InRange I) (e : Fin 4502) :
    (Cert.Model.normw (dstRawK E (ix1 e))).toInt = ((Cert.Model.dst I e).val : ℤ) :=
  Cert.GraphPre.dst_toInt I E hE hR e

theorem nrmFnK_apply (hE : ∀ r e, E (ix2 r e) = I.E r e) (hR : Cert.Iface.InRange I) (e : Fin 4502) :
    nrmFnK (F := Ideal) E (ix1 e) = ((Cert.Model.nrm I e : ℝ) : EReal) :=
  Cert.GraphPre.nrmFn_apply I E hE hR e

end Values

end Cert.KernelIdeal.KBridge0

end
-- ==== Proof.KReg0Pay.lean ====
/-
  The first call, up to the run's frame.  One grid step takes eight batch elements.  For each it forms the rows
  `ybase + asens ⊗ row + bias`, stores them, and adds their column sums into a carried vector; the step's mean is that
  vector over 4016 = 8 · 502; a second pass over the stored rows adds the column sums of the squared distances to the mean.
  Here: each payload read at an index over the extended reals; one trip of each loop as a payload of the loads at the
  trip's offset; the two recursions (the carried sums, the pieces stored so far) by induction on the trip; the model's
  per-step statistics as those sums.
-/
import proofs.«171858_j54966991454756_2_alg».proof.Proof.KILoops
import proofs.«171858_j54966991454756_2_alg».proof.Proof.Model
import proofs.«171858_j54966991454756_2_alg».proof.Proof.Consts
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.KReg0

open Cert.KernelIdeal Cert.KernelIdeal.Gen
open Idealize.ShloMosaic Idealize.ShloMosaic.TcCoe Idealize.SL.Sem
open Idealize.ShloMosaic.Pipeline (Dat)
open Idealize.ShloMosaic.ValueIdx
open Finset

/-! ## The payloads at an index, over the extended reals -/

/-- A `[a, 1]` column broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A finite sum of reals, coerced, is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Payloads

variable (ybase : Fin 502 → Fin 256 → ℝ) (asens : Fin 502 → ℝ) (bias : Fin 256 → ℝ)

/-- One batch element's rows of the first layer: base term plus the sensor column times the element's row plus the bias. -/
def yrow (hrow : Fin 256 → ℝ) (n : Fin 502) (h : Fin 256) : ℝ := ybase n h + asens n * hrow h + bias h

theorem pay2_apply (v0 : FVec Ideal S502x256 .f32) (v2 : FVec Ideal S502x1 .f32) (v4 : FVec Ideal S1x256 .f32)
    (v21 : FVec Ideal S1x1x256 .f32) (hrow : Fin 256 → ℝ)
    (h0 : ∀ n h, v0 (ix2 n h) = ((ybase n h : ℝ) : EReal)) (h2 : ∀ n, v2 (ix2 n 0) = ((asens n : ℝ) : EReal))
    (h4 : ∀ h, v4 (ix2 0 h) = ((bias h : ℝ) : EReal)) (h21 : ∀ h, v21 (ix3 0 0 h) = ((hrow h : ℝ) : EReal))
    (n : Fin 502) (h : Fin 256) :
    k0_pay2 (F := Ideal) v0 v2 v4 v21 (ix2 n h) = ((yrow ybase asens bias hrow n h : ℝ) : EReal) := by
  unfold k0_pay2 yrow
  rw [addf_apply, addf_apply, mulf_apply, broadcastTo_a1_ab_apply, broadcastTo_1b_ab_apply, broadcastTo_1b_ab_apply,
    shapeCast_1ab_ab_apply, shapeCast_self, shapeCast_self, shapeCast_self, h0, h2, h4, h21,
    EReal.coe_add, EReal.coe_add, EReal.coe_mul]

end Payloads

section Payloads2

variable {F : FTy → Type} [FloatOps F]

theorem lift_S256 (h : Fin 256) (k : Fin 502) : reduces_S502x256_S256.lift (ix1 h) k = ix2 k h :=
  funext fun a => match a with | ⟨0, _⟩ => rfl | ⟨1, _⟩ => rfl

theorem pay3_apply (v0 : Vec F S502x256 .f32) (v2 : Vec F S502x1 .f32) (v4 : Vec F S1x256 .f32) (v21 : Vec F S1x1x256 .f32)
    (u : Fin 1) (n : Fin 502) (h : Fin 256) :
    k0_pay3 v0 v2 v4 v21 (ix3 u n h) = k0_pay2 v0 v2 v4 v21 (ix2 n h) := by
  unfold k0_pay3; exact shapeCast_ab_1ab_apply _ _ u n h

theorem pay6_apply (v8 : FVec F S1x256 .f32) (u w : Fin 1) (h : Fin 256) :
    k0_pay6 v8 (ix3 u w h) = k0_pay5 v8 (ix2 w h) := by
  unfold k0_pay6; exact shapeCast_ab_1ab_apply _ _ u w h

theorem pay9_apply (v16 : FVec F S1x256 .f32) (u w : Fin 1) (h : Fin 256) :
    k0_pay9 v16 (ix3 u w h) = v16 (ix2 w h) := by
  unfold k0_pay9; exact shapeCast_ab_1ab_apply _ _ u w h

theorem pay1_apply (j : S1x256.Idx) : (k0_pay1 (F := Ideal)) j = 0 := by
  unfold k0_pay1; rw [broadcast_apply]; exact Cert.Consts.ofBits_zero

theorem pay7_apply (j : S1x256.Idx) : (k0_pay7 (F := Ideal)) j = 0 := by
  unfold k0_pay7; rw [broadcast_apply]; exact Cert.Consts.ofBits_zero

theorem pay4_apply (v0 : FVec Ideal S502x256 .f32) (v2 : FVec Ideal S502x1 .f32) (v4 : FVec Ideal S1x256 .f32)
    (acc : FVec Ideal S1x256 .f32) (v21 : FVec Ideal S1x1x256 .f32) (u : Fin 1) (h : Fin 256) :
    k0_pay4 (F := Ideal) v0 v2 v4 acc v21 (ix2 u h)
      = acc (ix2 u h) + ∑ n : Fin 502, k0_pay2 (F := Ideal) v0 v2 v4 v21 (ix2 n h) := by
  unfold k0_pay4
  rw [addf_apply, shapeCast_a_1a_apply]
  refine congrArg (acc (ix2 u h) + ·) ?_
  refine (Ideal.multiReduction_add_single _ _ _ _ _ _).trans ?_
  exact Finset.sum_congr rfl fun (k : Fin 502) _ => congrArg _ (lift_S256 h k)

theorem pay5_apply (v8 : FVec Ideal S1x256 .f32) (s : Fin 256 → ℝ) (h8 : ∀ h, v8 (ix2 0 h) = ((s h : ℝ) : EReal))
    (u : Fin 1) (h : Fin 256) : k0_pay5 (F := Ideal) v8 (ix2 u h) = ((s h / 4016 : ℝ) : EReal) := by
  obtain rfl : u = 0 := Subsingleton.elim _ _
  unfold k0_pay5
  rw [divf_apply, broadcast_apply, h8]
  rw [show (Scalar.ofBits .f32 0x457B0000#32 : Ideal .f32) = ((4016 : ℝ) : EReal) from Cert.Consts.ofBits_4016]
  rw [Ideal.div_coe (by norm_num), ← EReal.coe_mul]
  congr 1; ring

theorem pay8_apply (v8 acc : FVec Ideal S1x256 .f32) (v21 : FVec Ideal S1x502x256 .f32) (u : Fin 1) (h : Fin 256) :
    k0_pay8 (F := Ideal) v8 acc v21 (ix2 u h)
      = acc (ix2 u h) + ∑ n : Fin 502, (v21 (ix3 0 n h) - k0_pay5 (F := Ideal) v8 (ix2 0 h))
          * (v21 (ix3 0 n h) - k0_pay5 (F := Ideal) v8 (ix2 0 h)) := by
  unfold k0_pay8
  rw [addf_apply, shapeCast_a_1a_apply]
  refine congrArg (acc (ix2 u h) + ·) ?_
  refine (Ideal.multiReduction_add_single _ _ _ _ _ _).trans ?_
  refine Finset.sum_congr rfl fun (k : Fin 502) _ => ?_
  refine (congrArg _ (lift_S256 h k)).trans ?_
  rw [mulf_apply, subf_apply, broadcastTo_1b_ab_apply, shapeCast_1ab_ab_apply]

end Payloads2

/-! ## One trip of each loop, opened once -/

section Trips

variable {F : FTy → Type} [FloatOps F]

/-- The row of the sensor block the first loop's trip `k` loads. -/
abbrev hsAt (arg3 : Memref sig .tc .vmem S8x1x256 .f32) (X : BufTy.Contents (Elt F) arg3.view.ty) (k : Fin k0_t1_loop.trips) :
    Vec F S1x1x256 .f32 :=
  View.readAt (Elt F) arg3.view (Rect.unit (s := S8x1x256) (k0_off1 k) S1x1x256.size (k0_off1_inb k)).toLoadRect X

theorem tripR1 (𝒱 : Variants) (bd : Option 𝒱.V) (c : Dev nD) (i : grid0.Coords) (arg1 : Memref sig .tc .vmem S502x256 .f32) (harg1 : arg1.IsWhole) (arg2 : Memref sig .tc .vmem S502x1 .f32) (harg2 : arg2.IsWhole) (arg3 : Memref sig .tc .vmem S8x1x256 .f32) (harg3 : arg3.IsWhole) (arg4 : Memref sig .tc .vmem S1x256 .f32) (harg4 : arg4.IsWhole) (arg5 : Memref sig .tc .vmem S8x502x256 .f32) (harg5 : arg5.IsWhole) (arg6 : Memref sig .tc .vmem S1x1x256 .f32) (harg6 : arg6.IsWhole) (arg7 : Memref sig .tc .vmem S1x1x256 .f32) (harg7 : arg7.IsWhole) (v0 : Vec F S502x256 .f32) (v2 : Vec F S502x1 .f32) (v4 : Vec F S1x256 .f32) (X : BufTy.Contents (Elt F) arg3.view.ty) (k : Fin k0_t1_loop.trips) (acc : FVec F S1x256 .f32) :
    tripR_k0_t1 (F := F) 𝒱 c bd i arg1 harg1 arg2 harg2 arg3 harg3 arg4 harg4 arg5 harg5 arg6 harg6 arg7 harg7 v0 v2 v4 X k acc = k0_pay4 v0 v2 v4 acc (hsAt arg3 X k) := by
  unfold tripR_k0_t1 trip_k0_t1
  rfl

theorem tripL1 (𝒱 : Variants) (bd : Option 𝒱.V) (c : Dev nD) (i : grid0.Coords) (arg1 : Memref sig .tc .vmem S502x256 .f32) (harg1 : arg1.IsWhole) (arg2 : Memref sig .tc .vmem S502x1 .f32) (harg2 : arg2.IsWhole) (arg3 : Memref sig .tc .vmem S8x1x256 .f32) (harg3 : arg3.IsWhole) (arg4 : Memref sig .tc .vmem S1x256 .f32) (harg4 : arg4.IsWhole) (arg5 : Memref sig .tc .vmem S8x502x256 .f32) (harg5 : arg5.IsWhole) (arg6 : Memref sig .tc .vmem S1x1x256 .f32) (harg6 : arg6.IsWhole) (arg7 : Memref sig .tc .vmem S1x1x256 .f32) (harg7 : arg7.IsWhole) (v0 : Vec F S502x256 .f32) (v2 : Vec F S502x1 .f32) (v4 : Vec F S1x256 .f32) (X : BufTy.Contents (Elt F) arg3.view.ty) (k : Fin k0_t1_loop.trips) (acc : FVec F S1x256 .f32) :
    tripL_k0_t1 (F := F) 𝒱 c bd i arg1 harg1 arg2 harg2 arg3 harg3 arg4 harg4 arg5 harg5 arg6 harg6 arg7 harg7 v0 v2 v4 X k acc
      = [⟨Rect.unit (s := S8x502x256) (k0_off2 k) S1x502x256.size (k0_off2_inb k), k0_pay3 v0 v2 v4 (hsAt arg3 X k)⟩] := by
  unfold tripL_k0_t1 trip_k0_t1
  rfl

theorem tripR2 (𝒱 : Variants) (bd : Option 𝒱.V) (c : Dev nD) (i : grid0.Coords) (arg1 : Memref sig .tc .vmem S502x256 .f32) (harg1 : arg1.IsWhole) (arg2 : Memref sig .tc .vmem S502x1 .f32) (harg2 : arg2.IsWhole) (arg3 : Memref sig .tc .vmem S8x1x256 .f32) (harg3 : arg3.IsWhole) (arg4 : Memref sig .tc .vmem S1x256 .f32) (harg4 : arg4.IsWhole) (arg5 : Memref sig .tc .vmem S8x502x256 .f32) (harg5 : arg5.IsWhole) (arg6 : Memref sig .tc .vmem S1x1x256 .f32) (harg6 : arg6.IsWhole) (arg7 : Memref sig .tc .vmem S1x1x256 .f32) (harg7 : arg7.IsWhole) (v8 : FVec F S1x256 .f32) (X : BufTy.Contents (Elt F) arg5.view.ty) (k : Fin k0_t2_loop.trips) (acc : FVec F S1x256 .f32) :
    tripR_k0_t2 (F := F) 𝒱 c bd i arg1 harg1 arg2 harg2 arg3 harg3 arg4 harg4 arg5 harg5 arg6 harg6 arg7 harg7 v8 X k acc
      = k0_pay8 v8 acc (View.readAt (Elt F) arg5.view (Rect.unit (s := S8x502x256) (k0_off3 k) S1x502x256.size (k0_off3_inb k)).toLoadRect X) := by
  unfold tripR_k0_t2 trip_k0_t2
  rfl

end Trips

/-! ## The two recursions: the carried sums and the pieces stored so far -/

section Recursion

/-- Where the row rectangle of trip `k` places a row's index: batch element `k` of the block. -/
theorem emb_row (off : Fin 3 → ℕ) (k : ℕ) (hk : k < 8) (hoff : off = ![k, 0, 0])
    (inb : ∀ a, off a + S1x502x256.size a ≤ S8x502x256.size a) (u : Fin 1) (n : Fin 502) (h : Fin 256) :
    (Rect.unit (s := S8x502x256) off S1x502x256.size inb).emb (ix3 u n h) = ix3 (⟨k, hk⟩ : Fin 8) n h := by
  subst hoff
  funext a; apply Fin.ext
  match a with
  | ⟨0, _⟩ => show k + 1 * u.val = k; omega
  | ⟨1, _⟩ => show 0 + 1 * n.val = n.val; omega
  | ⟨2, _⟩ => show 0 + 1 * h.val = h.val; omega

variable (ybase : Fin 502 → Fin 256 → ℝ) (asens : Fin 502 → ℝ) (bias : Fin 256 → ℝ) (hs : ℕ → Fin 256 → ℝ)

/-- The column sums over the first `k` batch elements of the step. -/
def psum (k : ℕ) (h : Fin 256) : ℝ := ∑ j ∈ range k, ∑ n : Fin 502, yrow ybase asens bias (hs j) n h

/-- The sums of the squared distances to `m` over the first `k` batch elements of the step. -/
def psq (m : Fin 256 → ℝ) (k : ℕ) (h : Fin 256) : ℝ :=
  ∑ j ∈ range k, ∑ n : Fin 502, (yrow ybase asens bias (hs j) n h - m h) * (yrow ybase asens bias (hs j) n h - m h)

/-- What the step's output block holds: row `b` is batch element `b`'s rows. -/
def Gy (y : S8x502x256.Idx) : EReal := ((yrow ybase asens bias (hs (y 0).val) (y 1) (y 2) : ℝ) : EReal)

variable (𝒱 : Variants) (bd : Option 𝒱.V) (c : Dev nD) (i : grid0.Coords) (arg1 : Memref sig .tc .vmem S502x256 .f32) (harg1 : arg1.IsWhole) (arg2 : Memref sig .tc .vmem S502x1 .f32) (harg2 : arg2.IsWhole) (arg3 : Memref sig .tc .vmem S8x1x256 .f32) (harg3 : arg3.IsWhole) (arg4 : Memref sig .tc .vmem S1x256 .f32) (harg4 : arg4.IsWhole) (arg5 : Memref sig .tc .vmem S8x502x256 .f32) (harg5 : arg5.IsWhole) (arg6 : Memref sig .tc .vmem S1x1x256 .f32) (harg6 : arg6.IsWhole) (arg7 : Memref sig .tc .vmem S1x1x256 .f32) (harg7 : arg7.IsWhole)
variable (v0 : FVec Ideal S502x256 .f32) (v2 : FVec Ideal S502x1 .f32) (v4 : FVec Ideal S1x256 .f32)
variable (X : BufTy.Contents (Elt Ideal) arg3.view.ty)
variable (h0 : ∀ n h, v0 (ix2 n h) = ((ybase n h : ℝ) : EReal)) (h2 : ∀ n, v2 (ix2 n 0) = ((asens n : ℝ) : EReal))
  (h4 : ∀ h, v4 (ix2 0 h) = ((bias h : ℝ) : EReal))
  (hX : ∀ (k : Fin k0_t1_loop.trips) (h : Fin 256), hsAt arg3 X k (ix3 0 0 h) = ((hs k.val h : ℝ) : EReal))

include h0 h2 h4 hX

/-- Before trip `k` of the first loop the carried value is the column sums over the batch elements before `k`. -/
theorem st1_val : ∀ k, k ≤ k0_t1_loop.trips → ∀ (u : Fin 1) (h : Fin 256),
    (st_k0_t1 (F := Ideal) 𝒱 c bd i arg1 harg1 arg2 harg2 arg3 harg3 arg4 harg4 arg5 harg5 arg6 harg6 arg7 harg7 v0 v2 v4 X (k0_pay1 (F := Ideal)) k).1 (ix2 u h)
      = ((psum ybase asens bias hs k h : ℝ) : EReal)
  | 0, _, u, h => by
    rw [st_k0_t1_zero, pay1_apply]; simp [psum]
  | k + 1, hk, u, h => by
    have hk' : k < k0_t1_loop.trips := hk
    have e : st_k0_t1 (F := Ideal) 𝒱 c bd i arg1 harg1 arg2 harg2 arg3 harg3 arg4 harg4 arg5 harg5 arg6 harg6 arg7 harg7 v0 v2 v4 X (k0_pay1 (F := Ideal)) (k + 1) = _ :=
      st_k0_t1_succ (F := Ideal) 𝒱 c bd i arg1 harg1 arg2 harg2 arg3 harg3 arg4 harg4 arg5 harg5 arg6 harg6 arg7 harg7 v0 v2 v4 X (k0_pay1 (F := Ideal)) ⟨k, hk'⟩
    rw [e]
    dsimp only
    rw [tripR1, pay4_apply, st1_val k (le_of_lt hk') u h]
    simp only [pay2_apply ybase asens bias v0 v2 v4 _ (hs k) h0 h2 h4 (hX ⟨k, hk'⟩)]
    rw [← coe_sum, ← EReal.coe_add, psum, psum, Finset.sum_range_succ]

/-- Every piece stored before trip `k` of the first loop is a block of the one function `Gy`. -/
theorem st1_pieces : ∀ k, k ≤ k0_t1_loop.trips →
    ∀ p ∈ (st_k0_t1 (F := Ideal) 𝒱 c bd i arg1 harg1 arg2 harg2 arg3 harg3 arg4 harg4 arg5 harg5 arg6 harg6 arg7 harg7 v0 v2 v4 X (k0_pay1 (F := Ideal)) k).2,
      ∀ x : p.1.shape.Idx, p.2 x = Gy ybase asens bias hs (p.1.emb x)
  | 0, _, p, hp, x => by
    rw [st_k0_t1.eq_1] at hp; simp at hp
  | k + 1, hk, p, hp, x => by
    have hk' : k < k0_t1_loop.trips := hk
    have hk8 : k < 8 := Nat.lt_of_lt_of_le hk' k0_t1_abs.2.1
    have e : st_k0_t1 (F := Ideal) 𝒱 c bd i arg1 harg1 arg2 harg2 arg3 harg3 arg4 harg4 arg5 harg5 arg6 harg6 arg7 harg7 v0 v2 v4 X (k0_pay1 (F := Ideal)) (k + 1) = _ :=
      st_k0_t1_succ (F := Ideal) 𝒱 c bd i arg1 harg1 arg2 harg2 arg3 harg3 arg4 harg4 arg5 harg5 arg6 harg6 arg7 harg7 v0 v2 v4 X (k0_pay1 (F := Ideal)) ⟨k, hk'⟩
    rw [e] at hp
    dsimp only at hp
    rw [tripL1] at hp
    rcases List.mem_append.mp hp with h1 | h1
    · obtain rfl := List.mem_singleton.mp h1
      obtain ⟨u, n, h, rfl⟩ : ∃ (u : Fin 1) (n : Fin 502) (h : Fin 256), x = ix3 u n h := ⟨x 0, x 1, x 2, eq_ix3 x⟩
      show k0_pay3 (F := Ideal) v0 v2 v4 (hsAt arg3 X ⟨k, hk'⟩) (ix3 u n h) = Gy ybase asens bias hs ((Rect.unit (s := S8x502x256) (k0_off2 ⟨k, hk'⟩) S1x502x256.size (k0_off2_inb ⟨k, hk'⟩)).emb (ix3 u n h))
      rw [pay3_apply, pay2_apply ybase asens bias v0 v2 v4 _ (hs k) h0 h2 h4 (hX ⟨k, hk'⟩),
        emb_row _ k hk8 (k0_off2_eq ⟨k, hk'⟩)]
      rfl
    · exact st1_pieces k (le_of_lt hk') p h1 x

end Recursion

section Recursion2

variable (ybase : Fin 502 → Fin 256 → ℝ) (asens : Fin 502 → ℝ) (bias : Fin 256 → ℝ) (hs : ℕ → Fin 256 → ℝ)
variable (𝒱 : Variants) (bd : Option 𝒱.V) (c : Dev nD) (i : grid0.Coords) (arg1 : Memref sig .tc .vmem S502x256 .f32) (harg1 : arg1.IsWhole) (arg2 : Memref sig .tc .vmem S502x1 .f32) (harg2 : arg2.IsWhole) (arg3 : Memref sig .tc .vmem S8x1x256 .f32) (harg3 : arg3.IsWhole) (arg4 : Memref sig .tc .vmem S1x256 .f32) (harg4 : arg4.IsWhole) (arg5 : Memref sig .tc .vmem S8x502x256 .f32) (harg5 : arg5.IsWhole) (arg6 : Memref sig .tc .vmem S1x1x256 .f32) (harg6 : arg6.IsWhole) (arg7 : Memref sig .tc .vmem S1x1x256 .f32) (harg7 : arg7.IsWhole)
variable (v8 : FVec Ideal S1x256 .f32) (X5 : BufTy.Contents (Elt Ideal) arg5.view.ty) (s : Fin 256 → ℝ)
variable (h8 : ∀ h, v8 (ix2 0 h) = ((s h : ℝ) : EReal))
  (hY : ∀ (k : Fin k0_t2_loop.trips) (n : Fin 502) (h : Fin 256),
    View.readAt (Elt Ideal) arg5.view (Rect.unit (s := S8x502x256) (k0_off3 k) S1x502x256.size (k0_off3_inb k)).toLoadRect X5 (ix3 0 n h)
      = ((yrow ybase asens bias (hs k.val) n h : ℝ) : EReal))

include h8 hY

/-- Before trip `k` of the second loop the carried value is the sums of the squared distances to `s / 4016` over the
    batch elements before `k`. -/
theorem st2_val : ∀ k, k ≤ k0_t2_loop.trips → ∀ (u : Fin 1) (h : Fin 256),
    (st_k0_t2 (F := Ideal) 𝒱 c bd i arg1 harg1 arg2 harg2 arg3 harg3 arg4 harg4 arg5 harg5 arg6 harg6 arg7 harg7 v8 X5 (k0_pay7 (F := Ideal)) k) (ix2 u h)
      = ((psq ybase asens bias hs (fun h => s h / 4016) k h : ℝ) : EReal)
  | 0, _, u, h => by
    rw [st_k0_t2_zero, pay7_apply]; simp [psq]
  | k + 1, hk, u, h => by
    have hk' : k < k0_t2_loop.trips := hk
    have e : st_k0_t2 (F := Ideal) 𝒱 c bd i arg1 harg1 arg2 harg2 arg3 harg3 arg4 harg4 arg5 harg5 arg6 harg6 arg7 harg7 v8 X5 (k0_pay7 (F := Ideal)) (k + 1) = _ :=
      st_k0_t2_succ (F := Ideal) 𝒱 c bd i arg1 harg1 arg2 harg2 arg3 harg3 arg4 harg4 arg5 harg5 arg6 harg6 arg7 harg7 v8 X5 (k0_pay7 (F := Ideal)) ⟨k, hk'⟩
    rw [e]
    dsimp only
    rw [tripR2, pay8_apply, st2_val k (le_of_lt hk') u h]
    simp only [hY ⟨k, hk'⟩, pay5_apply v8 s h8, ← EReal.coe_sub, ← EReal.coe_mul]
    rw [← coe_sum, ← EReal.coe_add, psq, psq, Finset.sum_range_succ]

end Recursion2

/-! ## The model's per-step statistics as the sums the two loops carry -/

section Stats

variable (ybase : Fin 502 → Fin 256 → ℝ) (asens : Fin 502 → ℝ) (hsens : Fin 128 → Fin 256 → ℝ) (bias : Fin 256 → ℝ)

/-- The first layer's raw output: base term plus the sensor column times the batch element's row plus the bias. -/
def y1 (b : Fin 128) (n : Fin 502) (h : Fin 256) : ℝ := ybase n h + asens n * hsens b h + bias h

/-- The sensor row of batch element `j` of step `t` (zero past the last batch element). -/
def hsOf (t j : ℕ) (h : Fin 256) : ℝ := if hj : 8 * t + j < 128 then hsens ⟨8 * t + j, hj⟩ h else 0

theorem yrow_hsOf (g : Fin 16) (i : Fin 8) (n : Fin 502) (h : Fin 256) :
    yrow ybase asens bias (hsOf hsens g.val i.val) n h = y1 ybase asens hsens bias (Cert.Model.grow g i) n h := by
  unfold yrow y1 hsOf Cert.Model.grow
  rw [dif_pos (by have := g.isLt; have := i.isLt; omega)]

theorem gmean_eq (g : Fin 16) (h : Fin 256) :
    Cert.Model.gmean (y1 ybase asens hsens bias) g h = psum ybase asens bias (hsOf hsens g.val) 8 h / 4016 := by
  unfold Cert.Model.gmean psum
  rw [Finset.sum_range]
  exact congrArg (· / 4016) (Finset.sum_congr rfl fun i _ => Finset.sum_congr rfl fun n _ => (yrow_hsOf ybase asens hsens bias g i n h).symm)

theorem gm2_eq (g : Fin 16) (h : Fin 256) :
    Cert.Model.gm2 (y1 ybase asens hsens bias) g h
      = psq ybase asens bias (hsOf hsens g.val) (fun h => psum ybase asens bias (hsOf hsens g.val) 8 h / 4016) 8 h := by
  unfold Cert.Model.gm2 psq
  rw [Finset.sum_range]
  refine Finset.sum_congr rfl fun i _ => Finset.sum_congr rfl fun n _ => ?_
  rw [gmean_eq, yrow_hsOf, pow_two]

end Stats

end Cert.KernelIdeal.KReg0

end
-- ==== Proof.KReg0.lean ====
/-
  The first call, read as values.  At every grid step the three output blocks are read off the pieces the step's two loops
  leave: the output block holds, for each of the step's eight batch elements, the rows `ybase + asens ⊗ row + bias`; the
  mean block holds their column sums over 4016; the third block holds the column sums of the squared distances to that
  mean, the second loop reading back what the first stored.  Each input block is its array read where the step's rectangle
  says; the output blocks tile their arrays; so after the call the output array is the first layer's raw output and the
  two statistics arrays are each group's mean and centred sum of squares.
-/
import proofs.«171858_j54966991454756_2_alg».proof.Proof.KIFrame
import proofs.«171858_j54966991454756_2_alg».proof.Proof.KReg0Pay
import Idealize.ShloMosaic.Lib.Pipeline.Value

set_option maxRecDepth 16384

noncomputable section

namespace Cert.KernelIdeal.KReg0

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx
open Finset

section Cover

theorem trips1 : k0_t1_loop.trips = 8 := by decide
theorem trips2 : k0_t2_loop.trips = 8 := by decide

variable (ybase : Fin 502 → Fin 256 → ℝ) (asens : Fin 502 → ℝ) (bias : Fin 256 → ℝ) (hs : ℕ → Fin 256 → ℝ)
variable (𝒱 : Variants) (bd : Option 𝒱.V) (c : Dev nD) (i : grid0.Coords) (arg1 : Memref sig .tc .vmem S502x256 .f32) (harg1 : arg1.IsWhole) (arg2 : Memref sig .tc .vmem S502x1 .f32) (harg2 : arg2.IsWhole) (arg3 : Memref sig .tc .vmem S8x1x256 .f32) (harg3 : arg3.IsWhole) (arg4 : Memref sig .tc .vmem S1x256 .f32) (harg4 : arg4.IsWhole) (arg5 : Memref sig .tc .vmem S8x502x256 .f32) (harg5 : arg5.IsWhole) (arg6 : Memref sig .tc .vmem S1x1x256 .f32) (harg6 : arg6.IsWhole) (arg7 : Memref sig .tc .vmem S1x1x256 .f32) (harg7 : arg7.IsWhole)
variable (v0 : FVec Ideal S502x256 .f32) (v2 : FVec Ideal S502x1 .f32) (v4 : FVec Ideal S1x256 .f32)
variable (X : BufTy.Contents (Elt Ideal) arg3.view.ty)

/-- The pieces stored before trip `k` of the first loop cover the batch elements before `k`. -/
theorem st1_cover : ∀ k, k ≤ k0_t1_loop.trips → ∀ y : S8x502x256.Idx, (y 0).val < k →
    ∃ p ∈ (st_k0_t1 (F := Ideal) 𝒱 c bd i arg1 harg1 arg2 harg2 arg3 harg3 arg4 harg4 arg5 harg5 arg6 harg6 arg7 harg7 v0 v2 v4 X (k0_pay1 (F := Ideal)) k).2, y ∈ p.1.set
  | 0, _, y, hy => absurd hy (Nat.not_lt_zero _)
  | k + 1, hk, y, hy => by
    have hk' : k < k0_t1_loop.trips := hk
    have e : st_k0_t1 (F := Ideal) 𝒱 c bd i arg1 harg1 arg2 harg2 arg3 harg3 arg4 harg4 arg5 harg5 arg6 harg6 arg7 harg7 v0 v2 v4 X (k0_pay1 (F := Ideal)) (k + 1) = _ :=
      st_k0_t1_succ (F := Ideal) 𝒱 c bd i arg1 harg1 arg2 harg2 arg3 harg3 arg4 harg4 arg5 harg5 arg6 harg6 arg7 harg7 v0 v2 v4 X (k0_pay1 (F := Ideal)) ⟨k, hk'⟩
    rw [e]
    dsimp only
    rw [tripL1]
    by_cases hyk : (y 0).val = k
    · refine ⟨_, List.mem_append_left _ (List.mem_singleton_self _), ?_⟩
      rw [Rect.mem_set_unit, k0_off2_eq]
      intro a
      have h1 : (y 1).val < 502 := (y 1).isLt
      have h2 : (y 2).val < 256 := (y 2).isLt
      match a with
      | ⟨0, _⟩ => show k ≤ (y 0).val ∧ (y 0).val < k + 1; omega
      | ⟨1, _⟩ => show 0 ≤ (y 1).val ∧ (y 1).val < 0 + 502; omega
      | ⟨2, _⟩ => show 0 ≤ (y 2).val ∧ (y 2).val < 0 + 256; omega
    · obtain ⟨p, hp, hyp⟩ := st1_cover k (le_of_lt hk') y (by omega)
      exact ⟨p, List.mem_append_right _ hp, hyp⟩

variable (h0 : ∀ n h, v0 (ix2 n h) = ((ybase n h : ℝ) : EReal)) (h2 : ∀ n, v2 (ix2 n 0) = ((asens n : ℝ) : EReal))
  (h4 : ∀ h, v4 (ix2 0 h) = ((bias h : ℝ) : EReal))
  (hX : ∀ (k : Fin k0_t1_loop.trips) (h : Fin 256), hsAt arg3 X k (ix3 0 0 h) = ((hs k.val h : ℝ) : EReal))

include h0 h2 h4 hX

/-- After the first loop the stored pieces read back, at every index, as the step's output block. -/
theorem st1_canon (y : S8x502x256.Idx) :
    View.canon (st_k0_t1 (F := Ideal) 𝒱 c bd i arg1 harg1 arg2 harg2 arg3 harg3 arg4 harg4 arg5 harg5 arg6 harg6 arg7 harg7 v0 v2 v4 X (k0_pay1 (F := Ideal)) k0_t1_loop.trips).2 y
      = Gy ybase asens bias hs y :=
  View.canon_apply_of_pieces (Gy ybase asens bias hs) _
    (st1_pieces ybase asens bias hs 𝒱 bd c i arg1 harg1 arg2 harg2 arg3 harg3 arg4 harg4 arg5 harg5 arg6 harg6 arg7 harg7 v0 v2 v4 X h0 h2 h4 hX _ le_rfl) y
    (st1_cover 𝒱 bd c i arg1 harg1 arg2 harg2 arg3 harg3 arg4 harg4 arg5 harg5 arg6 harg6 arg7 harg7 v0 v2 v4 X _ le_rfl y (by rw [trips1]; exact (y 0).isLt))

/-- So a load of batch element `k`'s rows from the block holding those pieces over anything reads that element's rows. -/
theorem st1_readback (k : Fin k0_t2_loop.trips) (n : Fin 502) (h : Fin 256) :
    View.readAt (Elt Ideal) arg5.view (Rect.unit (s := S8x502x256) (k0_off3 k) S1x502x256.size (k0_off3_inb k)).toLoadRect
        (arg5.view.writes (Elt Ideal) arg5.view.junk
          (st_k0_t1 (F := Ideal) 𝒱 c bd i arg1 harg1 arg2 harg2 arg3 harg3 arg4 harg4 arg5 harg5 arg6 harg6 arg7 harg7 v0 v2 v4 X (k0_pay1 (F := Ideal)) k0_t1_loop.trips).2) (ix3 0 n h)
      = ((yrow ybase asens bias (hs k.val) n h : ℝ) : EReal) := by
  have hk8 : k.val < 8 := Nat.lt_of_lt_of_le k.isLt k0_t2_abs.2.1
  rw [View.readAt_writes_junk_eq_canon]
  show View.canon _ ((Rect.unit (s := S8x502x256) (k0_off3 k) S1x502x256.size (k0_off3_inb k)).emb (ix3 0 n h)) = _
  rw [emb_row _ k.val hk8 (k0_off3_eq k), st1_canon ybase asens bias hs 𝒱 bd c i arg1 harg1 arg2 harg2 arg3 harg3 arg4 harg4 arg5 harg5 arg6 harg6 arg7 harg7 v0 v2 v4 X h0 h2 h4 hX]
  rfl

end Cover

/-! ## What one grid step leaves in the three output blocks -/

section Block

theorem hz2 : (![0, 0] : Fin 2 → Nat) = fun _ => 0 := funext fun a => by fin_cases a <;> rfl
theorem hz3 : (![0, 0, 0] : Fin 3 → Nat) = fun _ => 0 := funext fun a => by fin_cases a <;> rfl

/-- Where the row rectangle of trip `k` places an index of the sensor block: row `k`. -/
theorem emb_hs (off : Fin 3 → ℕ) (k : ℕ) (hk : k < 8) (hoff : off = ![k, 0, 0])
    (inb : ∀ a, off a + S1x1x256.size a ≤ S8x1x256.size a) (u w : Fin 1) (h : Fin 256) :
    (Rect.unit (s := S8x1x256) off S1x1x256.size inb).emb (ix3 u w h) = ix3 (⟨k, hk⟩ : Fin 8) (0 : Fin 1) h := by
  subst hoff
  funext a; apply Fin.ext
  match a with
  | ⟨0, _⟩ => show k + 1 * u.val = k; omega
  | ⟨1, _⟩ => show 0 + 1 * w.val = 0; omega
  | ⟨2, _⟩ => show 0 + 1 * h.val = h.val; omega

variable (c : Dev nD) (i : grid0.Coords) (arg1 : Memref sig .tc .vmem S502x256 .f32) (harg1 : arg1.IsWhole) (arg2 : Memref sig .tc .vmem S502x1 .f32) (harg2 : arg2.IsWhole) (arg3 : Memref sig .tc .vmem S8x1x256 .f32) (harg3 : arg3.IsWhole) (arg4 : Memref sig .tc .vmem S1x256 .f32) (harg4 : arg4.IsWhole) (arg5 : Memref sig .tc .vmem S8x502x256 .f32) (harg5 : arg5.IsWhole) (arg6 : Memref sig .tc .vmem S1x1x256 .f32) (harg6 : arg6.IsWhole) (arg7 : Memref sig .tc .vmem S1x1x256 .f32) (harg7 : arg7.IsWhole)
variable (x0 : FVec Ideal S502x256 .f32) (x1 : FVec Ideal S502x1 .f32) (x2 : FVec Ideal S8x1x256 .f32) (x3 : FVec Ideal S1x256 .f32)
variable (ybase : Fin 502 → Fin 256 → ℝ) (asens : Fin 502 → ℝ) (bias : Fin 256 → ℝ) (hs : ℕ → Fin 256 → ℝ)
variable (h0 : ∀ n h, x0 (ix2 n h) = ((ybase n h : ℝ) : EReal)) (h1 : ∀ n, x1 (ix2 n 0) = ((asens n : ℝ) : EReal))
  (h2 : ∀ (b : Fin 8) (h : Fin 256), x2 (ix3 b 0 h) = ((hs b.val h : ℝ) : EReal))
  (h3 : ∀ h, x3 (ix2 0 h) = ((bias h : ℝ) : EReal))

/-- The three whole-block loads read the blocks. -/
theorem ld0 : View.readAt (Elt Ideal) arg1.view (Rect.unit (s := S502x256) ![0, 0] S502x256.size inb_S502x256_S502x256_0_0).toLoadRect (harg1.unread x0) = x0 := by
  rw [View.readAt_eq_ld, harg1.read_unread, View.ld_unit_zero (S := S502x256) hz2]
theorem ld1 : View.readAt (Elt Ideal) arg2.view (Rect.unit (s := S502x1) ![0, 0] S502x1.size inb_S502x1_S502x1_0_0).toLoadRect (harg2.unread x1) = x1 := by
  rw [View.readAt_eq_ld, harg2.read_unread, View.ld_unit_zero (S := S502x1) hz2]
theorem ld3 : View.readAt (Elt Ideal) arg4.view (Rect.unit (s := S1x256) ![0, 0] S1x256.size inb_S1x256_S1x256_0_0).toLoadRect (harg4.unread x3) = x3 := by
  rw [View.readAt_eq_ld, harg4.read_unread, View.ld_unit_zero (S := S1x256) hz2]

include h2 in
/-- Trip `k`'s load of the sensor block reads row `k`. -/
theorem hX_of (k : Fin k0_t1_loop.trips) (h : Fin 256) :
    hsAt (F := Ideal) arg3 (harg3.unread x2) k (ix3 0 0 h) = ((hs k.val h : ℝ) : EReal) := by
  have hk8 : k.val < 8 := Nat.lt_of_lt_of_le k.isLt k0_t1_abs.2.1
  unfold hsAt
  rw [View.readAt_eq_ld, harg3.read_unread]
  show x2 ((Rect.unit (s := S8x1x256) (k0_off1 k) S1x1x256.size (k0_off1_inb k)).emb (ix3 0 0 h)) = _
  rw [emb_hs _ k.val hk8 (k0_off1_eq k)]
  exact h2 ⟨k.val, hk8⟩ h

include h0 h1 h2 h3

/-- The step's output block: batch element `b`'s rows. -/
theorem out4_apply (b : Fin 8) (n : Fin 502) (h : Fin 256) :
    out0_A_4 (F := Ideal) c i arg1 harg1 arg2 harg2 arg3 harg3 arg4 harg4 arg5 harg5 arg6 harg6 arg7 harg7 x0 x1 x2 x3 (ix3 b n h) = ((yrow ybase asens bias (hs b.val) n h : ℝ) : EReal) := by
  unfold out0_A_4
  rw [View.read_writes_junk_eq_canon]
  unfold kernelRun0_A
  dsimp only
  rw [ld0, ld1, ld3]
  exact st1_canon ybase asens bias hs Variants.none none c i arg1 harg1 arg2 harg2 arg3 harg3 arg4 harg4 arg5 harg5 arg6 harg6 arg7 harg7 x0 x1 x3 (harg3.unread x2) h0 h1 h3
    (hX_of arg3 harg3 x2 hs h2) (ix3 b n h)

end Block

section Block2

variable (c : Dev nD) (i : grid0.Coords) (arg1 : Memref sig .tc .vmem S502x256 .f32) (harg1 : arg1.IsWhole) (arg2 : Memref sig .tc .vmem S502x1 .f32) (harg2 : arg2.IsWhole) (arg3 : Memref sig .tc .vmem S8x1x256 .f32) (harg3 : arg3.IsWhole) (arg4 : Memref sig .tc .vmem S1x256 .f32) (harg4 : arg4.IsWhole) (arg5 : Memref sig .tc .vmem S8x502x256 .f32) (harg5 : arg5.IsWhole) (arg6 : Memref sig .tc .vmem S1x1x256 .f32) (harg6 : arg6.IsWhole) (arg7 : Memref sig .tc .vmem S1x1x256 .f32) (harg7 : arg7.IsWhole)
variable (x0 : FVec Ideal S502x256 .f32) (x1 : FVec Ideal S502x1 .f32) (x2 : FVec Ideal S8x1x256 .f32) (x3 : FVec Ideal S1x256 .f32)
variable (ybase : Fin 502 → Fin 256 → ℝ) (asens : Fin 502 → ℝ) (bias : Fin 256 → ℝ) (hs : ℕ → Fin 256 → ℝ)
variable (h0 : ∀ n h, x0 (ix2 n h) = ((ybase n h : ℝ) : EReal)) (h1 : ∀ n, x1 (ix2 n 0) = ((asens n : ℝ) : EReal))
  (h2 : ∀ (b : Fin 8) (h : Fin 256), x2 (ix3 b 0 h) = ((hs b.val h : ℝ) : EReal))
  (h3 : ∀ h, x3 (ix2 0 h) = ((bias h : ℝ) : EReal))

include h0 h1 h2 h3

/-- After the first loop the carried value is the column sums over the step's eight batch elements. -/
theorem st1_final (u : Fin 1) (h : Fin 256) :
    (st_k0_t1 (F := Ideal) Variants.none c none i arg1 harg1 arg2 harg2 arg3 harg3 arg4 harg4 arg5 harg5 arg6 harg6 arg7 harg7 x0 x1 x3 (harg3.unread x2) (k0_pay1 (F := Ideal)) k0_t1_loop.trips).1 (ix2 u h)
      = ((psum ybase asens bias hs 8 h : ℝ) : EReal) := by
  rw [st1_val ybase asens bias hs Variants.none none c i arg1 harg1 arg2 harg2 arg3 harg3 arg4 harg4 arg5 harg5 arg6 harg6 arg7 harg7 x0 x1 x3 (harg3.unread x2) h0 h1 h3
    (hX_of arg3 harg3 x2 hs h2) _ le_rfl u h, trips1]

/-- The step's mean block: the column sums over 4016. -/
theorem out5_apply (u w : Fin 1) (h : Fin 256) :
    out0_A_5 (F := Ideal) c i arg1 harg1 arg2 harg2 arg3 harg3 arg4 harg4 arg5 harg5 arg6 harg6 arg7 harg7 x0 x1 x2 x3 (ix3 u w h) = ((psum ybase asens bias hs 8 h / 4016 : ℝ) : EReal) := by
  unfold out0_A_5
  rw [View.read_writes_junk_eq_canon]
  unfold kernelRun0_A
  dsimp only
  sl_unfold_run_names
  rw [View.canon_unit_zero hz3, ld0, ld1, ld3, pay6_apply]
  exact pay5_apply _ (psum ybase asens bias hs 8)
    (fun h => st1_final c i arg1 harg1 arg2 harg2 arg3 harg3 arg4 harg4 arg5 harg5 arg6 harg6 arg7 harg7 x0 x1 x2 x3 ybase asens bias hs h0 h1 h2 h3 0 h) w h

/-- The step's block of centred sums of squares. -/
theorem out6_apply (u w : Fin 1) (h : Fin 256) :
    out0_A_6 (F := Ideal) c i arg1 harg1 arg2 harg2 arg3 harg3 arg4 harg4 arg5 harg5 arg6 harg6 arg7 harg7 x0 x1 x2 x3 (ix3 u w h)
      = ((psq ybase asens bias hs (fun h => psum ybase asens bias hs 8 h / 4016) 8 h : ℝ) : EReal) := by
  unfold out0_A_6
  rw [View.read_writes_junk_eq_canon]
  unfold kernelRun0_A
  dsimp only
  rw [View.canon_unit_zero hz3, ld0, ld1, ld3, pay9_apply]
  rw [st2_val ybase asens bias hs Variants.none none c i arg1 harg1 arg2 harg2 arg3 harg3 arg4 harg4 arg5 harg5 arg6 harg6 arg7 harg7 _ _ (psum ybase asens bias hs 8)
    (fun h => st1_final c i arg1 harg1 arg2 harg2 arg3 harg3 arg4 harg4 arg5 harg5 arg6 harg6 arg7 harg7 x0 x1 x2 x3 ybase asens bias hs h0 h1 h2 h3 0 h)
    (st1_readback ybase asens bias hs Variants.none none c i arg1 harg1 arg2 harg2 arg3 harg3 arg4 harg4 arg5 harg5 arg6 harg6 arg7 harg7 x0 x1 x3 (harg3.unread x2) h0 h1 h3
      (hX_of arg3 harg3 x2 hs h2)) _ le_rfl w h, trips2]

end Block2

/-! ## From the blocks to the arrays -/

section Arrays

/-- The block index maps over the grid: the three whole-array inputs stay at block zero; the sensor rows and the three
    outputs move with the step along the leading axis. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- A grid step as a group of eight batch elements. -/
def tg (t : Fin cfg0.N) : Fin 16 := ⟨t.val, Nat.lt_of_lt_of_eq t.isLt N_0⟩

variable (V : (c : Dev nD) → (b : Ref sig .tc) → Buf (Elt Ideal) ((c : Thread nD τ).loc b)) (c : Dev nD)

/-- The three whole-array input blocks are the arrays. -/
theorem iblk_0 (t : Fin cfg0.N) (n : Fin 502) (h : Fin 256) :
    (iblk0 V c 0 t : S502x256.Idx → EReal) (ix2 n h) = (V c (Pipeline.arrRef spec0 0) : S502x256.Idx → EReal) (ix2 n h) := by
  obtain ⟨e00, e01, -⟩ := idx_facts t
  unfold iblk0
  rw [View.read_apply]
  show (V c (Pipeline.arrRef spec0 0) : S502x256.Idx → EReal) _ = _
  congr 1
  funext a; apply Fin.ext
  match a with
  | ⟨0, _⟩ => show win0_0.index t (0 : Fin 2) * 502 + 1 * n.val = n.val; rw [e00]; omega
  | ⟨1, _⟩ => show win0_0.index t (1 : Fin 2) * 256 + 1 * h.val = h.val; rw [e01]; omega

theorem iblk_1 (t : Fin cfg0.N) (n : Fin 502) :
    (iblk0 V c 1 t : S502x1.Idx → EReal) (ix2 n 0) = (V c (Pipeline.arrRef spec0 1) : S502x1.Idx → EReal) (ix2 n 0) := by
  obtain ⟨-, -, e10, e11, -⟩ := idx_facts t
  unfold iblk0
  rw [View.read_apply]
  show (V c (Pipeline.arrRef spec0 1) : S502x1.Idx → EReal) _ = _
  congr 1
  funext a; apply Fin.ext
  match a with
  | ⟨0, _⟩ => show win0_1.index t (0 : Fin 2) * 502 + 1 * n.val = n.val; rw [e10]; omega
  | ⟨1, _⟩ => show win0_1.index t (1 : Fin 2) * 1 + 1 * 0 = 0; rw [e11]

theorem iblk_3 (t : Fin cfg0.N) (h : Fin 256) :
    (iblk0 V c 3 t : S1x256.Idx → EReal) (ix2 0 h) = (V c (Pipeline.arrRef spec0 3) : S1x256.Idx → EReal) (ix2 0 h) := by
  obtain ⟨-, -, -, -, -, -, -, e30, e31, -⟩ := idx_facts t
  unfold iblk0
  rw [View.read_apply]
  show (V c (Pipeline.arrRef spec0 3) : S1x256.Idx → EReal) _ = _
  congr 1
  funext a; apply Fin.ext
  match a with
  | ⟨0, _⟩ => show win0_3.index t (0 : Fin 2) * 1 + 1 * 0 = 0; rw [e30]
  | ⟨1, _⟩ => show win0_3.index t (1 : Fin 2) * 256 + 1 * h.val = h.val; rw [e31]; omega

/-- The sensor block of step `t` is rows `8t … 8t + 7` of the sensor array. -/
theorem iblk_2 (t : Fin cfg0.N) (b : Fin 8) (h : Fin 256) :
    (iblk0 V c 2 t : S8x1x256.Idx → EReal) (ix3 b 0 h)
      = (V c (Pipeline.arrRef spec0 2) : S128x1x256.Idx → EReal) (ix3 (Cert.Model.grow (tg t) b) 0 h) := by
  obtain ⟨-, -, -, -, e20, e21, e22, -⟩ := idx_facts t
  unfold iblk0
  rw [View.read_apply]
  show (V c (Pipeline.arrRef spec0 2) : S128x1x256.Idx → EReal) _ = _
  congr 1
  funext a; apply Fin.ext
  match a with
  | ⟨0, _⟩ => show win0_2.index t (0 : Fin 3) * 8 + 1 * b.val = 8 * t.val + b.val; rw [e20]; omega
  | ⟨1, _⟩ => show win0_2.index t (1 : Fin 3) * 1 + 1 * 0 = 0; rw [e21]
  | ⟨2, _⟩ => show win0_2.index t (2 : Fin 3) * 256 + 1 * h.val = h.val; rw [e22]; omega

end Arrays

section Final

variable (V : (c : Dev nD) → (b : Ref sig .tc) → Buf (Elt Ideal) ((c : Thread nD τ).loc b)) (c : Dev nD)
variable (ybase : Fin 502 → Fin 256 → ℝ) (asens : Fin 502 → ℝ) (hsens : Fin 128 → Fin 256 → ℝ) (bias : Fin 256 → ℝ)

/-- What the three output arrays end holding. -/
def G4 : Buf (Elt Ideal) ((cfg0.win 4).arr.view.loc (c.tc : Thread nD τ)) :=
  fun (i : S128x502x256.Idx) => ((y1 ybase asens hsens bias (i 0) (i 1) (i 2) : ℝ) : EReal)
def G5 : Buf (Elt Ideal) ((cfg0.win 5).arr.view.loc (c.tc : Thread nD τ)) :=
  fun (i : S16x1x256.Idx) => ((Cert.Model.gmean (y1 ybase asens hsens bias) (i 0) (i 2) : ℝ) : EReal)
def G6 : Buf (Elt Ideal) ((cfg0.win 6).arr.view.loc (c.tc : Thread nD τ)) :=
  fun (i : S16x1x256.Idx) => ((Cert.Model.gm2 (y1 ybase asens hsens bias) (i 0) (i 2) : ℝ) : EReal)

variable (h0 : ∀ n h, (V c (Pipeline.arrRef spec0 0) : S502x256.Idx → EReal) (ix2 n h) = ((ybase n h : ℝ) : EReal))
  (h1 : ∀ n, (V c (Pipeline.arrRef spec0 1) : S502x1.Idx → EReal) (ix2 n 0) = ((asens n : ℝ) : EReal))
  (h2 : ∀ b h, (V c (Pipeline.arrRef spec0 2) : S128x1x256.Idx → EReal) (ix3 b 0 h) = ((hsens b h : ℝ) : EReal))
  (h3 : ∀ h, (V c (Pipeline.arrRef spec0 3) : S1x256.Idx → EReal) (ix2 0 h) = ((bias h : ℝ) : EReal))

include h2 in
/-- The sensor block of step `t`, row by row, over the reals. -/
theorem hb2 (t : Fin cfg0.N) (b : Fin 8) (h : Fin 256) :
    (iblk0 V c 2 t : S8x1x256.Idx → EReal) (ix3 b 0 h) = ((hsOf hsens t.val b.val h : ℝ) : EReal) := by
  rw [iblk_2, h2]
  unfold hsOf Cert.Model.grow tg
  rw [dif_pos (by have := Nat.lt_of_lt_of_eq t.isLt N_0; have := b.isLt; omega)]

include h0 h1 h2 h3

theorem flushed4_eq (t : Fin cfg0.N) :
    (dat0 V c).flushed 4 t = ((cfg0.win 4).blk t).view.read (Elt Ideal) (G4 c ybase asens hsens bias) := by
  obtain ⟨-, -, -, -, -, -, -, -, -, e40, e41, e42, -⟩ := idx_facts t
  show (cfg0.win 4).cut (grid0.coords t) ((dat0 V c).after 4 t) = _
  rw [after0_4]
  unfold outsAt0
  dsimp only
  funext j
  obtain ⟨b, n, h, rfl⟩ : ∃ (b : Fin 8) (n : Fin 502) (h : Fin 256), j = ix3 b n h := ⟨j 0, j 1, j 2, eq_ix3 j⟩
  rw [View.read_apply]
  show out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (ix3 b n h)
    = G4 c ybase asens hsens bias (((cfg0.win 4).blk t).view.emb (ix3 b n h))
  rw [out4_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) ybase asens bias (hsOf hsens t.val)
    (fun n h => (iblk_0 V c t n h).trans (h0 n h)) (fun n => (iblk_1 V c t n).trans (h1 n))
    (hb2 V c hsens h2 t) (fun h => (iblk_3 V c t h).trans (h3 h)) b n h]
  have he : ((cfg0.win 4).blk t).view.emb (ix3 b n h) = (ix3 (Cert.Model.grow (tg t) b) n h : S128x502x256.Idx) := by
    funext a; apply Fin.ext
    match a with
    | ⟨0, _⟩ => show win0_4.index t (0 : Fin 3) * 8 + 1 * b.val = 8 * t.val + b.val; rw [e40]; omega
    | ⟨1, _⟩ => show win0_4.index t (1 : Fin 3) * 502 + 1 * n.val = n.val; rw [e41]; omega
    | ⟨2, _⟩ => show win0_4.index t (2 : Fin 3) * 256 + 1 * h.val = h.val; rw [e42]; omega
  rw [he]
  show _ = ((y1 ybase asens hsens bias (Cert.Model.grow (tg t) b) n h : ℝ) : EReal)
  rw [← yrow_hsOf]
  rfl

end Final

section Final2

variable (V : (c : Dev nD) → (b : Ref sig .tc) → Buf (Elt Ideal) ((c : Thread nD τ).loc b)) (c : Dev nD)
variable (ybase : Fin 502 → Fin 256 → ℝ) (asens : Fin 502 → ℝ) (hsens : Fin 128 → Fin 256 → ℝ) (bias : Fin 256 → ℝ)
variable (h0 : ∀ n h, (V c (Pipeline.arrRef spec0 0) : S502x256.Idx → EReal) (ix2 n h) = ((ybase n h : ℝ) : EReal))
  (h1 : ∀ n, (V c (Pipeline.arrRef spec0 1) : S502x1.Idx → EReal) (ix2 n 0) = ((asens n : ℝ) : EReal))
  (h2 : ∀ b h, (V c (Pipeline.arrRef spec0 2) : S128x1x256.Idx → EReal) (ix3 b 0 h) = ((hsens b h : ℝ) : EReal))
  (h3 : ∀ h, (V c (Pipeline.arrRef spec0 3) : S1x256.Idx → EReal) (ix2 0 h) = ((bias h : ℝ) : EReal))

include h0 h1 h2 h3

theorem flushed5_eq (t : Fin cfg0.N) :
    (dat0 V c).flushed 5 t = ((cfg0.win 5).blk t).view.read (Elt Ideal) (G5 c ybase asens hsens bias) := by
  obtain ⟨-, -, -, -, -, -, -, -, -, -, -, -, e50, e51, e52, -⟩ := idx_facts t
  show (cfg0.win 5).cut (grid0.coords t) ((dat0 V c).after 5 t) = _
  rw [after0_5]
  unfold outsAt0
  dsimp only
  funext j
  obtain ⟨u, w, h, rfl⟩ : ∃ (u w : Fin 1) (h : Fin 256), j = ix3 u w h := ⟨j 0, j 1, j 2, eq_ix3 j⟩
  have hu : u.val < 1 := u.isLt
  have hw : w.val < 1 := w.isLt
  rw [View.read_apply]
  show out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (ix3 u w h)
    = G5 c ybase asens hsens bias (((cfg0.win 5).blk t).view.emb (ix3 u w h))
  rw [out5_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) ybase asens bias (hsOf hsens t.val)
    (fun n h => (iblk_0 V c t n h).trans (h0 n h)) (fun n => (iblk_1 V c t n).trans (h1 n))
    (hb2 V c hsens h2 t) (fun h => (iblk_3 V c t h).trans (h3 h)) u w h]
  have he : ((cfg0.win 5).blk t).view.emb (ix3 u w h) = (ix3 (tg t) w h : S16x1x256.Idx) := by
    funext a; apply Fin.ext
    match a with
    | ⟨0, _⟩ => show win0_5.index t (0 : Fin 3) * 1 + 1 * u.val = t.val; rw [e50]; omega
    | ⟨1, _⟩ => show win0_5.index t (1 : Fin 3) * 1 + 1 * w.val = w.val; rw [e51]; omega
    | ⟨2, _⟩ => show win0_5.index t (2 : Fin 3) * 256 + 1 * h.val = h.val; rw [e52]; omega
  rw [he]
  show _ = ((Cert.Model.gmean (y1 ybase asens hsens bias) (tg t) h : ℝ) : EReal)
  rw [gmean_eq]
  rfl

theorem flushed6_eq (t : Fin cfg0.N) :
    (dat0 V c).flushed 6 t = ((cfg0.win 6).blk t).view.read (Elt Ideal) (G6 c ybase asens hsens bias) := by
  obtain ⟨-, -, -, -, -, -, -, -, -, -, -, -, -, -, -, e60, e61, e62⟩ := idx_facts t
  show (cfg0.win 6).cut (grid0.coords t) ((dat0 V c).after 6 t) = _
  rw [after0_6]
  unfold outsAt0
  dsimp only
  funext j
  obtain ⟨u, w, h, rfl⟩ : ∃ (u w : Fin 1) (h : Fin 256), j = ix3 u w h := ⟨j 0, j 1, j 2, eq_ix3 j⟩
  have hu : u.val < 1 := u.isLt
  have hw : w.val < 1 := w.isLt
  rw [View.read_apply]
  show out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (ix3 u w h)
    = G6 c ybase asens hsens bias (((cfg0.win 6).blk t).view.emb (ix3 u w h))
  rw [out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) ybase asens bias (hsOf hsens t.val)
    (fun n h => (iblk_0 V c t n h).trans (h0 n h)) (fun n => (iblk_1 V c t n).trans (h1 n))
    (hb2 V c hsens h2 t) (fun h => (iblk_3 V c t h).trans (h3 h)) u w h]
  have he : ((cfg0.win 6).blk t).view.emb (ix3 u w h) = (ix3 (tg t) w h : S16x1x256.Idx) := by
    funext a; apply Fin.ext
    match a with
    | ⟨0, _⟩ => show win0_6.index t (0 : Fin 3) * 1 + 1 * u.val = t.val; rw [e60]; omega
    | ⟨1, _⟩ => show win0_6.index t (1 : Fin 3) * 1 + 1 * w.val = w.val; rw [e61]; omega
    | ⟨2, _⟩ => show win0_6.index t (2 : Fin 3) * 256 + 1 * h.val = h.val; rw [e62]; omega
  rw [he]
  show _ = ((Cert.Model.gm2 (y1 ybase asens hsens bias) (tg t) h : ℝ) : EReal)
  rw [gm2_eq]
  rfl

omit h0 h1 h2 h3 in
/-- An index of the output array is in step `t`'s block iff its leading coordinate is among the step's eight. -/
theorem mem_blk4 (t : Fin cfg0.N) (i : S128x502x256.Idx) :
    i ∈ ((cfg0.win 4).blk t).view.set ↔ ∀ a : Fin 3, win0_4.index t a * S8x502x256.size a ≤ (i a).val
      ∧ (i a).val < win0_4.index t a * S8x502x256.size a + S8x502x256.size a := by
  show i ∈ ((View.whole main_v58_0).slice (win0_4.rect t)).set ↔ _
  rw [View.set_slice_whole, Rect.mem_set_unit]
  exact Iff.rfl

omit h0 h1 h2 h3 in
theorem mem_blk5 (t : Fin cfg0.N) (i : S16x1x256.Idx) :
    i ∈ ((cfg0.win 5).blk t).view.set ↔ ∀ a : Fin 3, win0_5.index t a * S1x1x256.size a ≤ (i a).val
      ∧ (i a).val < win0_5.index t a * S1x1x256.size a + S1x1x256.size a := by
  show i ∈ ((View.whole main_v58_1).slice (win0_5.rect t)).set ↔ _
  rw [View.set_slice_whole, Rect.mem_set_unit]
  exact Iff.rfl

omit h0 h1 h2 h3 in
theorem mem_blk6 (t : Fin cfg0.N) (i : S16x1x256.Idx) :
    i ∈ ((cfg0.win 6).blk t).view.set ↔ ∀ a : Fin 3, win0_6.index t a * S1x1x256.size a ≤ (i a).val
      ∧ (i a).val < win0_6.index t a * S1x1x256.size a + S1x1x256.size a := by
  show i ∈ ((View.whole main_v58_2).slice (win0_6.rect t)).set ↔ _
  rw [View.set_slice_whole, Rect.mem_set_unit]
  exact Iff.rfl

omit h0 h1 h2 h3 in
theorem cover4 (i : S128x502x256.Idx) : ∃ t : Fin cfg0.N, (cfg0.win 4).flush t = true ∧ i ∈ ((cfg0.win 4).blk t).view.set := by
  have hi0 : (i 0).val < 128 := (i 0).isLt
  have hi1 : (i 1).val < 502 := (i 1).isLt
  have hi2 : (i 2).val < 256 := (i 2).isLt
  have hN : cfg0.N = 16 := N_0
  let t : Fin cfg0.N := ⟨(i 0).val / 8, by rw [hN]; omega⟩
  obtain ⟨-, -, -, -, -, -, -, -, -, e40, e41, e42, -⟩ := idx_facts t
  have ht : t.val = (i 0).val / 8 := rfl
  refine ⟨t, flush0_4 t, ?_⟩
  rw [mem_blk4]
  intro a
  match a with
  | ⟨0, _⟩ => show win0_4.index t (0 : Fin 3) * 8 ≤ (i 0).val ∧ (i 0).val < win0_4.index t (0 : Fin 3) * 8 + 8; rw [e40, ht]; omega
  | ⟨1, _⟩ => show win0_4.index t (1 : Fin 3) * 502 ≤ (i 1).val ∧ (i 1).val < win0_4.index t (1 : Fin 3) * 502 + 502; rw [e41]; omega
  | ⟨2, _⟩ => show win0_4.index t (2 : Fin 3) * 256 ≤ (i 2).val ∧ (i 2).val < win0_4.index t (2 : Fin 3) * 256 + 256; rw [e42]; omega

omit h0 h1 h2 h3 in
theorem cover5 (i : S16x1x256.Idx) : ∃ t : Fin cfg0.N, (cfg0.win 5).flush t = true ∧ i ∈ ((cfg0.win 5).blk t).view.set := by
  have hi0 : (i 0).val < 16 := (i 0).isLt
  have hi1 : (i 1).val < 1 := (i 1).isLt
  have hi2 : (i 2).val < 256 := (i 2).isLt
  have hN : cfg0.N = 16 := N_0
  let t : Fin cfg0.N := ⟨(i 0).val, by rw [hN]; omega⟩
  obtain ⟨-, -, -, -, -, -, -, -, -, -, -, -, e50, e51, e52, -⟩ := idx_facts t
  have ht : t.val = (i 0).val := rfl
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; rw [e50, ht]; omega
  | ⟨1, _⟩ => show win0_5.index t (1 : Fin 3) * 1 ≤ (i 1).val ∧ (i 1).val < win0_5.index t (1 : Fin 3) * 1 + 1; rw [e51]; omega
  | ⟨2, _⟩ => show win0_5.index t (2 : Fin 3) * 256 ≤ (i 2).val ∧ (i 2).val < win0_5.index t (2 : Fin 3) * 256 + 256; rw [e52]; omega

omit h0 h1 h2 h3 in
theorem cover6 (i : S16x1x256.Idx) : ∃ t : Fin cfg0.N, (cfg0.win 6).flush t = true ∧ i ∈ ((cfg0.win 6).blk t).view.set := by
  have hi0 : (i 0).val < 16 := (i 0).isLt
  have hi1 : (i 1).val < 1 := (i 1).isLt
  have hi2 : (i 2).val < 256 := (i 2).isLt
  have hN : cfg0.N = 16 := N_0
  let t : Fin cfg0.N := ⟨(i 0).val, by rw [hN]; omega⟩
  obtain ⟨-, -, -, -, -, -, -, -, -, -, -, -, -, -, -, e60, e61, e62⟩ := idx_facts t
  have ht : t.val = (i 0).val := rfl
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; rw [e60, ht]; omega
  | ⟨1, _⟩ => show win0_6.index t (1 : Fin 3) * 1 ≤ (i 1).val ∧ (i 1).val < win0_6.index t (1 : Fin 3) * 1 + 1; rw [e61]; omega
  | ⟨2, _⟩ => show win0_6.index t (2 : Fin 3) * 256 ≤ (i 2).val ∧ (i 2).val < win0_6.index t (2 : Fin 3) * 256 + 256; rw [e62]; omega

/-- THE FIRST CALL: after it the output array holds the first layer's raw output, and the two statistics arrays hold each
    group's mean and centred sum of squares. -/
theorem region0 :
    (∀ b n h, ((dat0 (F := Ideal) V c).arrAt 4 cfg0.N : S128x502x256.Idx → EReal) (ix3 b n h)
        = ((y1 ybase asens hsens bias b n h : ℝ) : EReal))
    ∧ (∀ g h, ((dat0 (F := Ideal) V c).arrAt 5 cfg0.N : S16x1x256.Idx → EReal) (ix3 g 0 h)
        = ((Cert.Model.gmean (y1 ybase asens hsens bias) g h : ℝ) : EReal))
    ∧ (∀ g h, ((dat0 (F := Ideal) V c).arrAt 6 cfg0.N : S16x1x256.Idx → EReal) (ix3 g 0 h)
        = ((Cert.Model.gm2 (y1 ybase asens hsens bias) g h : ℝ) : EReal)) := by
  refine ⟨fun b n h => ?_, fun g h => ?_, fun g h => ?_⟩
  · rw [(dat0 V c).arrAt_eq_of_cover 4 (G4 c ybase asens hsens bias)
      (fun t _ => flushed4_eq V c ybase asens hsens bias h0 h1 h2 h3 t) cover4]
    rfl
  · rw [(dat0 V c).arrAt_eq_of_cover 5 (G5 c ybase asens hsens bias)
      (fun t _ => flushed5_eq V c ybase asens hsens bias h0 h1 h2 h3 t) cover5]
    rfl
  · rw [(dat0 V c).arrAt_eq_of_cover 6 (G6 c ybase asens hsens bias)
      (fun t _ => flushed6_eq V c ybase asens hsens bias h0 h1 h2 h3 t) cover6]
    rfl

end Final2

end Cert.KernelIdeal.KReg0

end
-- ==== Proof.KReg1Trips.lean ====
/-
  Region 1 (the fused normalise, convolve and accumulate kernel): its two counted loops, one trip at a time.

  The first loop runs over the 8 batch elements of a grid step.  Trip k reads slab k of the input block, stores
  the convolved slab at slab k of the output block, and adds the slab's column sums to the carried row.  The
  second loop reads slab k of the output block back and adds the column sums of its centred squares to the
  carried row.  Here: what one trip yields and stores, the recursion of the carried state over the trips, and
  the fact that every stored piece is slab k's payload at slab k's rectangle.
-/
import proofs.«171858_j54966991454756_2_alg».proof.Proof.KILoops
import Idealize.ShloMosaic.Lib.Pipeline.Value

set_option maxRecDepth 16384

noncomputable section

namespace Cert.KernelIdeal.KReg1

open Idealize.ShloMosaic Idealize.ShloMosaic.TcCoe Idealize.ShloMosaic.Tactic
open Idealize.SL.Sem
open Cert.KernelIdeal Cert.KernelIdeal.Gen

variable {F : FTy → Type} [FloatOps F]

/-- Slab k of a buffer of 8 slabs, through the first loop's rectangle at trip k. -/
abbrev slab1 (M : Memref sig .tc .vmem S8x502x256 .f32) (X : BufTy.Contents (Elt F) M.view.ty)
    (k : Fin k1_t1_loop.trips) : Vec F S1x502x256 .f32 :=
  View.readAt (Elt F) M.view (Rect.unit (s := S8x502x256) (k1_off1 k) S1x502x256.size (k1_off1_inb k)).toLoadRect X

/-- Slab k of a buffer of 8 slabs, through the second loop's rectangle at trip k. -/
abbrev slab2 (M : Memref sig .tc .vmem S8x502x256 .f32) (X : BufTy.Contents (Elt F) M.view.ty)
    (k : Fin k1_t2_loop.trips) : Vec F S1x502x256 .f32 :=
  View.readAt (Elt F) M.view (Rect.unit (s := S8x502x256) (k1_off2 k) S1x502x256.size (k1_off2_inb k)).toLoadRect X

/-- The piece trip k of the first loop stores: the convolved slab k at slab k's rectangle. -/
abbrev piece1 (v0 : Vec F S1x256 .f32) (v2 : Vec F S1x256 .f32) (v4 : Vec F S1x256 .f32) (v6 : Vec F S1x256 .f32)
    (v11 : Vec F S256x256 .bf16) (v13 : Vec F S502x502 .bf16) (v15 : Vec F S1x256 .f32)
    (x : Fin k1_t1_loop.trips → Vec F S1x502x256 .f32) (k : Fin k1_t1_loop.trips) : View.Piece (Elt F) S8x502x256 .f32 :=
  ⟨Rect.unit (s := S8x502x256) (k1_off1 k) S1x502x256.size (k1_off1_inb k), k1_pay4 v0 v2 v4 v6 v11 v13 v15 (x k)⟩

theorem trips1 : k1_t1_loop.trips = 8 := by decide
theorem trips2 : k1_t2_loop.trips = 8 := by decide

variable (𝒱 : Variants) (c : Dev nD) (bd : Option 𝒱.V) (i : grid1.Coords) (arg1 : Memref sig .tc .vmem S8x502x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S502x502 .bf16) (harg7 : arg7.IsWhole) (arg8 : Memref sig .tc .vmem S1x256 .f32) (harg8 : arg8.IsWhole) (arg9 : Memref sig .tc .vmem S8x502x256 .f32) (harg9 : arg9.IsWhole) (arg10 : Memref sig .tc .vmem S1x1x256 .f32) (harg10 : arg10.IsWhole) (arg11 : Memref sig .tc .vmem S1x1x256 .f32) (harg11 : arg11.IsWhole)

section Loop1

variable (v0 : Vec F S1x256 .f32) (v2 : Vec F S1x256 .f32) (v4 : Vec F S1x256 .f32) (v6 : Vec F S1x256 .f32) (v11 : Vec F S256x256 .bf16) (v13 : Vec F S502x502 .bf16) (v15 : Vec F S1x256 .f32)
variable (X1 : BufTy.Contents (Elt F) arg1.view.ty) (init : FVec F S1x256 .f32)

/-- What trip k of the first loop yields: the carried row plus the column sums of the convolved slab k. -/
theorem tripR1_eq (k : Fin k1_t1_loop.trips) (acc : FVec F S1x256 .f32) :
    tripR_k1_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 k acc
      = k1_pay5 v0 v2 v4 v6 v11 v13 v15 acc (slab1 arg1 X1 k) := by
  unfold tripR_k1_t1 trip_k1_t1
  rfl

/-- What trip k of the first loop stores: one piece, the convolved slab k at slab k's rectangle. -/
theorem tripL1_eq (k : Fin k1_t1_loop.trips) (acc : FVec F S1x256 .f32) :
    tripL_k1_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 k acc
      = [piece1 v0 v2 v4 v6 v11 v13 v15 (slab1 arg1 X1) k] := by
  unfold tripL_k1_t1 trip_k1_t1
  rfl

/-- The carried row after trip k. -/
theorem st1_succ_fst (k : Fin k1_t1_loop.trips) :
    (st_k1_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init (k.val + 1)).1
      = k1_pay5 v0 v2 v4 v6 v11 v13 v15 (st_k1_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init k.val).1 (slab1 arg1 X1 k) := by
  rw [st_k1_t1_succ]
  exact tripR1_eq 𝒱 c bd i arg1 harg1 arg2 harg2 arg3 harg3 arg4 harg4 arg5 harg5 arg6 harg6 arg7 harg7 arg8 harg8 arg9 harg9 arg10 harg10 arg11 harg11 v0 v2 v4 v6 v11 v13 v15 X1 k _

/-- The pieces after trip k: trip k's piece in front of the earlier ones. -/
theorem st1_succ_snd (k : Fin k1_t1_loop.trips) :
    (st_k1_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init (k.val + 1)).2
      = piece1 v0 v2 v4 v6 v11 v13 v15 (slab1 arg1 X1) k :: (st_k1_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init k.val).2 := by
  rw [st_k1_t1_succ]
  show tripL_k1_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 k _ ++ _ = _
  rw [tripL1_eq]
  rfl

theorem st1_zero_fst : (st_k1_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init 0).1 = init := rfl
theorem st1_zero_snd : (st_k1_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init 0).2 = [] := rfl

/-- Every piece the first n trips stored is some trip k's: the convolved slab k at slab k's rectangle. -/
theorem st1_pieces : ∀ (n : ℕ), n ≤ k1_t1_loop.trips → ∀ p ∈ (st_k1_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init n).2,
    ∃ k : Fin k1_t1_loop.trips, p = piece1 v0 v2 v4 v6 v11 v13 v15 (slab1 arg1 X1) k
  | 0, _, p, hp => by rw [st1_zero_snd] at hp; exact absurd hp List.not_mem_nil
  | n + 1, hn, p, hp => by
    have e := st1_succ_snd 𝒱 c bd i arg1 harg1 arg2 harg2 arg3 harg3 arg4 harg4 arg5 harg5 arg6 harg6 arg7 harg7 arg8 harg8 arg9 harg9 arg10 harg10 arg11 harg11 v0 v2 v4 v6 v11 v13 v15 X1 init ⟨n, hn⟩
    dsimp only at e
    rw [e] at hp
    rcases List.mem_cons.mp hp with rfl | hp'
    · exact ⟨⟨n, hn⟩, rfl⟩
    · exact st1_pieces n (Nat.le_of_succ_le hn) p hp'

/-- Trip k's piece is among the pieces of the first n trips as soon as k < n. -/
theorem st1_mem : ∀ (n : ℕ), n ≤ k1_t1_loop.trips → ∀ k : Fin k1_t1_loop.trips, k.val < n →
    piece1 v0 v2 v4 v6 v11 v13 v15 (slab1 arg1 X1) k ∈ (st_k1_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init n).2
  | 0, _, k, hk => absurd hk (Nat.not_lt_zero _)
  | n + 1, hn, k, hk => by
    have e := st1_succ_snd 𝒱 c bd i arg1 harg1 arg2 harg2 arg3 harg3 arg4 harg4 arg5 harg5 arg6 harg6 arg7 harg7 arg8 harg8 arg9 harg9 arg10 harg10 arg11 harg11 v0 v2 v4 v6 v11 v13 v15 X1 init ⟨n, hn⟩
    dsimp only at e
    rw [e]
    by_cases hkn : k.val = n
    · have : k = ⟨n, hn⟩ := Fin.ext hkn
      rw [this]; exact List.mem_cons_self
    · exact List.mem_cons_of_mem _ (st1_mem n (Nat.le_of_succ_le hn) k (by omega))

end Loop1

section Loop2

variable (v19 : FVec F S1x256 .f32) (X9 : BufTy.Contents (Elt F) arg9.view.ty) (init : FVec F S1x256 .f32)

/-- What trip k of the second loop yields: the carried row plus the column sums of the squares of slab k of the
    output block less the row of means. -/
theorem tripR2_eq (k : Fin k1_t2_loop.trips) (acc : FVec F S1x256 .f32) :
    tripR_k1_t2 𝒱 c bd i arg1 harg1 arg2 harg2 arg3 harg3 arg4 harg4 arg5 harg5 arg6 harg6 arg7 harg7 arg8 harg8 arg9 harg9 arg10 harg10 arg11 harg11 v19 X9 k acc = k1_pay9 v19 acc (slab2 arg9 X9 k) := by
  unfold tripR_k1_t2 trip_k1_t2
  rfl

/-- The carried row after trip k of the second loop. -/
theorem st2_succ (k : Fin k1_t2_loop.trips) :
    st_k1_t2 𝒱 c bd i arg1 harg1 arg2 harg2 arg3 harg3 arg4 harg4 arg5 harg5 arg6 harg6 arg7 harg7 arg8 harg8 arg9 harg9 arg10 harg10 arg11 harg11 v19 X9 init (k.val + 1) = k1_pay9 v19 (st_k1_t2 𝒱 c bd i arg1 harg1 arg2 harg2 arg3 harg3 arg4 harg4 arg5 harg5 arg6 harg6 arg7 harg7 arg8 harg8 arg9 harg9 arg10 harg10 arg11 harg11 v19 X9 init k.val) (slab2 arg9 X9 k) := by
  rw [st_k1_t2_succ]
  exact tripR2_eq 𝒱 c bd i arg1 harg1 arg2 harg2 arg3 harg3 arg4 harg4 arg5 harg5 arg6 harg6 arg7 harg7 arg8 harg8 arg9 harg9 arg10 harg10 arg11 harg11 v19 X9 k _

theorem st2_zero : st_k1_t2 𝒱 c bd i arg1 harg1 arg2 harg2 arg3 harg3 arg4 harg4 arg5 harg5 arg6 harg6 arg7 harg7 arg8 harg8 arg9 harg9 arg10 harg10 arg11 harg11 v19 X9 init 0 = init := rfl

end Loop2

end Cert.KernelIdeal.KReg1

end
-- ==== Proof.KReg1Pay.lean ====
/-
  Region 1 (the fused normalise, convolve and accumulate kernel): its payloads read at an index, over the
  extended reals.

  The convolved slab of one batch element is  M · (elu (normalised slab) · W) + bias : the slab is normalised
  feature by feature with a given mean, variance, scale and shift, passed through the exponential linear unit,
  multiplied by the weight matrix (a sum over the 256 input features) and then by the 502 × 502 matrix M (a sum
  over the 502 source nodes), and the bias row is added.  The statistics payloads add column sums: of the
  convolved slab, and of the squares of a slab less a row of means.  When every operand entry is a real number
  every result entry is the real number the formula names.
-/
import proofs.«171858_j54966991454756_2_alg».proof.Proof.KISkeleton
import proofs.«171858_j54966991454756_2_alg».proof.Proof.Model
import proofs.«171858_j54966991454756_2_alg».proof.Proof.Consts
import Idealize.ShloMosaic.Lib.ValueLayout
import Idealize.ShloMosaic.PureOps.Ideal.Laws

set_option maxRecDepth 16384

noncomputable section

namespace Cert.KernelIdeal.KReg1

open Idealize.ShloMosaic Idealize.ShloMosaic.ValueIdx
open Cert.KernelIdeal Cert.KernelIdeal.Gen

/-! ## Real sums inside the extended reals -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

theorem ofBits_eps' : Ideal.ofBits .f32 0x3727C5AC#32 = ((Model.eps : ℝ) : EReal) := Cert.Consts.ofBits_eps

/-! ## The convolved slab in four stages -/

section Stages

variable {F : FTy → Type} [FloatOps F]

/-- Stage 1: the slab normalised: ((y - mean) · rsqrt (var + eps)) · gamma + beta, feature by feature. -/
def stZ (v0 : Vec F S1x256 .f32) (v2 : Vec F S1x256 .f32) (v4 : Vec F S1x256 .f32) (v6 : Vec F S1x256 .f32)
    (v32 : Vec F S1x502x256 .f32) : FVec F S502x256 .f32 :=
  have v1 : FVec F S1x256 .f32 := shapeCast S1x256 v0 shapeCasts_S1x256_S1x256
  have v3 : FVec F S1x256 .f32 := shapeCast S1x256 v2 shapeCasts_S1x256_S1x256
  have v5 : FVec F S1x256 .f32 := shapeCast S1x256 v4 shapeCasts_S1x256_S1x256
  have v7 : FVec F S1x256 .f32 := shapeCast S1x256 v6 shapeCasts_S1x256_S1x256
  have cst : F .f32 := Scalar.ofBits .f32 0x3727C5AC#32
  have v8 : FVec F S1x256 .f32 := broadcast S1x256 cst
  have v9 : FVec F S1x256 .f32 := addf v3 v8
  have v10 : FVec F S1x256 .f32 := rsqrt v9
  have v33 : FVec F S502x256 .f32 := shapeCast S502x256 v32 shapeCasts_S1x502x256_S502x256
  have v34 : FVec F S502x256 .f32 := broadcastTo S502x256 v1 broadcasts_S1x256_S502x256
  have v35 : FVec F S502x256 .f32 := subf v33 v34
  have v36 : FVec F S502x256 .f32 := broadcastTo S502x256 v10 broadcasts_S1x256_S502x256
  have v37 : FVec F S502x256 .f32 := mulf v35 v36
  have v38 : FVec F S502x256 .f32 := broadcastTo S502x256 v5 broadcasts_S1x256_S502x256
  have v39 : FVec F S502x256 .f32 := mulf v37 v38
  have v40 : FVec F S502x256 .f32 := broadcastTo S502x256 v7 broadcasts_S1x256_S502x256
  have v41 : FVec F S502x256 .f32 := addf v39 v40
  v41

/-- Stage 2: the exponential linear unit, entry by entry: z where z > 0, exp z - 1 elsewhere. -/
def stAct (v41 : FVec F S502x256 .f32) : FVec F S502x256 .bf16 :=
  have cst_29 : F .f32 := Scalar.ofBits .f32 0x00000000#32
  have v42 : FVec F S502x256 .f32 := broadcast S502x256 cst_29
  have v43 : IVec S502x256 1 := cmpf .ogt v41 v42
  have v44 : FVec F S502x256 .f32 := exp v41
  have cst_30 : F .f32 := Scalar.ofBits .f32 0x3F800000#32
  have v45 : FVec F S502x256 .f32 := broadcast S502x256 cst_30
  have v46 : FVec F S502x256 .f32 := subf v44 v45
  have v47 : FVec F S502x256 .f32 := select v43 v41 v46
  have v48 : FVec F S502x256 .bf16 := truncf .bf16 v47 bitsLt_bf16_f32
  v48

/-- Stage 3: the product with the weight matrix, a sum over the input features. -/
def stXW (v48 : FVec F S502x256 .bf16) (v11 : Vec F S256x256 .bf16) : FVec F S502x256 .bf16 :=
  have v12 : FVec F S256x256 .bf16 := shapeCast S256x256 v11 shapeCasts_S256x256_S256x256
  have cst_31 : FVec F S502x256 .f32 := constant S502x256 .f32 0x00000000#32
  have v49 : FVec F S502x256 .f32 := matmul dot_S502x256_S256x256_S502x256_1_0_0_1_n_n none v48 v12 cst_31
  have v50 : FVec F S502x256 .bf16 := truncf .bf16 v49 bitsLt_bf16_f32
  v50

/-- Stage 4: the product with the 502 × 502 matrix, a sum over the source nodes, plus the bias row. -/
def stConv (v13 : Vec F S502x502 .bf16) (v50 : FVec F S502x256 .bf16) (v15 : Vec F S1x256 .f32) : FVec F S502x256 .f32 :=
  have v14 : FVec F S502x502 .bf16 := shapeCast S502x502 v13 shapeCasts_S502x502_S502x502
  have cst_32 : FVec F S502x256 .f32 := constant S502x256 .f32 0x00000000#32
  have v51 : FVec F S502x256 .f32 := matmul dot_S502x502_S502x256_S502x256_1_0_0_1_n_n none v14 v50 cst_32
  have v16 : FVec F S1x256 .f32 := shapeCast S1x256 v15 shapeCasts_S1x256_S1x256
  have v52 : FVec F S502x256 .f32 := broadcastTo S502x256 v16 broadcasts_S1x256_S502x256
  have v53 : FVec F S502x256 .f32 := addf v51 v52
  v53

/-- The convolved slab is the four stages composed. -/
theorem pay3_eq (v0 : Vec F S1x256 .f32) (v2 : Vec F S1x256 .f32) (v4 : Vec F S1x256 .f32) (v6 : Vec F S1x256 .f32)
    (v11 : Vec F S256x256 .bf16) (v13 : Vec F S502x502 .bf16) (v15 : Vec F S1x256 .f32) (v32 : Vec F S1x502x256 .f32) :
    k1_pay3 v0 v2 v4 v6 v11 v13 v15 v32 = stConv v13 (stXW (stAct (stZ v0 v2 v4 v6 v32)) v11) v15 := rfl

/-- The stored slab is the convolved slab under one more leading axis of length one. -/
theorem pay4_apply (v0 : Vec F S1x256 .f32) (v2 : Vec F S1x256 .f32) (v4 : Vec F S1x256 .f32) (v6 : Vec F S1x256 .f32)
    (v11 : Vec F S256x256 .bf16) (v13 : Vec F S502x502 .bf16) (v15 : Vec F S1x256 .f32) (v32 : Vec F S1x502x256 .f32)
    (u : Fin 1) (n : Fin 502) (h : Fin 256) :
    k1_pay4 v0 v2 v4 v6 v11 v13 v15 v32 (ix3 u n h) = k1_pay3 v0 v2 v4 v6 v11 v13 v15 v32 (ix2 n h) := by
  unfold k1_pay4
  exact shapeCast_ab_1ab_apply _ _ u n h

end Stages

/-! ## The stages at an index, over the extended reals -/

/-- Stage 1 at an index: the normalised real. -/
theorem stZ_apply (v0 : Vec Ideal S1x256 .f32) (v2 : Vec Ideal S1x256 .f32) (v4 : Vec Ideal S1x256 .f32)
    (v6 : Vec Ideal S1x256 .f32) (v32 : Vec Ideal S1x502x256 .f32)
    (Y : Fin 502 → Fin 256 → ℝ) (mu va g be : Fin 256 → ℝ) (hva : ∀ f, 0 ≤ va f)
    (h0 : ∀ f, v0 (ix2 (0 : Fin 1) f) = ((mu f : ℝ) : EReal))
    (h2 : ∀ f, v2 (ix2 (0 : Fin 1) f) = ((va f : ℝ) : EReal))
    (h4 : ∀ f, v4 (ix2 (0 : Fin 1) f) = ((g f : ℝ) : EReal))
    (h6 : ∀ f, v6 (ix2 (0 : Fin 1) f) = ((be f : ℝ) : EReal))
    (h32 : ∀ s f, v32 (ix3 (0 : Fin 1) s f) = ((Y s f : ℝ) : EReal)) (s : Fin 502) (f : Fin 256) :
    stZ v0 v2 v4 v6 v32 (ix2 s f)
      = (((Y s f - mu f) * (Real.sqrt (va f + Model.eps))⁻¹ * g f + be f : ℝ) : EReal) := by
  have hpos : 0 < va f + Model.eps := add_pos_of_nonneg_of_pos (hva f) Model.eps_pos
  have e33 : shapeCast S502x256 v32 shapeCasts_S1x502x256_S502x256 (ix2 s f) = ((Y s f : ℝ) : EReal) :=
    (shapeCast_1ab_ab_apply v32 shapeCasts_S1x502x256_S502x256 s f).trans (h32 s f)
  have eb : ∀ (v : Vec Ideal S1x256 .f32), broadcastTo S502x256 (shapeCast S1x256 v shapeCasts_S1x256_S1x256) broadcasts_S1x256_S502x256 (ix2 s f)
      = v (ix2 (0 : Fin 1) f) := fun v => by
    rw [shapeCast_self]; exact broadcastTo_1b_ab_apply v broadcasts_S1x256_S502x256 s f
  have er : broadcastTo S502x256 (rsqrt (addf (shapeCast S1x256 v2 shapeCasts_S1x256_S1x256)
        (broadcast S1x256 (Scalar.ofBits (F := Ideal) .f32 0x3727C5AC#32)))) broadcasts_S1x256_S502x256 (ix2 s f)
      = (((Real.sqrt (va f + Model.eps))⁻¹ : ℝ) : EReal) := by
    refine (broadcastTo_1b_ab_apply _ broadcasts_S1x256_S502x256 s f).trans ?_
    show Ideal.rsqrt (shapeCast S1x256 v2 shapeCasts_S1x256_S1x256 (ix2 (0 : Fin 1) f) + Ideal.ofBits .f32 0x3727C5AC#32) = _
    rw [shapeCast_self, h2, ofBits_eps', ← EReal.coe_add, Ideal.rsqrt_coe, if_neg (not_lt.mpr hpos.le), if_neg hpos.ne']
  show (shapeCast S502x256 v32 shapeCasts_S1x502x256_S502x256 (ix2 s f)
        - broadcastTo S502x256 (shapeCast S1x256 v0 shapeCasts_S1x256_S1x256) broadcasts_S1x256_S502x256 (ix2 s f))
      * broadcastTo S502x256 (rsqrt (addf (shapeCast S1x256 v2 shapeCasts_S1x256_S1x256)
          (broadcast S1x256 (Scalar.ofBits (F := Ideal) .f32 0x3727C5AC#32)))) broadcasts_S1x256_S502x256 (ix2 s f)
      * broadcastTo S502x256 (shapeCast S1x256 v4 shapeCasts_S1x256_S1x256) broadcasts_S1x256_S502x256 (ix2 s f)
      + broadcastTo S502x256 (shapeCast S1x256 v6 shapeCasts_S1x256_S1x256) broadcasts_S1x256_S502x256 (ix2 s f) = _
  rw [e33, eb v0, er, eb v4, eb v6, h0, h4, h6]
  simp only [EReal.coe_add, EReal.coe_mul, EReal.coe_sub]

/-- Stage 2 at an index: the exponential linear unit of the real under it. -/
theorem stAct_apply (z : FVec Ideal S502x256 .f32) (r : ℝ) (s : Fin 502) (f : Fin 256)
    (hz : z (ix2 s f) = ((r : ℝ) : EReal)) : stAct z (ix2 s f) = ((Model.elu r : ℝ) : EReal) := by
  show Scalar.select (Ideal.cmp .ogt (z (ix2 s f)) (Ideal.ofBits .f32 0x00000000#32)) (z (ix2 s f))
      (Ideal.exp (z (ix2 s f)) - Ideal.ofBits .f32 0x3F800000#32) = _
  rw [hz, Ideal.ofBits_zero_f32, Cert.Consts.ofBits_one, Ideal.exp_coe]
  by_cases hr : 0 < r
  · have hc : Ideal.cmp .ogt ((r : ℝ) : EReal) 0 = 1#1 := by
      unfold Ideal.cmp; simp [hr]
    rw [hc, select_one]; unfold Model.elu; rw [if_pos hr]
  · have hc : Ideal.cmp .ogt ((r : ℝ) : EReal) 0 = 0#1 := by
      unfold Ideal.cmp; simp [hr]
    rw [hc, select_zero]; unfold Model.elu; rw [if_neg hr, EReal.coe_sub]

/-- The first product at an index: the sum over the 256 input features. -/
theorem matmulXW_apply (x : FVec Ideal S502x256 .bf16) (w : FVec Ideal S256x256 .bf16) (s : Fin 502) (h : Fin 256) :
    matmul dot_S502x256_S256x256_S502x256_1_0_0_1_n_n none x w (constant S502x256 .f32 0x00000000#32) (ix2 s h)
      = ∑ f : Fin 256, x (ix2 s f) * w (ix2 f h) := by
  show FloatOps.matmul dot_S502x256_S256x256_S502x256_1_0_0_1_n_n none x w (constant S502x256 .f32 0x00000000#32) (ix2 s h) = _
  rw [Ideal.matmul_constant_zero_apply, ← Equiv.sum_comp (contrEquiv1 dot_S502x256_S256x256_S502x256_1_0_0_1_n_n 256 rfl rfl).symm]
  refine Finset.sum_congr rfl fun f _ => ?_
  have c2 := contrEquiv1_symm_val dot_S502x256_S256x256_S502x256_1_0_0_1_n_n 256 rfl rfl f
  have l2 : dot_S502x256_S256x256_S502x256_1_0_0_1_n_n.lhsIdx (ix2 s h) ((contrEquiv1 dot_S502x256_S256x256_S502x256_1_0_0_1_n_n 256 rfl rfl).symm f) = ix2 s f := by
    funext ax; apply Fin.ext
    match ax with
    | ⟨0, _⟩ => simp [DotDims.lhsIdx, dot_S502x256_S256x256_S502x256_1_0_0_1_n_n]; rfl
    | ⟨1, _⟩ => simp [DotDims.lhsIdx, dot_S502x256_S256x256_S502x256_1_0_0_1_n_n]; exact c2
  have r2 : dot_S502x256_S256x256_S502x256_1_0_0_1_n_n.rhsIdx (ix2 s h) ((contrEquiv1 dot_S502x256_S256x256_S502x256_1_0_0_1_n_n 256 rfl rfl).symm f) = ix2 f h := by
    funext ax; apply Fin.ext
    match ax with
    | ⟨0, _⟩ => simp [DotDims.rhsIdx, dot_S502x256_S256x256_S502x256_1_0_0_1_n_n]; exact c2
    | ⟨1, _⟩ => simp [DotDims.rhsIdx, dot_S502x256_S256x256_S502x256_1_0_0_1_n_n]; rfl
  rw [l2, r2]

/-- The second product at an index: the sum over the 502 source nodes. -/
theorem matmulA_apply (a : FVec Ideal S502x502 .bf16) (b : FVec Ideal S502x256 .bf16) (n : Fin 502) (h : Fin 256) :
    matmul dot_S502x502_S502x256_S502x256_1_0_0_1_n_n none a b (constant S502x256 .f32 0x00000000#32) (ix2 n h)
      = ∑ s : Fin 502, a (ix2 n s) * b (ix2 s h) := by
  show FloatOps.matmul dot_S502x502_S502x256_S502x256_1_0_0_1_n_n none a b (constant S502x256 .f32 0x00000000#32) (ix2 n h) = _
  rw [Ideal.matmul_constant_zero_apply, ← Equiv.sum_comp (contrEquiv1 dot_S502x502_S502x256_S502x256_1_0_0_1_n_n 502 rfl rfl).symm]
  refine Finset.sum_congr rfl fun s _ => ?_
  have c2 := contrEquiv1_symm_val dot_S502x502_S502x256_S502x256_1_0_0_1_n_n 502 rfl rfl s
  have l2 : dot_S502x502_S502x256_S502x256_1_0_0_1_n_n.lhsIdx (ix2 n h) ((contrEquiv1 dot_S502x502_S502x256_S502x256_1_0_0_1_n_n 502 rfl rfl).symm s) = ix2 n s := by
    funext ax; apply Fin.ext
    match ax with
    | ⟨0, _⟩ => simp [DotDims.lhsIdx, dot_S502x502_S502x256_S502x256_1_0_0_1_n_n]; rfl
    | ⟨1, _⟩ => simp [DotDims.lhsIdx, dot_S502x502_S502x256_S502x256_1_0_0_1_n_n]; exact c2
  have r2 : dot_S502x502_S502x256_S502x256_1_0_0_1_n_n.rhsIdx (ix2 n h) ((contrEquiv1 dot_S502x502_S502x256_S502x256_1_0_0_1_n_n 502 rfl rfl).symm s) = ix2 s h := by
    funext ax; apply Fin.ext
    match ax with
    | ⟨0, _⟩ => simp [DotDims.rhsIdx, dot_S502x502_S502x256_S502x256_1_0_0_1_n_n]; exact c2
    | ⟨1, _⟩ => simp [DotDims.rhsIdx, dot_S502x502_S502x256_S502x256_1_0_0_1_n_n]; rfl
  rw [l2, r2]

/-- Stage 3 at an index: the real sum over the input features. -/
theorem stXW_apply (x : FVec Ideal S502x256 .bf16) (v11 : Vec Ideal S256x256 .bf16)
    (X : Fin 502 → Fin 256 → ℝ) (W : Fin 256 → Fin 256 → ℝ)
    (hx : ∀ s f, x (ix2 s f) = ((X s f : ℝ) : EReal)) (h11 : ∀ f h, v11 (ix2 f h) = ((W f h : ℝ) : EReal))
    (s : Fin 502) (h : Fin 256) :
    stXW x v11 (ix2 s h) = ((∑ f : Fin 256, X s f * W f h : ℝ) : EReal) := by
  show matmul dot_S502x256_S256x256_S502x256_1_0_0_1_n_n none x (shapeCast S256x256 v11 shapeCasts_S256x256_S256x256)
      (constant S502x256 .f32 0x00000000#32) (ix2 s h) = _
  rw [shapeCast_self, matmulXW_apply, coe_sum]
  refine Finset.sum_congr rfl fun f _ => ?_
  rw [hx, h11, EReal.coe_mul]

/-- Stage 4 at an index: the real sum over the source nodes, plus the bias. -/
theorem stConv_apply (v13 : Vec Ideal S502x502 .bf16) (b : FVec Ideal S502x256 .bf16) (v15 : Vec Ideal S1x256 .f32)
    (M : Fin 502 → Fin 502 → ℝ) (B : Fin 502 → Fin 256 → ℝ) (bias : Fin 256 → ℝ)
    (h13 : ∀ n s, v13 (ix2 n s) = ((M n s : ℝ) : EReal)) (hb : ∀ s h, b (ix2 s h) = ((B s h : ℝ) : EReal))
    (h15 : ∀ h, v15 (ix2 (0 : Fin 1) h) = ((bias h : ℝ) : EReal)) (n : Fin 502) (h : Fin 256) :
    stConv v13 b v15 (ix2 n h) = (((∑ s : Fin 502, M n s * B s h) + bias h : ℝ) : EReal) := by
  show matmul dot_S502x502_S502x256_S502x256_1_0_0_1_n_n none (shapeCast S502x502 v13 shapeCasts_S502x502_S502x502) b
        (constant S502x256 .f32 0x00000000#32) (ix2 n h)
      + broadcastTo S502x256 (shapeCast S1x256 v15 shapeCasts_S1x256_S1x256) broadcasts_S1x256_S502x256 (ix2 n h) = _
  rw [shapeCast_self, shapeCast_self, matmulA_apply, broadcastTo_1b_ab_apply, h15, EReal.coe_add, coe_sum]
  congr 1
  refine Finset.sum_congr rfl fun s _ => ?_
  rw [h13, hb, EReal.coe_mul]

/-- THE CONVOLVED SLAB AT AN INDEX: with every operand entry a real number, entry (n, h) is
    (∑ s, M n s · ∑ f, elu (normalised (s, f)) · W f h) + bias h. -/
theorem pay3_apply (v0 : Vec Ideal S1x256 .f32) (v2 : Vec Ideal S1x256 .f32) (v4 : Vec Ideal S1x256 .f32)
    (v6 : Vec Ideal S1x256 .f32) (v11 : Vec Ideal S256x256 .bf16) (v13 : Vec Ideal S502x502 .bf16)
    (v15 : Vec Ideal S1x256 .f32) (v32 : Vec Ideal S1x502x256 .f32)
    (Y : Fin 502 → Fin 256 → ℝ) (mu va g be bias : Fin 256 → ℝ) (W : Fin 256 → Fin 256 → ℝ) (M : Fin 502 → Fin 502 → ℝ)
    (hva : ∀ f, 0 ≤ va f)
    (h0 : ∀ f, v0 (ix2 (0 : Fin 1) f) = ((mu f : ℝ) : EReal))
    (h2 : ∀ f, v2 (ix2 (0 : Fin 1) f) = ((va f : ℝ) : EReal))
    (h4 : ∀ f, v4 (ix2 (0 : Fin 1) f) = ((g f : ℝ) : EReal))
    (h6 : ∀ f, v6 (ix2 (0 : Fin 1) f) = ((be f : ℝ) : EReal))
    (h11 : ∀ f h, v11 (ix2 f h) = ((W f h : ℝ) : EReal))
    (h13 : ∀ n s, v13 (ix2 n s) = ((M n s : ℝ) : EReal))
    (h15 : ∀ h, v15 (ix2 (0 : Fin 1) h) = ((bias h : ℝ) : EReal))
    (h32 : ∀ s f, v32 (ix3 (0 : Fin 1) s f) = ((Y s f : ℝ) : EReal)) (n : Fin 502) (h : Fin 256) :
    k1_pay3 v0 v2 v4 v6 v11 v13 v15 v32 (ix2 n h)
      = (((∑ s : Fin 502, M n s * ∑ f : Fin 256,
            Model.elu ((Y s f - mu f) * (Real.sqrt (va f + Model.eps))⁻¹ * g f + be f) * W f h) + bias h : ℝ) : EReal) := by
  rw [pay3_eq]
  exact stConv_apply v13 _ v15 M _ bias h13
    (fun s h => stXW_apply _ v11 _ W
      (fun s f => stAct_apply _ _ s f (stZ_apply v0 v2 v4 v6 v32 Y mu va g be hva h0 h2 h4 h6 h32 s f)) h11 s h)
    h15 n h

/-! ## The statistics payloads -/

/-- A column sum at an index: the sum over the 502 rows. -/
theorem colsum_apply (src : FVec Ideal S502x256 .f32) (hφ : FKind.Formats .f32)
    (hacc : (0x00000000#32 : BitVec FTy.f32.bits) = FKind.add.neutral .f32 hφ) (h : Fin 256) :
    multiReduction .add [0] S256 src 0x00000000#32 reduces_S502x256_S256 hφ hacc (ix1 h)
      = ∑ r : Fin 502, src (ix2 r h) := by
  refine (Ideal.multiReduction_add_single src 0x00000000#32 reduces_S502x256_S256 hφ hacc (ix1 h)).trans ?_
  refine Finset.sum_congr rfl fun r _ => congrArg src ?_
  funext a; apply Fin.ext
  match a with
  | ⟨0, _⟩ => rfl
  | ⟨1, _⟩ => rfl

/-- The first loop's yield at an index: the carried entry plus the column sum of the convolved slab. -/
theorem pay5_apply (v0 : Vec Ideal S1x256 .f32) (v2 : Vec Ideal S1x256 .f32) (v4 : Vec Ideal S1x256 .f32) (v6 : Vec Ideal S1x256 .f32) (v11 : Vec Ideal S256x256 .bf16) (v13 : Vec Ideal S502x502 .bf16) (v15 : Vec Ideal S1x256 .f32) (acc : FVec Ideal S1x256 .f32) (v32 : Vec Ideal S1x502x256 .f32) (u : Fin 1) (h : Fin 256) :
    k1_pay5 v0 v2 v4 v6 v11 v13 v15 acc v32 (ix2 u h)
      = acc (ix2 u h) + ∑ r : Fin 502, k1_pay3 v0 v2 v4 v6 v11 v13 v15 v32 (ix2 r h) := by
  show acc (ix2 u h) + shapeCast S1x256 (multiReduction .add [0] S256 (k1_pay3 v0 v2 v4 v6 v11 v13 v15 v32) 0x00000000#32
      reduces_S502x256_S256 (.inl rfl) rfl) shapeCasts_S256_S1x256 (ix2 u h) = _
  exact congrArg (acc (ix2 u h) + ·) ((shapeCast_a_1a_apply _ shapeCasts_S256_S1x256 u h).trans (colsum_apply _ _ _ h))

/-- The same with real data: the real sum. -/
theorem pay5_real (v0 : Vec Ideal S1x256 .f32) (v2 : Vec Ideal S1x256 .f32) (v4 : Vec Ideal S1x256 .f32) (v6 : Vec Ideal S1x256 .f32) (v11 : Vec Ideal S256x256 .bf16) (v13 : Vec Ideal S502x502 .bf16) (v15 : Vec Ideal S1x256 .f32) (acc : FVec Ideal S1x256 .f32) (v32 : Vec Ideal S1x502x256 .f32) (a : ℝ) (C : Fin 502 → ℝ)
    (u : Fin 1) (h : Fin 256) (hacc : acc (ix2 u h) = ((a : ℝ) : EReal))
    (hC : ∀ r, k1_pay3 v0 v2 v4 v6 v11 v13 v15 v32 (ix2 r h) = ((C r : ℝ) : EReal)) :
    k1_pay5 v0 v2 v4 v6 v11 v13 v15 acc v32 (ix2 u h) = ((a + ∑ r : Fin 502, C r : ℝ) : EReal) := by
  rw [pay5_apply, hacc, EReal.coe_add, coe_sum]
  exact congrArg (((a : ℝ) : EReal) + ·) (Finset.sum_congr rfl fun r _ => hC r)

/-- The row of means at an index: the carried sum over 4016. -/
theorem pay6_real (v19 : FVec Ideal S1x256 .f32) (S : ℝ) (u : Fin 1) (h : Fin 256)
    (hv : v19 (ix2 u h) = ((S : ℝ) : EReal)) : k1_pay6 v19 (ix2 u h) = ((S / 4016 : ℝ) : EReal) := by
  show Ideal.div (v19 (ix2 u h)) (Ideal.ofBits .f32 0x457B0000#32) = _
  rw [hv, Cert.Consts.ofBits_4016, Ideal.div_coe (by norm_num : (4016 : ℝ) ≠ 0), ← EReal.coe_mul]
  congr 1; ring

section Layout
variable {F : FTy → Type} [FloatOps F]

/-- The stored row of means is the row under one more leading axis of length one. -/
theorem pay7_apply (v19 : FVec F S1x256 .f32) (u u' : Fin 1) (h : Fin 256) :
    k1_pay7 v19 (ix3 u u' h) = k1_pay6 v19 (ix2 u' h) := by
  unfold k1_pay7
  exact shapeCast_ab_1ab_apply _ _ u u' h

/-- The stored row of centred sums of squares is the carried row under one more leading axis of length one. -/
theorem pay1_apply (v27 : FVec F S1x256 .f32) (u u' : Fin 1) (h : Fin 256) :
    k1_pay1 v27 (ix3 u u' h) = v27 (ix2 u' h) := by
  unfold k1_pay1
  exact shapeCast_ab_1ab_apply _ _ u u' h

end Layout

/-- Both loops start from the zero row. -/
theorem pay2_apply (u : Fin 1) (h : Fin 256) : (k1_pay2 (F := Ideal)) (ix2 u h) = ((0 : ℝ) : EReal) := by
  show Ideal.ofBits .f32 0x00000000#32 = _
  rw [Ideal.ofBits_zero_f32]; rfl

theorem pay8_apply (u : Fin 1) (h : Fin 256) : (k1_pay8 (F := Ideal)) (ix2 u h) = ((0 : ℝ) : EReal) := by
  show Ideal.ofBits .f32 0x00000000#32 = _
  rw [Ideal.ofBits_zero_f32]; rfl

/-- The second loop's yield at an index: the carried entry plus the column sum of the squares of the slab less
    the row of means. -/
theorem pay9_apply (v19 acc : FVec Ideal S1x256 .f32) (v32 : Vec Ideal S1x502x256 .f32) (u : Fin 1) (h : Fin 256) :
    k1_pay9 v19 acc v32 (ix2 u h)
      = acc (ix2 u h) + ∑ r : Fin 502, (v32 (ix3 (0 : Fin 1) r h) - k1_pay6 v19 (ix2 (0 : Fin 1) h))
          * (v32 (ix3 (0 : Fin 1) r h) - k1_pay6 v19 (ix2 (0 : Fin 1) h)) := by
  show acc (ix2 u h) + shapeCast S1x256 (multiReduction .add [0] S256 (mulf (subf (shapeCast S502x256 v32 shapeCasts_S1x502x256_S502x256) (broadcastTo S502x256 (k1_pay6 v19) broadcasts_S1x256_S502x256)) (subf (shapeCast S502x256 v32 shapeCasts_S1x502x256_S502x256) (broadcastTo S502x256 (k1_pay6 v19) broadcasts_S1x256_S502x256))) 0x00000000#32
      reduces_S502x256_S256 (.inl rfl) rfl) shapeCasts_S256_S1x256 (ix2 u h) = _
  refine congrArg (acc (ix2 u h) + ·) ((shapeCast_a_1a_apply _ shapeCasts_S256_S1x256 u h).trans ((colsum_apply _ _ _ h).trans ?_))
  refine Finset.sum_congr rfl fun r _ => ?_
  have e : (subf (shapeCast S502x256 v32 shapeCasts_S1x502x256_S502x256) (broadcastTo S502x256 (k1_pay6 v19) broadcasts_S1x256_S502x256)) (ix2 r h) = v32 (ix3 (0 : Fin 1) r h) - k1_pay6 v19 (ix2 (0 : Fin 1) h) := by
    show shapeCast S502x256 v32 shapeCasts_S1x502x256_S502x256 (ix2 r h)
      - broadcastTo S502x256 (k1_pay6 v19) broadcasts_S1x256_S502x256 (ix2 r h) = _
    rw [shapeCast_1ab_ab_apply, broadcastTo_1b_ab_apply]
  show (subf (shapeCast S502x256 v32 shapeCasts_S1x502x256_S502x256) (broadcastTo S502x256 (k1_pay6 v19) broadcasts_S1x256_S502x256)) (ix2 r h) * (subf (shapeCast S502x256 v32 shapeCasts_S1x502x256_S502x256) (broadcastTo S502x256 (k1_pay6 v19) broadcasts_S1x256_S502x256)) (ix2 r h) = _
  rw [e]

/-- The same with real data: the real sum of squares. -/
theorem pay9_real (v19 acc : FVec Ideal S1x256 .f32) (v32 : Vec Ideal S1x502x256 .f32) (a m : ℝ) (C : Fin 502 → ℝ)
    (u : Fin 1) (h : Fin 256) (hacc : acc (ix2 u h) = ((a : ℝ) : EReal))
    (hm : k1_pay6 v19 (ix2 (0 : Fin 1) h) = ((m : ℝ) : EReal))
    (hC : ∀ r, v32 (ix3 (0 : Fin 1) r h) = ((C r : ℝ) : EReal)) :
    k1_pay9 v19 acc v32 (ix2 u h) = ((a + ∑ r : Fin 502, (C r - m) ^ 2 : ℝ) : EReal) := by
  rw [pay9_apply, hacc, hm, EReal.coe_add, coe_sum]
  refine congrArg (((a : ℝ) : EReal) + ·) (Finset.sum_congr rfl fun r _ => ?_)
  rw [hC, ← EReal.coe_sub, ← EReal.coe_mul, pow_two]

end Cert.KernelIdeal.KReg1

end
-- ==== Proof.KReg1Rec.lean ====
/-
  Region 1: the two carried rows of statistics as real numbers.

  With every operand entry a real number, the row the first loop carries after n trips holds, feature by
  feature, the sum over the first n slabs of the column sums of the convolved slabs; the row the second loop
  carries holds the sum over the first n slabs of the column sums of the squares of the convolved slabs less
  the row of means.  By induction over the trips.
-/
import proofs.«171858_j54966991454756_2_alg».proof.Proof.KReg1Trips
import proofs.«171858_j54966991454756_2_alg».proof.Proof.KReg1Pay

set_option maxRecDepth 16384

noncomputable section

namespace Cert.KernelIdeal.KReg1

open Idealize.ShloMosaic Idealize.ShloMosaic.TcCoe Idealize.ShloMosaic.ValueIdx
open Idealize.SL.Sem
open Cert.KernelIdeal Cert.KernelIdeal.Gen

/-- The convolved slab of a block of 8 slabs, as real numbers: M · (elu (normalised slab) · W) + bias. -/
def cvb (M : Fin 502 → Fin 502 → ℝ) (Yb : Fin 8 → Fin 502 → Fin 256 → ℝ) (mu va g be : Fin 256 → ℝ)
    (W : Fin 256 → Fin 256 → ℝ) (bias : Fin 256 → ℝ) (k : Fin 8) (n : Fin 502) (h : Fin 256) : ℝ :=
  (∑ s : Fin 502, M n s * ∑ f : Fin 256,
    Model.elu ((Yb k s f - mu f) * (Real.sqrt (va f + Model.eps))⁻¹ * g f + be f) * W f h) + bias h

/-- The same with the slab named by a natural number (zero past the last slab). -/
def cvN (M : Fin 502 → Fin 502 → ℝ) (Yb : Fin 8 → Fin 502 → Fin 256 → ℝ) (mu va g be : Fin 256 → ℝ)
    (W : Fin 256 → Fin 256 → ℝ) (bias : Fin 256 → ℝ) (k : ℕ) (n : Fin 502) (h : Fin 256) : ℝ :=
  if hk : k < 8 then cvb M Yb mu va g be W bias ⟨k, hk⟩ n h else 0

/-- The small operands of the kernel body hold real numbers. -/
structure RealIn (v0 : Vec Ideal S1x256 .f32) (v2 : Vec Ideal S1x256 .f32) (v4 : Vec Ideal S1x256 .f32) (v6 : Vec Ideal S1x256 .f32) (v11 : Vec Ideal S256x256 .bf16) (v13 : Vec Ideal S502x502 .bf16) (v15 : Vec Ideal S1x256 .f32) (mu va g be bias : Fin 256 → ℝ) (W : Fin 256 → Fin 256 → ℝ) (M : Fin 502 → Fin 502 → ℝ) : Prop where
  hva : ∀ f, 0 ≤ va f
  h0 : ∀ f, v0 (ix2 (0 : Fin 1) f) = ((mu f : ℝ) : EReal)
  h2 : ∀ f, v2 (ix2 (0 : Fin 1) f) = ((va f : ℝ) : EReal)
  h4 : ∀ f, v4 (ix2 (0 : Fin 1) f) = ((g f : ℝ) : EReal)
  h6 : ∀ f, v6 (ix2 (0 : Fin 1) f) = ((be f : ℝ) : EReal)
  h11 : ∀ f h, v11 (ix2 f h) = ((W f h : ℝ) : EReal)
  h13 : ∀ n s, v13 (ix2 n s) = ((M n s : ℝ) : EReal)
  h15 : ∀ h, v15 (ix2 (0 : Fin 1) h) = ((bias h : ℝ) : EReal)

/-- A slab of real numbers convolves to the real convolved slab, entry by entry. -/
theorem pay3_cvb (v0 : Vec Ideal S1x256 .f32) (v2 : Vec Ideal S1x256 .f32) (v4 : Vec Ideal S1x256 .f32) (v6 : Vec Ideal S1x256 .f32) (v11 : Vec Ideal S256x256 .bf16) (v13 : Vec Ideal S502x502 .bf16) (v15 : Vec Ideal S1x256 .f32) (v32 : Vec Ideal S1x502x256 .f32)
    (mu va g be bias : Fin 256 → ℝ) (W : Fin 256 → Fin 256 → ℝ) (M : Fin 502 → Fin 502 → ℝ)
    (Yb : Fin 8 → Fin 502 → Fin 256 → ℝ) (R : RealIn v0 v2 v4 v6 v11 v13 v15 mu va g be bias W M) (k : Fin 8)
    (h32 : ∀ s f, v32 (ix3 (0 : Fin 1) s f) = ((Yb k s f : ℝ) : EReal)) (n : Fin 502) (h : Fin 256) :
    k1_pay3 v0 v2 v4 v6 v11 v13 v15 v32 (ix2 n h) = ((cvb M Yb mu va g be W bias k n h : ℝ) : EReal) :=
  pay3_apply v0 v2 v4 v6 v11 v13 v15 v32 (Yb k) mu va g be bias W M R.hva R.h0 R.h2 R.h4 R.h6 R.h11 R.h13 R.h15 h32 n h

/-- The stored slab likewise. -/
theorem pay4_cvb (v0 : Vec Ideal S1x256 .f32) (v2 : Vec Ideal S1x256 .f32) (v4 : Vec Ideal S1x256 .f32) (v6 : Vec Ideal S1x256 .f32) (v11 : Vec Ideal S256x256 .bf16) (v13 : Vec Ideal S502x502 .bf16) (v15 : Vec Ideal S1x256 .f32) (v32 : Vec Ideal S1x502x256 .f32)
    (mu va g be bias : Fin 256 → ℝ) (W : Fin 256 → Fin 256 → ℝ) (M : Fin 502 → Fin 502 → ℝ)
    (Yb : Fin 8 → Fin 502 → Fin 256 → ℝ) (R : RealIn v0 v2 v4 v6 v11 v13 v15 mu va g be bias W M) (k : Fin 8)
    (h32 : ∀ s f, v32 (ix3 (0 : Fin 1) s f) = ((Yb k s f : ℝ) : EReal)) (u : Fin 1) (n : Fin 502) (h : Fin 256) :
    k1_pay4 v0 v2 v4 v6 v11 v13 v15 v32 (ix3 u n h) = ((cvb M Yb mu va g be W bias k n h : ℝ) : EReal) :=
  (pay4_apply v0 v2 v4 v6 v11 v13 v15 v32 u n h).trans (pay3_cvb v0 v2 v4 v6 v11 v13 v15 v32 mu va g be bias W M Yb R k h32 n h)

theorem sum_cvN (M : Fin 502 → Fin 502 → ℝ) (Yb : Fin 8 → Fin 502 → Fin 256 → ℝ) (mu va g be : Fin 256 → ℝ)
    (W : Fin 256 → Fin 256 → ℝ) (bias : Fin 256 → ℝ) (F : Fin 8 → ℝ) (G : ℕ → ℝ)
    (hFG : ∀ k : Fin 8, G k.val = F k) : ∑ k ∈ Finset.range 8, G k = ∑ k : Fin 8, F k := by
  rw [← Fin.sum_univ_eq_sum_range]
  exact Finset.sum_congr rfl fun k _ => hFG k

/-! ## The convolved block as one function of its index -/

/-- Slab k's rectangle in the first loop places (u, n, h) at (k, n, h). -/
theorem emb_slab1 (k : Fin k1_t1_loop.trips) (u : Fin 1) (n : Fin 502) (h : Fin 256) :
    (Rect.unit (s := S8x502x256) (k1_off1 k) S1x502x256.size (k1_off1_inb k)).emb (ix3 u n h)
      = ix3 (Fin.cast trips1 k) n h := by
  funext a; apply Fin.ext
  have e := k1_off1_eq k
  have hu : u.val = 0 := by omega
  match a with
  | ⟨0, _⟩ => show k1_off1 k 0 + 1 * u.val = k.val; rw [e]; show k.val + 1 * u.val = k.val; omega
  | ⟨1, _⟩ => show k1_off1 k 1 + 1 * n.val = n.val; rw [e]; show 0 + 1 * n.val = n.val; omega
  | ⟨2, _⟩ => show k1_off1 k 2 + 1 * h.val = h.val; rw [e]; show 0 + 1 * h.val = h.val; omega

/-- Slab k's rectangle in the second loop places (u, n, h) at (k, n, h). -/
theorem emb_slab2 (k : Fin k1_t2_loop.trips) (u : Fin 1) (n : Fin 502) (h : Fin 256) :
    (Rect.unit (s := S8x502x256) (k1_off2 k) S1x502x256.size (k1_off2_inb k)).emb (ix3 u n h)
      = ix3 (Fin.cast trips2 k) n h := by
  funext a; apply Fin.ext
  have e := k1_off2_eq k
  have hu : u.val = 0 := by omega
  match a with
  | ⟨0, _⟩ => show k1_off2 k 0 + 1 * u.val = k.val; rw [e]; show k.val + 1 * u.val = k.val; omega
  | ⟨1, _⟩ => show k1_off2 k 1 + 1 * n.val = n.val; rw [e]; show 0 + 1 * n.val = n.val; omega
  | ⟨2, _⟩ => show k1_off2 k 2 + 1 * h.val = h.val; rw [e]; show 0 + 1 * h.val = h.val; omega

section AnyF
variable {F : FTy → Type} [FloatOps F]

/-- Slab k of a buffer read whole is slab k of what the buffer holds. -/
theorem slab1_of_read (M : Memref sig .tc .vmem S8x502x256 .f32) (X : BufTy.Contents (Elt F) M.view.ty)
    (x0 : Vec F S8x502x256 .f32) (hread : M.view.read (Elt F) X = x0)
    (k : Fin k1_t1_loop.trips) (u : Fin 1) (n : Fin 502) (f : Fin 256) :
    slab1 M X k (ix3 u n f) = x0 (ix3 (Fin.cast trips1 k) n f) := by
  show View.readAt (Elt F) M.view (Rect.unit (s := S8x502x256) (k1_off1 k) S1x502x256.size (k1_off1_inb k)).toLoadRect X (ix3 u n f) = _
  rw [View.readAt_eq_ld, hread]
  exact congrArg x0 (emb_slab1 k u n f)

/-- Slab k of a buffer holding stored pieces over nothing is the pieces' own contents at slab k. -/
theorem slab2_of_writes_junk (M : Memref sig .tc .vmem S8x502x256 .f32) (L : List (View.Piece (Elt F) S8x502x256 .f32))
    (k : Fin k1_t2_loop.trips) (u : Fin 1) (n : Fin 502) (h : Fin 256) :
    slab2 M (M.view.writes (Elt F) M.view.junk L) k (ix3 u n h) = View.canon L (ix3 (Fin.cast trips2 k) n h) := by
  show View.readAt (Elt F) M.view (Rect.unit (s := S8x502x256) (k1_off2 k) S1x502x256.size (k1_off2_inb k)).toLoadRect
      (M.view.writes (Elt F) M.view.junk L) (ix3 u n h) = _
  rw [View.readAt_writes_junk_eq_canon]
  exact congrArg (View.canon L) (emb_slab2 k u n h)

end AnyF

/-- The convolved block: entry (k, n, h) is entry (n, h) of the convolved slab k. -/
def Gb (M : Fin 502 → Fin 502 → ℝ) (Yb : Fin 8 → Fin 502 → Fin 256 → ℝ) (mu va g be : Fin 256 → ℝ)
    (W : Fin 256 → Fin 256 → ℝ) (bias : Fin 256 → ℝ) : S8x502x256.Idx → EReal :=
  fun y => ((cvb M Yb mu va g be W bias (y 0) (y 1) (y 2) : ℝ) : EReal)

theorem Gb_ix3 (M : Fin 502 → Fin 502 → ℝ) (Yb : Fin 8 → Fin 502 → Fin 256 → ℝ) (mu va g be : Fin 256 → ℝ)
    (W : Fin 256 → Fin 256 → ℝ) (bias : Fin 256 → ℝ) (k : Fin 8) (n : Fin 502) (h : Fin 256) :
    Gb M Yb mu va g be W bias (ix3 k n h) = ((cvb M Yb mu va g be W bias k n h : ℝ) : EReal) := rfl

variable (𝒱 : Variants) (c : Dev nD) (bd : Option 𝒱.V) (i : grid1.Coords) (arg1 : Memref sig .tc .vmem S8x502x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S502x502 .bf16) (harg7 : arg7.IsWhole) (arg8 : Memref sig .tc .vmem S1x256 .f32) (harg8 : arg8.IsWhole) (arg9 : Memref sig .tc .vmem S8x502x256 .f32) (harg9 : arg9.IsWhole) (arg10 : Memref sig .tc .vmem S1x1x256 .f32) (harg10 : arg10.IsWhole) (arg11 : Memref sig .tc .vmem S1x1x256 .f32) (harg11 : arg11.IsWhole)

section Loop1

variable (v0 : Vec Ideal S1x256 .f32) (v2 : Vec Ideal S1x256 .f32) (v4 : Vec Ideal S1x256 .f32) (v6 : Vec Ideal S1x256 .f32) (v11 : Vec Ideal S256x256 .bf16) (v13 : Vec Ideal S502x502 .bf16) (v15 : Vec Ideal S1x256 .f32) (X1 : BufTy.Contents (Elt Ideal) arg1.view.ty)
variable (mu va g be bias : Fin 256 → ℝ) (W : Fin 256 → Fin 256 → ℝ) (M : Fin 502 → Fin 502 → ℝ)
variable (Yb : Fin 8 → Fin 502 → Fin 256 → ℝ)

/-- The row the first loop carries after n trips: the column sums of the first n convolved slabs, added. -/
theorem st1_fst_val (R : RealIn v0 v2 v4 v6 v11 v13 v15 mu va g be bias W M)
    (hslab : ∀ (k : Fin k1_t1_loop.trips) s f, slab1 arg1 X1 k (ix3 (0 : Fin 1) s f) = ((Yb (Fin.cast trips1 k) s f : ℝ) : EReal))
    (h : Fin 256) : ∀ (n : ℕ), n ≤ k1_t1_loop.trips →
      (st_k1_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 (k1_pay2 (F := Ideal)) n).1 (ix2 (0 : Fin 1) h)
        = ((∑ k ∈ Finset.range n, ∑ r : Fin 502, cvN M Yb mu va g be W bias k r h : ℝ) : EReal)
  | 0, _ => by
    rw [st1_zero_fst, Finset.sum_range_zero]; exact pay2_apply 0 h
  | n + 1, hn => by
    have hn8 : n < 8 := by have := trips1; omega
    have e := st1_succ_fst 𝒱 c bd i arg1 harg1 arg2 harg2 arg3 harg3 arg4 harg4 arg5 harg5 arg6 harg6 arg7 harg7 arg8 harg8 arg9 harg9 arg10 harg10 arg11 harg11 v0 v2 v4 v6 v11 v13 v15 X1 (k1_pay2 (F := Ideal)) ⟨n, hn⟩
    dsimp only at e
    rw [e, Finset.sum_range_succ]
    refine (pay5_real v0 v2 v4 v6 v11 v13 v15 _ _ _ (fun r => cvb M Yb mu va g be W bias ⟨n, hn8⟩ r h) 0 h
      (st1_fst_val R hslab h n (Nat.le_of_succ_le hn))
      (fun r => pay3_cvb v0 v2 v4 v6 v11 v13 v15 _ mu va g be bias W M Yb R ⟨n, hn8⟩ (hslab ⟨n, hn⟩) r h)).trans ?_
    congr 2
    refine Finset.sum_congr rfl fun r _ => ?_
    unfold cvN; rw [dif_pos hn8]

/-- After the last trip: the column sums of all 8 convolved slabs. -/
theorem st1_fst_total (R : RealIn v0 v2 v4 v6 v11 v13 v15 mu va g be bias W M)
    (hslab : ∀ (k : Fin k1_t1_loop.trips) s f, slab1 arg1 X1 k (ix3 (0 : Fin 1) s f) = ((Yb (Fin.cast trips1 k) s f : ℝ) : EReal))
    (h : Fin 256) :
    (st_k1_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 (k1_pay2 (F := Ideal)) k1_t1_loop.trips).1 (ix2 (0 : Fin 1) h)
      = ((∑ k : Fin 8, ∑ r : Fin 502, cvb M Yb mu va g be W bias k r h : ℝ) : EReal) := by
  have e : ∑ k ∈ Finset.range k1_t1_loop.trips, ∑ r : Fin 502, cvN M Yb mu va g be W bias k r h
      = ∑ k : Fin 8, ∑ r : Fin 502, cvb M Yb mu va g be W bias k r h := by
    rw [trips1]
    refine sum_cvN M Yb mu va g be W bias _ _ fun k => ?_
    refine Finset.sum_congr rfl fun r _ => ?_
    unfold cvN; rw [dif_pos k.isLt]
  rw [st1_fst_val 𝒱 c bd i arg1 harg1 arg2 harg2 arg3 harg3 arg4 harg4 arg5 harg5 arg6 harg6 arg7 harg7 arg8 harg8 arg9 harg9 arg10 harg10 arg11 harg11 v0 v2 v4 v6 v11 v13 v15 X1 mu va g be bias W M Yb R hslab h _ (Nat.le_refl _), e]

/-- Trip k's stored piece is the convolved block's slab k. -/
theorem piece1_G (R : RealIn v0 v2 v4 v6 v11 v13 v15 mu va g be bias W M)
    (hslab : ∀ (k : Fin k1_t1_loop.trips) s f, slab1 arg1 X1 k (ix3 (0 : Fin 1) s f) = ((Yb (Fin.cast trips1 k) s f : ℝ) : EReal))
    (k : Fin k1_t1_loop.trips) (x : S1x502x256.Idx) :
    k1_pay4 v0 v2 v4 v6 v11 v13 v15 (slab1 arg1 X1 k) x
      = Gb M Yb mu va g be W bias ((Rect.unit (s := S8x502x256) (k1_off1 k) S1x502x256.size (k1_off1_inb k)).emb x) := by
  obtain ⟨u, n, h, rfl⟩ : ∃ (u : Fin 1) (n : Fin 502) (h : Fin 256), x = ix3 u n h := ⟨x 0, x 1, x 2, eq_ix3 x⟩
  rw [emb_slab1, Gb_ix3]
  exact pay4_cvb v0 v2 v4 v6 v11 v13 v15 (slab1 arg1 X1 k) mu va g be bias W M Yb R (Fin.cast trips1 k) (hslab k) u n h

/-- What the 8 trips' pieces leave in the output block, read as one function: the convolved block. -/
theorem canon_st1 (R : RealIn v0 v2 v4 v6 v11 v13 v15 mu va g be bias W M)
    (hslab : ∀ (k : Fin k1_t1_loop.trips) s f, slab1 arg1 X1 k (ix3 (0 : Fin 1) s f) = ((Yb (Fin.cast trips1 k) s f : ℝ) : EReal))
    (init : FVec Ideal S1x256 .f32) (y : S8x502x256.Idx) :
    View.canon (st_k1_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init k1_t1_loop.trips).2 y = Gb M Yb mu va g be W bias y := by
  refine View.canon_apply_of_pieces (Val := Elt Ideal) (S := S8x502x256) (e := .f32) (Gb M Yb mu va g be W bias) _ ?_ y ?_
  · intro p hp x
    obtain ⟨k, rfl⟩ := st1_pieces 𝒱 c bd i arg1 harg1 arg2 harg2 arg3 harg3 arg4 harg4 arg5 harg5 arg6 harg6 arg7 harg7 arg8 harg8 arg9 harg9 arg10 harg10 arg11 harg11 v0 v2 v4 v6 v11 v13 v15 X1 init _ (Nat.le_refl _) p hp
    exact piece1_G arg1 v0 v2 v4 v6 v11 v13 v15 X1 mu va g be bias W M Yb R hslab k x
  · have h0 : (y 0).val < 8 := (y 0).isLt
    have h1 : (y 1).val < 502 := (y 1).isLt
    have h2 : (y 2).val < 256 := (y 2).isLt
    have hk : (y 0).val < k1_t1_loop.trips := by rw [trips1]; exact h0
    refine ⟨_, st1_mem 𝒱 c bd i arg1 harg1 arg2 harg2 arg3 harg3 arg4 harg4 arg5 harg5 arg6 harg6 arg7 harg7 arg8 harg8 arg9 harg9 arg10 harg10 arg11 harg11 v0 v2 v4 v6 v11 v13 v15 X1 init _ (Nat.le_refl _) ⟨(y 0).val, hk⟩ hk, ?_⟩
    show y ∈ (Rect.unit (s := S8x502x256) (k1_off1 ⟨(y 0).val, hk⟩) S1x502x256.size (k1_off1_inb ⟨(y 0).val, hk⟩)).set
    rw [Rect.mem_set_unit, k1_off1_eq]
    intro a
    match a with
    | ⟨0, _⟩ => show (y 0).val ≤ (y 0).val ∧ (y 0).val < (y 0).val + 1; omega
    | ⟨1, _⟩ => show 0 ≤ (y 1).val ∧ (y 1).val < 0 + 502; omega
    | ⟨2, _⟩ => show 0 ≤ (y 2).val ∧ (y 2).val < 0 + 256; omega

end Loop1

section Loop2

variable (v19 : FVec Ideal S1x256 .f32) (X9 : BufTy.Contents (Elt Ideal) arg9.view.ty)
variable (Cb : Fin 8 → Fin 502 → Fin 256 → ℝ) (m : Fin 256 → ℝ)

/-- The slab named by a natural number (zero past the last slab). -/
def sqN (Cb : Fin 8 → Fin 502 → Fin 256 → ℝ) (m : Fin 256 → ℝ) (k : ℕ) (r : Fin 502) (h : Fin 256) : ℝ :=
  if hk : k < 8 then (Cb ⟨k, hk⟩ r h - m h) ^ 2 else 0

/-- The row the second loop carries after n trips: the column sums of the squares of the first n slabs of the
    output block less the row of means, added. -/
theorem st2_val (hm : ∀ h, k1_pay6 v19 (ix2 (0 : Fin 1) h) = ((m h : ℝ) : EReal))
    (hslab : ∀ (k : Fin k1_t2_loop.trips) r h, slab2 arg9 X9 k (ix3 (0 : Fin 1) r h) = ((Cb (Fin.cast trips2 k) r h : ℝ) : EReal))
    (h : Fin 256) : ∀ (n : ℕ), n ≤ k1_t2_loop.trips →
      (st_k1_t2 𝒱 c bd i arg1 harg1 arg2 harg2 arg3 harg3 arg4 harg4 arg5 harg5 arg6 harg6 arg7 harg7 arg8 harg8 arg9 harg9 arg10 harg10 arg11 harg11 v19 X9 (k1_pay8 (F := Ideal)) n) (ix2 (0 : Fin 1) h)
        = ((∑ k ∈ Finset.range n, ∑ r : Fin 502, sqN Cb m k r h : ℝ) : EReal)
  | 0, _ => by
    rw [st2_zero, Finset.sum_range_zero]; exact pay8_apply 0 h
  | n + 1, hn => by
    have hn8 : n < 8 := by have := trips2; omega
    have e := st2_succ 𝒱 c bd i arg1 harg1 arg2 harg2 arg3 harg3 arg4 harg4 arg5 harg5 arg6 harg6 arg7 harg7 arg8 harg8 arg9 harg9 arg10 harg10 arg11 harg11 v19 X9 (k1_pay8 (F := Ideal)) ⟨n, hn⟩
    dsimp only at e
    rw [e, Finset.sum_range_succ]
    refine (pay9_real v19 _ _ _ (m h) (fun r => Cb ⟨n, hn8⟩ r h) 0 h
      (st2_val hm hslab h n (Nat.le_of_succ_le hn)) (hm h) (fun r => hslab ⟨n, hn⟩ r h)).trans ?_
    congr 2
    refine Finset.sum_congr rfl fun r _ => ?_
    unfold sqN; rw [dif_pos hn8]

/-- After the last trip: the centred sum of squares over all 8 slabs. -/
theorem st2_total (hm : ∀ h, k1_pay6 v19 (ix2 (0 : Fin 1) h) = ((m h : ℝ) : EReal))
    (hslab : ∀ (k : Fin k1_t2_loop.trips) r h, slab2 arg9 X9 k (ix3 (0 : Fin 1) r h) = ((Cb (Fin.cast trips2 k) r h : ℝ) : EReal))
    (h : Fin 256) :
    (st_k1_t2 𝒱 c bd i arg1 harg1 arg2 harg2 arg3 harg3 arg4 harg4 arg5 harg5 arg6 harg6 arg7 harg7 arg8 harg8 arg9 harg9 arg10 harg10 arg11 harg11 v19 X9 (k1_pay8 (F := Ideal)) k1_t2_loop.trips) (ix2 (0 : Fin 1) h)
      = ((∑ k : Fin 8, ∑ r : Fin 502, (Cb k r h - m h) ^ 2 : ℝ) : EReal) := by
  have e : ∑ k ∈ Finset.range k1_t2_loop.trips, ∑ r : Fin 502, sqN Cb m k r h
      = ∑ k : Fin 8, ∑ r : Fin 502, (Cb k r h - m h) ^ 2 := by
    rw [trips2, ← Fin.sum_univ_eq_sum_range]
    refine Finset.sum_congr rfl fun k _ => Finset.sum_congr rfl fun r _ => ?_
    unfold sqN; rw [dif_pos k.isLt]
  rw [st2_val 𝒱 c bd i arg1 harg1 arg2 harg2 arg3 harg3 arg4 harg4 arg5 harg5 arg6 harg6 arg7 harg7 arg8 harg8 arg9 harg9 arg10 harg10 arg11 harg11 v19 X9 Cb m hm hslab h _ (Nat.le_refl _), e]

end Loop2

end Cert.KernelIdeal.KReg1

end
-- ==== Proof.KReg1Body.lean ====
/-
  Region 1 (the fused normalise, convolve and accumulate kernel): the body at one grid step, read as values.

  What the body's run found: the big output's staging buffer gets the 8 pieces of the first loop, statistics
  output 9 one piece (the row the first loop carried out, over 4016), statistics output 10 one piece (the row
  the second loop carried out, that loop reading the big output's buffer as the first loop's pieces left it).
  With every operand entry a real number: the big output's block is the convolved block, output 9's row the
  block's mean and output 10's row the block's centred sum of squares, feature by feature.
-/
import proofs.«171858_j54966991454756_2_alg».proof.Proof.KIFrame
import proofs.«171858_j54966991454756_2_alg».proof.Proof.KReg1Rec

set_option maxRecDepth 16384

noncomputable section

namespace Cert.KernelIdeal.KReg1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body at a grid step: what the run found -/

section Body

variable (c : Dev nD) (i : grid1.Coords) (arg1 : Memref sig .tc .vmem S8x502x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S502x502 .bf16) (harg7 : arg7.IsWhole) (arg8 : Memref sig .tc .vmem S1x256 .f32) (harg8 : arg8.IsWhole) (arg9 : Memref sig .tc .vmem S8x502x256 .f32) (harg9 : arg9.IsWhole) (arg10 : Memref sig .tc .vmem S1x1x256 .f32) (harg10 : arg10.IsWhole) (arg11 : Memref sig .tc .vmem S1x1x256 .f32) (harg11 : arg11.IsWhole)
variable (x0 : Vec Ideal S8x502x256 .f32) (x1 : Vec Ideal S1x256 .f32) (x2 : Vec Ideal S1x256 .f32) (x3 : Vec Ideal S1x256 .f32) (x4 : Vec Ideal S1x256 .f32) (x5 : Vec Ideal S256x256 .bf16) (x6 : Vec Ideal S502x502 .bf16) (x7 : Vec Ideal S1x256 .f32)

/-- The big output's pieces are the first loop's, after its 8 trips from the zero row. -/
theorem run_L8 : (kernelRun1_A (F := Ideal) c i arg1 harg1 arg2 harg2 arg3 harg3 arg4 harg4 arg5 harg5 arg6 harg6 arg7 harg7 arg8 harg8 arg9 harg9 arg10 harg10 arg11 harg11 x0 x1 x2 x3 x4 x5 x6 x7).1 = (st_k1_t1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) (k1_pay2 (F := Ideal)) k1_t1_loop.trips).2 := by
  unfold kernelRun1_A
  dsimp only
  try sl_unfold_words
  simp only [View.readAt_eq_ld, harg2.read_unread, harg3.read_unread, harg4.read_unread, harg5.read_unread,
    harg6.read_unread, harg7.read_unread, harg8.read_unread, View.ld_unit_zero (S := S1x256) hz2,
    View.ld_unit_zero (S := S256x256) hz2, View.ld_unit_zero (S := S502x502) hz2]

/-- Statistics output 9 gets one piece: the row the first loop carried out, over 4016. -/
theorem run_L9 : (kernelRun1_A (F := Ideal) c i arg1 harg1 arg2 harg2 arg3 harg3 arg4 harg4 arg5 harg5 arg6 harg6 arg7 harg7 arg8 harg8 arg9 harg9 arg10 harg10 arg11 harg11 x0 x1 x2 x3 x4 x5 x6 x7).2.1
    = [⟨Rect.unit (s := S1x1x256) ![0, 0, 0] S1x1x256.size inb_S1x1x256_S1x1x256_0_0_0, k1_pay7 (st_k1_t1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) (k1_pay2 (F := Ideal)) k1_t1_loop.trips).1⟩] := by
  unfold kernelRun1_A
  dsimp only
  try sl_unfold_words
  simp only [View.readAt_eq_ld, harg2.read_unread, harg3.read_unread, harg4.read_unread, harg5.read_unread,
    harg6.read_unread, harg7.read_unread, harg8.read_unread, View.ld_unit_zero (S := S1x256) hz2,
    View.ld_unit_zero (S := S256x256) hz2, View.ld_unit_zero (S := S502x502) hz2]

/-- Statistics output 10 gets one piece: the row the second loop carried out; that loop reads the big output's
    staging buffer as the first loop's pieces left it. -/
theorem run_L10 : (kernelRun1_A (F := Ideal) c i arg1 harg1 arg2 harg2 arg3 harg3 arg4 harg4 arg5 harg5 arg6 harg6 arg7 harg7 arg8 harg8 arg9 harg9 arg10 harg10 arg11 harg11 x0 x1 x2 x3 x4 x5 x6 x7).2.2.1
    = [⟨Rect.unit (s := S1x1x256) ![0, 0, 0] S1x1x256.size inb_S1x1x256_S1x1x256_0_0_0,
        k1_pay1 (st_k1_t2 Variants.none c none i arg1 harg1 arg2 harg2 arg3 harg3 arg4 harg4 arg5 harg5 arg6 harg6 arg7 harg7 arg8 harg8 arg9 harg9 arg10 harg10 arg11 harg11 (st_k1_t1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) (k1_pay2 (F := Ideal)) k1_t1_loop.trips).1 (arg9.view.writes (Elt Ideal) arg9.view.junk (st_k1_t1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) (k1_pay2 (F := Ideal)) k1_t1_loop.trips).2) (k1_pay8 (F := Ideal)) k1_t2_loop.trips)⟩] := by
  unfold kernelRun1_A
  dsimp only
  try sl_unfold_words
  simp only [View.readAt_eq_ld, harg2.read_unread, harg3.read_unread, harg4.read_unread, harg5.read_unread,
    harg6.read_unread, harg7.read_unread, harg8.read_unread, View.ld_unit_zero (S := S1x256) hz2,
    View.ld_unit_zero (S := S256x256) hz2, View.ld_unit_zero (S := S502x502) hz2]

variable (mu va g be bias : Fin 256 → ℝ) (W : Fin 256 → Fin 256 → ℝ) (M : Fin 502 → Fin 502 → ℝ)
variable (Yb : Fin 8 → Fin 502 → Fin 256 → ℝ)

/-- Slab k of the input block, as the first loop reads it, holds the block's reals at slab k. -/
theorem hslab1 (hx0 : ∀ k s f, x0 (ix3 k s f) = ((Yb k s f : ℝ) : EReal)) (k : Fin k1_t1_loop.trips) (s : Fin 502) (f : Fin 256) :
    slab1 arg1 (harg1.unread x0) k (ix3 (0 : Fin 1) s f) = ((Yb (Fin.cast trips1 k) s f : ℝ) : EReal) :=
  (slab1_of_read arg1 (harg1.unread x0) x0 (harg1.read_unread x0) k 0 s f).trans (hx0 _ s f)

/-- THE BIG OUTPUT'S BLOCK: the convolved block. -/
theorem out8_val (R : RealIn x1 x2 x3 x4 x5 x6 x7 mu va g be bias W M) (hx0 : ∀ k s f, x0 (ix3 k s f) = ((Yb k s f : ℝ) : EReal))
    (k : Fin 8) (n : Fin 502) (h : Fin 256) :
    out1_A_8 c i arg1 harg1 arg2 harg2 arg3 harg3 arg4 harg4 arg5 harg5 arg6 harg6 arg7 harg7 arg8 harg8 arg9 harg9 arg10 harg10 arg11 harg11 x0 x1 x2 x3 x4 x5 x6 x7 (ix3 k n h) = ((cvb M Yb mu va g be W bias k n h : ℝ) : EReal) := by
  unfold out1_A_8
  rw [View.read_writes_junk_eq_canon, run_L8]
  exact (canon_st1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) mu va g be bias W M Yb R
    (hslab1 arg1 harg1 x0 Yb hx0) _ (ix3 k n h)).trans (Gb_ix3 M Yb mu va g be W bias k n h)

/-- The row the first loop carries out: the column sums of the convolved block. -/
theorem v19_val (R : RealIn x1 x2 x3 x4 x5 x6 x7 mu va g be bias W M) (hx0 : ∀ k s f, x0 (ix3 k s f) = ((Yb k s f : ℝ) : EReal)) (h : Fin 256) :
    (st_k1_t1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) (k1_pay2 (F := Ideal)) k1_t1_loop.trips).1 (ix2 (0 : Fin 1) h) = ((∑ k : Fin 8, ∑ r : Fin 502, cvb M Yb mu va g be W bias k r h : ℝ) : EReal) :=
  st1_fst_total Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) mu va g be bias W M Yb R (hslab1 arg1 harg1 x0 Yb hx0) h

/-- STATISTICS OUTPUT 9's BLOCK: the block's mean, feature by feature. -/
theorem out9_val (R : RealIn x1 x2 x3 x4 x5 x6 x7 mu va g be bias W M) (hx0 : ∀ k s f, x0 (ix3 k s f) = ((Yb k s f : ℝ) : EReal))
    (u u' : Fin 1) (h : Fin 256) :
    out1_A_9 c i arg1 harg1 arg2 harg2 arg3 harg3 arg4 harg4 arg5 harg5 arg6 harg6 arg7 harg7 arg8 harg8 arg9 harg9 arg10 harg10 arg11 harg11 x0 x1 x2 x3 x4 x5 x6 x7 (ix3 u u' h)
      = (((∑ k : Fin 8, ∑ r : Fin 502, cvb M Yb mu va g be W bias k r h) / 4016 : ℝ) : EReal) := by
  unfold out1_A_9
  rw [View.read_writes_junk_eq_canon, run_L9, View.canon_unit_zero hz3, pay7_apply]
  obtain rfl : u' = 0 := Subsingleton.elim _ _
  exact pay6_real _ _ 0 h (v19_val c i arg1 harg1 arg2 harg2 arg3 harg3 arg4 harg4 arg5 harg5 arg6 harg6 arg7 harg7 arg8 harg8 arg9 harg9 arg10 harg10 arg11 harg11 x0 x1 x2 x3 x4 x5 x6 x7 mu va g be bias W M Yb R hx0 h)

/-- STATISTICS OUTPUT 10's BLOCK: the block's centred sum of squares, feature by feature. -/
theorem out10_val (R : RealIn x1 x2 x3 x4 x5 x6 x7 mu va g be bias W M) (hx0 : ∀ k s f, x0 (ix3 k s f) = ((Yb k s f : ℝ) : EReal))
    (u u' : Fin 1) (h : Fin 256) :
    out1_A_10 c i arg1 harg1 arg2 harg2 arg3 harg3 arg4 harg4 arg5 harg5 arg6 harg6 arg7 harg7 arg8 harg8 arg9 harg9 arg10 harg10 arg11 harg11 x0 x1 x2 x3 x4 x5 x6 x7 (ix3 u u' h)
      = ((∑ k : Fin 8, ∑ r : Fin 502,
          (cvb M Yb mu va g be W bias k r h - (∑ k : Fin 8, ∑ r : Fin 502, cvb M Yb mu va g be W bias k r h) / 4016) ^ 2 : ℝ) : EReal) := by
  unfold out1_A_10
  rw [View.read_writes_junk_eq_canon, run_L10, View.canon_unit_zero hz3, pay1_apply]
  obtain rfl : u' = 0 := Subsingleton.elim _ _
  exact st2_total Variants.none c none i arg1 harg1 arg2 harg2 arg3 harg3 arg4 harg4 arg5 harg5 arg6 harg6 arg7 harg7 arg8 harg8 arg9 harg9 arg10 harg10 arg11 harg11 (st_k1_t1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) (k1_pay2 (F := Ideal)) k1_t1_loop.trips).1 (arg9.view.writes (Elt Ideal) arg9.view.junk (st_k1_t1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) (k1_pay2 (F := Ideal)) k1_t1_loop.trips).2) (cvb M Yb mu va g be W bias)
    (fun h => (∑ k : Fin 8, ∑ r : Fin 502, cvb M Yb mu va g be W bias k r h) / 4016)
    (fun h => pay6_real _ _ 0 h (v19_val c i arg1 harg1 arg2 harg2 arg3 harg3 arg4 harg4 arg5 harg5 arg6 harg6 arg7 harg7 arg8 harg8 arg9 harg9 arg10 harg10 arg11 harg11 x0 x1 x2 x3 x4 x5 x6 x7 mu va g be bias W M Yb R hx0 h))
    (fun k r h => (slab2_of_writes_junk arg9 _ k 0 r h).trans
      ((canon_st1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) mu va g be bias W M Yb R
        (hslab1 arg1 harg1 x0 Yb hx0) _ (ix3 (Fin.cast trips2 k) r h)).trans (Gb_ix3 M Yb mu va g be W bias _ r h)))
    h

end Body

end Cert.KernelIdeal.KReg1

end
-- ==== Proof.KReg1Geo.lean ====
/-
  Region 1: where its blocks sit in its arrays.

  The grid has 16 steps.  At step t the big input and the big output are read and written through the block
  of batch elements 8t … 8t + 7, each statistics output through its row t, and every small operand whole.
  Here: a block's entry is the array's entry at the shifted index, an output block that agrees with an array
  function entry by entry is that function's block, and the blocks of an output cover its array.
-/
import proofs.«171858_j54966991454756_2_alg».proof.Proof.Gen.KernelIdeal.Launch
import proofs.«171858_j54966991454756_2_alg».proof.Proof.Gen.KernelIdeal.Points
import Idealize.ShloMosaic.Lib.Pipeline.Value
import Idealize.ShloMosaic.Lib.ValueIdx

set_option maxRecDepth 16384

noncomputable section

namespace Cert.KernelIdeal.KReg1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

/-- The printed index maps over the 16 grid steps: the two big windows move one block of 8 batch elements per step,
    the statistics windows one row per step. -/
theorem idx_facts : ∀ t : Fin cfg1.N,
    win1_0.index t (0 : Fin 3) = t.val ∧ win1_0.index t (1 : Fin 3) = 0 ∧ win1_0.index t (2 : Fin 3) = 0
    ∧ win1_8.index t (0 : Fin 3) = t.val ∧ win1_8.index t (1 : Fin 3) = 0 ∧ win1_8.index t (2 : Fin 3) = 0
    ∧ win1_9.index t (0 : Fin 3) = t.val ∧ win1_9.index t (1 : Fin 3) = 0 ∧ win1_9.index t (2 : Fin 3) = 0
    ∧ win1_10.index t (0 : Fin 3) = t.val ∧ win1_10.index t (1 : Fin 3) = 0 ∧ win1_10.index t (2 : Fin 3) = 0 :=
  (by decide +kernel : ∀ t : Fin grid1.N, _)

/-- The small operands' index maps: they stay at block (0, 0). -/
theorem idx_facts_small : ∀ t : Fin cfg1.N,
    win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem N16 : cfg1.N = 16 := N_1

/-! ## The inputs' blocks -/

/-- Block t of the big input: batch elements 8t … 8t + 7. -/
theorem readblk_0 (c : Dev nD) (A : Buf (Elt F) ((c : Thread nD τ).loc (Pipeline.arrRef spec1 0))) (t : Fin cfg1.N)
    (i : Fin 8) (n : Fin 502) (f : Fin 256) (b : Fin 128) (hb : b.val = 8 * t.val + i.val) :
    (((cfg1.win 0).blk t).view.read (Elt F) A : S8x502x256.Idx → Elt F .f32) (ix3 i n f)
      = (A : S128x502x256.Idx → Elt F .f32) (ix3 b n f) := by
  obtain ⟨e0, e1, e2, -⟩ := idx_facts t
  rw [View.read_apply]
  show (A : S128x502x256.Idx → Elt F .f32) _ = _
  congr 1
  funext a
  apply Fin.ext
  match a with
  | ⟨0, _⟩ => show win1_0.index t (0 : Fin 3) * 8 + 1 * i.val = b.val; rw [e0, hb]; omega
  | ⟨1, _⟩ => show win1_0.index t (1 : Fin 3) * 502 + 1 * n.val = n.val; rw [e1]; omega
  | ⟨2, _⟩ => show win1_0.index t (2 : Fin 3) * 256 + 1 * f.val = f.val; rw [e2]; omega

/-- Operand 1's block is the whole operand at every step. -/
theorem readblk_1 (c : Dev nD) (A : Buf (Elt F) ((c : Thread nD τ).loc (Pipeline.arrRef spec1 1))) (t : Fin cfg1.N)
    (p : Fin 1) (q : Fin 256) :
    (((cfg1.win 1).blk t).view.read (Elt F) A : S1x256.Idx → Elt F .f32) (ix2 p q)
      = (A : S1x256.Idx → Elt F .f32) (ix2 p q) := by
  have e0 : win1_1.index t (0 : Fin 2) = 0 := (idx_facts_small t).1
  have e1 : win1_1.index t (1 : Fin 2) = 0 := (idx_facts_small t).2.1
  rw [View.read_apply]
  show (A : S1x256.Idx → Elt F .f32) _ = _
  congr 1
  funext a
  apply Fin.ext
  match a with
  | ⟨0, _⟩ => show win1_1.index t (0 : Fin 2) * 1 + 1 * p.val = p.val; rw [e0]; omega
  | ⟨1, _⟩ => show win1_1.index t (1 : Fin 2) * 256 + 1 * q.val = q.val; rw [e1]; omega

/-- Operand 2's block is the whole operand at every step. -/
theorem readblk_2 (c : Dev nD) (A : Buf (Elt F) ((c : Thread nD τ).loc (Pipeline.arrRef spec1 2))) (t : Fin cfg1.N)
    (p : Fin 1) (q : Fin 256) :
    (((cfg1.win 2).blk t).view.read (Elt F) A : S1x256.Idx → Elt F .f32) (ix2 p q)
      = (A : S1x256.Idx → Elt F .f32) (ix2 p q) := by
  have e0 : win1_2.index t (0 : Fin 2) = 0 := (idx_facts_small t).2.2.1
  have e1 : win1_2.index t (1 : Fin 2) = 0 := (idx_facts_small t).2.2.2.1
  rw [View.read_apply]
  show (A : S1x256.Idx → Elt F .f32) _ = _
  congr 1
  funext a
  apply Fin.ext
  match a with
  | ⟨0, _⟩ => show win1_2.index t (0 : Fin 2) * 1 + 1 * p.val = p.val; rw [e0]; omega
  | ⟨1, _⟩ => show win1_2.index t (1 : Fin 2) * 256 + 1 * q.val = q.val; rw [e1]; omega

/-- Operand 3's block is the whole operand at every step. -/
theorem readblk_3 (c : Dev nD) (A : Buf (Elt F) ((c : Thread nD τ).loc (Pipeline.arrRef spec1 3))) (t : Fin cfg1.N)
    (p : Fin 1) (q : Fin 256) :
    (((cfg1.win 3).blk t).view.read (Elt F) A : S1x256.Idx → Elt F .f32) (ix2 p q)
      = (A : S1x256.Idx → Elt F .f32) (ix2 p q) := by
  have e0 : win1_3.index t (0 : Fin 2) = 0 := (idx_facts_small t).2.2.2.2.1
  have e1 : win1_3.index t (1 : Fin 2) = 0 := (idx_facts_small t).2.2.2.2.2.1
  rw [View.read_apply]
  show (A : S1x256.Idx → Elt F .f32) _ = _
  congr 1
  funext a
  apply Fin.ext
  match a with
  | ⟨0, _⟩ => show win1_3.index t (0 : Fin 2) * 1 + 1 * p.val = p.val; rw [e0]; omega
  | ⟨1, _⟩ => show win1_3.index t (1 : Fin 2) * 256 + 1 * q.val = q.val; rw [e1]; omega

/-- Operand 4's block is the whole operand at every step. -/
theorem readblk_4 (c : Dev nD) (A : Buf (Elt F) ((c : Thread nD τ).loc (Pipeline.arrRef spec1 4))) (t : Fin cfg1.N)
    (p : Fin 1) (q : Fin 256) :
    (((cfg1.win 4).blk t).view.read (Elt F) A : S1x256.Idx → Elt F .f32) (ix2 p q)
      = (A : S1x256.Idx → Elt F .f32) (ix2 p q) := by
  have e0 : win1_4.index t (0 : Fin 2) = 0 := (idx_facts_small t).2.2.2.2.2.2.1
  have e1 : win1_4.index t (1 : Fin 2) = 0 := (idx_facts_small t).2.2.2.2.2.2.2.1
  rw [View.read_apply]
  show (A : S1x256.Idx → Elt F .f32) _ = _
  congr 1
  funext a
  apply Fin.ext
  match a with
  | ⟨0, _⟩ => show win1_4.index t (0 : Fin 2) * 1 + 1 * p.val = p.val; rw [e0]; omega
  | ⟨1, _⟩ => show win1_4.index t (1 : Fin 2) * 256 + 1 * q.val = q.val; rw [e1]; omega

/-- Operand 5's block is the whole operand at every step. -/
theorem readblk_5 (c : Dev nD) (A : Buf (Elt F) ((c : Thread nD τ).loc (Pipeline.arrRef spec1 5))) (t : Fin cfg1.N)
    (p : Fin 256) (q : Fin 256) :
    (((cfg1.win 5).blk t).view.read (Elt F) A : S256x256.Idx → Elt F .bf16) (ix2 p q)
      = (A : S256x256.Idx → Elt F .bf16) (ix2 p q) := by
  have e0 : win1_5.index t (0 : Fin 2) = 0 := (idx_facts_small t).2.2.2.2.2.2.2.2.1
  have e1 : win1_5.index t (1 : Fin 2) = 0 := (idx_facts_small t).2.2.2.2.2.2.2.2.2.1
  rw [View.read_apply]
  show (A : S256x256.Idx → Elt F .bf16) _ = _
  congr 1
  funext a
  apply Fin.ext
  match a with
  | ⟨0, _⟩ => show win1_5.index t (0 : Fin 2) * 256 + 1 * p.val = p.val; rw [e0]; omega
  | ⟨1, _⟩ => show win1_5.index t (1 : Fin 2) * 256 + 1 * q.val = q.val; rw [e1]; omega

/-- Operand 6's block is the whole operand at every step. -/
theorem readblk_6 (c : Dev nD) (A : Buf (Elt F) ((c : Thread nD τ).loc (Pipeline.arrRef spec1 6))) (t : Fin cfg1.N)
    (p : Fin 502) (q : Fin 502) :
    (((cfg1.win 6).blk t).view.read (Elt F) A : S502x502.Idx → Elt F .bf16) (ix2 p q)
      = (A : S502x502.Idx → Elt F .bf16) (ix2 p q) := by
  have e0 : win1_6.index t (0 : Fin 2) = 0 := (idx_facts_small t).2.2.2.2.2.2.2.2.2.2.1
  have e1 : win1_6.index t (1 : Fin 2) = 0 := (idx_facts_small t).2.2.2.2.2.2.2.2.2.2.2.1
  rw [View.read_apply]
  show (A : S502x502.Idx → Elt F .bf16) _ = _
  congr 1
  funext a
  apply Fin.ext
  match a with
  | ⟨0, _⟩ => show win1_6.index t (0 : Fin 2) * 502 + 1 * p.val = p.val; rw [e0]; omega
  | ⟨1, _⟩ => show win1_6.index t (1 : Fin 2) * 502 + 1 * q.val = q.val; rw [e1]; omega

/-- Operand 7's block is the whole operand at every step. -/
theorem readblk_7 (c : Dev nD) (A : Buf (Elt F) ((c : Thread nD τ).loc (Pipeline.arrRef spec1 7))) (t : Fin cfg1.N)
    (p : Fin 1) (q : Fin 256) :
    (((cfg1.win 7).blk t).view.read (Elt F) A : S1x256.Idx → Elt F .f32) (ix2 p q)
      = (A : S1x256.Idx → Elt F .f32) (ix2 p q) := by
  have e0 : win1_7.index t (0 : Fin 2) = 0 := (idx_facts_small t).2.2.2.2.2.2.2.2.2.2.2.2.1
  have e1 : win1_7.index t (1 : Fin 2) = 0 := (idx_facts_small t).2.2.2.2.2.2.2.2.2.2.2.2.2
  rw [View.read_apply]
  show (A : S1x256.Idx → Elt F .f32) _ = _
  congr 1
  funext a
  apply Fin.ext
  match a with
  | ⟨0, _⟩ => show win1_7.index t (0 : Fin 2) * 1 + 1 * p.val = p.val; rw [e0]; omega
  | ⟨1, _⟩ => show win1_7.index t (1 : Fin 2) * 256 + 1 * q.val = q.val; rw [e1]; omega

/-! ## The outputs' blocks -/

/-- A block of 8 batch elements that agrees, entry by entry, with an array function at batch elements 8t … 8t + 7 is
    what step t writes back of that function. -/
theorem cut8_apply (c : Dev nD) (G : S128x502x256.Idx → Elt F .f32) (t : Fin cfg1.N)
    (B : Vec F S8x502x256 .f32)
    (hB : ∀ (i : Fin 8) (n : Fin 502) (h : Fin 256) (b : Fin 128), b.val = 8 * t.val + i.val →
      B (ix3 i n h) = (G : S128x502x256.Idx → Elt F .f32) (ix3 b n h))
    (i : Fin 8) (n : Fin 502) (h : Fin 256) :
    (cfg1.win 8).cut (grid1.coords t) B (ix3 i n h) = ((cfg1.win 8).blk t).view.read (Elt F) G (ix3 i n h) := by
  obtain ⟨-, -, -, e0, e1, e2, -⟩ := idx_facts t
  have hb : 8 * t.val + i.val < 128 := by have := t.isLt; have hN := N16; omega
  rw [View.read_apply]
  show B _ = (G : S128x502x256.Idx → Elt F .f32) _
  refine (?_ : B _ = B (ix3 i n h)).trans ((hB i n h ⟨8 * t.val + i.val, hb⟩ rfl).trans ?_)
  · first | rfl | congr 1
  · congr 1
    funext a; apply Fin.ext
    match a with
    | ⟨0, _⟩ => show 8 * t.val + i.val = win1_8.index t (0 : Fin 3) * 8 + 1 * i.val; rw [e0]; omega
    | ⟨1, _⟩ => show n.val = win1_8.index t (1 : Fin 3) * 502 + 1 * n.val; rw [e1]; omega
    | ⟨2, _⟩ => show h.val = win1_8.index t (2 : Fin 3) * 256 + 1 * h.val; rw [e2]; omega

theorem cut8_eq (c : Dev nD) (G : S128x502x256.Idx → Elt F .f32) (t : Fin cfg1.N)
    (B : Vec F S8x502x256 .f32)
    (hB : ∀ (i : Fin 8) (n : Fin 502) (h : Fin 256) (b : Fin 128), b.val = 8 * t.val + i.val →
      B (ix3 i n h) = (G : S128x502x256.Idx → Elt F .f32) (ix3 b n h)) :
    (cfg1.win 8).cut (grid1.coords t) B = ((cfg1.win 8).blk t).view.read (Elt F) G := by
  funext y
  have hy : (y : S8x502x256.Idx) = ix3 (y 0) (y 1) (y 2) := eq_ix3 (n0 := 8) (n1 := 502) (n2 := 256) y
  exact (congrArg ((cfg1.win 8).cut (grid1.coords t) B) hy).trans
    ((cut8_apply c G t B hB (y 0) (y 1) (y 2)).trans (congrArg (((cfg1.win 8).blk t).view.read (Elt F) G) hy.symm))

/-- An index of the big output is in step t's block iff its batch element is one of 8t … 8t + 7. -/
theorem mem_blk8 (t : Fin cfg1.N) (i : S128x502x256.Idx) :
    i ∈ ((cfg1.win 8).blk t).view.set ↔ ∀ a : Fin 3, win1_8.index t a * S8x502x256.size a ≤ (i a).val
      ∧ (i a).val < win1_8.index t a * S8x502x256.size a + S8x502x256.size a := by
  show i ∈ ((View.whole (Pipeline.arrRef spec1 8)).slice (win1_8.rect t)).set ↔ _
  rw [View.set_slice_whole, Rect.mem_set_unit]
  exact Iff.rfl

/-- Every index of the big output is in some step's block. -/
theorem cover8 (i : S128x502x256.Idx) :
    ∃ t : Fin cfg1.N, (cfg1.win 8).flush t = true ∧ i ∈ ((cfg1.win 8).blk t).view.set := by
  have h0 : (i 0).val < 128 := (i 0).isLt
  have h1 : (i 1).val < 502 := (i 1).isLt
  have h2 : (i 2).val < 256 := (i 2).isLt
  have hN := N16
  refine ⟨⟨(i 0).val / 8, by omega⟩, flush1_8 _, ?_⟩
  rw [mem_blk8]
  obtain ⟨-, -, -, e0, e1, e2, -⟩ := idx_facts ⟨(i 0).val / 8, by omega⟩
  intro a
  match a with
  | ⟨0, _⟩ => show win1_8.index _ (0 : Fin 3) * 8 ≤ (i 0).val ∧ (i 0).val < win1_8.index _ (0 : Fin 3) * 8 + 8; rw [e0]; dsimp only; omega
  | ⟨1, _⟩ => show win1_8.index _ (1 : Fin 3) * 502 ≤ (i 1).val ∧ (i 1).val < win1_8.index _ (1 : Fin 3) * 502 + 502; rw [e1]; omega
  | ⟨2, _⟩ => show win1_8.index _ (2 : Fin 3) * 256 ≤ (i 2).val ∧ (i 2).val < win1_8.index _ (2 : Fin 3) * 256 + 256; rw [e2]; omega

/-- A row that agrees, entry by entry, with an array function at row t is what step t writes back of that function
    (statistics output 9). -/
theorem cut9_apply (c : Dev nD) (G : S16x1x256.Idx → Elt F .f32) (t : Fin cfg1.N)
    (B : Vec F S1x1x256 .f32)
    (hB : ∀ (u u' : Fin 1) (h : Fin 256) (gi : Fin 16), gi.val = t.val →
      B (ix3 u u' h) = (G : S16x1x256.Idx → Elt F .f32) (ix3 gi u' h))
    (u u' : Fin 1) (h : Fin 256) :
    (cfg1.win 9).cut (grid1.coords t) B (ix3 u u' h) = ((cfg1.win 9).blk t).view.read (Elt F) G (ix3 u u' h) := by
  obtain ⟨-, -, -, -, -, -, e0, e1, e2, -⟩ := idx_facts t
  have hg : t.val < 16 := by have := t.isLt; have hN := N16; omega
  rw [View.read_apply]
  show B _ = (G : S16x1x256.Idx → Elt F .f32) _
  refine (?_ : B _ = B (ix3 u u' h)).trans ((hB u u' h ⟨t.val, hg⟩ rfl).trans ?_)
  · first | rfl | congr 1
  · congr 1
    funext a; apply Fin.ext
    match a with
    | ⟨0, _⟩ => show t.val = win1_9.index t (0 : Fin 3) * 1 + 1 * u.val; rw [e0]; have := u.isLt; omega
    | ⟨1, _⟩ => show u'.val = win1_9.index t (1 : Fin 3) * 1 + 1 * u'.val; rw [e1]; omega
    | ⟨2, _⟩ => show h.val = win1_9.index t (2 : Fin 3) * 256 + 1 * h.val; rw [e2]; omega

theorem cut9_eq (c : Dev nD) (G : S16x1x256.Idx → Elt F .f32) (t : Fin cfg1.N)
    (B : Vec F S1x1x256 .f32)
    (hB : ∀ (u u' : Fin 1) (h : Fin 256) (gi : Fin 16), gi.val = t.val →
      B (ix3 u u' h) = (G : S16x1x256.Idx → Elt F .f32) (ix3 gi u' h)) :
    (cfg1.win 9).cut (grid1.coords t) B = ((cfg1.win 9).blk t).view.read (Elt F) G := by
  funext y
  have hy : (y : S1x1x256.Idx) = ix3 (y 0) (y 1) (y 2) := eq_ix3 (n0 := 1) (n1 := 1) (n2 := 256) y
  exact (congrArg ((cfg1.win 9).cut (grid1.coords t) B) hy).trans
    ((cut9_apply c G t B hB (y 0) (y 1) (y 2)).trans (congrArg (((cfg1.win 9).blk t).view.read (Elt F) G) hy.symm))

/-- An index of statistics output 9 is in step t's block iff its row is t. -/
theorem mem_blk9 (t : Fin cfg1.N) (i : S16x1x256.Idx) :
    i ∈ ((cfg1.win 9).blk t).view.set ↔ ∀ a : Fin 3, win1_9.index t a * S1x1x256.size a ≤ (i a).val
      ∧ (i a).val < win1_9.index t a * S1x1x256.size a + S1x1x256.size a := by
  show i ∈ ((View.whole (Pipeline.arrRef spec1 9)).slice (win1_9.rect t)).set ↔ _
  rw [View.set_slice_whole, Rect.mem_set_unit]
  exact Iff.rfl

/-- Every index of statistics output 9 is in some step's block. -/
theorem cover9 (i : S16x1x256.Idx) :
    ∃ t : Fin cfg1.N, (cfg1.win 9).flush t = true ∧ i ∈ ((cfg1.win 9).blk t).view.set := by
  have h0 : (i 0).val < 16 := (i 0).isLt
  have h1 : (i 1).val < 1 := (i 1).isLt
  have h2 : (i 2).val < 256 := (i 2).isLt
  have hN := N16
  refine ⟨⟨(i 0).val, by omega⟩, flush1_9 _, ?_⟩
  rw [mem_blk9]
  obtain ⟨-, -, -, -, -, -, e0, e1, e2, -⟩ := idx_facts ⟨(i 0).val, by omega⟩
  intro a
  match a with
  | ⟨0, _⟩ => show win1_9.index _ (0 : Fin 3) * 1 ≤ (i 0).val ∧ (i 0).val < win1_9.index _ (0 : Fin 3) * 1 + 1; rw [e0]; dsimp only; omega
  | ⟨1, _⟩ => show win1_9.index _ (1 : Fin 3) * 1 ≤ (i 1).val ∧ (i 1).val < win1_9.index _ (1 : Fin 3) * 1 + 1; rw [e1]; omega
  | ⟨2, _⟩ => show win1_9.index _ (2 : Fin 3) * 256 ≤ (i 2).val ∧ (i 2).val < win1_9.index _ (2 : Fin 3) * 256 + 256; rw [e2]; omega

/-- A row that agrees, entry by entry, with an array function at row t is what step t writes back of that function
    (statistics output 10). -/
theorem cut10_apply (c : Dev nD) (G : S16x1x256.Idx → Elt F .f32) (t : Fin cfg1.N)
    (B : Vec F S1x1x256 .f32)
    (hB : ∀ (u u' : Fin 1) (h : Fin 256) (gi : Fin 16), gi.val = t.val →
      B (ix3 u u' h) = (G : S16x1x256.Idx → Elt F .f32) (ix3 gi u' h))
    (u u' : Fin 1) (h : Fin 256) :
    (cfg1.win 10).cut (grid1.coords t) B (ix3 u u' h) = ((cfg1.win 10).blk t).view.read (Elt F) G (ix3 u u' h) := by
  obtain ⟨-, -, -, -, -, -, -, -, -, e0, e1, e2⟩ := idx_facts t
  have hg : t.val < 16 := by have := t.isLt; have hN := N16; omega
  rw [View.read_apply]
  show B _ = (G : S16x1x256.Idx → Elt F .f32) _
  refine (?_ : B _ = B (ix3 u u' h)).trans ((hB u u' h ⟨t.val, hg⟩ rfl).trans ?_)
  · first | rfl | congr 1
  · congr 1
    funext a; apply Fin.ext
    match a with
    | ⟨0, _⟩ => show t.val = win1_10.index t (0 : Fin 3) * 1 + 1 * u.val; rw [e0]; have := u.isLt; omega
    | ⟨1, _⟩ => show u'.val = win1_10.index t (1 : Fin 3) * 1 + 1 * u'.val; rw [e1]; omega
    | ⟨2, _⟩ => show h.val = win1_10.index t (2 : Fin 3) * 256 + 1 * h.val; rw [e2]; omega

theorem cut10_eq (c : Dev nD) (G : S16x1x256.Idx → Elt F .f32) (t : Fin cfg1.N)
    (B : Vec F S1x1x256 .f32)
    (hB : ∀ (u u' : Fin 1) (h : Fin 256) (gi : Fin 16), gi.val = t.val →
      B (ix3 u u' h) = (G : S16x1x256.Idx → Elt F .f32) (ix3 gi u' h)) :
    (cfg1.win 10).cut (grid1.coords t) B = ((cfg1.win 10).blk t).view.read (Elt F) G := by
  funext y
  have hy : (y : S1x1x256.Idx) = ix3 (y 0) (y 1) (y 2) := eq_ix3 (n0 := 1) (n1 := 1) (n2 := 256) y
  exact (congrArg ((cfg1.win 10).cut (grid1.coords t) B) hy).trans
    ((cut10_apply c G t B hB (y 0) (y 1) (y 2)).trans (congrArg (((cfg1.win 10).blk t).view.read (Elt F) G) hy.symm))

/-- An index of statistics output 10 is in step t's block iff its row is t. -/
theorem mem_blk10 (t : Fin cfg1.N) (i : S16x1x256.Idx) :
    i ∈ ((cfg1.win 10).blk t).view.set ↔ ∀ a : Fin 3, win1_10.index t a * S1x1x256.size a ≤ (i a).val
      ∧ (i a).val < win1_10.index t a * S1x1x256.size a + S1x1x256.size a := by
  show i ∈ ((View.whole (Pipeline.arrRef spec1 10)).slice (win1_10.rect t)).set ↔ _
  rw [View.set_slice_whole, Rect.mem_set_unit]
  exact Iff.rfl

/-- Every index of statistics output 10 is in some step's block. -/
theorem cover10 (i : S16x1x256.Idx) :
    ∃ t : Fin cfg1.N, (cfg1.win 10).flush t = true ∧ i ∈ ((cfg1.win 10).blk t).view.set := by
  have h0 : (i 0).val < 16 := (i 0).isLt
  have h1 : (i 1).val < 1 := (i 1).isLt
  have h2 : (i 2).val < 256 := (i 2).isLt
  have hN := N16
  refine ⟨⟨(i 0).val, by omega⟩, flush1_10 _, ?_⟩
  rw [mem_blk10]
  obtain ⟨-, -, -, -, -, -, -, -, -, e0, e1, e2⟩ := idx_facts ⟨(i 0).val, by omega⟩
  intro a
  match a with
  | ⟨0, _⟩ => show win1_10.index _ (0 : Fin 3) * 1 ≤ (i 0).val ∧ (i 0).val < win1_10.index _ (0 : Fin 3) * 1 + 1; rw [e0]; dsimp only; omega
  | ⟨1, _⟩ => show win1_10.index _ (1 : Fin 3) * 1 ≤ (i 1).val ∧ (i 1).val < win1_10.index _ (1 : Fin 3) * 1 + 1; rw [e1]; omega
  | ⟨2, _⟩ => show win1_10.index _ (2 : Fin 3) * 256 ≤ (i 2).val ∧ (i 2).val < win1_10.index _ (2 : Fin 3) * 256 + 256; rw [e2]; omega

end Cert.KernelIdeal.KReg1

end
-- ==== Proof.KReg1.lean ====
/-
  Region 1 (the fused normalise, convolve and accumulate kernel), read as values over the extended reals.

  The region takes the previous layer's raw output y_prev [128, 502, 256], a mean, a variance, a scale and a shift
  row, a weight matrix, the 502 × 502 matrix M and a bias row.  With every entry a real number and the variance
  row non-negative, after the region
    * the big output holds  y2 = M · (elu (normalised y_prev) · W) + bias  on every batch element,
    * statistics output 9 holds, per group of 8 batch elements, the mean of y2 over the group's 8 · 502 rows,
    * statistics output 10 holds, per group, the sum of the squares of y2 less that mean.
  At grid step t the input blocks are the arrays' entries at batch elements 8t … 8t + 7 (the small operands
  whole), so the body's three output blocks are blocks of those three functions; the blocks cover the arrays.
-/
import proofs.«171858_j54966991454756_2_alg».proof.Proof.KReg1Body
import proofs.«171858_j54966991454756_2_alg».proof.Proof.KReg1Geo

set_option maxRecDepth 16384

noncomputable section

namespace Cert.KernelIdeal.KReg1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## From the blocks to the arrays -/

section Arrays

variable (V : (c : Dev nD) → (b : Ref sig .tc) → Buf (Elt Ideal) ((c : Thread nD τ).loc b)) (c : Dev nD)
variable (yp : Fin 128 → Fin 502 → Fin 256 → ℝ) (mu va g be bias : Fin 256 → ℝ) (W : Fin 256 → Fin 256 → ℝ)
  (M : Fin 502 → Fin 502 → ℝ)

/-- The region's big output as real numbers: M · (elu (normalised y_prev) · W) + bias. -/
abbrev y2 (M : Fin 502 → Fin 502 → ℝ) (yp : Fin 128 → Fin 502 → Fin 256 → ℝ) (mu va g be : Fin 256 → ℝ)
    (W : Fin 256 → Fin 256 → ℝ) (bias : Fin 256 → ℝ) : Fin 128 → Fin 502 → Fin 256 → ℝ :=
  Cert.Model.convA M (fun b n f => Cert.Model.elu (Cert.Model.nz yp mu va g be b n f)) W bias

/-- The group of 8 batch elements a grid step handles. -/
def gOf (t : Fin cfg1.N) : Fin 16 := ⟨t.val, by have := t.isLt; have := N16; omega⟩

/-- The reals the input block of step t holds. -/
def ybOf (yp : Fin 128 → Fin 502 → Fin 256 → ℝ) (t : Fin cfg1.N) : Fin 8 → Fin 502 → Fin 256 → ℝ :=
  fun k s f => yp (Cert.Model.grow (gOf t) k) s f

/-- The convolved block of step t is y2 on the step's batch elements. -/
theorem cvb_eq_y2 (t : Fin cfg1.N) (k : Fin 8) (n : Fin 502) (h : Fin 256) :
    cvb M (ybOf yp t) mu va g be W bias k n h = y2 M yp mu va g be W bias (Cert.Model.grow (gOf t) k) n h := rfl

/-- The three result arrays as functions of their indices. -/
def G8 : S128x502x256.Idx → EReal := fun j => ((y2 M yp mu va g be W bias (j 0) (j 1) (j 2) : ℝ) : EReal)
def G9 : S16x1x256.Idx → EReal := fun j => ((Cert.Model.gmean (y2 M yp mu va g be W bias) (j 0) (j 2) : ℝ) : EReal)
def G10 : S16x1x256.Idx → EReal := fun j => ((Cert.Model.gm2 (y2 M yp mu va g be W bias) (j 0) (j 2) : ℝ) : EReal)

section Point

variable (hva : ∀ f, 0 ≤ va f)
    (h0 : ∀ b n f, (V c (Pipeline.arrRef spec1 0) : S128x502x256.Idx → EReal) (ix3 b n f) = ((yp b n f : ℝ) : EReal))
    (h1 : ∀ f, (V c (Pipeline.arrRef spec1 1) : S1x256.Idx → EReal) (ix2 (0 : Fin 1) f) = ((mu f : ℝ) : EReal))
    (h2 : ∀ f, (V c (Pipeline.arrRef spec1 2) : S1x256.Idx → EReal) (ix2 (0 : Fin 1) f) = ((va f : ℝ) : EReal))
    (h3 : ∀ f, (V c (Pipeline.arrRef spec1 3) : S1x256.Idx → EReal) (ix2 (0 : Fin 1) f) = ((g f : ℝ) : EReal))
    (h4 : ∀ f, (V c (Pipeline.arrRef spec1 4) : S1x256.Idx → EReal) (ix2 (0 : Fin 1) f) = ((be f : ℝ) : EReal))
    (h5 : ∀ f h, (V c (Pipeline.arrRef spec1 5) : S256x256.Idx → EReal) (ix2 f h) = ((W f h : ℝ) : EReal))
    (h6 : ∀ n s, (V c (Pipeline.arrRef spec1 6) : S502x502.Idx → EReal) (ix2 n s) = ((M n s : ℝ) : EReal))
    (h7 : ∀ h, (V c (Pipeline.arrRef spec1 7) : S1x256.Idx → EReal) (ix2 (0 : Fin 1) h) = ((bias h : ℝ) : EReal))
variable (t : Fin cfg1.N)
include hva h0 h1 h2 h3 h4 h5 h6 h7

/-- At every step the small operands' blocks hold the real rows and matrices. -/
theorem realIn_iblk : RealIn (iblk1 V c 1 t) (iblk1 V c 2 t) (iblk1 V c 3 t) (iblk1 V c 4 t) (iblk1 V c 5 t) (iblk1 V c 6 t)
    (iblk1 V c 7 t) mu va g be bias W M where
  hva := hva
  h0 := fun f => (readblk_1 c (V c (Pipeline.arrRef spec1 1)) t 0 f).trans (h1 f)
  h2 := fun f => (readblk_2 c (V c (Pipeline.arrRef spec1 2)) t 0 f).trans (h2 f)
  h4 := fun f => (readblk_3 c (V c (Pipeline.arrRef spec1 3)) t 0 f).trans (h3 f)
  h6 := fun f => (readblk_4 c (V c (Pipeline.arrRef spec1 4)) t 0 f).trans (h4 f)
  h11 := fun f h => (readblk_5 c (V c (Pipeline.arrRef spec1 5)) t f h).trans (h5 f h)
  h13 := fun n s => (readblk_6 c (V c (Pipeline.arrRef spec1 6)) t n s).trans (h6 n s)
  h15 := fun h => (readblk_7 c (V c (Pipeline.arrRef spec1 7)) t 0 h).trans (h7 h)

/-- At every step the big input's block holds the step's 8 batch elements. -/
theorem iblk0_val (k : Fin 8) (s : Fin 502) (f : Fin 256) :
    (iblk1 V c 0 t : S8x502x256.Idx → EReal) (ix3 k s f) = ((ybOf yp t k s f : ℝ) : EReal) :=
  (readblk_0 c (V c (Pipeline.arrRef spec1 0)) t k s f (Cert.Model.grow (gOf t) k) rfl).trans (h0 _ s f)

/-- What step t writes back of the big output is block t of y2. -/
theorem flushed8 : (dat1 V c).flushed 8 t = ((cfg1.win 8).blk t).view.read (Elt Ideal) (G8 yp mu va g be bias W M) := by
  show (cfg1.win 8).cut (grid1.coords t) ((dat1 V c).after 8 t) = _
  rw [after1_8]
  unfold outsAt1
  dsimp only
  refine cut8_eq (F := Ideal) c (G8 yp mu va g be bias W M) t _ fun i n h b hb => ?_
  refine (out8_val c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t) (iblk1 V c 5 t) (iblk1 V c 6 t) (iblk1 V c 7 t) mu va g be bias W M (ybOf yp t)
    (realIn_iblk V c yp mu va g be bias W M hva h0 h1 h2 h3 h4 h5 h6 h7 t) (iblk0_val V c yp mu va g be bias W M hva h0 h1 h2 h3 h4 h5 h6 h7 t) i n h).trans ?_
  have hbe : b = Cert.Model.grow (gOf t) i := Fin.ext (by rw [hb]; rfl)
  rw [hbe]
  rfl

/-- What step t writes back of statistics output 9 is row t of the group means. -/
theorem flushed9 : (dat1 V c).flushed 9 t = ((cfg1.win 9).blk t).view.read (Elt Ideal) (G9 yp mu va g be bias W M) := by
  show (cfg1.win 9).cut (grid1.coords t) ((dat1 V c).after 9 t) = _
  rw [after1_9]
  unfold outsAt1
  dsimp only
  refine cut9_eq (F := Ideal) c (G9 yp mu va g be bias W M) t _ fun u u' h gi hg => ?_
  refine (out9_val c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t) (iblk1 V c 5 t) (iblk1 V c 6 t) (iblk1 V c 7 t) mu va g be bias W M (ybOf yp t)
    (realIn_iblk V c yp mu va g be bias W M hva h0 h1 h2 h3 h4 h5 h6 h7 t) (iblk0_val V c yp mu va g be bias W M hva h0 h1 h2 h3 h4 h5 h6 h7 t) u u' h).trans ?_
  have hge : gi = gOf t := Fin.ext hg
  rw [hge]
  rfl

/-- What step t writes back of statistics output 10 is row t of the groups' centred sums of squares. -/
theorem flushed10 : (dat1 V c).flushed 10 t = ((cfg1.win 10).blk t).view.read (Elt Ideal) (G10 yp mu va g be bias W M) := by
  show (cfg1.win 10).cut (grid1.coords t) ((dat1 V c).after 10 t) = _
  rw [after1_10]
  unfold outsAt1
  dsimp only
  refine cut10_eq (F := Ideal) c (G10 yp mu va g be bias W M) t _ fun u u' h gi hg => ?_
  refine (out10_val c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t) (iblk1 V c 5 t) (iblk1 V c 6 t) (iblk1 V c 7 t) mu va g be bias W M (ybOf yp t)
    (realIn_iblk V c yp mu va g be bias W M hva h0 h1 h2 h3 h4 h5 h6 h7 t) (iblk0_val V c yp mu va g be bias W M hva h0 h1 h2 h3 h4 h5 h6 h7 t) u u' h).trans ?_
  have hge : gi = gOf t := Fin.ext hg
  rw [hge]
  rfl

end Point

set_option maxHeartbeats 1000000 in
/-- REGION 1 AS VALUES: with real inputs and a non-negative variance row, the big output is y2, statistics output
    9 the group means of y2 and statistics output 10 the groups' centred sums of squares of y2. -/
theorem region1_val (hva : ∀ f, 0 ≤ va f)
    (h0 : ∀ b n f, (V c (Pipeline.arrRef spec1 0) : S128x502x256.Idx → EReal) (ix3 b n f) = ((yp b n f : ℝ) : EReal))
    (h1 : ∀ f, (V c (Pipeline.arrRef spec1 1) : S1x256.Idx → EReal) (ix2 (0 : Fin 1) f) = ((mu f : ℝ) : EReal))
    (h2 : ∀ f, (V c (Pipeline.arrRef spec1 2) : S1x256.Idx → EReal) (ix2 (0 : Fin 1) f) = ((va f : ℝ) : EReal))
    (h3 : ∀ f, (V c (Pipeline.arrRef spec1 3) : S1x256.Idx → EReal) (ix2 (0 : Fin 1) f) = ((g f : ℝ) : EReal))
    (h4 : ∀ f, (V c (Pipeline.arrRef spec1 4) : S1x256.Idx → EReal) (ix2 (0 : Fin 1) f) = ((be f : ℝ) : EReal))
    (h5 : ∀ f h, (V c (Pipeline.arrRef spec1 5) : S256x256.Idx → EReal) (ix2 f h) = ((W f h : ℝ) : EReal))
    (h6 : ∀ n s, (V c (Pipeline.arrRef spec1 6) : S502x502.Idx → EReal) (ix2 n s) = ((M n s : ℝ) : EReal))
    (h7 : ∀ h, (V c (Pipeline.arrRef spec1 7) : S1x256.Idx → EReal) (ix2 (0 : Fin 1) h) = ((bias h : ℝ) : EReal)) :
    (∀ b n h, ((dat1 V c).arrAt 8 cfg1.N : S128x502x256.Idx → EReal) (ix3 b n h) = ((y2 M yp mu va g be W bias b n h : ℝ) : EReal))
    ∧ (∀ gi h, ((dat1 V c).arrAt 9 cfg1.N : S16x1x256.Idx → EReal) (ix3 gi (0 : Fin 1) h)
        = ((Cert.Model.gmean (y2 M yp mu va g be W bias) gi h : ℝ) : EReal))
    ∧ (∀ gi h, ((dat1 V c).arrAt 10 cfg1.N : S16x1x256.Idx → EReal) (ix3 gi (0 : Fin 1) h)
        = ((Cert.Model.gm2 (y2 M yp mu va g be W bias) gi h : ℝ) : EReal)) := by
  have hG8 : ∀ t, (cfg1.win 8).flush t = true →
      (dat1 V c).flushed 8 t = ((cfg1.win 8).blk t).view.read (Elt Ideal) (G8 yp mu va g be bias W M) :=
    fun t _ => flushed8 V c yp mu va g be bias W M hva h0 h1 h2 h3 h4 h5 h6 h7 t
  have hG9 : ∀ t, (cfg1.win 9).flush t = true →
      (dat1 V c).flushed 9 t = ((cfg1.win 9).blk t).view.read (Elt Ideal) (G9 yp mu va g be bias W M) :=
    fun t _ => flushed9 V c yp mu va g be bias W M hva h0 h1 h2 h3 h4 h5 h6 h7 t
  have hG10 : ∀ t, (cfg1.win 10).flush t = true →
      (dat1 V c).flushed 10 t = ((cfg1.win 10).blk t).view.read (Elt Ideal) (G10 yp mu va g be bias W M) :=
    fun t _ => flushed10 V c yp mu va g be bias W M hva h0 h1 h2 h3 h4 h5 h6 h7 t
  have e8 : (dat1 V c).arrAt 8 cfg1.N = G8 yp mu va g be bias W M := (dat1 V c).arrAt_eq_of_cover 8 (G8 yp mu va g be bias W M) hG8 cover8
  have e9 : (dat1 V c).arrAt 9 cfg1.N = G9 yp mu va g be bias W M := (dat1 V c).arrAt_eq_of_cover 9 (G9 yp mu va g be bias W M) hG9 cover9
  have e10 : (dat1 V c).arrAt 10 cfg1.N = G10 yp mu va g be bias W M := (dat1 V c).arrAt_eq_of_cover 10 (G10 yp mu va g be bias W M) hG10 cover10
  refine ⟨fun b n h => ?_, fun gi h => ?_, fun gi h => ?_⟩
  · exact congrFun e8 (ix3 b n h)
  · exact congrFun e9 (ix3 gi (0 : Fin 1) h)
  · exact congrFun e10 (ix3 gi (0 : Fin 1) h)

end Arrays

end Cert.KernelIdeal.KReg1

end
-- ==== Proof.KReg2Trips.lean ====
/-
  Region 2 (the fused normalise, convolve and accumulate kernel): its two counted loops, one trip at a time.

  The first loop runs over the 8 batch elements of a grid step.  Trip k reads slab k of the input block, stores
  the convolved slab at slab k of the output block, and adds the slab's column sums to the carried row.  The
  second loop reads slab k of the output block back and adds the column sums of its centred squares to the
  carried row.  Here: what one trip yields and stores, the recursion of the carried state over the trips, and
  the fact that every stored piece is slab k's payload at slab k's rectangle.
-/
import proofs.«171858_j54966991454756_2_alg».proof.Proof.KILoops
import Idealize.ShloMosaic.Lib.Pipeline.Value

set_option maxRecDepth 16384

noncomputable section

namespace Cert.KernelIdeal.KReg2

open Idealize.ShloMosaic Idealize.ShloMosaic.TcCoe Idealize.ShloMosaic.Tactic
open Idealize.SL.Sem
open Cert.KernelIdeal Cert.KernelIdeal.Gen

variable {F : FTy → Type} [FloatOps F]

/-- Slab k of a buffer of 8 slabs, through the first loop's rectangle at trip k. -/
abbrev slab1 (M : Memref sig .tc .vmem S8x502x256 .f32) (X : BufTy.Contents (Elt F) M.view.ty)
    (k : Fin k2_t1_loop.trips) : Vec F S1x502x256 .f32 :=
  View.readAt (Elt F) M.view (Rect.unit (s := S8x502x256) (k2_off1 k) S1x502x256.size (k2_off1_inb k)).toLoadRect X

/-- Slab k of a buffer of 8 slabs, through the second loop's rectangle at trip k. -/
abbrev slab2 (M : Memref sig .tc .vmem S8x502x256 .f32) (X : BufTy.Contents (Elt F) M.view.ty)
    (k : Fin k2_t2_loop.trips) : Vec F S1x502x256 .f32 :=
  View.readAt (Elt F) M.view (Rect.unit (s := S8x502x256) (k2_off2 k) S1x502x256.size (k2_off2_inb k)).toLoadRect X

/-- The piece trip k of the first loop stores: the convolved slab k at slab k's rectangle. -/
abbrev piece1 (v0 : Vec F S1x256 .f32) (v2 : Vec F S1x256 .f32) (v4 : Vec F S1x256 .f32) (v6 : Vec F S1x256 .f32)
    (v11 : Vec F S256x256 .bf16) (v13 : Vec F S502x502 .bf16) (v15 : Vec F S1x256 .f32)
    (x : Fin k2_t1_loop.trips → Vec F S1x502x256 .f32) (k : Fin k2_t1_loop.trips) : View.Piece (Elt F) S8x502x256 .f32 :=
  ⟨Rect.unit (s := S8x502x256) (k2_off1 k) S1x502x256.size (k2_off1_inb k), k2_pay4 v0 v2 v4 v6 v11 v13 v15 (x k)⟩

theorem trips1 : k2_t1_loop.trips = 8 := by decide
theorem trips2 : k2_t2_loop.trips = 8 := by decide

variable (𝒱 : Variants) (c : Dev nD) (bd : Option 𝒱.V) (i : grid2.Coords) (arg1 : Memref sig .tc .vmem S8x502x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S502x502 .bf16) (harg7 : arg7.IsWhole) (arg8 : Memref sig .tc .vmem S1x256 .f32) (harg8 : arg8.IsWhole) (arg9 : Memref sig .tc .vmem S8x502x256 .f32) (harg9 : arg9.IsWhole) (arg10 : Memref sig .tc .vmem S1x1x256 .f32) (harg10 : arg10.IsWhole) (arg11 : Memref sig .tc .vmem S1x1x256 .f32) (harg11 : arg11.IsWhole)

section Loop1

variable (v0 : Vec F S1x256 .f32) (v2 : Vec F S1x256 .f32) (v4 : Vec F S1x256 .f32) (v6 : Vec F S1x256 .f32) (v11 : Vec F S256x256 .bf16) (v13 : Vec F S502x502 .bf16) (v15 : Vec F S1x256 .f32)
variable (X1 : BufTy.Contents (Elt F) arg1.view.ty) (init : FVec F S1x256 .f32)

/-- What trip k of the first loop yields: the carried row plus the column sums of the convolved slab k. -/
theorem tripR1_eq (k : Fin k2_t1_loop.trips) (acc : FVec F S1x256 .f32) :
    tripR_k2_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 k acc
      = k2_pay5 v0 v2 v4 v6 v11 v13 v15 acc (slab1 arg1 X1 k) := by
  unfold tripR_k2_t1 trip_k2_t1
  rfl

/-- What trip k of the first loop stores: one piece, the convolved slab k at slab k's rectangle. -/
theorem tripL1_eq (k : Fin k2_t1_loop.trips) (acc : FVec F S1x256 .f32) :
    tripL_k2_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 k acc
      = [piece1 v0 v2 v4 v6 v11 v13 v15 (slab1 arg1 X1) k] := by
  unfold tripL_k2_t1 trip_k2_t1
  rfl

/-- The carried row after trip k. -/
theorem st1_succ_fst (k : Fin k2_t1_loop.trips) :
    (st_k2_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init (k.val + 1)).1
      = k2_pay5 v0 v2 v4 v6 v11 v13 v15 (st_k2_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init k.val).1 (slab1 arg1 X1 k) := by
  rw [st_k2_t1_succ]
  exact tripR1_eq 𝒱 c bd i arg1 harg1 arg2 harg2 arg3 harg3 arg4 harg4 arg5 harg5 arg6 harg6 arg7 harg7 arg8 harg8 arg9 harg9 arg10 harg10 arg11 harg11 v0 v2 v4 v6 v11 v13 v15 X1 k _

/-- The pieces after trip k: trip k's piece in front of the earlier ones. -/
theorem st1_succ_snd (k : Fin k2_t1_loop.trips) :
    (st_k2_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init (k.val + 1)).2
      = piece1 v0 v2 v4 v6 v11 v13 v15 (slab1 arg1 X1) k :: (st_k2_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init k.val).2 := by
  rw [st_k2_t1_succ]
  show tripL_k2_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 k _ ++ _ = _
  rw [tripL1_eq]
  rfl

theorem st1_zero_fst : (st_k2_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init 0).1 = init := rfl
theorem st1_zero_snd : (st_k2_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init 0).2 = [] := rfl

/-- Every piece the first n trips stored is some trip k's: the convolved slab k at slab k's rectangle. -/
theorem st1_pieces : ∀ (n : ℕ), n ≤ k2_t1_loop.trips → ∀ p ∈ (st_k2_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init n).2,
    ∃ k : Fin k2_t1_loop.trips, p = piece1 v0 v2 v4 v6 v11 v13 v15 (slab1 arg1 X1) k
  | 0, _, p, hp => by rw [st1_zero_snd] at hp; exact absurd hp List.not_mem_nil
  | n + 1, hn, p, hp => by
    have e := st1_succ_snd 𝒱 c bd i arg1 harg1 arg2 harg2 arg3 harg3 arg4 harg4 arg5 harg5 arg6 harg6 arg7 harg7 arg8 harg8 arg9 harg9 arg10 harg10 arg11 harg11 v0 v2 v4 v6 v11 v13 v15 X1 init ⟨n, hn⟩
    dsimp only at e
    rw [e] at hp
    rcases List.mem_cons.mp hp with rfl | hp'
    · exact ⟨⟨n, hn⟩, rfl⟩
    · exact st1_pieces n (Nat.le_of_succ_le hn) p hp'

/-- Trip k's piece is among the pieces of the first n trips as soon as k < n. -/
theorem st1_mem : ∀ (n : ℕ), n ≤ k2_t1_loop.trips → ∀ k : Fin k2_t1_loop.trips, k.val < n →
    piece1 v0 v2 v4 v6 v11 v13 v15 (slab1 arg1 X1) k ∈ (st_k2_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init n).2
  | 0, _, k, hk => absurd hk (Nat.not_lt_zero _)
  | n + 1, hn, k, hk => by
    have e := st1_succ_snd 𝒱 c bd i arg1 harg1 arg2 harg2 arg3 harg3 arg4 harg4 arg5 harg5 arg6 harg6 arg7 harg7 arg8 harg8 arg9 harg9 arg10 harg10 arg11 harg11 v0 v2 v4 v6 v11 v13 v15 X1 init ⟨n, hn⟩
    dsimp only at e
    rw [e]
    by_cases hkn : k.val = n
    · have : k = ⟨n, hn⟩ := Fin.ext hkn
      rw [this]; exact List.mem_cons_self
    · exact List.mem_cons_of_mem _ (st1_mem n (Nat.le_of_succ_le hn) k (by omega))

end Loop1

section Loop2

variable (v19 : FVec F S1x256 .f32) (X9 : BufTy.Contents (Elt F) arg9.view.ty) (init : FVec F S1x256 .f32)

/-- What trip k of the second loop yields: the carried row plus the column sums of the squares of slab k of the
    output block less the row of means. -/
theorem tripR2_eq (k : Fin k2_t2_loop.trips) (acc : FVec F S1x256 .f32) :
    tripR_k2_t2 𝒱 c bd i arg1 harg1 arg2 harg2 arg3 harg3 arg4 harg4 arg5 harg5 arg6 harg6 arg7 harg7 arg8 harg8 arg9 harg9 arg10 harg10 arg11 harg11 v19 X9 k acc = k2_pay9 v19 acc (slab2 arg9 X9 k) := by
  unfold tripR_k2_t2 trip_k2_t2
  rfl

/-- The carried row after trip k of the second loop. -/
theorem st2_succ (k : Fin k2_t2_loop.trips) :
    st_k2_t2 𝒱 c bd i arg1 harg1 arg2 harg2 arg3 harg3 arg4 harg4 arg5 harg5 arg6 harg6 arg7 harg7 arg8 harg8 arg9 harg9 arg10 harg10 arg11 harg11 v19 X9 init (k.val + 1) = k2_pay9 v19 (st_k2_t2 𝒱 c bd i arg1 harg1 arg2 harg2 arg3 harg3 arg4 harg4 arg5 harg5 arg6 harg6 arg7 harg7 arg8 harg8 arg9 harg9 arg10 harg10 arg11 harg11 v19 X9 init k.val) (slab2 arg9 X9 k) := by
  rw [st_k2_t2_succ]
  exact tripR2_eq 𝒱 c bd i arg1 harg1 arg2 harg2 arg3 harg3 arg4 harg4 arg5 harg5 arg6 harg6 arg7 harg7 arg8 harg8 arg9 harg9 arg10 harg10 arg11 harg11 v19 X9 k _

theorem st2_zero : st_k2_t2 𝒱 c bd i arg1 harg1 arg2 harg2 arg3 harg3 arg4 harg4 arg5 harg5 arg6 harg6 arg7 harg7 arg8 harg8 arg9 harg9 arg10 harg10 arg11 harg11 v19 X9 init 0 = init := rfl

end Loop2

end Cert.KernelIdeal.KReg2

end
-- ==== Proof.KReg2Pay.lean ====
/-
  Region 2 (the fused normalise, convolve and accumulate kernel): its payloads read at an index, over the
  extended reals.

  The convolved slab of one batch element is  M · (elu (normalised slab) · W) + bias : the slab is normalised
  feature by feature with a given mean, variance, scale and shift, passed through the exponential linear unit,
  multiplied by the weight matrix (a sum over the 256 input features) and then by the 502 × 502 matrix M (a sum
  over the 502 source nodes), and the bias row is added.  The statistics payloads add column sums: of the
  convolved slab, and of the squares of a slab less a row of means.  When every operand entry is a real number
  every result entry is the real number the formula names.
-/
import proofs.«171858_j54966991454756_2_alg».proof.Proof.KISkeleton
import proofs.«171858_j54966991454756_2_alg».proof.Proof.Model
import proofs.«171858_j54966991454756_2_alg».proof.Proof.Consts
import Idealize.ShloMosaic.Lib.ValueLayout
import Idealize.ShloMosaic.PureOps.Ideal.Laws

set_option maxRecDepth 16384

noncomputable section

namespace Cert.KernelIdeal.KReg2

open Idealize.ShloMosaic Idealize.ShloMosaic.ValueIdx
open Cert.KernelIdeal Cert.KernelIdeal.Gen

/-! ## Real sums inside the extended reals -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

theorem ofBits_eps' : Ideal.ofBits .f32 0x3727C5AC#32 = ((Model.eps : ℝ) : EReal) := Cert.Consts.ofBits_eps

/-! ## The convolved slab in four stages -/

section Stages

variable {F : FTy → Type} [FloatOps F]

/-- Stage 1: the slab normalised: ((y - mean) · rsqrt (var + eps)) · gamma + beta, feature by feature. -/
def stZ (v0 : Vec F S1x256 .f32) (v2 : Vec F S1x256 .f32) (v4 : Vec F S1x256 .f32) (v6 : Vec F S1x256 .f32)
    (v32 : Vec F S1x502x256 .f32) : FVec F S502x256 .f32 :=
  have v1 : FVec F S1x256 .f32 := shapeCast S1x256 v0 shapeCasts_S1x256_S1x256
  have v3 : FVec F S1x256 .f32 := shapeCast S1x256 v2 shapeCasts_S1x256_S1x256
  have v5 : FVec F S1x256 .f32 := shapeCast S1x256 v4 shapeCasts_S1x256_S1x256
  have v7 : FVec F S1x256 .f32 := shapeCast S1x256 v6 shapeCasts_S1x256_S1x256
  have cst : F .f32 := Scalar.ofBits .f32 0x3727C5AC#32
  have v8 : FVec F S1x256 .f32 := broadcast S1x256 cst
  have v9 : FVec F S1x256 .f32 := addf v3 v8
  have v10 : FVec F S1x256 .f32 := rsqrt v9
  have v33 : FVec F S502x256 .f32 := shapeCast S502x256 v32 shapeCasts_S1x502x256_S502x256
  have v34 : FVec F S502x256 .f32 := broadcastTo S502x256 v1 broadcasts_S1x256_S502x256
  have v35 : FVec F S502x256 .f32 := subf v33 v34
  have v36 : FVec F S502x256 .f32 := broadcastTo S502x256 v10 broadcasts_S1x256_S502x256
  have v37 : FVec F S502x256 .f32 := mulf v35 v36
  have v38 : FVec F S502x256 .f32 := broadcastTo S502x256 v5 broadcasts_S1x256_S502x256
  have v39 : FVec F S502x256 .f32 := mulf v37 v38
  have v40 : FVec F S502x256 .f32 := broadcastTo S502x256 v7 broadcasts_S1x256_S502x256
  have v41 : FVec F S502x256 .f32 := addf v39 v40
  v41

/-- Stage 2: the exponential linear unit, entry by entry: z where z > 0, exp z - 1 elsewhere. -/
def stAct (v41 : FVec F S502x256 .f32) : FVec F S502x256 .bf16 :=
  have cst_29 : F .f32 := Scalar.ofBits .f32 0x00000000#32
  have v42 : FVec F S502x256 .f32 := broadcast S502x256 cst_29
  have v43 : IVec S502x256 1 := cmpf .ogt v41 v42
  have v44 : FVec F S502x256 .f32 := exp v41
  have cst_30 : F .f32 := Scalar.ofBits .f32 0x3F800000#32
  have v45 : FVec F S502x256 .f32 := broadcast S502x256 cst_30
  have v46 : FVec F S502x256 .f32 := subf v44 v45
  have v47 : FVec F S502x256 .f32 := select v43 v41 v46
  have v48 : FVec F S502x256 .bf16 := truncf .bf16 v47 bitsLt_bf16_f32
  v48

/-- Stage 3: the product with the weight matrix, a sum over the input features. -/
def stXW (v48 : FVec F S502x256 .bf16) (v11 : Vec F S256x256 .bf16) : FVec F S502x256 .bf16 :=
  have v12 : FVec F S256x256 .bf16 := shapeCast S256x256 v11 shapeCasts_S256x256_S256x256
  have cst_31 : FVec F S502x256 .f32 := constant S502x256 .f32 0x00000000#32
  have v49 : FVec F S502x256 .f32 := matmul dot_S502x256_S256x256_S502x256_1_0_0_1_n_n none v48 v12 cst_31
  have v50 : FVec F S502x256 .bf16 := truncf .bf16 v49 bitsLt_bf16_f32
  v50

/-- Stage 4: the product with the 502 × 502 matrix, a sum over the source nodes, plus the bias row. -/
def stConv (v13 : Vec F S502x502 .bf16) (v50 : FVec F S502x256 .bf16) (v15 : Vec F S1x256 .f32) : FVec F S502x256 .f32 :=
  have v14 : FVec F S502x502 .bf16 := shapeCast S502x502 v13 shapeCasts_S502x502_S502x502
  have cst_32 : FVec F S502x256 .f32 := constant S502x256 .f32 0x00000000#32
  have v51 : FVec F S502x256 .f32 := matmul dot_S502x502_S502x256_S502x256_1_0_0_1_n_n none v14 v50 cst_32
  have v16 : FVec F S1x256 .f32 := shapeCast S1x256 v15 shapeCasts_S1x256_S1x256
  have v52 : FVec F S502x256 .f32 := broadcastTo S502x256 v16 broadcasts_S1x256_S502x256
  have v53 : FVec F S502x256 .f32 := addf v51 v52
  v53

/-- The convolved slab is the four stages composed. -/
theorem pay3_eq (v0 : Vec F S1x256 .f32) (v2 : Vec F S1x256 .f32) (v4 : Vec F S1x256 .f32) (v6 : Vec F S1x256 .f32)
    (v11 : Vec F S256x256 .bf16) (v13 : Vec F S502x502 .bf16) (v15 : Vec F S1x256 .f32) (v32 : Vec F S1x502x256 .f32) :
    k2_pay3 v0 v2 v4 v6 v11 v13 v15 v32 = stConv v13 (stXW (stAct (stZ v0 v2 v4 v6 v32)) v11) v15 := rfl

/-- The stored slab is the convolved slab under one more leading axis of length one. -/
theorem pay4_apply (v0 : Vec F S1x256 .f32) (v2 : Vec F S1x256 .f32) (v4 : Vec F S1x256 .f32) (v6 : Vec F S1x256 .f32)
    (v11 : Vec F S256x256 .bf16) (v13 : Vec F S502x502 .bf16) (v15 : Vec F S1x256 .f32) (v32 : Vec F S1x502x256 .f32)
    (u : Fin 1) (n : Fin 502) (h : Fin 256) :
    k2_pay4 v0 v2 v4 v6 v11 v13 v15 v32 (ix3 u n h) = k2_pay3 v0 v2 v4 v6 v11 v13 v15 v32 (ix2 n h) := by
  unfold k2_pay4
  exact shapeCast_ab_1ab_apply _ _ u n h

end Stages

/-! ## The stages at an index, over the extended reals -/

/-- Stage 1 at an index: the normalised real. -/
theorem stZ_apply (v0 : Vec Ideal S1x256 .f32) (v2 : Vec Ideal S1x256 .f32) (v4 : Vec Ideal S1x256 .f32)
    (v6 : Vec Ideal S1x256 .f32) (v32 : Vec Ideal S1x502x256 .f32)
    (Y : Fin 502 → Fin 256 → ℝ) (mu va g be : Fin 256 → ℝ) (hva : ∀ f, 0 ≤ va f)
    (h0 : ∀ f, v0 (ix2 (0 : Fin 1) f) = ((mu f : ℝ) : EReal))
    (h2 : ∀ f, v2 (ix2 (0 : Fin 1) f) = ((va f : ℝ) : EReal))
    (h4 : ∀ f, v4 (ix2 (0 : Fin 1) f) = ((g f : ℝ) : EReal))
    (h6 : ∀ f, v6 (ix2 (0 : Fin 1) f) = ((be f : ℝ) : EReal))
    (h32 : ∀ s f, v32 (ix3 (0 : Fin 1) s f) = ((Y s f : ℝ) : EReal)) (s : Fin 502) (f : Fin 256) :
    stZ v0 v2 v4 v6 v32 (ix2 s f)
      = (((Y s f - mu f) * (Real.sqrt (va f + Model.eps))⁻¹ * g f + be f : ℝ) : EReal) := by
  have hpos : 0 < va f + Model.eps := add_pos_of_nonneg_of_pos (hva f) Model.eps_pos
  have e33 : shapeCast S502x256 v32 shapeCasts_S1x502x256_S502x256 (ix2 s f) = ((Y s f : ℝ) : EReal) :=
    (shapeCast_1ab_ab_apply v32 shapeCasts_S1x502x256_S502x256 s f).trans (h32 s f)
  have eb : ∀ (v : Vec Ideal S1x256 .f32), broadcastTo S502x256 (shapeCast S1x256 v shapeCasts_S1x256_S1x256) broadcasts_S1x256_S502x256 (ix2 s f)
      = v (ix2 (0 : Fin 1) f) := fun v => by
    rw [shapeCast_self]; exact broadcastTo_1b_ab_apply v broadcasts_S1x256_S502x256 s f
  have er : broadcastTo S502x256 (rsqrt (addf (shapeCast S1x256 v2 shapeCasts_S1x256_S1x256)
        (broadcast S1x256 (Scalar.ofBits (F := Ideal) .f32 0x3727C5AC#32)))) broadcasts_S1x256_S502x256 (ix2 s f)
      = (((Real.sqrt (va f + Model.eps))⁻¹ : ℝ) : EReal) := by
    refine (broadcastTo_1b_ab_apply _ broadcasts_S1x256_S502x256 s f).trans ?_
    show Ideal.rsqrt (shapeCast S1x256 v2 shapeCasts_S1x256_S1x256 (ix2 (0 : Fin 1) f) + Ideal.ofBits .f32 0x3727C5AC#32) = _
    rw [shapeCast_self, h2, ofBits_eps', ← EReal.coe_add, Ideal.rsqrt_coe, if_neg (not_lt.mpr hpos.le), if_neg hpos.ne']
  show (shapeCast S502x256 v32 shapeCasts_S1x502x256_S502x256 (ix2 s f)
        - broadcastTo S502x256 (shapeCast S1x256 v0 shapeCasts_S1x256_S1x256) broadcasts_S1x256_S502x256 (ix2 s f))
      * broadcastTo S502x256 (rsqrt (addf (shapeCast S1x256 v2 shapeCasts_S1x256_S1x256)
          (broadcast S1x256 (Scalar.ofBits (F := Ideal) .f32 0x3727C5AC#32)))) broadcasts_S1x256_S502x256 (ix2 s f)
      * broadcastTo S502x256 (shapeCast S1x256 v4 shapeCasts_S1x256_S1x256) broadcasts_S1x256_S502x256 (ix2 s f)
      + broadcastTo S502x256 (shapeCast S1x256 v6 shapeCasts_S1x256_S1x256) broadcasts_S1x256_S502x256 (ix2 s f) = _
  rw [e33, eb v0, er, eb v4, eb v6, h0, h4, h6]
  simp only [EReal.coe_add, EReal.coe_mul, EReal.coe_sub]

/-- Stage 2 at an index: the exponential linear unit of the real under it. -/
theorem stAct_apply (z : FVec Ideal S502x256 .f32) (r : ℝ) (s : Fin 502) (f : Fin 256)
    (hz : z (ix2 s f) = ((r : ℝ) : EReal)) : stAct z (ix2 s f) = ((Model.elu r : ℝ) : EReal) := by
  show Scalar.select (Ideal.cmp .ogt (z (ix2 s f)) (Ideal.ofBits .f32 0x00000000#32)) (z (ix2 s f))
      (Ideal.exp (z (ix2 s f)) - Ideal.ofBits .f32 0x3F800000#32) = _
  rw [hz, Ideal.ofBits_zero_f32, Cert.Consts.ofBits_one, Ideal.exp_coe]
  by_cases hr : 0 < r
  · have hc : Ideal.cmp .ogt ((r : ℝ) : EReal) 0 = 1#1 := by
      unfold Ideal.cmp; simp [hr]
    rw [hc, select_one]; unfold Model.elu; rw [if_pos hr]
  · have hc : Ideal.cmp .ogt ((r : ℝ) : EReal) 0 = 0#1 := by
      unfold Ideal.cmp; simp [hr]
    rw [hc, select_zero]; unfold Model.elu; rw [if_neg hr, EReal.coe_sub]

/-- The first product at an index: the sum over the 256 input features. -/
theorem matmulXW_apply (x : FVec Ideal S502x256 .bf16) (w : FVec Ideal S256x256 .bf16) (s : Fin 502) (h : Fin 256) :
    matmul dot_S502x256_S256x256_S502x256_1_0_0_1_n_n none x w (constant S502x256 .f32 0x00000000#32) (ix2 s h)
      = ∑ f : Fin 256, x (ix2 s f) * w (ix2 f h) := by
  show FloatOps.matmul dot_S502x256_S256x256_S502x256_1_0_0_1_n_n none x w (constant S502x256 .f32 0x00000000#32) (ix2 s h) = _
  rw [Ideal.matmul_constant_zero_apply, ← Equiv.sum_comp (contrEquiv1 dot_S502x256_S256x256_S502x256_1_0_0_1_n_n 256 rfl rfl).symm]
  refine Finset.sum_congr rfl fun f _ => ?_
  have c2 := contrEquiv1_symm_val dot_S502x256_S256x256_S502x256_1_0_0_1_n_n 256 rfl rfl f
  have l2 : dot_S502x256_S256x256_S502x256_1_0_0_1_n_n.lhsIdx (ix2 s h) ((contrEquiv1 dot_S502x256_S256x256_S502x256_1_0_0_1_n_n 256 rfl rfl).symm f) = ix2 s f := by
    funext ax; apply Fin.ext
    match ax with
    | ⟨0, _⟩ => simp [DotDims.lhsIdx, dot_S502x256_S256x256_S502x256_1_0_0_1_n_n]; rfl
    | ⟨1, _⟩ => simp [DotDims.lhsIdx, dot_S502x256_S256x256_S502x256_1_0_0_1_n_n]; exact c2
  have r2 : dot_S502x256_S256x256_S502x256_1_0_0_1_n_n.rhsIdx (ix2 s h) ((contrEquiv1 dot_S502x256_S256x256_S502x256_1_0_0_1_n_n 256 rfl rfl).symm f) = ix2 f h := by
    funext ax; apply Fin.ext
    match ax with
    | ⟨0, _⟩ => simp [DotDims.rhsIdx, dot_S502x256_S256x256_S502x256_1_0_0_1_n_n]; exact c2
    | ⟨1, _⟩ => simp [DotDims.rhsIdx, dot_S502x256_S256x256_S502x256_1_0_0_1_n_n]; rfl
  rw [l2, r2]

/-- The second product at an index: the sum over the 502 source nodes. -/
theorem matmulA_apply (a : FVec Ideal S502x502 .bf16) (b : FVec Ideal S502x256 .bf16) (n : Fin 502) (h : Fin 256) :
    matmul dot_S502x502_S502x256_S502x256_1_0_0_1_n_n none a b (constant S502x256 .f32 0x00000000#32) (ix2 n h)
      = ∑ s : Fin 502, a (ix2 n s) * b (ix2 s h) := by
  show FloatOps.matmul dot_S502x502_S502x256_S502x256_1_0_0_1_n_n none a b (constant S502x256 .f32 0x00000000#32) (ix2 n h) = _
  rw [Ideal.matmul_constant_zero_apply, ← Equiv.sum_comp (contrEquiv1 dot_S502x502_S502x256_S502x256_1_0_0_1_n_n 502 rfl rfl).symm]
  refine Finset.sum_congr rfl fun s _ => ?_
  have c2 := contrEquiv1_symm_val dot_S502x502_S502x256_S502x256_1_0_0_1_n_n 502 rfl rfl s
  have l2 : dot_S502x502_S502x256_S502x256_1_0_0_1_n_n.lhsIdx (ix2 n h) ((contrEquiv1 dot_S502x502_S502x256_S502x256_1_0_0_1_n_n 502 rfl rfl).symm s) = ix2 n s := by
    funext ax; apply Fin.ext
    match ax with
    | ⟨0, _⟩ => simp [DotDims.lhsIdx, dot_S502x502_S502x256_S502x256_1_0_0_1_n_n]; rfl
    | ⟨1, _⟩ => simp [DotDims.lhsIdx, dot_S502x502_S502x256_S502x256_1_0_0_1_n_n]; exact c2
  have r2 : dot_S502x502_S502x256_S502x256_1_0_0_1_n_n.rhsIdx (ix2 n h) ((contrEquiv1 dot_S502x502_S502x256_S502x256_1_0_0_1_n_n 502 rfl rfl).symm s) = ix2 s h := by
    funext ax; apply Fin.ext
    match ax with
    | ⟨0, _⟩ => simp [DotDims.rhsIdx, dot_S502x502_S502x256_S502x256_1_0_0_1_n_n]; exact c2
    | ⟨1, _⟩ => simp [DotDims.rhsIdx, dot_S502x502_S502x256_S502x256_1_0_0_1_n_n]; rfl
  rw [l2, r2]

/-- Stage 3 at an index: the real sum over the input features. -/
theorem stXW_apply (x : FVec Ideal S502x256 .bf16) (v11 : Vec Ideal S256x256 .bf16)
    (X : Fin 502 → Fin 256 → ℝ) (W : Fin 256 → Fin 256 → ℝ)
    (hx : ∀ s f, x (ix2 s f) = ((X s f : ℝ) : EReal)) (h11 : ∀ f h, v11 (ix2 f h) = ((W f h : ℝ) : EReal))
    (s : Fin 502) (h : Fin 256) :
    stXW x v11 (ix2 s h) = ((∑ f : Fin 256, X s f * W f h : ℝ) : EReal) := by
  show matmul dot_S502x256_S256x256_S502x256_1_0_0_1_n_n none x (shapeCast S256x256 v11 shapeCasts_S256x256_S256x256)
      (constant S502x256 .f32 0x00000000#32) (ix2 s h) = _
  rw [shapeCast_self, matmulXW_apply, coe_sum]
  refine Finset.sum_congr rfl fun f _ => ?_
  rw [hx, h11, EReal.coe_mul]

/-- Stage 4 at an index: the real sum over the source nodes, plus the bias. -/
theorem stConv_apply (v13 : Vec Ideal S502x502 .bf16) (b : FVec Ideal S502x256 .bf16) (v15 : Vec Ideal S1x256 .f32)
    (M : Fin 502 → Fin 502 → ℝ) (B : Fin 502 → Fin 256 → ℝ) (bias : Fin 256 → ℝ)
    (h13 : ∀ n s, v13 (ix2 n s) = ((M n s : ℝ) : EReal)) (hb : ∀ s h, b (ix2 s h) = ((B s h : ℝ) : EReal))
    (h15 : ∀ h, v15 (ix2 (0 : Fin 1) h) = ((bias h : ℝ) : EReal)) (n : Fin 502) (h : Fin 256) :
    stConv v13 b v15 (ix2 n h) = (((∑ s : Fin 502, M n s * B s h) + bias h : ℝ) : EReal) := by
  show matmul dot_S502x502_S502x256_S502x256_1_0_0_1_n_n none (shapeCast S502x502 v13 shapeCasts_S502x502_S502x502) b
        (constant S502x256 .f32 0x00000000#32) (ix2 n h)
      + broadcastTo S502x256 (shapeCast S1x256 v15 shapeCasts_S1x256_S1x256) broadcasts_S1x256_S502x256 (ix2 n h) = _
  rw [shapeCast_self, shapeCast_self, matmulA_apply, broadcastTo_1b_ab_apply, h15, EReal.coe_add, coe_sum]
  congr 1
  refine Finset.sum_congr rfl fun s _ => ?_
  rw [h13, hb, EReal.coe_mul]

/-- THE CONVOLVED SLAB AT AN INDEX: with every operand entry a real number, entry (n, h) is
    (∑ s, M n s · ∑ f, elu (normalised (s, f)) · W f h) + bias h. -/
theorem pay3_apply (v0 : Vec Ideal S1x256 .f32) (v2 : Vec Ideal S1x256 .f32) (v4 : Vec Ideal S1x256 .f32)
    (v6 : Vec Ideal S1x256 .f32) (v11 : Vec Ideal S256x256 .bf16) (v13 : Vec Ideal S502x502 .bf16)
    (v15 : Vec Ideal S1x256 .f32) (v32 : Vec Ideal S1x502x256 .f32)
    (Y : Fin 502 → Fin 256 → ℝ) (mu va g be bias : Fin 256 → ℝ) (W : Fin 256 → Fin 256 → ℝ) (M : Fin 502 → Fin 502 → ℝ)
    (hva : ∀ f, 0 ≤ va f)
    (h0 : ∀ f, v0 (ix2 (0 : Fin 1) f) = ((mu f : ℝ) : EReal))
    (h2 : ∀ f, v2 (ix2 (0 : Fin 1) f) = ((va f : ℝ) : EReal))
    (h4 : ∀ f, v4 (ix2 (0 : Fin 1) f) = ((g f : ℝ) : EReal))
    (h6 : ∀ f, v6 (ix2 (0 : Fin 1) f) = ((be f : ℝ) : EReal))
    (h11 : ∀ f h, v11 (ix2 f h) = ((W f h : ℝ) : EReal))
    (h13 : ∀ n s, v13 (ix2 n s) = ((M n s : ℝ) : EReal))
    (h15 : ∀ h, v15 (ix2 (0 : Fin 1) h) = ((bias h : ℝ) : EReal))
    (h32 : ∀ s f, v32 (ix3 (0 : Fin 1) s f) = ((Y s f : ℝ) : EReal)) (n : Fin 502) (h : Fin 256) :
    k2_pay3 v0 v2 v4 v6 v11 v13 v15 v32 (ix2 n h)
      = (((∑ s : Fin 502, M n s * ∑ f : Fin 256,
            Model.elu ((Y s f - mu f) * (Real.sqrt (va f + Model.eps))⁻¹ * g f + be f) * W f h) + bias h : ℝ) : EReal) := by
  rw [pay3_eq]
  exact stConv_apply v13 _ v15 M _ bias h13
    (fun s h => stXW_apply _ v11 _ W
      (fun s f => stAct_apply _ _ s f (stZ_apply v0 v2 v4 v6 v32 Y mu va g be hva h0 h2 h4 h6 h32 s f)) h11 s h)
    h15 n h

/-! ## The statistics payloads -/

/-- A column sum at an index: the sum over the 502 rows. -/
theorem colsum_apply (src : FVec Ideal S502x256 .f32) (hφ : FKind.Formats .f32)
    (hacc : (0x00000000#32 : BitVec FTy.f32.bits) = FKind.add.neutral .f32 hφ) (h : Fin 256) :
    multiReduction .add [0] S256 src 0x00000000#32 reduces_S502x256_S256 hφ hacc (ix1 h)
      = ∑ r : Fin 502, src (ix2 r h) := by
  refine (Ideal.multiReduction_add_single src 0x00000000#32 reduces_S502x256_S256 hφ hacc (ix1 h)).trans ?_
  refine Finset.sum_congr rfl fun r _ => congrArg src ?_
  funext a; apply Fin.ext
  match a with
  | ⟨0, _⟩ => rfl
  | ⟨1, _⟩ => rfl

/-- The first loop's yield at an index: the carried entry plus the column sum of the convolved slab. -/
theorem pay5_apply (v0 : Vec Ideal S1x256 .f32) (v2 : Vec Ideal S1x256 .f32) (v4 : Vec Ideal S1x256 .f32) (v6 : Vec Ideal S1x256 .f32) (v11 : Vec Ideal S256x256 .bf16) (v13 : Vec Ideal S502x502 .bf16) (v15 : Vec Ideal S1x256 .f32) (acc : FVec Ideal S1x256 .f32) (v32 : Vec Ideal S1x502x256 .f32) (u : Fin 1) (h : Fin 256) :
    k2_pay5 v0 v2 v4 v6 v11 v13 v15 acc v32 (ix2 u h)
      = acc (ix2 u h) + ∑ r : Fin 502, k2_pay3 v0 v2 v4 v6 v11 v13 v15 v32 (ix2 r h) := by
  show acc (ix2 u h) + shapeCast S1x256 (multiReduction .add [0] S256 (k2_pay3 v0 v2 v4 v6 v11 v13 v15 v32) 0x00000000#32
      reduces_S502x256_S256 (.inl rfl) rfl) shapeCasts_S256_S1x256 (ix2 u h) = _
  exact congrArg (acc (ix2 u h) + ·) ((shapeCast_a_1a_apply _ shapeCasts_S256_S1x256 u h).trans (colsum_apply _ _ _ h))

/-- The same with real data: the real sum. -/
theorem pay5_real (v0 : Vec Ideal S1x256 .f32) (v2 : Vec Ideal S1x256 .f32) (v4 : Vec Ideal S1x256 .f32) (v6 : Vec Ideal S1x256 .f32) (v11 : Vec Ideal S256x256 .bf16) (v13 : Vec Ideal S502x502 .bf16) (v15 : Vec Ideal S1x256 .f32) (acc : FVec Ideal S1x256 .f32) (v32 : Vec Ideal S1x502x256 .f32) (a : ℝ) (C : Fin 502 → ℝ)
    (u : Fin 1) (h : Fin 256) (hacc : acc (ix2 u h) = ((a : ℝ) : EReal))
    (hC : ∀ r, k2_pay3 v0 v2 v4 v6 v11 v13 v15 v32 (ix2 r h) = ((C r : ℝ) : EReal)) :
    k2_pay5 v0 v2 v4 v6 v11 v13 v15 acc v32 (ix2 u h) = ((a + ∑ r : Fin 502, C r : ℝ) : EReal) := by
  rw [pay5_apply, hacc, EReal.coe_add, coe_sum]
  exact congrArg (((a : ℝ) : EReal) + ·) (Finset.sum_congr rfl fun r _ => hC r)

/-- The row of means at an index: the carried sum over 4016. -/
theorem pay6_real (v19 : FVec Ideal S1x256 .f32) (S : ℝ) (u : Fin 1) (h : Fin 256)
    (hv : v19 (ix2 u h) = ((S : ℝ) : EReal)) : k2_pay6 v19 (ix2 u h) = ((S / 4016 : ℝ) : EReal) := by
  show Ideal.div (v19 (ix2 u h)) (Ideal.ofBits .f32 0x457B0000#32) = _
  rw [hv, Cert.Consts.ofBits_4016, Ideal.div_coe (by norm_num : (4016 : ℝ) ≠ 0), ← EReal.coe_mul]
  congr 1; ring

section Layout
variable {F : FTy → Type} [FloatOps F]

/-- The stored row of means is the row under one more leading axis of length one. -/
theorem pay7_apply (v19 : FVec F S1x256 .f32) (u u' : Fin 1) (h : Fin 256) :
    k2_pay7 v19 (ix3 u u' h) = k2_pay6 v19 (ix2 u' h) := by
  unfold k2_pay7
  exact shapeCast_ab_1ab_apply _ _ u u' h

/-- The stored row of centred sums of squares is the carried row under one more leading axis of length one. -/
theorem pay1_apply (v27 : FVec F S1x256 .f32) (u u' : Fin 1) (h : Fin 256) :
    k2_pay1 v27 (ix3 u u' h) = v27 (ix2 u' h) := by
  unfold k2_pay1
  exact shapeCast_ab_1ab_apply _ _ u u' h

end Layout

/-- Both loops start from the zero row. -/
theorem pay2_apply (u : Fin 1) (h : Fin 256) : (k2_pay2 (F := Ideal)) (ix2 u h) = ((0 : ℝ) : EReal) := by
  show Ideal.ofBits .f32 0x00000000#32 = _
  rw [Ideal.ofBits_zero_f32]; rfl

theorem pay8_apply (u : Fin 1) (h : Fin 256) : (k2_pay8 (F := Ideal)) (ix2 u h) = ((0 : ℝ) : EReal) := by
  show Ideal.ofBits .f32 0x00000000#32 = _
  rw [Ideal.ofBits_zero_f32]; rfl

/-- The second loop's yield at an index: the carried entry plus the column sum of the squares of the slab less
    the row of means. -/
theorem pay9_apply (v19 acc : FVec Ideal S1x256 .f32) (v32 : Vec Ideal S1x502x256 .f32) (u : Fin 1) (h : Fin 256) :
    k2_pay9 v19 acc v32 (ix2 u h)
      = acc (ix2 u h) + ∑ r : Fin 502, (v32 (ix3 (0 : Fin 1) r h) - k2_pay6 v19 (ix2 (0 : Fin 1) h))
          * (v32 (ix3 (0 : Fin 1) r h) - k2_pay6 v19 (ix2 (0 : Fin 1) h)) := by
  show acc (ix2 u h) + shapeCast S1x256 (multiReduction .add [0] S256 (mulf (subf (shapeCast S502x256 v32 shapeCasts_S1x502x256_S502x256) (broadcastTo S502x256 (k2_pay6 v19) broadcasts_S1x256_S502x256)) (subf (shapeCast S502x256 v32 shapeCasts_S1x502x256_S502x256) (broadcastTo S502x256 (k2_pay6 v19) broadcasts_S1x256_S502x256))) 0x00000000#32
      reduces_S502x256_S256 (.inl rfl) rfl) shapeCasts_S256_S1x256 (ix2 u h) = _
  refine congrArg (acc (ix2 u h) + ·) ((shapeCast_a_1a_apply _ shapeCasts_S256_S1x256 u h).trans ((colsum_apply _ _ _ h).trans ?_))
  refine Finset.sum_congr rfl fun r _ => ?_
  have e : (subf (shapeCast S502x256 v32 shapeCasts_S1x502x256_S502x256) (broadcastTo S502x256 (k2_pay6 v19) broadcasts_S1x256_S502x256)) (ix2 r h) = v32 (ix3 (0 : Fin 1) r h) - k2_pay6 v19 (ix2 (0 : Fin 1) h) := by
    show shapeCast S502x256 v32 shapeCasts_S1x502x256_S502x256 (ix2 r h)
      - broadcastTo S502x256 (k2_pay6 v19) broadcasts_S1x256_S502x256 (ix2 r h) = _
    rw [shapeCast_1ab_ab_apply, broadcastTo_1b_ab_apply]
  show (subf (shapeCast S502x256 v32 shapeCasts_S1x502x256_S502x256) (broadcastTo S502x256 (k2_pay6 v19) broadcasts_S1x256_S502x256)) (ix2 r h) * (subf (shapeCast S502x256 v32 shapeCasts_S1x502x256_S502x256) (broadcastTo S502x256 (k2_pay6 v19) broadcasts_S1x256_S502x256)) (ix2 r h) = _
  rw [e]

/-- The same with real data: the real sum of squares. -/
theorem pay9_real (v19 acc : FVec Ideal S1x256 .f32) (v32 : Vec Ideal S1x502x256 .f32) (a m : ℝ) (C : Fin 502 → ℝ)
    (u : Fin 1) (h : Fin 256) (hacc : acc (ix2 u h) = ((a : ℝ) : EReal))
    (hm : k2_pay6 v19 (ix2 (0 : Fin 1) h) = ((m : ℝ) : EReal))
    (hC : ∀ r, v32 (ix3 (0 : Fin 1) r h) = ((C r : ℝ) : EReal)) :
    k2_pay9 v19 acc v32 (ix2 u h) = ((a + ∑ r : Fin 502, (C r - m) ^ 2 : ℝ) : EReal) := by
  rw [pay9_apply, hacc, hm, EReal.coe_add, coe_sum]
  refine congrArg (((a : ℝ) : EReal) + ·) (Finset.sum_congr rfl fun r _ => ?_)
  rw [hC, ← EReal.coe_sub, ← EReal.coe_mul, pow_two]

end Cert.KernelIdeal.KReg2

end
-- ==== Proof.KReg2Rec.lean ====
/-
  Region 2: the two carried rows of statistics as real numbers.

  With every operand entry a real number, the row the first loop carries after n trips holds, feature by
  feature, the sum over the first n slabs of the column sums of the convolved slabs; the row the second loop
  carries holds the sum over the first n slabs of the column sums of the squares of the convolved slabs less
  the row of means.  By induction over the trips.
-/
import proofs.«171858_j54966991454756_2_alg».proof.Proof.KReg2Trips
import proofs.«171858_j54966991454756_2_alg».proof.Proof.KReg2Pay

set_option maxRecDepth 16384

noncomputable section

namespace Cert.KernelIdeal.KReg2

open Idealize.ShloMosaic Idealize.ShloMosaic.TcCoe Idealize.ShloMosaic.ValueIdx
open Idealize.SL.Sem
open Cert.KernelIdeal Cert.KernelIdeal.Gen

/-- The convolved slab of a block of 8 slabs, as real numbers: M · (elu (normalised slab) · W) + bias. -/
def cvb (M : Fin 502 → Fin 502 → ℝ) (Yb : Fin 8 → Fin 502 → Fin 256 → ℝ) (mu va g be : Fin 256 → ℝ)
    (W : Fin 256 → Fin 256 → ℝ) (bias : Fin 256 → ℝ) (k : Fin 8) (n : Fin 502) (h : Fin 256) : ℝ :=
  (∑ s : Fin 502, M n s * ∑ f : Fin 256,
    Model.elu ((Yb k s f - mu f) * (Real.sqrt (va f + Model.eps))⁻¹ * g f + be f) * W f h) + bias h

/-- The same with the slab named by a natural number (zero past the last slab). -/
def cvN (M : Fin 502 → Fin 502 → ℝ) (Yb : Fin 8 → Fin 502 → Fin 256 → ℝ) (mu va g be : Fin 256 → ℝ)
    (W : Fin 256 → Fin 256 → ℝ) (bias : Fin 256 → ℝ) (k : ℕ) (n : Fin 502) (h : Fin 256) : ℝ :=
  if hk : k < 8 then cvb M Yb mu va g be W bias ⟨k, hk⟩ n h else 0

/-- The small operands of the kernel body hold real numbers. -/
structure RealIn (v0 : Vec Ideal S1x256 .f32) (v2 : Vec Ideal S1x256 .f32) (v4 : Vec Ideal S1x256 .f32) (v6 : Vec Ideal S1x256 .f32) (v11 : Vec Ideal S256x256 .bf16) (v13 : Vec Ideal S502x502 .bf16) (v15 : Vec Ideal S1x256 .f32) (mu va g be bias : Fin 256 → ℝ) (W : Fin 256 → Fin 256 → ℝ) (M : Fin 502 → Fin 502 → ℝ) : Prop where
  hva : ∀ f, 0 ≤ va f
  h0 : ∀ f, v0 (ix2 (0 : Fin 1) f) = ((mu f : ℝ) : EReal)
  h2 : ∀ f, v2 (ix2 (0 : Fin 1) f) = ((va f : ℝ) : EReal)
  h4 : ∀ f, v4 (ix2 (0 : Fin 1) f) = ((g f : ℝ) : EReal)
  h6 : ∀ f, v6 (ix2 (0 : Fin 1) f) = ((be f : ℝ) : EReal)
  h11 : ∀ f h, v11 (ix2 f h) = ((W f h : ℝ) : EReal)
  h13 : ∀ n s, v13 (ix2 n s) = ((M n s : ℝ) : EReal)
  h15 : ∀ h, v15 (ix2 (0 : Fin 1) h) = ((bias h : ℝ) : EReal)

/-- A slab of real numbers convolves to the real convolved slab, entry by entry. -/
theorem pay3_cvb (v0 : Vec Ideal S1x256 .f32) (v2 : Vec Ideal S1x256 .f32) (v4 : Vec Ideal S1x256 .f32) (v6 : Vec Ideal S1x256 .f32) (v11 : Vec Ideal S256x256 .bf16) (v13 : Vec Ideal S502x502 .bf16) (v15 : Vec Ideal S1x256 .f32) (v32 : Vec Ideal S1x502x256 .f32)
    (mu va g be bias : Fin 256 → ℝ) (W : Fin 256 → Fin 256 → ℝ) (M : Fin 502 → Fin 502 → ℝ)
    (Yb : Fin 8 → Fin 502 → Fin 256 → ℝ) (R : RealIn v0 v2 v4 v6 v11 v13 v15 mu va g be bias W M) (k : Fin 8)
    (h32 : ∀ s f, v32 (ix3 (0 : Fin 1) s f) = ((Yb k s f : ℝ) : EReal)) (n : Fin 502) (h : Fin 256) :
    k2_pay3 v0 v2 v4 v6 v11 v13 v15 v32 (ix2 n h) = ((cvb M Yb mu va g be W bias k n h : ℝ) : EReal) :=
  pay3_apply v0 v2 v4 v6 v11 v13 v15 v32 (Yb k) mu va g be bias W M R.hva R.h0 R.h2 R.h4 R.h6 R.h11 R.h13 R.h15 h32 n h

/-- The stored slab likewise. -/
theorem pay4_cvb (v0 : Vec Ideal S1x256 .f32) (v2 : Vec Ideal S1x256 .f32) (v4 : Vec Ideal S1x256 .f32) (v6 : Vec Ideal S1x256 .f32) (v11 : Vec Ideal S256x256 .bf16) (v13 : Vec Ideal S502x502 .bf16) (v15 : Vec Ideal S1x256 .f32) (v32 : Vec Ideal S1x502x256 .f32)
    (mu va g be bias : Fin 256 → ℝ) (W : Fin 256 → Fin 256 → ℝ) (M : Fin 502 → Fin 502 → ℝ)
    (Yb : Fin 8 → Fin 502 → Fin 256 → ℝ) (R : RealIn v0 v2 v4 v6 v11 v13 v15 mu va g be bias W M) (k : Fin 8)
    (h32 : ∀ s f, v32 (ix3 (0 : Fin 1) s f) = ((Yb k s f : ℝ) : EReal)) (u : Fin 1) (n : Fin 502) (h : Fin 256) :
    k2_pay4 v0 v2 v4 v6 v11 v13 v15 v32 (ix3 u n h) = ((cvb M Yb mu va g be W bias k n h : ℝ) : EReal) :=
  (pay4_apply v0 v2 v4 v6 v11 v13 v15 v32 u n h).trans (pay3_cvb v0 v2 v4 v6 v11 v13 v15 v32 mu va g be bias W M Yb R k h32 n h)

theorem sum_cvN (M : Fin 502 → Fin 502 → ℝ) (Yb : Fin 8 → Fin 502 → Fin 256 → ℝ) (mu va g be : Fin 256 → ℝ)
    (W : Fin 256 → Fin 256 → ℝ) (bias : Fin 256 → ℝ) (F : Fin 8 → ℝ) (G : ℕ → ℝ)
    (hFG : ∀ k : Fin 8, G k.val = F k) : ∑ k ∈ Finset.range 8, G k = ∑ k : Fin 8, F k := by
  rw [← Fin.sum_univ_eq_sum_range]
  exact Finset.sum_congr rfl fun k _ => hFG k

/-! ## The convolved block as one function of its index -/

/-- Slab k's rectangle in the first loop places (u, n, h) at (k, n, h). -/
theorem emb_slab1 (k : Fin k2_t1_loop.trips) (u : Fin 1) (n : Fin 502) (h : Fin 256) :
    (Rect.unit (s := S8x502x256) (k2_off1 k) S1x502x256.size (k2_off1_inb k)).emb (ix3 u n h)
      = ix3 (Fin.cast trips1 k) n h := by
  funext a; apply Fin.ext
  have e := k2_off1_eq k
  have hu : u.val = 0 := by omega
  match a with
  | ⟨0, _⟩ => show k2_off1 k 0 + 1 * u.val = k.val; rw [e]; show k.val + 1 * u.val = k.val; omega
  | ⟨1, _⟩ => show k2_off1 k 1 + 1 * n.val = n.val; rw [e]; show 0 + 1 * n.val = n.val; omega
  | ⟨2, _⟩ => show k2_off1 k 2 + 1 * h.val = h.val; rw [e]; show 0 + 1 * h.val = h.val; omega

/-- Slab k's rectangle in the second loop places (u, n, h) at (k, n, h). -/
theorem emb_slab2 (k : Fin k2_t2_loop.trips) (u : Fin 1) (n : Fin 502) (h : Fin 256) :
    (Rect.unit (s := S8x502x256) (k2_off2 k) S1x502x256.size (k2_off2_inb k)).emb (ix3 u n h)
      = ix3 (Fin.cast trips2 k) n h := by
  funext a; apply Fin.ext
  have e := k2_off2_eq k
  have hu : u.val = 0 := by omega
  match a with
  | ⟨0, _⟩ => show k2_off2 k 0 + 1 * u.val = k.val; rw [e]; show k.val + 1 * u.val = k.val; omega
  | ⟨1, _⟩ => show k2_off2 k 1 + 1 * n.val = n.val; rw [e]; show 0 + 1 * n.val = n.val; omega
  | ⟨2, _⟩ => show k2_off2 k 2 + 1 * h.val = h.val; rw [e]; show 0 + 1 * h.val = h.val; omega

section AnyF
variable {F : FTy → Type} [FloatOps F]

/-- Slab k of a buffer read whole is slab k of what the buffer holds. -/
theorem slab1_of_read (M : Memref sig .tc .vmem S8x502x256 .f32) (X : BufTy.Contents (Elt F) M.view.ty)
    (x0 : Vec F S8x502x256 .f32) (hread : M.view.read (Elt F) X = x0)
    (k : Fin k2_t1_loop.trips) (u : Fin 1) (n : Fin 502) (f : Fin 256) :
    slab1 M X k (ix3 u n f) = x0 (ix3 (Fin.cast trips1 k) n f) := by
  show View.readAt (Elt F) M.view (Rect.unit (s := S8x502x256) (k2_off1 k) S1x502x256.size (k2_off1_inb k)).toLoadRect X (ix3 u n f) = _
  rw [View.readAt_eq_ld, hread]
  exact congrArg x0 (emb_slab1 k u n f)

/-- Slab k of a buffer holding stored pieces over nothing is the pieces' own contents at slab k. -/
theorem slab2_of_writes_junk (M : Memref sig .tc .vmem S8x502x256 .f32) (L : List (View.Piece (Elt F) S8x502x256 .f32))
    (k : Fin k2_t2_loop.trips) (u : Fin 1) (n : Fin 502) (h : Fin 256) :
    slab2 M (M.view.writes (Elt F) M.view.junk L) k (ix3 u n h) = View.canon L (ix3 (Fin.cast trips2 k) n h) := by
  show View.readAt (Elt F) M.view (Rect.unit (s := S8x502x256) (k2_off2 k) S1x502x256.size (k2_off2_inb k)).toLoadRect
      (M.view.writes (Elt F) M.view.junk L) (ix3 u n h) = _
  rw [View.readAt_writes_junk_eq_canon]
  exact congrArg (View.canon L) (emb_slab2 k u n h)

end AnyF

/-- The convolved block: entry (k, n, h) is entry (n, h) of the convolved slab k. -/
def Gb (M : Fin 502 → Fin 502 → ℝ) (Yb : Fin 8 → Fin 502 → Fin 256 → ℝ) (mu va g be : Fin 256 → ℝ)
    (W : Fin 256 → Fin 256 → ℝ) (bias : Fin 256 → ℝ) : S8x502x256.Idx → EReal :=
  fun y => ((cvb M Yb mu va g be W bias (y 0) (y 1) (y 2) : ℝ) : EReal)

theorem Gb_ix3 (M : Fin 502 → Fin 502 → ℝ) (Yb : Fin 8 → Fin 502 → Fin 256 → ℝ) (mu va g be : Fin 256 → ℝ)
    (W : Fin 256 → Fin 256 → ℝ) (bias : Fin 256 → ℝ) (k : Fin 8) (n : Fin 502) (h : Fin 256) :
    Gb M Yb mu va g be W bias (ix3 k n h) = ((cvb M Yb mu va g be W bias k n h : ℝ) : EReal) := rfl

variable (𝒱 : Variants) (c : Dev nD) (bd : Option 𝒱.V) (i : grid2.Coords) (arg1 : Memref sig .tc .vmem S8x502x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S502x502 .bf16) (harg7 : arg7.IsWhole) (arg8 : Memref sig .tc .vmem S1x256 .f32) (harg8 : arg8.IsWhole) (arg9 : Memref sig .tc .vmem S8x502x256 .f32) (harg9 : arg9.IsWhole) (arg10 : Memref sig .tc .vmem S1x1x256 .f32) (harg10 : arg10.IsWhole) (arg11 : Memref sig .tc .vmem S1x1x256 .f32) (harg11 : arg11.IsWhole)

section Loop1

variable (v0 : Vec Ideal S1x256 .f32) (v2 : Vec Ideal S1x256 .f32) (v4 : Vec Ideal S1x256 .f32) (v6 : Vec Ideal S1x256 .f32) (v11 : Vec Ideal S256x256 .bf16) (v13 : Vec Ideal S502x502 .bf16) (v15 : Vec Ideal S1x256 .f32) (X1 : BufTy.Contents (Elt Ideal) arg1.view.ty)
variable (mu va g be bias : Fin 256 → ℝ) (W : Fin 256 → Fin 256 → ℝ) (M : Fin 502 → Fin 502 → ℝ)
variable (Yb : Fin 8 → Fin 502 → Fin 256 → ℝ)

/-- The row the first loop carries after n trips: the column sums of the first n convolved slabs, added. -/
theorem st1_fst_val (R : RealIn v0 v2 v4 v6 v11 v13 v15 mu va g be bias W M)
    (hslab : ∀ (k : Fin k2_t1_loop.trips) s f, slab1 arg1 X1 k (ix3 (0 : Fin 1) s f) = ((Yb (Fin.cast trips1 k) s f : ℝ) : EReal))
    (h : Fin 256) : ∀ (n : ℕ), n ≤ k2_t1_loop.trips →
      (st_k2_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 (k2_pay2 (F := Ideal)) n).1 (ix2 (0 : Fin 1) h)
        = ((∑ k ∈ Finset.range n, ∑ r : Fin 502, cvN M Yb mu va g be W bias k r h : ℝ) : EReal)
  | 0, _ => by
    rw [st1_zero_fst, Finset.sum_range_zero]; exact pay2_apply 0 h
  | n + 1, hn => by
    have hn8 : n < 8 := by have := trips1; omega
    have e := st1_succ_fst 𝒱 c bd i arg1 harg1 arg2 harg2 arg3 harg3 arg4 harg4 arg5 harg5 arg6 harg6 arg7 harg7 arg8 harg8 arg9 harg9 arg10 harg10 arg11 harg11 v0 v2 v4 v6 v11 v13 v15 X1 (k2_pay2 (F := Ideal)) ⟨n, hn⟩
    dsimp only at e
    rw [e, Finset.sum_range_succ]
    refine (pay5_real v0 v2 v4 v6 v11 v13 v15 _ _ _ (fun r => cvb M Yb mu va g be W bias ⟨n, hn8⟩ r h) 0 h
      (st1_fst_val R hslab h n (Nat.le_of_succ_le hn))
      (fun r => pay3_cvb v0 v2 v4 v6 v11 v13 v15 _ mu va g be bias W M Yb R ⟨n, hn8⟩ (hslab ⟨n, hn⟩) r h)).trans ?_
    congr 2
    refine Finset.sum_congr rfl fun r _ => ?_
    unfold cvN; rw [dif_pos hn8]

/-- After the last trip: the column sums of all 8 convolved slabs. -/
theorem st1_fst_total (R : RealIn v0 v2 v4 v6 v11 v13 v15 mu va g be bias W M)
    (hslab : ∀ (k : Fin k2_t1_loop.trips) s f, slab1 arg1 X1 k (ix3 (0 : Fin 1) s f) = ((Yb (Fin.cast trips1 k) s f : ℝ) : EReal))
    (h : Fin 256) :
    (st_k2_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 (k2_pay2 (F := Ideal)) k2_t1_loop.trips).1 (ix2 (0 : Fin 1) h)
      = ((∑ k : Fin 8, ∑ r : Fin 502, cvb M Yb mu va g be W bias k r h : ℝ) : EReal) := by
  have e : ∑ k ∈ Finset.range k2_t1_loop.trips, ∑ r : Fin 502, cvN M Yb mu va g be W bias k r h
      = ∑ k : Fin 8, ∑ r : Fin 502, cvb M Yb mu va g be W bias k r h := by
    rw [trips1]
    refine sum_cvN M Yb mu va g be W bias _ _ fun k => ?_
    refine Finset.sum_congr rfl fun r _ => ?_
    unfold cvN; rw [dif_pos k.isLt]
  rw [st1_fst_val 𝒱 c bd i arg1 harg1 arg2 harg2 arg3 harg3 arg4 harg4 arg5 harg5 arg6 harg6 arg7 harg7 arg8 harg8 arg9 harg9 arg10 harg10 arg11 harg11 v0 v2 v4 v6 v11 v13 v15 X1 mu va g be bias W M Yb R hslab h _ (Nat.le_refl _), e]

/-- Trip k's stored piece is the convolved block's slab k. -/
theorem piece1_G (R : RealIn v0 v2 v4 v6 v11 v13 v15 mu va g be bias W M)
    (hslab : ∀ (k : Fin k2_t1_loop.trips) s f, slab1 arg1 X1 k (ix3 (0 : Fin 1) s f) = ((Yb (Fin.cast trips1 k) s f : ℝ) : EReal))
    (k : Fin k2_t1_loop.trips) (x : S1x502x256.Idx) :
    k2_pay4 v0 v2 v4 v6 v11 v13 v15 (slab1 arg1 X1 k) x
      = Gb M Yb mu va g be W bias ((Rect.unit (s := S8x502x256) (k2_off1 k) S1x502x256.size (k2_off1_inb k)).emb x) := by
  obtain ⟨u, n, h, rfl⟩ : ∃ (u : Fin 1) (n : Fin 502) (h : Fin 256), x = ix3 u n h := ⟨x 0, x 1, x 2, eq_ix3 x⟩
  rw [emb_slab1, Gb_ix3]
  exact pay4_cvb v0 v2 v4 v6 v11 v13 v15 (slab1 arg1 X1 k) mu va g be bias W M Yb R (Fin.cast trips1 k) (hslab k) u n h

/-- What the 8 trips' pieces leave in the output block, read as one function: the convolved block. -/
theorem canon_st1 (R : RealIn v0 v2 v4 v6 v11 v13 v15 mu va g be bias W M)
    (hslab : ∀ (k : Fin k2_t1_loop.trips) s f, slab1 arg1 X1 k (ix3 (0 : Fin 1) s f) = ((Yb (Fin.cast trips1 k) s f : ℝ) : EReal))
    (init : FVec Ideal S1x256 .f32) (y : S8x502x256.Idx) :
    View.canon (st_k2_t1 𝒱 c bd i arg1 harg1 arg2 harg2 arg3 harg3 arg4 harg4 arg5 harg5 arg6 harg6 arg7 harg7 arg8 harg8 arg9 harg9 arg10 harg10 arg11 harg11 v0 v2 v4 v6 v11 v13 v15 X1 init k2_t1_loop.trips).2 y = Gb M Yb mu va g be W bias y := by
  refine View.canon_apply_of_pieces (Val := Elt Ideal) (S := S8x502x256) (e := .f32) (Gb M Yb mu va g be W bias) _ ?_ y ?_
  · intro p hp x
    obtain ⟨k, rfl⟩ := st1_pieces 𝒱 c bd i arg1 harg1 arg2 harg2 arg3 harg3 arg4 harg4 arg5 harg5 arg6 harg6 arg7 harg7 arg8 harg8 arg9 harg9 arg10 harg10 arg11 harg11 v0 v2 v4 v6 v11 v13 v15 X1 init _ (Nat.le_refl _) p hp
    exact piece1_G arg1 v0 v2 v4 v6 v11 v13 v15 X1 mu va g be bias W M Yb R hslab k x
  · have h0 : (y 0).val < 8 := (y 0).isLt
    have h1 : (y 1).val < 502 := (y 1).isLt
    have h2 : (y 2).val < 256 := (y 2).isLt
    have hk : (y 0).val < k2_t1_loop.trips := by rw [trips1]; exact h0
    refine ⟨_, st1_mem 𝒱 c bd i arg1 harg1 arg2 harg2 arg3 harg3 arg4 harg4 arg5 harg5 arg6 harg6 arg7 harg7 arg8 harg8 arg9 harg9 arg10 harg10 arg11 harg11 v0 v2 v4 v6 v11 v13 v15 X1 init _ (Nat.le_refl _) ⟨(y 0).val, hk⟩ hk, ?_⟩
    show y ∈ (Rect.unit (s := S8x502x256) (k2_off1 ⟨(y 0).val, hk⟩) S1x502x256.size (k2_off1_inb ⟨(y 0).val, hk⟩)).set
    rw [Rect.mem_set_unit, k2_off1_eq]
    intro a
    match a with
    | ⟨0, _⟩ => show (y 0).val ≤ (y 0).val ∧ (y 0).val < (y 0).val + 1; omega
    | ⟨1, _⟩ => show 0 ≤ (y 1).val ∧ (y 1).val < 0 + 502; omega
    | ⟨2, _⟩ => show 0 ≤ (y 2).val ∧ (y 2).val < 0 + 256; omega

end Loop1

section Loop2

variable (v19 : FVec Ideal S1x256 .f32) (X9 : BufTy.Contents (Elt Ideal) arg9.view.ty)
variable (Cb : Fin 8 → Fin 502 → Fin 256 → ℝ) (m : Fin 256 → ℝ)

/-- The slab named by a natural number (zero past the last slab). -/
def sqN (Cb : Fin 8 → Fin 502 → Fin 256 → ℝ) (m : Fin 256 → ℝ) (k : ℕ) (r : Fin 502) (h : Fin 256) : ℝ :=
  if hk : k < 8 then (Cb ⟨k, hk⟩ r h - m h) ^ 2 else 0

/-- The row the second loop carries after n trips: the column sums of the squares of the first n slabs of the
    output block less the row of means, added. -/
theorem st2_val (hm : ∀ h, k2_pay6 v19 (ix2 (0 : Fin 1) h) = ((m h : ℝ) : EReal))
    (hslab : ∀ (k : Fin k2_t2_loop.trips) r h, slab2 arg9 X9 k (ix3 (0 : Fin 1) r h) = ((Cb (Fin.cast trips2 k) r h : ℝ) : EReal))
    (h : Fin 256) : ∀ (n : ℕ), n ≤ k2_t2_loop.trips →
      (st_k2_t2 𝒱 c bd i arg1 harg1 arg2 harg2 arg3 harg3 arg4 harg4 arg5 harg5 arg6 harg6 arg7 harg7 arg8 harg8 arg9 harg9 arg10 harg10 arg11 harg11 v19 X9 (k2_pay8 (F := Ideal)) n) (ix2 (0 : Fin 1) h)
        = ((∑ k ∈ Finset.range n, ∑ r : Fin 502, sqN Cb m k r h : ℝ) : EReal)
  | 0, _ => by
    rw [st2_zero, Finset.sum_range_zero]; exact pay8_apply 0 h
  | n + 1, hn => by
    have hn8 : n < 8 := by have := trips2; omega
    have e := st2_succ 𝒱 c bd i arg1 harg1 arg2 harg2 arg3 harg3 arg4 harg4 arg5 harg5 arg6 harg6 arg7 harg7 arg8 harg8 arg9 harg9 arg10 harg10 arg11 harg11 v19 X9 (k2_pay8 (F := Ideal)) ⟨n, hn⟩
    dsimp only at e
    rw [e, Finset.sum_range_succ]
    refine (pay9_real v19 _ _ _ (m h) (fun r => Cb ⟨n, hn8⟩ r h) 0 h
      (st2_val hm hslab h n (Nat.le_of_succ_le hn)) (hm h) (fun r => hslab ⟨n, hn⟩ r h)).trans ?_
    congr 2
    refine Finset.sum_congr rfl fun r _ => ?_
    unfold sqN; rw [dif_pos hn8]

/-- After the last trip: the centred sum of squares over all 8 slabs. -/
theorem st2_total (hm : ∀ h, k2_pay6 v19 (ix2 (0 : Fin 1) h) = ((m h : ℝ) : EReal))
    (hslab : ∀ (k : Fin k2_t2_loop.trips) r h, slab2 arg9 X9 k (ix3 (0 : Fin 1) r h) = ((Cb (Fin.cast trips2 k) r h : ℝ) : EReal))
    (h : Fin 256) :
    (st_k2_t2 𝒱 c bd i arg1 harg1 arg2 harg2 arg3 harg3 arg4 harg4 arg5 harg5 arg6 harg6 arg7 harg7 arg8 harg8 arg9 harg9 arg10 harg10 arg11 harg11 v19 X9 (k2_pay8 (F := Ideal)) k2_t2_loop.trips) (ix2 (0 : Fin 1) h)
      = ((∑ k : Fin 8, ∑ r : Fin 502, (Cb k r h - m h) ^ 2 : ℝ) : EReal) := by
  have e : ∑ k ∈ Finset.range k2_t2_loop.trips, ∑ r : Fin 502, sqN Cb m k r h
      = ∑ k : Fin 8, ∑ r : Fin 502, (Cb k r h - m h) ^ 2 := by
    rw [trips2, ← Fin.sum_univ_eq_sum_range]
    refine Finset.sum_congr rfl fun k _ => Finset.sum_congr rfl fun r _ => ?_
    unfold sqN; rw [dif_pos k.isLt]
  rw [st2_val 𝒱 c bd i arg1 harg1 arg2 harg2 arg3 harg3 arg4 harg4 arg5 harg5 arg6 harg6 arg7 harg7 arg8 harg8 arg9 harg9 arg10 harg10 arg11 harg11 v19 X9 Cb m hm hslab h _ (Nat.le_refl _), e]

end Loop2

end Cert.KernelIdeal.KReg2

end
-- ==== Proof.KReg2Body.lean ====
/-
  Region 2 (the fused normalise, convolve and accumulate kernel): the body at one grid step, read as values.

  What the body's run found: the big output's staging buffer gets the 8 pieces of the first loop, statistics
  output 9 one piece (the row the first loop carried out, over 4016), statistics output 10 one piece (the row
  the second loop carried out, that loop reading the big output's buffer as the first loop's pieces left it).
  With every operand entry a real number: the big output's block is the convolved block, output 9's row the
  block's mean and output 10's row the block's centred sum of squares, feature by feature.
-/
import proofs.«171858_j54966991454756_2_alg».proof.Proof.KIFrame
import proofs.«171858_j54966991454756_2_alg».proof.Proof.KReg2Rec

set_option maxRecDepth 16384

noncomputable section

namespace Cert.KernelIdeal.KReg2

open Idealize.ShloMosaic Idealize.ShloMosaic.TcCoe Idealize.ShloMosaic.ValueIdx
open Idealize.SL.Sem
open Idealize.ShloMosaic.Pipeline (Dat Cfg Window)
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body at a grid step: what the run found -/

section Body

variable (c : Dev nD) (i : grid2.Coords) (arg1 : Memref sig .tc .vmem S8x502x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S502x502 .bf16) (harg7 : arg7.IsWhole) (arg8 : Memref sig .tc .vmem S1x256 .f32) (harg8 : arg8.IsWhole) (arg9 : Memref sig .tc .vmem S8x502x256 .f32) (harg9 : arg9.IsWhole) (arg10 : Memref sig .tc .vmem S1x1x256 .f32) (harg10 : arg10.IsWhole) (arg11 : Memref sig .tc .vmem S1x1x256 .f32) (harg11 : arg11.IsWhole)
variable (x0 : Vec Ideal S8x502x256 .f32) (x1 : Vec Ideal S1x256 .f32) (x2 : Vec Ideal S1x256 .f32) (x3 : Vec Ideal S1x256 .f32) (x4 : Vec Ideal S1x256 .f32) (x5 : Vec Ideal S256x256 .bf16) (x6 : Vec Ideal S502x502 .bf16) (x7 : Vec Ideal S1x256 .f32)

/-- The big output's pieces are the first loop's, after its 8 trips from the zero row. -/
theorem run_L8 : (kernelRun2_A (F := Ideal) c i arg1 harg1 arg2 harg2 arg3 harg3 arg4 harg4 arg5 harg5 arg6 harg6 arg7 harg7 arg8 harg8 arg9 harg9 arg10 harg10 arg11 harg11 x0 x1 x2 x3 x4 x5 x6 x7).1 = (st_k2_t1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) (k2_pay2 (F := Ideal)) k2_t1_loop.trips).2 := by
  unfold kernelRun2_A
  dsimp only
  try sl_unfold_words
  simp only [View.readAt_eq_ld, harg2.read_unread, harg3.read_unread, harg4.read_unread, harg5.read_unread,
    harg6.read_unread, harg7.read_unread, harg8.read_unread, View.ld_unit_zero (S := S1x256) hz2,
    View.ld_unit_zero (S := S256x256) hz2, View.ld_unit_zero (S := S502x502) hz2]

/-- Statistics output 9 gets one piece: the row the first loop carried out, over 4016. -/
theorem run_L9 : (kernelRun2_A (F := Ideal) c i arg1 harg1 arg2 harg2 arg3 harg3 arg4 harg4 arg5 harg5 arg6 harg6 arg7 harg7 arg8 harg8 arg9 harg9 arg10 harg10 arg11 harg11 x0 x1 x2 x3 x4 x5 x6 x7).2.1
    = [⟨Rect.unit (s := S1x1x256) ![0, 0, 0] S1x1x256.size inb_S1x1x256_S1x1x256_0_0_0, k2_pay7 (st_k2_t1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) (k2_pay2 (F := Ideal)) k2_t1_loop.trips).1⟩] := by
  unfold kernelRun2_A
  dsimp only
  try sl_unfold_words
  simp only [View.readAt_eq_ld, harg2.read_unread, harg3.read_unread, harg4.read_unread, harg5.read_unread,
    harg6.read_unread, harg7.read_unread, harg8.read_unread, View.ld_unit_zero (S := S1x256) hz2,
    View.ld_unit_zero (S := S256x256) hz2, View.ld_unit_zero (S := S502x502) hz2]

/-- Statistics output 10 gets one piece: the row the second loop carried out; that loop reads the big output's
    staging buffer as the first loop's pieces left it. -/
theorem run_L10 : (kernelRun2_A (F := Ideal) c i arg1 harg1 arg2 harg2 arg3 harg3 arg4 harg4 arg5 harg5 arg6 harg6 arg7 harg7 arg8 harg8 arg9 harg9 arg10 harg10 arg11 harg11 x0 x1 x2 x3 x4 x5 x6 x7).2.2.1
    = [⟨Rect.unit (s := S1x1x256) ![0, 0, 0] S1x1x256.size inb_S1x1x256_S1x1x256_0_0_0,
        k2_pay1 (st_k2_t2 Variants.none c none i arg1 harg1 arg2 harg2 arg3 harg3 arg4 harg4 arg5 harg5 arg6 harg6 arg7 harg7 arg8 harg8 arg9 harg9 arg10 harg10 arg11 harg11 (st_k2_t1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) (k2_pay2 (F := Ideal)) k2_t1_loop.trips).1 (arg9.view.writes (Elt Ideal) arg9.view.junk (st_k2_t1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) (k2_pay2 (F := Ideal)) k2_t1_loop.trips).2) (k2_pay8 (F := Ideal)) k2_t2_loop.trips)⟩] := by
  unfold kernelRun2_A
  dsimp only
  try sl_unfold_words
  simp only [View.readAt_eq_ld, harg2.read_unread, harg3.read_unread, harg4.read_unread, harg5.read_unread,
    harg6.read_unread, harg7.read_unread, harg8.read_unread, View.ld_unit_zero (S := S1x256) hz2,
    View.ld_unit_zero (S := S256x256) hz2, View.ld_unit_zero (S := S502x502) hz2]

variable (mu va g be bias : Fin 256 → ℝ) (W : Fin 256 → Fin 256 → ℝ) (M : Fin 502 → Fin 502 → ℝ)
variable (Yb : Fin 8 → Fin 502 → Fin 256 → ℝ)

/-- Slab k of the input block, as the first loop reads it, holds the block's reals at slab k. -/
theorem hslab1 (hx0 : ∀ k s f, x0 (ix3 k s f) = ((Yb k s f : ℝ) : EReal)) (k : Fin k2_t1_loop.trips) (s : Fin 502) (f : Fin 256) :
    slab1 arg1 (harg1.unread x0) k (ix3 (0 : Fin 1) s f) = ((Yb (Fin.cast trips1 k) s f : ℝ) : EReal) :=
  (slab1_of_read arg1 (harg1.unread x0) x0 (harg1.read_unread x0) k 0 s f).trans (hx0 _ s f)

/-- THE BIG OUTPUT'S BLOCK: the convolved block. -/
theorem out8_val (R : RealIn x1 x2 x3 x4 x5 x6 x7 mu va g be bias W M) (hx0 : ∀ k s f, x0 (ix3 k s f) = ((Yb k s f : ℝ) : EReal))
    (k : Fin 8) (n : Fin 502) (h : Fin 256) :
    out2_A_8 c i arg1 harg1 arg2 harg2 arg3 harg3 arg4 harg4 arg5 harg5 arg6 harg6 arg7 harg7 arg8 harg8 arg9 harg9 arg10 harg10 arg11 harg11 x0 x1 x2 x3 x4 x5 x6 x7 (ix3 k n h) = ((cvb M Yb mu va g be W bias k n h : ℝ) : EReal) := by
  unfold out2_A_8
  rw [View.read_writes_junk_eq_canon, run_L8]
  exact (canon_st1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) mu va g be bias W M Yb R
    (hslab1 arg1 harg1 x0 Yb hx0) _ (ix3 k n h)).trans (Gb_ix3 M Yb mu va g be W bias k n h)

/-- The row the first loop carries out: the column sums of the convolved block. -/
theorem v19_val (R : RealIn x1 x2 x3 x4 x5 x6 x7 mu va g be bias W M) (hx0 : ∀ k s f, x0 (ix3 k s f) = ((Yb k s f : ℝ) : EReal)) (h : Fin 256) :
    (st_k2_t1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) (k2_pay2 (F := Ideal)) k2_t1_loop.trips).1 (ix2 (0 : Fin 1) h) = ((∑ k : Fin 8, ∑ r : Fin 502, cvb M Yb mu va g be W bias k r h : ℝ) : EReal) :=
  st1_fst_total Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) mu va g be bias W M Yb R (hslab1 arg1 harg1 x0 Yb hx0) h

/-- STATISTICS OUTPUT 9's BLOCK: the block's mean, feature by feature. -/
theorem out9_val (R : RealIn x1 x2 x3 x4 x5 x6 x7 mu va g be bias W M) (hx0 : ∀ k s f, x0 (ix3 k s f) = ((Yb k s f : ℝ) : EReal))
    (u u' : Fin 1) (h : Fin 256) :
    out2_A_9 c i arg1 harg1 arg2 harg2 arg3 harg3 arg4 harg4 arg5 harg5 arg6 harg6 arg7 harg7 arg8 harg8 arg9 harg9 arg10 harg10 arg11 harg11 x0 x1 x2 x3 x4 x5 x6 x7 (ix3 u u' h)
      = (((∑ k : Fin 8, ∑ r : Fin 502, cvb M Yb mu va g be W bias k r h) / 4016 : ℝ) : EReal) := by
  unfold out2_A_9
  rw [View.read_writes_junk_eq_canon, run_L9, View.canon_unit_zero hz3, pay7_apply]
  obtain rfl : u' = 0 := Subsingleton.elim _ _
  exact pay6_real _ _ 0 h (v19_val c i arg1 harg1 arg2 harg2 arg3 harg3 arg4 harg4 arg5 harg5 arg6 harg6 arg7 harg7 arg8 harg8 arg9 harg9 arg10 harg10 arg11 harg11 x0 x1 x2 x3 x4 x5 x6 x7 mu va g be bias W M Yb R hx0 h)

/-- STATISTICS OUTPUT 10's BLOCK: the block's centred sum of squares, feature by feature. -/
theorem out10_val (R : RealIn x1 x2 x3 x4 x5 x6 x7 mu va g be bias W M) (hx0 : ∀ k s f, x0 (ix3 k s f) = ((Yb k s f : ℝ) : EReal))
    (u u' : Fin 1) (h : Fin 256) :
    out2_A_10 c i arg1 harg1 arg2 harg2 arg3 harg3 arg4 harg4 arg5 harg5 arg6 harg6 arg7 harg7 arg8 harg8 arg9 harg9 arg10 harg10 arg11 harg11 x0 x1 x2 x3 x4 x5 x6 x7 (ix3 u u' h)
      = ((∑ k : Fin 8, ∑ r : Fin 502,
          (cvb M Yb mu va g be W bias k r h - (∑ k : Fin 8, ∑ r : Fin 502, cvb M Yb mu va g be W bias k r h) / 4016) ^ 2 : ℝ) : EReal) := by
  unfold out2_A_10
  rw [View.read_writes_junk_eq_canon, run_L10, View.canon_unit_zero hz3, pay1_apply]
  obtain rfl : u' = 0 := Subsingleton.elim _ _
  exact st2_total Variants.none c none i arg1 harg1 arg2 harg2 arg3 harg3 arg4 harg4 arg5 harg5 arg6 harg6 arg7 harg7 arg8 harg8 arg9 harg9 arg10 harg10 arg11 harg11 (st_k2_t1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) (k2_pay2 (F := Ideal)) k2_t1_loop.trips).1 (arg9.view.writes (Elt Ideal) arg9.view.junk (st_k2_t1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) (k2_pay2 (F := Ideal)) k2_t1_loop.trips).2) (cvb M Yb mu va g be W bias)
    (fun h => (∑ k : Fin 8, ∑ r : Fin 502, cvb M Yb mu va g be W bias k r h) / 4016)
    (fun h => pay6_real _ _ 0 h (v19_val c i arg1 harg1 arg2 harg2 arg3 harg3 arg4 harg4 arg5 harg5 arg6 harg6 arg7 harg7 arg8 harg8 arg9 harg9 arg10 harg10 arg11 harg11 x0 x1 x2 x3 x4 x5 x6 x7 mu va g be bias W M Yb R hx0 h))
    (fun k r h => (slab2_of_writes_junk arg9 _ k 0 r h).trans
      ((canon_st1 Variants.none c none i arg1 harg1 arg2 harg2 arg3 harg3 arg4 harg4 arg5 harg5 arg6 harg6 arg7 harg7 arg8 harg8 arg9 harg9 arg10 harg10 arg11 harg11 x1 x2 x3 x4 x5 x6 x7 (harg1.unread x0) mu va g be bias W M Yb R
        (hslab1 arg1 harg1 x0 Yb hx0) _ (ix3 (Fin.cast trips2 k) r h)).trans (Gb_ix3 M Yb mu va g be W bias _ r h)))
    h

end Body

end Cert.KernelIdeal.KReg2

end
-- ==== Proof.KReg2Geo.lean ====
/-
  Region 2: where its blocks sit in its arrays.

  The grid has 16 steps.  At step t the big input and the big output are read and written through the block
  of batch elements 8t … 8t + 7, each statistics output through its row t, and every small operand whole.
  Here: a block's entry is the array's entry at the shifted index, an output block that agrees with an array
  function entry by entry is that function's block, and the blocks of an output cover its array.
-/
import proofs.«171858_j54966991454756_2_alg».proof.Proof.Gen.KernelIdeal.Launch
import proofs.«171858_j54966991454756_2_alg».proof.Proof.Gen.KernelIdeal.Points
import Idealize.ShloMosaic.Lib.Pipeline.Value
import Idealize.ShloMosaic.Lib.ValueIdx

set_option maxRecDepth 16384

noncomputable section

namespace Cert.KernelIdeal.KReg2

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

/-- The printed index maps over the 16 grid steps: the two big windows move one block of 8 batch elements per step,
    the statistics windows one row per step. -/
theorem idx_facts : ∀ t : Fin cfg2.N,
    win2_0.index t (0 : Fin 3) = t.val ∧ win2_0.index t (1 : Fin 3) = 0 ∧ win2_0.index t (2 : Fin 3) = 0
    ∧ win2_8.index t (0 : Fin 3) = t.val ∧ win2_8.index t (1 : Fin 3) = 0 ∧ win2_8.index t (2 : Fin 3) = 0
    ∧ win2_9.index t (0 : Fin 3) = t.val ∧ win2_9.index t (1 : Fin 3) = 0 ∧ win2_9.index t (2 : Fin 3) = 0
    ∧ win2_10.index t (0 : Fin 3) = t.val ∧ win2_10.index t (1 : Fin 3) = 0 ∧ win2_10.index t (2 : Fin 3) = 0 :=
  (by decide +kernel : ∀ t : Fin grid2.N, _)

/-- The small operands' index maps: they stay at block (0, 0). -/
theorem idx_facts_small : ∀ t : Fin cfg2.N,
    win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem N16 : cfg2.N = 16 := N_2

/-! ## The inputs' blocks -/

/-- Block t of the big input: batch elements 8t … 8t + 7. -/
theorem readblk_0 (c : Dev nD) (A : Buf (Elt F) ((c : Thread nD τ).loc (Pipeline.arrRef spec2 0))) (t : Fin cfg2.N)
    (i : Fin 8) (n : Fin 502) (f : Fin 256) (b : Fin 128) (hb : b.val = 8 * t.val + i.val) :
    (((cfg2.win 0).blk t).view.read (Elt F) A : S8x502x256.Idx → Elt F .f32) (ix3 i n f)
      = (A : S128x502x256.Idx → Elt F .f32) (ix3 b n f) := by
  obtain ⟨e0, e1, e2, -⟩ := idx_facts t
  rw [View.read_apply]
  show (A : S128x502x256.Idx → Elt F .f32) _ = _
  congr 1
  funext a
  apply Fin.ext
  match a with
  | ⟨0, _⟩ => show win2_0.index t (0 : Fin 3) * 8 + 1 * i.val = b.val; rw [e0, hb]; omega
  | ⟨1, _⟩ => show win2_0.index t (1 : Fin 3) * 502 + 1 * n.val = n.val; rw [e1]; omega
  | ⟨2, _⟩ => show win2_0.index t (2 : Fin 3) * 256 + 1 * f.val = f.val; rw [e2]; omega

/-- Operand 1's block is the whole operand at every step. -/
theorem readblk_1 (c : Dev nD) (A : Buf (Elt F) ((c : Thread nD τ).loc (Pipeline.arrRef spec2 1))) (t : Fin cfg2.N)
    (p : Fin 1) (q : Fin 256) :
    (((cfg2.win 1).blk t).view.read (Elt F) A : S1x256.Idx → Elt F .f32) (ix2 p q)
      = (A : S1x256.Idx → Elt F .f32) (ix2 p q) := by
  have e0 : win2_1.index t (0 : Fin 2) = 0 := (idx_facts_small t).1
  have e1 : win2_1.index t (1 : Fin 2) = 0 := (idx_facts_small t).2.1
  rw [View.read_apply]
  show (A : S1x256.Idx → Elt F .f32) _ = _
  congr 1
  funext a
  apply Fin.ext
  match a with
  | ⟨0, _⟩ => show win2_1.index t (0 : Fin 2) * 1 + 1 * p.val = p.val; rw [e0]; omega
  | ⟨1, _⟩ => show win2_1.index t (1 : Fin 2) * 256 + 1 * q.val = q.val; rw [e1]; omega

/-- Operand 2's block is the whole operand at every step. -/
theorem readblk_2 (c : Dev nD) (A : Buf (Elt F) ((c : Thread nD τ).loc (Pipeline.arrRef spec2 2))) (t : Fin cfg2.N)
    (p : Fin 1) (q : Fin 256) :
    (((cfg2.win 2).blk t).view.read (Elt F) A : S1x256.Idx → Elt F .f32) (ix2 p q)
      = (A : S1x256.Idx → Elt F .f32) (ix2 p q) := by
  have e0 : win2_2.index t (0 : Fin 2) = 0 := (idx_facts_small t).2.2.1
  have e1 : win2_2.index t (1 : Fin 2) = 0 := (idx_facts_small t).2.2.2.1
  rw [View.read_apply]
  show (A : S1x256.Idx → Elt F .f32) _ = _
  congr 1
  funext a
  apply Fin.ext
  match a with
  | ⟨0, _⟩ => show win2_2.index t (0 : Fin 2) * 1 + 1 * p.val = p.val; rw [e0]; omega
  | ⟨1, _⟩ => show win2_2.index t (1 : Fin 2) * 256 + 1 * q.val = q.val; rw [e1]; omega

/-- Operand 3's block is the whole operand at every step. -/
theorem readblk_3 (c : Dev nD) (A : Buf (Elt F) ((c : Thread nD τ).loc (Pipeline.arrRef spec2 3))) (t : Fin cfg2.N)
    (p : Fin 1) (q : Fin 256) :
    (((cfg2.win 3).blk t).view.read (Elt F) A : S1x256.Idx → Elt F .f32) (ix2 p q)
      = (A : S1x256.Idx → Elt F .f32) (ix2 p q) := by
  have e0 : win2_3.index t (0 : Fin 2) = 0 := (idx_facts_small t).2.2.2.2.1
  have e1 : win2_3.index t (1 : Fin 2) = 0 := (idx_facts_small t).2.2.2.2.2.1
  rw [View.read_apply]
  show (A : S1x256.Idx → Elt F .f32) _ = _
  congr 1
  funext a
  apply Fin.ext
  match a with
  | ⟨0, _⟩ => show win2_3.index t (0 : Fin 2) * 1 + 1 * p.val = p.val; rw [e0]; omega
  | ⟨1, _⟩ => show win2_3.index t (1 : Fin 2) * 256 + 1 * q.val = q.val; rw [e1]; omega

/-- Operand 4's block is the whole operand at every step. -/
theorem readblk_4 (c : Dev nD) (A : Buf (Elt F) ((c : Thread nD τ).loc (Pipeline.arrRef spec2 4))) (t : Fin cfg2.N)
    (p : Fin 1) (q : Fin 256) :
    (((cfg2.win 4).blk t).view.read (Elt F) A : S1x256.Idx → Elt F .f32) (ix2 p q)
      = (A : S1x256.Idx → Elt F .f32) (ix2 p q) := by
  have e0 : win2_4.index t (0 : Fin 2) = 0 := (idx_facts_small t).2.2.2.2.2.2.1
  have e1 : win2_4.index t (1 : Fin 2) = 0 := (idx_facts_small t).2.2.2.2.2.2.2.1
  rw [View.read_apply]
  show (A : S1x256.Idx → Elt F .f32) _ = _
  congr 1
  funext a
  apply Fin.ext
  match a with
  | ⟨0, _⟩ => show win2_4.index t (0 : Fin 2) * 1 + 1 * p.val = p.val; rw [e0]; omega
  | ⟨1, _⟩ => show win2_4.index t (1 : Fin 2) * 256 + 1 * q.val = q.val; rw [e1]; omega

/-- Operand 5's block is the whole operand at every step. -/
theorem readblk_5 (c : Dev nD) (A : Buf (Elt F) ((c : Thread nD τ).loc (Pipeline.arrRef spec2 5))) (t : Fin cfg2.N)
    (p : Fin 256) (q : Fin 256) :
    (((cfg2.win 5).blk t).view.read (Elt F) A : S256x256.Idx → Elt F .bf16) (ix2 p q)
      = (A : S256x256.Idx → Elt F .bf16) (ix2 p q) := by
  have e0 : win2_5.index t (0 : Fin 2) = 0 := (idx_facts_small t).2.2.2.2.2.2.2.2.1
  have e1 : win2_5.index t (1 : Fin 2) = 0 := (idx_facts_small t).2.2.2.2.2.2.2.2.2.1
  rw [View.read_apply]
  show (A : S256x256.Idx → Elt F .bf16) _ = _
  congr 1
  funext a
  apply Fin.ext
  match a with
  | ⟨0, _⟩ => show win2_5.index t (0 : Fin 2) * 256 + 1 * p.val = p.val; rw [e0]; omega
  | ⟨1, _⟩ => show win2_5.index t (1 : Fin 2) * 256 + 1 * q.val = q.val; rw [e1]; omega

/-- Operand 6's block is the whole operand at every step. -/
theorem readblk_6 (c : Dev nD) (A : Buf (Elt F) ((c : Thread nD τ).loc (Pipeline.arrRef spec2 6))) (t : Fin cfg2.N)
    (p : Fin 502) (q : Fin 502) :
    (((cfg2.win 6).blk t).view.read (Elt F) A : S502x502.Idx → Elt F .bf16) (ix2 p q)
      = (A : S502x502.Idx → Elt F .bf16) (ix2 p q) := by
  have e0 : win2_6.index t (0 : Fin 2) = 0 := (idx_facts_small t).2.2.2.2.2.2.2.2.2.2.1
  have e1 : win2_6.index t (1 : Fin 2) = 0 := (idx_facts_small t).2.2.2.2.2.2.2.2.2.2.2.1
  rw [View.read_apply]
  show (A : S502x502.Idx → Elt F .bf16) _ = _
  congr 1
  funext a
  apply Fin.ext
  match a with
  | ⟨0, _⟩ => show win2_6.index t (0 : Fin 2) * 502 + 1 * p.val = p.val; rw [e0]; omega
  | ⟨1, _⟩ => show win2_6.index t (1 : Fin 2) * 502 + 1 * q.val = q.val; rw [e1]; omega

/-- Operand 7's block is the whole operand at every step. -/
theorem readblk_7 (c : Dev nD) (A : Buf (Elt F) ((c : Thread nD τ).loc (Pipeline.arrRef spec2 7))) (t : Fin cfg2.N)
    (p : Fin 1) (q : Fin 256) :
    (((cfg2.win 7).blk t).view.read (Elt F) A : S1x256.Idx → Elt F .f32) (ix2 p q)
      = (A : S1x256.Idx → Elt F .f32) (ix2 p q) := by
  have e0 : win2_7.index t (0 : Fin 2) = 0 := (idx_facts_small t).2.2.2.2.2.2.2.2.2.2.2.2.1
  have e1 : win2_7.index t (1 : Fin 2) = 0 := (idx_facts_small t).2.2.2.2.2.2.2.2.2.2.2.2.2
  rw [View.read_apply]
  show (A : S1x256.Idx → Elt F .f32) _ = _
  congr 1
  funext a
  apply Fin.ext
  match a with
  | ⟨0, _⟩ => show win2_7.index t (0 : Fin 2) * 1 + 1 * p.val = p.val; rw [e0]; omega
  | ⟨1, _⟩ => show win2_7.index t (1 : Fin 2) * 256 + 1 * q.val = q.val; rw [e1]; omega

/-! ## The outputs' blocks -/

/-- A block of 8 batch elements that agrees, entry by entry, with an array function at batch elements 8t … 8t + 7 is
    what step t writes back of that function. -/
theorem cut8_apply (c : Dev nD) (G : S128x502x256.Idx → Elt F .f32) (t : Fin cfg2.N)
    (B : Vec F S8x502x256 .f32)
    (hB : ∀ (i : Fin 8) (n : Fin 502) (h : Fin 256) (b : Fin 128), b.val = 8 * t.val + i.val →
      B (ix3 i n h) = (G : S128x502x256.Idx → Elt F .f32) (ix3 b n h))
    (i : Fin 8) (n : Fin 502) (h : Fin 256) :
    (cfg2.win 8).cut (grid2.coords t) B (ix3 i n h) = ((cfg2.win 8).blk t).view.read (Elt F) G (ix3 i n h) := by
  obtain ⟨-, -, -, e0, e1, e2, -⟩ := idx_facts t
  have hb : 8 * t.val + i.val < 128 := by have := t.isLt; have hN := N16; omega
  rw [View.read_apply]
  show B _ = (G : S128x502x256.Idx → Elt F .f32) _
  refine (?_ : B _ = B (ix3 i n h)).trans ((hB i n h ⟨8 * t.val + i.val, hb⟩ rfl).trans ?_)
  · first | rfl | congr 1
  · congr 1
    funext a; apply Fin.ext
    match a with
    | ⟨0, _⟩ => show 8 * t.val + i.val = win2_8.index t (0 : Fin 3) * 8 + 1 * i.val; rw [e0]; omega
    | ⟨1, _⟩ => show n.val = win2_8.index t (1 : Fin 3) * 502 + 1 * n.val; rw [e1]; omega
    | ⟨2, _⟩ => show h.val = win2_8.index t (2 : Fin 3) * 256 + 1 * h.val; rw [e2]; omega

theorem cut8_eq (c : Dev nD) (G : S128x502x256.Idx → Elt F .f32) (t : Fin cfg2.N)
    (B : Vec F S8x502x256 .f32)
    (hB : ∀ (i : Fin 8) (n : Fin 502) (h : Fin 256) (b : Fin 128), b.val = 8 * t.val + i.val →
      B (ix3 i n h) = (G : S128x502x256.Idx → Elt F .f32) (ix3 b n h)) :
    (cfg2.win 8).cut (grid2.coords t) B = ((cfg2.win 8).blk t).view.read (Elt F) G := by
  funext y
  have hy : (y : S8x502x256.Idx) = ix3 (y 0) (y 1) (y 2) := eq_ix3 (n0 := 8) (n1 := 502) (n2 := 256) y
  exact (congrArg ((cfg2.win 8).cut (grid2.coords t) B) hy).trans
    ((cut8_apply c G t B hB (y 0) (y 1) (y 2)).trans (congrArg (((cfg2.win 8).blk t).view.read (Elt F) G) hy.symm))

/-- An index of the big output is in step t's block iff its batch element is one of 8t … 8t + 7. -/
theorem mem_blk8 (t : Fin cfg2.N) (i : S128x502x256.Idx) :
    i ∈ ((cfg2.win 8).blk t).view.set ↔ ∀ a : Fin 3, win2_8.index t a * S8x502x256.size a ≤ (i a).val
      ∧ (i a).val < win2_8.index t a * S8x502x256.size a + S8x502x256.size a := by
  show i ∈ ((View.whole (Pipeline.arrRef spec2 8)).slice (win2_8.rect t)).set ↔ _
  rw [View.set_slice_whole, Rect.mem_set_unit]
  exact Iff.rfl

/-- Every index of the big output is in some step's block. -/
theorem cover8 (i : S128x502x256.Idx) :
    ∃ t : Fin cfg2.N, (cfg2.win 8).flush t = true ∧ i ∈ ((cfg2.win 8).blk t).view.set := by
  have h0 : (i 0).val < 128 := (i 0).isLt
  have h1 : (i 1).val < 502 := (i 1).isLt
  have h2 : (i 2).val < 256 := (i 2).isLt
  have hN := N16
  refine ⟨⟨(i 0).val / 8, by omega⟩, flush2_8 _, ?_⟩
  rw [mem_blk8]
  obtain ⟨-, -, -, e0, e1, e2, -⟩ := idx_facts ⟨(i 0).val / 8, by omega⟩
  intro a
  match a with
  | ⟨0, _⟩ => show win2_8.index _ (0 : Fin 3) * 8 ≤ (i 0).val ∧ (i 0).val < win2_8.index _ (0 : Fin 3) * 8 + 8; rw [e0]; dsimp only; omega
  | ⟨1, _⟩ => show win2_8.index _ (1 : Fin 3) * 502 ≤ (i 1).val ∧ (i 1).val < win2_8.index _ (1 : Fin 3) * 502 + 502; rw [e1]; omega
  | ⟨2, _⟩ => show win2_8.index _ (2 : Fin 3) * 256 ≤ (i 2).val ∧ (i 2).val < win2_8.index _ (2 : Fin 3) * 256 + 256; rw [e2]; omega

/-- A row that agrees, entry by entry, with an array function at row t is what step t writes back of that function
    (statistics output 9). -/
theorem cut9_apply (c : Dev nD) (G : S16x1x256.Idx → Elt F .f32) (t : Fin cfg2.N)
    (B : Vec F S1x1x256 .f32)
    (hB : ∀ (u u' : Fin 1) (h : Fin 256) (gi : Fin 16), gi.val = t.val →
      B (ix3 u u' h) = (G : S16x1x256.Idx → Elt F .f32) (ix3 gi u' h))
    (u u' : Fin 1) (h : Fin 256) :
    (cfg2.win 9).cut (grid2.coords t) B (ix3 u u' h) = ((cfg2.win 9).blk t).view.read (Elt F) G (ix3 u u' h) := by
  obtain ⟨-, -, -, -, -, -, e0, e1, e2, -⟩ := idx_facts t
  have hg : t.val < 16 := by have := t.isLt; have hN := N16; omega
  rw [View.read_apply]
  show B _ = (G : S16x1x256.Idx → Elt F .f32) _
  refine (?_ : B _ = B (ix3 u u' h)).trans ((hB u u' h ⟨t.val, hg⟩ rfl).trans ?_)
  · first | rfl | congr 1
  · congr 1
    funext a; apply Fin.ext
    match a with
    | ⟨0, _⟩ => show t.val = win2_9.index t (0 : Fin 3) * 1 + 1 * u.val; rw [e0]; have := u.isLt; omega
    | ⟨1, _⟩ => show u'.val = win2_9.index t (1 : Fin 3) * 1 + 1 * u'.val; rw [e1]; omega
    | ⟨2, _⟩ => show h.val = win2_9.index t (2 : Fin 3) * 256 + 1 * h.val; rw [e2]; omega

theorem cut9_eq (c : Dev nD) (G : S16x1x256.Idx → Elt F .f32) (t : Fin cfg2.N)
    (B : Vec F S1x1x256 .f32)
    (hB : ∀ (u u' : Fin 1) (h : Fin 256) (gi : Fin 16), gi.val = t.val →
      B (ix3 u u' h) = (G : S16x1x256.Idx → Elt F .f32) (ix3 gi u' h)) :
    (cfg2.win 9).cut (grid2.coords t) B = ((cfg2.win 9).blk t).view.read (Elt F) G := by
  funext y
  have hy : (y : S1x1x256.Idx) = ix3 (y 0) (y 1) (y 2) := eq_ix3 (n0 := 1) (n1 := 1) (n2 := 256) y
  exact (congrArg ((cfg2.win 9).cut (grid2.coords t) B) hy).trans
    ((cut9_apply c G t B hB (y 0) (y 1) (y 2)).trans (congrArg (((cfg2.win 9).blk t).view.read (Elt F) G) hy.symm))

/-- An index of statistics output 9 is in step t's block iff its row is t. -/
theorem mem_blk9 (t : Fin cfg2.N) (i : S16x1x256.Idx) :
    i ∈ ((cfg2.win 9).blk t).view.set ↔ ∀ a : Fin 3, win2_9.index t a * S1x1x256.size a ≤ (i a).val
      ∧ (i a).val < win2_9.index t a * S1x1x256.size a + S1x1x256.size a := by
  show i ∈ ((View.whole (Pipeline.arrRef spec2 9)).slice (win2_9.rect t)).set ↔ _
  rw [View.set_slice_whole, Rect.mem_set_unit]
  exact Iff.rfl

/-- Every index of statistics output 9 is in some step's block. -/
theorem cover9 (i : S16x1x256.Idx) :
    ∃ t : Fin cfg2.N, (cfg2.win 9).flush t = true ∧ i ∈ ((cfg2.win 9).blk t).view.set := by
  have h0 : (i 0).val < 16 := (i 0).isLt
  have h1 : (i 1).val < 1 := (i 1).isLt
  have h2 : (i 2).val < 256 := (i 2).isLt
  have hN := N16
  refine ⟨⟨(i 0).val, by omega⟩, flush2_9 _, ?_⟩
  rw [mem_blk9]
  obtain ⟨-, -, -, -, -, -, e0, e1, e2, -⟩ := idx_facts ⟨(i 0).val, by omega⟩
  intro a
  match a with
  | ⟨0, _⟩ => show win2_9.index _ (0 : Fin 3) * 1 ≤ (i 0).val ∧ (i 0).val < win2_9.index _ (0 : Fin 3) * 1 + 1; rw [e0]; dsimp only; omega
  | ⟨1, _⟩ => show win2_9.index _ (1 : Fin 3) * 1 ≤ (i 1).val ∧ (i 1).val < win2_9.index _ (1 : Fin 3) * 1 + 1; rw [e1]; omega
  | ⟨2, _⟩ => show win2_9.index _ (2 : Fin 3) * 256 ≤ (i 2).val ∧ (i 2).val < win2_9.index _ (2 : Fin 3) * 256 + 256; rw [e2]; omega

/-- A row that agrees, entry by entry, with an array function at row t is what step t writes back of that function
    (statistics output 10). -/
theorem cut10_apply (c : Dev nD) (G : S16x1x256.Idx → Elt F .f32) (t : Fin cfg2.N)
    (B : Vec F S1x1x256 .f32)
    (hB : ∀ (u u' : Fin 1) (h : Fin 256) (gi : Fin 16), gi.val = t.val →
      B (ix3 u u' h) = (G : S16x1x256.Idx → Elt F .f32) (ix3 gi u' h))
    (u u' : Fin 1) (h : Fin 256) :
    (cfg2.win 10).cut (grid2.coords t) B (ix3 u u' h) = ((cfg2.win 10).blk t).view.read (Elt F) G (ix3 u u' h) := by
  obtain ⟨-, -, -, -, -, -, -, -, -, e0, e1, e2⟩ := idx_facts t
  have hg : t.val < 16 := by have := t.isLt; have hN := N16; omega
  rw [View.read_apply]
  show B _ = (G : S16x1x256.Idx → Elt F .f32) _
  refine (?_ : B _ = B (ix3 u u' h)).trans ((hB u u' h ⟨t.val, hg⟩ rfl).trans ?_)
  · first | rfl | congr 1
  · congr 1
    funext a; apply Fin.ext
    match a with
    | ⟨0, _⟩ => show t.val = win2_10.index t (0 : Fin 3) * 1 + 1 * u.val; rw [e0]; have := u.isLt; omega
    | ⟨1, _⟩ => show u'.val = win2_10.index t (1 : Fin 3) * 1 + 1 * u'.val; rw [e1]; omega
    | ⟨2, _⟩ => show h.val = win2_10.index t (2 : Fin 3) * 256 + 1 * h.val; rw [e2]; omega

theorem cut10_eq (c : Dev nD) (G : S16x1x256.Idx → Elt F .f32) (t : Fin cfg2.N)
    (B : Vec F S1x1x256 .f32)
    (hB : ∀ (u u' : Fin 1) (h : Fin 256) (gi : Fin 16), gi.val = t.val →
      B (ix3 u u' h) = (G : S16x1x256.Idx → Elt F .f32) (ix3 gi u' h)) :
    (cfg2.win 10).cut (grid2.coords t) B = ((cfg2.win 10).blk t).view.read (Elt F) G := by
  funext y
  have hy : (y : S1x1x256.Idx) = ix3 (y 0) (y 1) (y 2) := eq_ix3 (n0 := 1) (n1 := 1) (n2 := 256) y
  exact (congrArg ((cfg2.win 10).cut (grid2.coords t) B) hy).trans
    ((cut10_apply c G t B hB (y 0) (y 1) (y 2)).trans (congrArg (((cfg2.win 10).blk t).view.read (Elt F) G) hy.symm))

/-- An index of statistics output 10 is in step t's block iff its row is t. -/
theorem mem_blk10 (t : Fin cfg2.N) (i : S16x1x256.Idx) :
    i ∈ ((cfg2.win 10).blk t).view.set ↔ ∀ a : Fin 3, win2_10.index t a * S1x1x256.size a ≤ (i a).val
      ∧ (i a).val < win2_10.index t a * S1x1x256.size a + S1x1x256.size a := by
  show i ∈ ((View.whole (Pipeline.arrRef spec2 10)).slice (win2_10.rect t)).set ↔ _
  rw [View.set_slice_whole, Rect.mem_set_unit]
  exact Iff.rfl

/-- Every index of statistics output 10 is in some step's block. -/
theorem cover10 (i : S16x1x256.Idx) :
    ∃ t : Fin cfg2.N, (cfg2.win 10).flush t = true ∧ i ∈ ((cfg2.win 10).blk t).view.set := by
  have h0 : (i 0).val < 16 := (i 0).isLt
  have h1 : (i 1).val < 1 := (i 1).isLt
  have h2 : (i 2).val < 256 := (i 2).isLt
  have hN := N16
  refine ⟨⟨(i 0).val, by omega⟩, flush2_10 _, ?_⟩
  rw [mem_blk10]
  obtain ⟨-, -, -, -, -, -, -, -, -, e0, e1, e2⟩ := idx_facts ⟨(i 0).val, by omega⟩
  intro a
  match a with
  | ⟨0, _⟩ => show win2_10.index _ (0 : Fin 3) * 1 ≤ (i 0).val ∧ (i 0).val < win2_10.index _ (0 : Fin 3) * 1 + 1; rw [e0]; dsimp only; omega
  | ⟨1, _⟩ => show win2_10.index _ (1 : Fin 3) * 1 ≤ (i 1).val ∧ (i 1).val < win2_10.index _ (1 : Fin 3) * 1 + 1; rw [e1]; omega
  | ⟨2, _⟩ => show win2_10.index _ (2 : Fin 3) * 256 ≤ (i 2).val ∧ (i 2).val < win2_10.index _ (2 : Fin 3) * 256 + 256; rw [e2]; omega

end Cert.KernelIdeal.KReg2

end
-- ==== Proof.KReg2.lean ====
/-
  Region 2 (the fused normalise, convolve and accumulate kernel), read as values over the extended reals.

  The region takes the previous layer's raw output y_prev [128, 502, 256], a mean, a variance, a scale and a shift
  row, a weight matrix, the 502 × 502 matrix M and a bias row.  With every entry a real number and the variance
  row non-negative, after the region
    * the big output holds  y2 = M · (elu (normalised y_prev) · W) + bias  on every batch element,
    * statistics output 9 holds, per group of 8 batch elements, the mean of y2 over the group's 8 · 502 rows,
    * statistics output 10 holds, per group, the sum of the squares of y2 less that mean.
  At grid step t the input blocks are the arrays' entries at batch elements 8t … 8t + 7 (the small operands
  whole), so the body's three output blocks are blocks of those three functions; the blocks cover the arrays.
-/
import proofs.«171858_j54966991454756_2_alg».proof.Proof.KReg2Body
import proofs.«171858_j54966991454756_2_alg».proof.Proof.KReg2Geo

set_option maxRecDepth 16384

noncomputable section

namespace Cert.KernelIdeal.KReg2

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## From the blocks to the arrays -/

section Arrays

variable (V : (c : Dev nD) → (b : Ref sig .tc) → Buf (Elt Ideal) ((c : Thread nD τ).loc b)) (c : Dev nD)
variable (yp : Fin 128 → Fin 502 → Fin 256 → ℝ) (mu va g be bias : Fin 256 → ℝ) (W : Fin 256 → Fin 256 → ℝ)
  (M : Fin 502 → Fin 502 → ℝ)

/-- The region's big output as real numbers: M · (elu (normalised y_prev) · W) + bias. -/
abbrev y2 (M : Fin 502 → Fin 502 → ℝ) (yp : Fin 128 → Fin 502 → Fin 256 → ℝ) (mu va g be : Fin 256 → ℝ)
    (W : Fin 256 → Fin 256 → ℝ) (bias : Fin 256 → ℝ) : Fin 128 → Fin 502 → Fin 256 → ℝ :=
  Cert.Model.convA M (fun b n f => Cert.Model.elu (Cert.Model.nz yp mu va g be b n f)) W bias

/-- The group of 8 batch elements a grid step handles. -/
def gOf (t : Fin cfg2.N) : Fin 16 := ⟨t.val, by have := t.isLt; have := N16; omega⟩

/-- The reals the input block of step t holds. -/
def ybOf (yp : Fin 128 → Fin 502 → Fin 256 → ℝ) (t : Fin cfg2.N) : Fin 8 → Fin 502 → Fin 256 → ℝ :=
  fun k s f => yp (Cert.Model.grow (gOf t) k) s f

/-- The convolved block of step t is y2 on the step's batch elements. -/
theorem cvb_eq_y2 (t : Fin cfg2.N) (k : Fin 8) (n : Fin 502) (h : Fin 256) :
    cvb M (ybOf yp t) mu va g be W bias k n h = y2 M yp mu va g be W bias (Cert.Model.grow (gOf t) k) n h := rfl

/-- The three result arrays as functions of their indices. -/
def G8 : S128x502x256.Idx → EReal := fun j => ((y2 M yp mu va g be W bias (j 0) (j 1) (j 2) : ℝ) : EReal)
def G9 : S16x1x256.Idx → EReal := fun j => ((Cert.Model.gmean (y2 M yp mu va g be W bias) (j 0) (j 2) : ℝ) : EReal)
def G10 : S16x1x256.Idx → EReal := fun j => ((Cert.Model.gm2 (y2 M yp mu va g be W bias) (j 0) (j 2) : ℝ) : EReal)

section Point

variable (hva : ∀ f, 0 ≤ va f)
    (h0 : ∀ b n f, (V c (Pipeline.arrRef spec2 0) : S128x502x256.Idx → EReal) (ix3 b n f) = ((yp b n f : ℝ) : EReal))
    (h1 : ∀ f, (V c (Pipeline.arrRef spec2 1) : S1x256.Idx → EReal) (ix2 (0 : Fin 1) f) = ((mu f : ℝ) : EReal))
    (h2 : ∀ f, (V c (Pipeline.arrRef spec2 2) : S1x256.Idx → EReal) (ix2 (0 : Fin 1) f) = ((va f : ℝ) : EReal))
    (h3 : ∀ f, (V c (Pipeline.arrRef spec2 3) : S1x256.Idx → EReal) (ix2 (0 : Fin 1) f) = ((g f : ℝ) : EReal))
    (h4 : ∀ f, (V c (Pipeline.arrRef spec2 4) : S1x256.Idx → EReal) (ix2 (0 : Fin 1) f) = ((be f : ℝ) : EReal))
    (h5 : ∀ f h, (V c (Pipeline.arrRef spec2 5) : S256x256.Idx → EReal) (ix2 f h) = ((W f h : ℝ) : EReal))
    (h6 : ∀ n s, (V c (Pipeline.arrRef spec2 6) : S502x502.Idx → EReal) (ix2 n s) = ((M n s : ℝ) : EReal))
    (h7 : ∀ h, (V c (Pipeline.arrRef spec2 7) : S1x256.Idx → EReal) (ix2 (0 : Fin 1) h) = ((bias h : ℝ) : EReal))
variable (t : Fin cfg2.N)
include hva h0 h1 h2 h3 h4 h5 h6 h7

/-- At every step the small operands' blocks hold the real rows and matrices. -/
theorem realIn_iblk : RealIn (iblk2 V c 1 t) (iblk2 V c 2 t) (iblk2 V c 3 t) (iblk2 V c 4 t) (iblk2 V c 5 t) (iblk2 V c 6 t)
    (iblk2 V c 7 t) mu va g be bias W M where
  hva := hva
  h0 := fun f => (readblk_1 c (V c (Pipeline.arrRef spec2 1)) t 0 f).trans (h1 f)
  h2 := fun f => (readblk_2 c (V c (Pipeline.arrRef spec2 2)) t 0 f).trans (h2 f)
  h4 := fun f => (readblk_3 c (V c (Pipeline.arrRef spec2 3)) t 0 f).trans (h3 f)
  h6 := fun f => (readblk_4 c (V c (Pipeline.arrRef spec2 4)) t 0 f).trans (h4 f)
  h11 := fun f h => (readblk_5 c (V c (Pipeline.arrRef spec2 5)) t f h).trans (h5 f h)
  h13 := fun n s => (readblk_6 c (V c (Pipeline.arrRef spec2 6)) t n s).trans (h6 n s)
  h15 := fun h => (readblk_7 c (V c (Pipeline.arrRef spec2 7)) t 0 h).trans (h7 h)

/-- At every step the big input's block holds the step's 8 batch elements. -/
theorem iblk0_val (k : Fin 8) (s : Fin 502) (f : Fin 256) :
    (iblk2 V c 0 t : S8x502x256.Idx → EReal) (ix3 k s f) = ((ybOf yp t k s f : ℝ) : EReal) :=
  (readblk_0 c (V c (Pipeline.arrRef spec2 0)) t k s f (Cert.Model.grow (gOf t) k) rfl).trans (h0 _ s f)

/-- What step t writes back of the big output is block t of y2. -/
theorem flushed8 : (dat2 V c).flushed 8 t = ((cfg2.win 8).blk t).view.read (Elt Ideal) (G8 yp mu va g be bias W M) := by
  show (cfg2.win 8).cut (grid2.coords t) ((dat2 V c).after 8 t) = _
  rw [after2_8]
  unfold outsAt2
  dsimp only
  refine cut8_eq (F := Ideal) c (G8 yp mu va g be bias W M) t _ fun i n h b hb => ?_
  refine (out8_val c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (iblk2 V c 0 t) (iblk2 V c 1 t) (iblk2 V c 2 t) (iblk2 V c 3 t) (iblk2 V c 4 t) (iblk2 V c 5 t) (iblk2 V c 6 t) (iblk2 V c 7 t) mu va g be bias W M (ybOf yp t)
    (realIn_iblk V c yp mu va g be bias W M hva h0 h1 h2 h3 h4 h5 h6 h7 t) (iblk0_val V c yp mu va g be bias W M hva h0 h1 h2 h3 h4 h5 h6 h7 t) i n h).trans ?_
  have hbe : b = Cert.Model.grow (gOf t) i := Fin.ext (by rw [hb]; rfl)
  rw [hbe]
  rfl

/-- What step t writes back of statistics output 9 is row t of the group means. -/
theorem flushed9 : (dat2 V c).flushed 9 t = ((cfg2.win 9).blk t).view.read (Elt Ideal) (G9 yp mu va g be bias W M) := by
  show (cfg2.win 9).cut (grid2.coords t) ((dat2 V c).after 9 t) = _
  rw [after2_9]
  unfold outsAt2
  dsimp only
  refine cut9_eq (F := Ideal) c (G9 yp mu va g be bias W M) t _ fun u u' h gi hg => ?_
  refine (out9_val c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (iblk2 V c 0 t) (iblk2 V c 1 t) (iblk2 V c 2 t) (iblk2 V c 3 t) (iblk2 V c 4 t) (iblk2 V c 5 t) (iblk2 V c 6 t) (iblk2 V c 7 t) mu va g be bias W M (ybOf yp t)
    (realIn_iblk V c yp mu va g be bias W M hva h0 h1 h2 h3 h4 h5 h6 h7 t) (iblk0_val V c yp mu va g be bias W M hva h0 h1 h2 h3 h4 h5 h6 h7 t) u u' h).trans ?_
  have hge : gi = gOf t := Fin.ext hg
  rw [hge]
  rfl

/-- What step t writes back of statistics output 10 is row t of the groups' centred sums of squares. -/
theorem flushed10 : (dat2 V c).flushed 10 t = ((cfg2.win 10).blk t).view.read (Elt Ideal) (G10 yp mu va g be bias W M) := by
  show (cfg2.win 10).cut (grid2.coords t) ((dat2 V c).after 10 t) = _
  rw [after2_10]
  unfold outsAt2
  dsimp only
  refine cut10_eq (F := Ideal) c (G10 yp mu va g be bias W M) t _ fun u u' h gi hg => ?_
  refine (out10_val c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (iblk2 V c 0 t) (iblk2 V c 1 t) (iblk2 V c 2 t) (iblk2 V c 3 t) (iblk2 V c 4 t) (iblk2 V c 5 t) (iblk2 V c 6 t) (iblk2 V c 7 t) mu va g be bias W M (ybOf yp t)
    (realIn_iblk V c yp mu va g be bias W M hva h0 h1 h2 h3 h4 h5 h6 h7 t) (iblk0_val V c yp mu va g be bias W M hva h0 h1 h2 h3 h4 h5 h6 h7 t) u u' h).trans ?_
  have hge : gi = gOf t := Fin.ext hg
  rw [hge]
  rfl

end Point

set_option maxHeartbeats 1000000 in
/-- REGION 2 AS VALUES: with real inputs and a non-negative variance row, the big output is y2, statistics output
    9 the group means of y2 and statistics output 10 the groups' centred sums of squares of y2. -/
theorem region2_val (hva : ∀ f, 0 ≤ va f)
    (h0 : ∀ b n f, (V c (Pipeline.arrRef spec2 0) : S128x502x256.Idx → EReal) (ix3 b n f) = ((yp b n f : ℝ) : EReal))
    (h1 : ∀ f, (V c (Pipeline.arrRef spec2 1) : S1x256.Idx → EReal) (ix2 (0 : Fin 1) f) = ((mu f : ℝ) : EReal))
    (h2 : ∀ f, (V c (Pipeline.arrRef spec2 2) : S1x256.Idx → EReal) (ix2 (0 : Fin 1) f) = ((va f : ℝ) : EReal))
    (h3 : ∀ f, (V c (Pipeline.arrRef spec2 3) : S1x256.Idx → EReal) (ix2 (0 : Fin 1) f) = ((g f : ℝ) : EReal))
    (h4 : ∀ f, (V c (Pipeline.arrRef spec2 4) : S1x256.Idx → EReal) (ix2 (0 : Fin 1) f) = ((be f : ℝ) : EReal))
    (h5 : ∀ f h, (V c (Pipeline.arrRef spec2 5) : S256x256.Idx → EReal) (ix2 f h) = ((W f h : ℝ) : EReal))
    (h6 : ∀ n s, (V c (Pipeline.arrRef spec2 6) : S502x502.Idx → EReal) (ix2 n s) = ((M n s : ℝ) : EReal))
    (h7 : ∀ h, (V c (Pipeline.arrRef spec2 7) : S1x256.Idx → EReal) (ix2 (0 : Fin 1) h) = ((bias h : ℝ) : EReal)) :
    (∀ b n h, ((dat2 V c).arrAt 8 cfg2.N : S128x502x256.Idx → EReal) (ix3 b n h) = ((y2 M yp mu va g be W bias b n h : ℝ) : EReal))
    ∧ (∀ gi h, ((dat2 V c).arrAt 9 cfg2.N : S16x1x256.Idx → EReal) (ix3 gi (0 : Fin 1) h)
        = ((Cert.Model.gmean (y2 M yp mu va g be W bias) gi h : ℝ) : EReal))
    ∧ (∀ gi h, ((dat2 V c).arrAt 10 cfg2.N : S16x1x256.Idx → EReal) (ix3 gi (0 : Fin 1) h)
        = ((Cert.Model.gm2 (y2 M yp mu va g be W bias) gi h : ℝ) : EReal)) := by
  have hG8 : ∀ t, (cfg2.win 8).flush t = true →
      (dat2 V c).flushed 8 t = ((cfg2.win 8).blk t).view.read (Elt Ideal) (G8 yp mu va g be bias W M) :=
    fun t _ => flushed8 V c yp mu va g be bias W M hva h0 h1 h2 h3 h4 h5 h6 h7 t
  have hG9 : ∀ t, (cfg2.win 9).flush t = true →
      (dat2 V c).flushed 9 t = ((cfg2.win 9).blk t).view.read (Elt Ideal) (G9 yp mu va g be bias W M) :=
    fun t _ => flushed9 V c yp mu va g be bias W M hva h0 h1 h2 h3 h4 h5 h6 h7 t
  have hG10 : ∀ t, (cfg2.win 10).flush t = true →
      (dat2 V c).flushed 10 t = ((cfg2.win 10).blk t).view.read (Elt Ideal) (G10 yp mu va g be bias W M) :=
    fun t _ => flushed10 V c yp mu va g be bias W M hva h0 h1 h2 h3 h4 h5 h6 h7 t
  have e8 : (dat2 V c).arrAt 8 cfg2.N = G8 yp mu va g be bias W M := (dat2 V c).arrAt_eq_of_cover 8 (G8 yp mu va g be bias W M) hG8 cover8
  have e9 : (dat2 V c).arrAt 9 cfg2.N = G9 yp mu va g be bias W M := (dat2 V c).arrAt_eq_of_cover 9 (G9 yp mu va g be bias W M) hG9 cover9
  have e10 : (dat2 V c).arrAt 10 cfg2.N = G10 yp mu va g be bias W M := (dat2 V c).arrAt_eq_of_cover 10 (G10 yp mu va g be bias W M) hG10 cover10
  refine ⟨fun b n h => ?_, fun gi h => ?_, fun gi h => ?_⟩
  · exact congrFun e8 (ix3 b n h)
  · exact congrFun e9 (ix3 gi (0 : Fin 1) h)
  · exact congrFun e10 (ix3 gi (0 : Fin 1) h)

end Arrays

end Cert.KernelIdeal.KReg2

end
-- ==== Proof.KTailPay.lean ====
/-
  The last kernel: normalise with a given mean, variance, scale and shift, then the exponential linear unit,

    z = (y − mean) · rsqrt (var + eps) · gamma + beta,   out = if z > 0 then z else exp z − 1,

  on a block of 8 batch elements per grid step.  This module has the parts that do not depend on how the grid is
  run: the stored value at an index of a block (first as the program's own scalar operations, then — on finite data
  with a variance that is not negative — as the real number `Model.elu` of the normalised entry), which entries of the
  arrays each step's blocks hold, and that the 16 output blocks cover the output array.
-/
import proofs.«171858_j54966991454756_2_alg».proof.Proof.KISkeleton
import proofs.«171858_j54966991454756_2_alg».proof.Proof.Gen.KernelIdeal.Points
import proofs.«171858_j54966991454756_2_alg».proof.Proof.Model
import proofs.«171858_j54966991454756_2_alg».proof.Proof.Consts
import Idealize.ShloMosaic.Lib.Pipeline.Value
import Idealize.ShloMosaic.Lib.ValueIdx

set_option maxRecDepth 16384

noncomputable section

namespace Cert.KernelIdeal.KTail

open Idealize.ShloMosaic Idealize.ShloMosaic.ValueIdx Idealize.ShloMosaic.TcCoe
open Cert.KernelIdeal Cert.KernelIdeal.Gen Cert.KernelIdeal.Facts₀ Cert.KernelIdeal.Facts
open Idealize.ShloMosaic.Pipeline (Dat)

/-- Comparing a real with zero, as a one-bit word. -/
theorem cmp_ogt_coe_zero (z : ℝ) : Ideal.cmp .ogt (z : EReal) 0 = if 0 < z then 1#1 else 0#1 := by
  unfold Ideal.cmp
  by_cases h : 0 < z
  · rw [if_pos h]
    have h' : (0 : EReal) < (z : EReal) := EReal.coe_pos.mpr h
    simp [h']
  · rw [if_neg h]
    have h' : ¬ (0 : EReal) < (z : EReal) := fun h' => h (EReal.coe_pos.mp h')
    simp [h']

/-- On finite data with a variance that is not negative the program's scalar operations give the real formula:
    the sum `var + eps` is positive, so its inverse square root is the real one, and the comparison with zero
    chooses as `Model.elu` does. -/
theorem scalar_elu (y mu va g be : ℝ) (hva : 0 ≤ va) :
    Scalar.select (Ideal.cmp .ogt (((y : EReal) - mu) * Ideal.rsqrt ((va : EReal) + Ideal.ofBits .f32 0x3727C5AC#32) * g + be) (Ideal.ofBits .f32 0x00000000#32))
      (((y : EReal) - mu) * Ideal.rsqrt ((va : EReal) + Ideal.ofBits .f32 0x3727C5AC#32) * g + be)
      (Ideal.exp (((y : EReal) - mu) * Ideal.rsqrt ((va : EReal) + Ideal.ofBits .f32 0x3727C5AC#32) * g + be) - Ideal.ofBits .f32 0x3F800000#32)
    = ((Model.elu ((y - mu) * (Real.sqrt (va + Model.eps))⁻¹ * g + be) : ℝ) : EReal) := by
  have hpos : 0 < va + Model.eps := add_pos_of_nonneg_of_pos hva Model.eps_pos
  have he : Ideal.ofBits .f32 0x3727C5AC#32 = ((Model.eps : ℝ) : EReal) := Cert.Consts.ofBits_eps
  have hz : ((y : EReal) - mu) * Ideal.rsqrt ((va : EReal) + Ideal.ofBits .f32 0x3727C5AC#32) * g + be
      = (((y - mu) * (Real.sqrt (va + Model.eps))⁻¹ * g + be : ℝ) : EReal) := by
    rw [he, ← EReal.coe_add, Ideal.rsqrt_coe, if_neg (not_lt.mpr hpos.le), if_neg hpos.ne', ← EReal.coe_sub,
      ← EReal.coe_mul, ← EReal.coe_mul, ← EReal.coe_add]
  rw [hz, Cert.Consts.ofBits_zero, Cert.Consts.ofBits_one, Ideal.exp_coe, ← EReal.coe_sub, cmp_ogt_coe_zero]
  unfold Model.elu
  split_ifs
  · exact select_one _ _
  · exact select_zero _ _

/-- The body's stored value at an index of the block: the normalised entry through the unit. -/
theorem pay_idx (x0 : Vec Ideal S8x502x256 .f32) (x1 x2 x3 x4 : Vec Ideal S1x1x256 .f32) (i : Fin 8) (n : Fin 502) (h : Fin 256) :
    k3_pay1 x0 x1 x2 x3 x4 (ix3 i n h)
      = Scalar.select (Ideal.cmp .ogt ((x0 (ix3 i n h) - x1 (ix3 0 0 h)) * Ideal.rsqrt (x2 (ix3 0 0 h) + Ideal.ofBits .f32 0x3727C5AC#32) * x3 (ix3 0 0 h) + x4 (ix3 0 0 h)) (Ideal.ofBits .f32 0x00000000#32))
          ((x0 (ix3 i n h) - x1 (ix3 0 0 h)) * Ideal.rsqrt (x2 (ix3 0 0 h) + Ideal.ofBits .f32 0x3727C5AC#32) * x3 (ix3 0 0 h) + x4 (ix3 0 0 h))
          (Ideal.exp ((x0 (ix3 i n h) - x1 (ix3 0 0 h)) * Ideal.rsqrt (x2 (ix3 0 0 h) + Ideal.ofBits .f32 0x3727C5AC#32) * x3 (ix3 0 0 h) + x4 (ix3 0 0 h)) - Ideal.ofBits .f32 0x3F800000#32) := by
  have hb : ∀ v : FVec Ideal S1x1x256 .f32, broadcastTo S8x502x256 v Facts₀.broadcasts_S1x1x256_S8x502x256 (ix3 i n h) = v (ix3 0 0 h) :=
    fun v => broadcastTo_apply v _ (ix3 i n h) (ix3 0 0 h) (by
      intro a
      match a with
      | ⟨0, _⟩ => rfl
      | ⟨1, _⟩ => rfl
      | ⟨2, _⟩ => rfl)
  unfold k3_pay1
  simp only [shapeCast_self]
  show Scalar.select (Ideal.cmp .ogt ((_ - broadcastTo S8x502x256 x1 _ (ix3 i n h)) * _ * _ + _) _)
      ((_ - broadcastTo S8x502x256 x1 _ (ix3 i n h)) * _ * _ + _)
      (Ideal.exp ((_ - broadcastTo S8x502x256 x1 _ (ix3 i n h)) * _ * _ + _) - _) = _
  rw [hb, hb, hb, hb]
  rfl

/-! ## The blocks: grid step `t` handles batch elements `8 t … 8 t + 7`; the four rows are whole at every step -/

/-- The printed index maps, decided over the 16 grid steps. -/
theorem idx_facts : ∀ t : Fin cfg3.N,
    win3_0.index t (0 : Fin 3) = t.val ∧ win3_0.index t (1 : Fin 3) = 0 ∧ win3_0.index t (2 : Fin 3) = 0
    ∧ win3_5.index t (0 : Fin 3) = t.val ∧ win3_5.index t (1 : Fin 3) = 0 ∧ win3_5.index t (2 : Fin 3) = 0
    ∧ win3_1.index t (0 : Fin 3) = 0 ∧ win3_1.index t (1 : Fin 3) = 0 ∧ win3_1.index t (2 : Fin 3) = 0
    ∧ win3_2.index t (0 : Fin 3) = 0 ∧ win3_2.index t (1 : Fin 3) = 0 ∧ win3_2.index t (2 : Fin 3) = 0
    ∧ win3_3.index t (0 : Fin 3) = 0 ∧ win3_3.index t (1 : Fin 3) = 0 ∧ win3_3.index t (2 : Fin 3) = 0
    ∧ win3_4.index t (0 : Fin 3) = 0 ∧ win3_4.index t (1 : Fin 3) = 0 ∧ win3_4.index t (2 : Fin 3) = 0 :=
  (by decide +kernel : ∀ t : Fin grid3.N, _)

/-- The grid has 16 steps. -/
theorem step_lt (t : Fin cfg3.N) : t.val < 16 := t.isLt

/-- Batch element `8 t + i`. -/
def brow (t : Fin cfg3.N) (i : Fin 8) : Fin 128 := ⟨8 * t.val + i.val, by have := step_lt t; have := i.isLt; omega⟩

/-- The big input's block at step `t` is rows `8 t … 8 t + 7` of the array. -/
theorem blk0_read (X : Vec Ideal S128x502x256 .f32) (t : Fin cfg3.N) (i : Fin 8) (n : Fin 502) (h : Fin 256) :
    (((cfg3.win 0).blk t).view.read (Elt Ideal) X : Vec Ideal S8x502x256 .f32) (ix3 i n h) = X (ix3 (brow t i) n h) := by
  obtain ⟨e0, e1, e2, -⟩ := idx_facts t
  show X (((cfg3.win 0).blk t).view.emb (ix3 i n h)) = X (ix3 (brow t i) n h)
  refine congrArg X ?_
  funext a
  apply Fin.ext
  match a with
  | ⟨0, _⟩ => show win3_0.index t (0 : Fin 3) * 8 + 1 * i.val = 8 * t.val + i.val; rw [e0]; omega
  | ⟨1, _⟩ => show win3_0.index t (1 : Fin 3) * 502 + 1 * n.val = n.val; rw [e1]; omega
  | ⟨2, _⟩ => show win3_0.index t (2 : Fin 3) * 256 + 1 * h.val = h.val; rw [e2]; omega

/-- The output's block at step `t`, likewise. -/
theorem blk5_read (X : Vec Ideal S128x502x256 .f32) (t : Fin cfg3.N) (i : Fin 8) (n : Fin 502) (h : Fin 256) :
    (((cfg3.win 5).blk t).view.read (Elt Ideal) X : Vec Ideal S8x502x256 .f32) (ix3 i n h) = X (ix3 (brow t i) n h) := by
  obtain ⟨-, -, -, e0, e1, e2, -⟩ := idx_facts t
  show X (((cfg3.win 5).blk t).view.emb (ix3 i n h)) = X (ix3 (brow t i) n h)
  refine congrArg X ?_
  funext a
  apply Fin.ext
  match a with
  | ⟨0, _⟩ => show win3_5.index t (0 : Fin 3) * 8 + 1 * i.val = 8 * t.val + i.val; rw [e0]; omega
  | ⟨1, _⟩ => show win3_5.index t (1 : Fin 3) * 502 + 1 * n.val = n.val; rw [e1]; omega
  | ⟨2, _⟩ => show win3_5.index t (2 : Fin 3) * 256 + 1 * h.val = h.val; rw [e2]; omega

/-- A row window's block is the whole row at every step. -/
theorem blk1_read (X : Vec Ideal S1x1x256 .f32) (t : Fin cfg3.N) (h : Fin 256) :
    (((cfg3.win 1).blk t).view.read (Elt Ideal) X : Vec Ideal S1x1x256 .f32) (ix3 0 0 h) = X (ix3 0 0 h) := by
  obtain ⟨-, -, -, -, -, -, e0, e1, e2, -⟩ := idx_facts t
  show X (((cfg3.win 1).blk t).view.emb (ix3 0 0 h)) = X (ix3 0 0 h)
  refine congrArg X ?_
  funext a
  apply Fin.ext
  match a with
  | ⟨0, _⟩ => show win3_1.index t (0 : Fin 3) * 1 + 1 * 0 = 0; rw [e0]
  | ⟨1, _⟩ => show win3_1.index t (1 : Fin 3) * 1 + 1 * 0 = 0; rw [e1]
  | ⟨2, _⟩ => show win3_1.index t (2 : Fin 3) * 256 + 1 * h.val = h.val; rw [e2]; omega

/-- Likewise for row window 2. -/
theorem blk2_read (X : Vec Ideal S1x1x256 .f32) (t : Fin cfg3.N) (h : Fin 256) :
    (((cfg3.win 2).blk t).view.read (Elt Ideal) X : Vec Ideal S1x1x256 .f32) (ix3 0 0 h) = X (ix3 0 0 h) := by
  obtain ⟨-, -, -, -, -, -, -, -, -, e0, e1, e2, -⟩ := idx_facts t
  show X (((cfg3.win 2).blk t).view.emb (ix3 0 0 h)) = X (ix3 0 0 h)
  refine congrArg X ?_
  funext a
  apply Fin.ext
  match a with
  | ⟨0, _⟩ => show win3_2.index t (0 : Fin 3) * 1 + 1 * 0 = 0; rw [e0]
  | ⟨1, _⟩ => show win3_2.index t (1 : Fin 3) * 1 + 1 * 0 = 0; rw [e1]
  | ⟨2, _⟩ => show win3_2.index t (2 : Fin 3) * 256 + 1 * h.val = h.val; rw [e2]; omega

/-- Likewise for row window 3. -/
theorem blk3_read (X : Vec Ideal S1x1x256 .f32) (t : Fin cfg3.N) (h : Fin 256) :
    (((cfg3.win 3).blk t).view.read (Elt Ideal) X : Vec Ideal S1x1x256 .f32) (ix3 0 0 h) = X (ix3 0 0 h) := by
  obtain ⟨-, -, -, -, -, -, -, -, -, -, -, -, e0, e1, e2, -⟩ := idx_facts t
  show X (((cfg3.win 3).blk t).view.emb (ix3 0 0 h)) = X (ix3 0 0 h)
  refine congrArg X ?_
  funext a
  apply Fin.ext
  match a with
  | ⟨0, _⟩ => show win3_3.index t (0 : Fin 3) * 1 + 1 * 0 = 0; rw [e0]
  | ⟨1, _⟩ => show win3_3.index t (1 : Fin 3) * 1 + 1 * 0 = 0; rw [e1]
  | ⟨2, _⟩ => show win3_3.index t (2 : Fin 3) * 256 + 1 * h.val = h.val; rw [e2]; omega

/-- Likewise for row window 4. -/
theorem blk4_read (X : Vec Ideal S1x1x256 .f32) (t : Fin cfg3.N) (h : Fin 256) :
    (((cfg3.win 4).blk t).view.read (Elt Ideal) X : Vec Ideal S1x1x256 .f32) (ix3 0 0 h) = X (ix3 0 0 h) := by
  obtain ⟨-, -, -, -, -, -, -, -, -, -, -, -, -, -, -, e0, e1, e2⟩ := idx_facts t
  show X (((cfg3.win 4).blk t).view.emb (ix3 0 0 h)) = X (ix3 0 0 h)
  refine congrArg X ?_
  funext a
  apply Fin.ext
  match a with
  | ⟨0, _⟩ => show win3_4.index t (0 : Fin 3) * 1 + 1 * 0 = 0; rw [e0]
  | ⟨1, _⟩ => show win3_4.index t (1 : Fin 3) * 1 + 1 * 0 = 0; rw [e1]
  | ⟨2, _⟩ => show win3_4.index t (2 : Fin 3) * 256 + 1 * h.val = h.val; rw [e2]; omega

/-- Every index of the output array lies in the block of the step that handles its batch element. -/
theorem cover5 (i : S128x502x256.Idx) :
    ∃ t : Fin cfg3.N, (cfg3.win 5).flush t = true ∧ i ∈ ((cfg3.win 5).blk t).view.set := by
  have hi0 : (i 0).val < 128 := (i 0).isLt
  have hi1 : (i 1).val < 502 := (i 1).isLt
  have hi2 : (i 2).val < 256 := (i 2).isLt
  obtain ⟨t, ht⟩ : ∃ t : Fin cfg3.N, t.val = (i 0).val / 8 :=
    ⟨⟨(i 0).val / 8, by show (i 0).val / 8 < 16; omega⟩, rfl⟩
  obtain ⟨-, -, -, e0, e1, e2, -⟩ := idx_facts t
  refine ⟨t, flush3_5 t, ?_⟩
  show i ∈ ((View.whole main_v125).slice (win3_5.rect t)).set
  rw [View.set_slice_whole, Rect.mem_set_unit]
  intro a
  match a with
  | ⟨0, _⟩ =>
    show win3_5.index t (0 : Fin 3) * 8 ≤ (i 0).val ∧ (i 0).val < win3_5.index t (0 : Fin 3) * 8 + 8
    rw [e0, ht]; omega
  | ⟨1, _⟩ =>
    show win3_5.index t (1 : Fin 3) * 502 ≤ (i 1).val ∧ (i 1).val < win3_5.index t (1 : Fin 3) * 502 + 502
    rw [e1]; omega
  | ⟨2, _⟩ =>
    show win3_5.index t (2 : Fin 3) * 256 ≤ (i 2).val ∧ (i 2).val < win3_5.index t (2 : Fin 3) * 256 + 256
    rw [e2]; omega

/-- The zero offsets of a whole-block access. -/
theorem hz3 : (![0, 0, 0] : Fin 3 → Nat) = fun _ => 0 := funext fun a => by fin_cases a <;> rfl

/-! ## What a step stores, and the array the blocks make up -/

/-- The output array: the unit of the normalised entry, at every index. -/
def outArr (yp : Fin 128 → Fin 502 → Fin 256 → ℝ) (mu va g be : Fin 256 → ℝ) : Vec Ideal S128x502x256 .f32 :=
  fun k => ((Model.elu (Model.nz yp mu va g be (k 0) (k 1) (k 2)) : ℝ) : EReal)

theorem outArr_apply (yp : Fin 128 → Fin 502 → Fin 256 → ℝ) (mu va g be : Fin 256 → ℝ) (b : Fin 128) (n : Fin 502) (h : Fin 256) :
    outArr yp mu va g be (ix3 b n h) = ((Model.elu (Model.nz yp mu va g be b n h) : ℝ) : EReal) := rfl

/-- What step `t` stores at index `(i, n, h)` of its block, when the five arrays hold finite data and the variance
    is not negative: the unit of the normalised entry of batch element `8 t + i`. -/
theorem stored_eq (X0 : Vec Ideal S128x502x256 .f32) (X1 X2 X3 X4 : Vec Ideal S1x1x256 .f32)
    (yp : Fin 128 → Fin 502 → Fin 256 → ℝ) (mu va g be : Fin 256 → ℝ) (hva : ∀ f, 0 ≤ va f)
    (h0 : ∀ b n h, X0 (ix3 b n h) = ((yp b n h : ℝ) : EReal)) (h1 : ∀ h, X1 (ix3 0 0 h) = ((mu h : ℝ) : EReal))
    (h2 : ∀ h, X2 (ix3 0 0 h) = ((va h : ℝ) : EReal)) (h3 : ∀ h, X3 (ix3 0 0 h) = ((g h : ℝ) : EReal))
    (h4 : ∀ h, X4 (ix3 0 0 h) = ((be h : ℝ) : EReal)) (t : Fin cfg3.N) (i : Fin 8) (n : Fin 502) (h : Fin 256) :
    k3_pay1 (((cfg3.win 0).blk t).view.read (Elt Ideal) X0) (((cfg3.win 1).blk t).view.read (Elt Ideal) X1)
        (((cfg3.win 2).blk t).view.read (Elt Ideal) X2) (((cfg3.win 3).blk t).view.read (Elt Ideal) X3)
        (((cfg3.win 4).blk t).view.read (Elt Ideal) X4) (ix3 i n h)
      = (((cfg3.win 5).blk t).view.read (Elt Ideal) (outArr yp mu va g be) : Vec Ideal S8x502x256 .f32) (ix3 i n h) := by
  rw [blk5_read, outArr_apply, pay_idx, blk0_read, blk1_read, blk2_read, blk3_read, blk4_read, h0, h1, h2, h3, h4]
  exact scalar_elu _ _ _ _ _ (hva h)

end Cert.KernelIdeal.KTail

end
-- ==== Proof.KTail.lean ====
/-
  The last kernel over its grid: from finite data (the raw layer output, a mean, a variance that is not negative, a
  scale and a shift) every one of the 16 steps writes its block of the output array, and the 16 blocks make up the
  array  out b n h = elu ((y b n h − mean h) · (sqrt (var h + eps))⁻¹ · gamma h + beta h).
-/
import proofs.«171858_j54966991454756_2_alg».proof.Proof.KIFrame
import proofs.«171858_j54966991454756_2_alg».proof.Proof.KTailPay

set_option maxRecDepth 16384

noncomputable section

namespace Cert.KernelIdeal.KTail

open Idealize.ShloMosaic Idealize.ShloMosaic.ValueIdx Idealize.ShloMosaic.TcCoe
open Cert.KernelIdeal Cert.KernelIdeal.Gen
open Idealize.ShloMosaic.Pipeline (Dat)

variable (V : (c : Dev nD) → (b : Ref sig .tc) → Buf (Elt Ideal) ((c : Thread nD τ).loc b))

/-- What step `t` writes back is block `t` of the output array. -/
theorem flushed_eq (c : Dev nD) (yp : Fin 128 → Fin 502 → Fin 256 → ℝ) (mu va g be : Fin 256 → ℝ) (hva : ∀ f, 0 ≤ va f)
    (h0 : ∀ b n h, (V c (Pipeline.arrRef spec3 0) : Vec Ideal S128x502x256 .f32) (ix3 b n h) = ((yp b n h : ℝ) : EReal))
    (h1 : ∀ h, (V c (Pipeline.arrRef spec3 1) : Vec Ideal S1x1x256 .f32) (ix3 0 0 h) = ((mu h : ℝ) : EReal))
    (h2 : ∀ h, (V c (Pipeline.arrRef spec3 2) : Vec Ideal S1x1x256 .f32) (ix3 0 0 h) = ((va h : ℝ) : EReal))
    (h3 : ∀ h, (V c (Pipeline.arrRef spec3 3) : Vec Ideal S1x1x256 .f32) (ix3 0 0 h) = ((g h : ℝ) : EReal))
    (h4 : ∀ h, (V c (Pipeline.arrRef spec3 4) : Vec Ideal S1x1x256 .f32) (ix3 0 0 h) = ((be h : ℝ) : EReal))
    (t : Fin cfg3.N) :
    (dat3 V c).flushed 5 t = ((cfg3.win 5).blk t).view.read (Elt Ideal) (outArr yp mu va g be) := by
  show (cfg3.win 5).cut (grid3.coords t) ((dat3 V c).after 5 t) = _
  rw [after3_5]
  unfold out3_5
  rw [View.canon_unit_zero hz3]
  simp only [View.ld_unit_zero (S := S8x502x256) hz3, View.ld_unit_zero (S := S1x1x256) hz3]
  funext j
  obtain ⟨i, n, h, rfl⟩ : ∃ (i : Fin 8) (n : Fin 502) (h : Fin 256), j = ix3 i n h := ⟨j 0, j 1, j 2, eq_ix3 j⟩
  exact stored_eq _ _ _ _ _ yp mu va g be hva h0 h1 h2 h3 h4 t i n h

/-- REGION 3: the output array after the 16 steps, index by index. -/
theorem region3_value (c : Dev nD) (yp : Fin 128 → Fin 502 → Fin 256 → ℝ) (mu va g be : Fin 256 → ℝ) (hva : ∀ f, 0 ≤ va f)
    (h0 : ∀ b n h, (V c (Pipeline.arrRef spec3 0) : Vec Ideal S128x502x256 .f32) (ix3 b n h) = ((yp b n h : ℝ) : EReal))
    (h1 : ∀ h, (V c (Pipeline.arrRef spec3 1) : Vec Ideal S1x1x256 .f32) (ix3 0 0 h) = ((mu h : ℝ) : EReal))
    (h2 : ∀ h, (V c (Pipeline.arrRef spec3 2) : Vec Ideal S1x1x256 .f32) (ix3 0 0 h) = ((va h : ℝ) : EReal))
    (h3 : ∀ h, (V c (Pipeline.arrRef spec3 3) : Vec Ideal S1x1x256 .f32) (ix3 0 0 h) = ((g h : ℝ) : EReal))
    (h4 : ∀ h, (V c (Pipeline.arrRef spec3 4) : Vec Ideal S1x1x256 .f32) (ix3 0 0 h) = ((be h : ℝ) : EReal))
    (b : Fin 128) (n : Fin 502) (h : Fin 256) :
    ((dat3 V c).arrAt 5 cfg3.N : Vec Ideal S128x502x256 .f32) (ix3 b n h)
      = ((Model.elu (Model.nz yp mu va g be b n h) : ℝ) : EReal) := by
  have hfin : (dat3 V c).arrAt 5 cfg3.N = outArr yp mu va g be :=
    (dat3 V c).arrAt_eq_of_cover 5 (outArr yp mu va g be)
      (fun t _ => flushed_eq V c yp mu va g be hva h0 h1 h2 h3 h4 t) cover5
  rw [hfin]
  rfl

end Cert.KernelIdeal.KTail

end
-- ==== Proof.KStats.lean ====
/-
  The statistics the program combines between its layers, as one pure function of the 16 per-group means `P` and
  the 16 per-group centred sums of squares `Q` (each [16, 1, 256]):

    mean h = (∑ g, P g h) / 16
    var  h = ((∑ g, Q g h) + 4016 · ∑ g, (P g h − mean h)²) / 64256

  `meanFn` and `varFn` are the compositions of the program's own pure operations, in the program's order; at the
  exact reals (`Ideal`) and on finite data they are the two formulas above.
-/
import proofs.«171858_j54966991454756_2_alg».proof.Proof.Gen.KernelIdeal
import proofs.«171858_j54966991454756_2_alg».proof.Proof.Consts
import Idealize.ShloMosaic.Lib.IdealHost
import Idealize.ShloMosaic.Lib.Pipeline.Value
import Mathlib.Algebra.BigOperators.Fin
import Mathlib.Tactic.Ring
import Mathlib.Tactic.FieldSimp

noncomputable section

namespace Cert.KernelIdeal.KTail

open Idealize.ShloMosaic Idealize.ShloMosaic.ValueIdx
open Cert.KernelIdeal Cert.KernelIdeal.Facts₀ Cert.KernelIdeal.Facts
open Finset

section Defs

variable {F : FTy → Type} [FloatOps F]

/-- The mean over the 16 groups: the per-group means reshaped to [16, 256], summed over the groups, divided by the
    literal 16. -/
def meanFn (P : FVec F S16x1x256 .f32) : FVec F S256 .f32 :=
  Host.divf
    (Host.reduceAdd (shapeCast S16x256 P shapeCasts_S16x1x256_S16x256) (constant S_ .f32 0x00000000#32)
      reducesTo_S16x256_S256_d0 h_S_)
    (broadcastInDim S256 ![] bcast_S_S256 (constant S_ .f32 0x41800000#32))

/-- The variance put together from the groups: the per-group centred sums, plus 4016 times the squared distances of
    the per-group means from their mean, all divided by the literal 64256. -/
def varFn (P Q : FVec F S16x1x256 .f32) : FVec F S256 .f32 :=
  Host.divf
    (addf
      (Host.reduceAdd (shapeCast S16x256 Q shapeCasts_S16x1x256_S16x256) (constant S_ .f32 0x00000000#32)
        reducesTo_S16x256_S256_d0 h_S_)
      (mulf
        (broadcastInDim S256 ![] bcast_S_S256 (constant S_ .f32 0x457B0000#32))
        (Host.reduceAdd
          (mulf
            (subf (shapeCast S16x256 P shapeCasts_S16x1x256_S16x256)
              (broadcastInDim S16x256 ![0, 1] bcast_S1x256_S16x256_0_1
                (broadcastInDim S1x256 ![1] bcast_S256_S1x256_1 (meanFn P))))
            (subf (shapeCast S16x256 P shapeCasts_S16x1x256_S16x256)
              (broadcastInDim S16x256 ![0, 1] bcast_S1x256_S16x256_0_1
                (broadcastInDim S1x256 ![1] bcast_S256_S1x256_1 (meanFn P)))))
          (constant S_ .f32 0x00000000#32) reducesTo_S16x256_S256_d0 h_S_)))
    (broadcastInDim S256 ![] bcast_S_S256 (constant S_ .f32 0x477B0000#32))

end Defs

/-- A finite sum of reals, coerced, is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The groups' array reshaped to [16, 256] reads the group's entry. -/
theorem reshape_apply (P : FVec Ideal S16x1x256 .f32) (g : Fin 16) (h : Fin 256) :
    shapeCast S16x256 P shapeCasts_S16x1x256_S16x256 (ix2 g h) = P (ix3 g 0 h) := by
  refine shapeCast_apply P _ (ix2 g h) (ix3 g 0 h) ?_
  rw [Shape.rowMajor_val_three, Shape.rowMajor_val_two]
  show (g.val * 1 + 0) * 256 + h.val = g.val * 256 + h.val
  omega

/-- The sum over the groups of a [16, 256] array of reals. -/
theorem reduce_apply (X : FVec Ideal S16x256 .f32) (x : Fin 16 → Fin 256 → ℝ) (hX : ∀ g h, X (ix2 g h) = (x g h : EReal))
    (h : Fin 256) :
    Host.reduceAdd X (constant S_ .f32 0x00000000#32) reducesTo_S16x256_S256_d0 h_S_ (ix1 h)
      = ((∑ g, x g h : ℝ) : EReal) := by
  have hr : S16x256.Reduces [0] S256 := by decide
  rw [hostReduceAdd_apply, Ideal.hostReduceAdd_single reducesTo_S16x256_S256_d0 hr, constant_apply, Cert.Consts.ofBits_zero,
    zero_add, coe_sum]
  refine Finset.sum_congr rfl fun g _ => ?_
  rw [← hX g h]
  refine congrArg X ?_
  funext d
  match d with
  | ⟨0, _⟩ => rfl
  | ⟨1, _⟩ => rfl

/-- A [256] array reshaped to [1, 256] reads the same entry. -/
theorem reshape_row_apply {α : Type} (X : S256.Idx → α) (h : Fin 256) :
    shapeCast S1x256 X shapeCasts_S256_S1x256 (ix2 0 h) = X (ix1 h) := by
  refine shapeCast_apply X _ (ix2 0 h) (ix1 h) ?_
  rw [Shape.rowMajor_val_one, Shape.rowMajor_val_two]
  show h.val = 0 * 256 + h.val
  omega

/-- A [256] array reshaped to [1, 1, 256] reads the same entry. -/
theorem reshape_row3_apply {α : Type} (X : S256.Idx → α) (h : Fin 256) :
    shapeCast S1x1x256 X shapeCasts_S256_S1x1x256 (ix3 0 0 h) = X (ix1 h) := by
  refine shapeCast_apply X _ (ix3 0 0 h) (ix1 h) ?_
  rw [Shape.rowMajor_val_one, Shape.rowMajor_val_three]
  show h.val = (0 * 1 + 0) * 256 + h.val
  omega

theorem meanFn_apply (P : FVec Ideal S16x1x256 .f32) (p : Fin 16 → Fin 256 → ℝ)
    (hP : ∀ g h, P (ix3 g 0 h) = (p g h : EReal)) (h : Fin 256) :
    meanFn P (ix1 h) = (((∑ g, p g h) / 16 : ℝ) : EReal) := by
  unfold meanFn
  rw [hostDivf_apply, reduce_apply _ p (fun g h => (reshape_apply P g h).trans (hP g h)), broadcastInDim_scalar_apply,
    constant_apply, Cert.Consts.ofBits_16, Ideal.div_coe (by norm_num), ← EReal.coe_mul]
  congr 1
  ring

theorem varFn_apply (P Q : FVec Ideal S16x1x256 .f32) (p q : Fin 16 → Fin 256 → ℝ)
    (hP : ∀ g h, P (ix3 g 0 h) = (p g h : EReal)) (hQ : ∀ g h, Q (ix3 g 0 h) = (q g h : EReal)) (h : Fin 256) :
    varFn P Q (ix1 h)
      = ((((∑ g, q g h) + 4016 * ∑ g, (p g h - (∑ g', p g' h) / 16) * (p g h - (∑ g', p g' h) / 16)) / 64256 : ℝ) : EReal) := by
  have hd : ∀ g h, subf (shapeCast S16x256 P shapeCasts_S16x1x256_S16x256)
              (broadcastInDim S16x256 ![0, 1] bcast_S1x256_S16x256_0_1
                (broadcastInDim S1x256 ![1] bcast_S256_S1x256_1 (meanFn P))) (ix2 g h)
        = ((p g h - (∑ g', p g' h) / 16 : ℝ) : EReal) := by
    intro g h
    rw [subf_apply, reshape_apply, hP,
      broadcastInDim_apply _ _ _ (ix2 g h) (ix2 0 h) (by intro a; match a with | ⟨0, _⟩ => rfl | ⟨1, _⟩ => rfl),
      broadcastInDim_apply _ _ _ (ix2 0 h) (ix1 h) (by intro a; match a with | ⟨0, _⟩ => rfl),
      meanFn_apply P p hP, ← EReal.coe_sub]
  unfold varFn
  rw [hostDivf_apply, addf_apply, mulf_apply,
    reduce_apply _ q (fun g h => (reshape_apply Q g h).trans (hQ g h)),
    reduce_apply _ (fun g h => (p g h - (∑ g', p g' h) / 16) * (p g h - (∑ g', p g' h) / 16))
      (fun g h => by rw [mulf_apply, hd g h, ← EReal.coe_mul]),
    broadcastInDim_scalar_apply, broadcastInDim_scalar_apply, constant_apply, constant_apply,
    Cert.Consts.ofBits_4016, Cert.Consts.ofBits_64256, Ideal.div_coe (by norm_num), ← EReal.coe_mul, ← EReal.coe_add,
    ← EReal.coe_mul]
  congr 1
  ring

end Cert.KernelIdeal.KTail

end
-- ==== Proof.KHostRead.lean ====
/-
  The host operations between the regions, read buffer by buffer: what each region's operand holds as a function
  of the contents before the stretch.
-/
import proofs.«171858_j54966991454756_2_alg».proof.Proof.Gen.KernelIdeal.Launch
import proofs.«171858_j54966991454756_2_alg».proof.Proof.KStats
import Idealize.ShloMosaic.Lib.StableHlo.Run

set_option maxHeartbeats 1000000

noncomputable section

namespace Cert.KernelIdeal.KHostRead

open Idealize.ShloMosaic Idealize.ShloMosaic.TcCoe Idealize.SL.Sem Idealize.ShloMosaic.StableHlo
open Cert.KernelIdeal Cert.KernelIdeal.Facts₀ Cert.KernelIdeal.Facts Cert.KernelIdeal.KTail

variable {F : FTy → Type} [FloatOps F]

theorem h1_mean (W : Valuation τ sig (Elt F)) :
    StableHlo.after (Gen.hostOps1 (F := F)) W (Proc.devRef .tc main_v75) = shapeCast S1x256 (meanFn (W (Proc.devRef .tc main_v58_1))) shapeCasts_S256_S1x256 := by
  after_results <;> (try unfold varFn meanFn) <;> rfl
theorem h1_var (W : Valuation τ sig (Elt F)) :
    StableHlo.after (Gen.hostOps1 (F := F)) W (Proc.devRef .tc main_v76) = shapeCast S1x256 (varFn (W (Proc.devRef .tc main_v58_1)) (W (Proc.devRef .tc main_v58_2))) shapeCasts_S256_S1x256 := by
  after_results <;> (try unfold varFn meanFn) <;> rfl
theorem h1_g (W : Valuation τ sig (Elt F)) :
    StableHlo.after (Gen.hostOps1 (F := F)) W (Proc.devRef .tc main_v77) = shapeCast S1x256 (W (Proc.devRef .tc main_arg5)) shapeCasts_S256_S1x256 := by
  after_results <;> (try unfold varFn meanFn) <;> rfl
theorem h1_be (W : Valuation τ sig (Elt F)) :
    StableHlo.after (Gen.hostOps1 (F := F)) W (Proc.devRef .tc main_v78) = shapeCast S1x256 (W (Proc.devRef .tc main_arg6)) shapeCasts_S256_S1x256 := by
  after_results <;> (try unfold varFn meanFn) <;> rfl
theorem h1_W (W : Valuation τ sig (Elt F)) :
    StableHlo.after (Gen.hostOps1 (F := F)) W (Proc.devRef .tc main_v79) = truncf .bf16 (W (Proc.devRef .tc main_arg7)) bitsLt_bf16_f32 := by
  after_results <;> (try unfold varFn meanFn) <;> rfl
theorem h1_b (W : Valuation τ sig (Elt F)) :
    StableHlo.after (Gen.hostOps1 (F := F)) W (Proc.devRef .tc main_v80) = shapeCast S1x256 (W (Proc.devRef .tc main_arg8)) shapeCasts_S256_S1x256 := by
  after_results <;> (try unfold varFn meanFn) <;> rfl
theorem h1_y (W : Valuation τ sig (Elt F)) :
    StableHlo.after (Gen.hostOps1 (F := F)) W (Proc.devRef .tc main_v58_0) = (W (Proc.devRef .tc main_v58_0)) := by
  after_results <;> (try unfold varFn meanFn) <;> rfl
theorem h1_A (W : Valuation τ sig (Elt F)) :
    StableHlo.after (Gen.hostOps1 (F := F)) W (Proc.devRef .tc main_v50) = (W (Proc.devRef .tc main_v50)) := by
  after_results <;> (try unfold varFn meanFn) <;> rfl
theorem h2_mean (W : Valuation τ sig (Elt F)) :
    StableHlo.after (Gen.hostOps2 (F := F)) W (Proc.devRef .tc main_v98) = shapeCast S1x256 (meanFn (W (Proc.devRef .tc main_v81_1))) shapeCasts_S256_S1x256 := by
  after_results <;> (try unfold varFn meanFn) <;> rfl
theorem h2_var (W : Valuation τ sig (Elt F)) :
    StableHlo.after (Gen.hostOps2 (F := F)) W (Proc.devRef .tc main_v99) = shapeCast S1x256 (varFn (W (Proc.devRef .tc main_v81_1)) (W (Proc.devRef .tc main_v81_2))) shapeCasts_S256_S1x256 := by
  after_results <;> (try unfold varFn meanFn) <;> rfl
theorem h2_g (W : Valuation τ sig (Elt F)) :
    StableHlo.after (Gen.hostOps2 (F := F)) W (Proc.devRef .tc main_v100) = shapeCast S1x256 (W (Proc.devRef .tc main_arg9)) shapeCasts_S256_S1x256 := by
  after_results <;> (try unfold varFn meanFn) <;> rfl
theorem h2_be (W : Valuation τ sig (Elt F)) :
    StableHlo.after (Gen.hostOps2 (F := F)) W (Proc.devRef .tc main_v101) = shapeCast S1x256 (W (Proc.devRef .tc main_arg10)) shapeCasts_S256_S1x256 := by
  after_results <;> (try unfold varFn meanFn) <;> rfl
theorem h2_W (W : Valuation τ sig (Elt F)) :
    StableHlo.after (Gen.hostOps2 (F := F)) W (Proc.devRef .tc main_v102) = truncf .bf16 (W (Proc.devRef .tc main_arg11)) bitsLt_bf16_f32 := by
  after_results <;> (try unfold varFn meanFn) <;> rfl
theorem h2_b (W : Valuation τ sig (Elt F)) :
    StableHlo.after (Gen.hostOps2 (F := F)) W (Proc.devRef .tc main_v103) = shapeCast S1x256 (W (Proc.devRef .tc main_arg12)) shapeCasts_S256_S1x256 := by
  after_results <;> (try unfold varFn meanFn) <;> rfl
theorem h2_y (W : Valuation τ sig (Elt F)) :
    StableHlo.after (Gen.hostOps2 (F := F)) W (Proc.devRef .tc main_v81_0) = (W (Proc.devRef .tc main_v81_0)) := by
  after_results <;> (try unfold varFn meanFn) <;> rfl
theorem h2_A (W : Valuation τ sig (Elt F)) :
    StableHlo.after (Gen.hostOps2 (F := F)) W (Proc.devRef .tc main_v50) = (W (Proc.devRef .tc main_v50)) := by
  after_results <;> (try unfold varFn meanFn) <;> rfl
theorem h3_mean (W : Valuation τ sig (Elt F)) :
    StableHlo.after (Gen.hostOps3 (F := F)) W (Proc.devRef .tc main_v121) = shapeCast S1x1x256 (meanFn (W (Proc.devRef .tc main_v104_1))) shapeCasts_S256_S1x1x256 := by
  after_results <;> (try unfold varFn meanFn) <;> rfl
theorem h3_var (W : Valuation τ sig (Elt F)) :
    StableHlo.after (Gen.hostOps3 (F := F)) W (Proc.devRef .tc main_v122) = shapeCast S1x1x256 (varFn (W (Proc.devRef .tc main_v104_1)) (W (Proc.devRef .tc main_v104_2))) shapeCasts_S256_S1x1x256 := by
  after_results <;> (try unfold varFn meanFn) <;> rfl
theorem h3_g (W : Valuation τ sig (Elt F)) :
    StableHlo.after (Gen.hostOps3 (F := F)) W (Proc.devRef .tc main_v123) = shapeCast S1x1x256 (W (Proc.devRef .tc main_arg13)) shapeCasts_S256_S1x1x256 := by
  after_results <;> (try unfold varFn meanFn) <;> rfl
theorem h3_be (W : Valuation τ sig (Elt F)) :
    StableHlo.after (Gen.hostOps3 (F := F)) W (Proc.devRef .tc main_v124) = shapeCast S1x1x256 (W (Proc.devRef .tc main_arg14)) shapeCasts_S256_S1x1x256 := by
  after_results <;> (try unfold varFn meanFn) <;> rfl
theorem h3_y (W : Valuation τ sig (Elt F)) :
    StableHlo.after (Gen.hostOps3 (F := F)) W (Proc.devRef .tc main_v104_0) = (W (Proc.devRef .tc main_v104_0)) := by
  after_results <;> (try unfold varFn meanFn) <;> rfl

end Cert.KernelIdeal.KHostRead

end
-- ==== Proof.Alg.lean ====
/-
  Three identities over the reals between the two ways the layers are computed.
-/
import proofs.«171858_j54966991454756_2_alg».proof.Proof.Model
import Mathlib.Algebra.BigOperators.Fin
import Mathlib.Algebra.BigOperators.Ring.Finset
import Mathlib.Algebra.BigOperators.Field
import Mathlib.Logic.Equiv.Fin.Basic
import Mathlib.Tactic.Ring

noncomputable section

namespace Cert.Model

open Finset

variable (I : Inp)

/-- A convolution through the matrix is the sum over the edges ending at the node: each edge carries its source's
    transformed features scaled by the edge's weight. -/
theorem conv_edges {K : ℕ} (x : Fin 128 → Fin 502 → Fin K → ℝ) (W : Fin K → Fin 256 → ℝ) (bias : Fin 256 → ℝ)
    (b : Fin 128) (n : Fin 502) (h : Fin 256) :
    conv I x W bias b n h
      = (∑ e : Fin 4502, if dst I e = n then (∑ f : Fin K, x b (src I e) f * W f h) * nrm I e else 0) + bias h := by
  unfold conv convA A
  congr 1
  -- distribute the feature sum into the edge sum, then sum over the edges first
  simp_rw [Finset.sum_mul]
  rw [Finset.sum_comm]
  apply Finset.sum_congr rfl
  intro e _
  by_cases hd : dst I e = n
  · -- an edge ending at the node: only its own source contributes
    simp only [hd, true_and, if_true]
    simp_rw [ite_mul, zero_mul]
    rw [Finset.sum_ite_eq, if_pos (Finset.mem_univ _), mul_comm, Finset.sum_mul]
  · simp [hd]

/-- The 128 batch elements, counted group by group: 16 groups of 8. -/
theorem sum_grow (F : Fin 128 → ℝ) : ∑ b : Fin 128, F b = ∑ g : Fin 16, ∑ i : Fin 8, F (grow g i) := by
  rw [← Fintype.sum_prod_type' (f := fun g i => F (grow g i))]
  symm
  apply Fintype.sum_equiv (finProdFinEquiv (m := 16) (n := 8))
  rintro ⟨g, i⟩
  congr 1
  apply Fin.ext
  simp [grow, finProdFinEquiv]
  omega

/-- The mean over all rows is the mean of the 16 group means (the groups have equal size). -/
theorem mean_eq_cmean (y : Fin 128 → Fin 502 → Fin 256 → ℝ) (h : Fin 256) : mean y h = cmean y h := by
  unfold mean cmean gmean
  rw [sum_grow (fun b => ∑ n : Fin 502, y b n h), ← Finset.sum_div, div_div]
  norm_num

/-- Within one group of 8 · 502 = 4016 rows: the sum of squares about any centre is the sum of squares about the
    group's own mean plus 4016 times the squared distance of that mean from the centre (the cross term vanishes,
    the deviations from the group's mean summing to zero). -/
theorem group_decomp (z : Fin 8 → Fin 502 → ℝ) (M : ℝ) :
    ∑ i : Fin 8, ∑ n : Fin 502, (z i n - M) ^ 2
      = (∑ i : Fin 8, ∑ n : Fin 502, (z i n - (∑ i : Fin 8, ∑ n : Fin 502, z i n) / 4016) ^ 2)
        + 4016 * (((∑ i : Fin 8, ∑ n : Fin 502, z i n) / 4016 - M) * ((∑ i : Fin 8, ∑ n : Fin 502, z i n) / 4016 - M)) := by
  set m := (∑ i : Fin 8, ∑ n : Fin 502, z i n) / 4016 with hm
  have hS : ∑ i : Fin 8, ∑ n : Fin 502, z i n = 4016 * m := by rw [hm]; ring
  have h1 : ∀ i n, (z i n - M) ^ 2 = (z i n - m) ^ 2 + 2 * (m - M) * z i n + (M ^ 2 - m ^ 2) := by
    intro i n; ring
  simp_rw [h1, Finset.sum_add_distrib, ← Finset.mul_sum, hS]
  simp only [Finset.sum_const, Finset.card_univ, Fintype.card_fin, nsmul_eq_mul]
  push_cast
  ring

/-- The variance over all rows from the groups' centred sums of squares and the spread of their means. -/
theorem var_eq_cvar (y : Fin 128 → Fin 502 → Fin 256 → ℝ) (h : Fin 256) : var y h = cvar y h := by
  unfold var cvar
  rw [mean_eq_cmean]
  congr 1
  rw [sum_grow (fun b => ∑ n : Fin 502, (y b n h - cmean y h) ^ 2), Finset.mul_sum, ← Finset.sum_add_distrib]
  apply Finset.sum_congr rfl
  intro g _
  unfold gm2 gmean
  exact group_decomp (fun i n => y (grow g i) n h) (cmean y h)

/-- The first layer's convolution: the base rows' part is the same for every batch element, the sensor row adds a
    rank-one term, the zero row nothing. -/
theorem Y1_rank1 (b : Fin 128) (n : Fin 502) (h : Fin 256) :
    Y1 I b n h
      = (∑ s : Fin 500, A I n ⟨s.val, by omega⟩ * ∑ f : Fin 1024, I.xb s f * I.W1 f h)
        + A I n ⟨500, by omega⟩ * (∑ f : Fin 1024, I.xs b f * I.W1 f h) + I.b1 h := by
  unfold Y1 conv convA
  congr 1
  -- the 502 rows: the 500 base rows, then row 500, then row 501
  have e1 := Fin.sum_univ_castSucc (n := 501)
    (fun s : Fin 502 => A I n s * ∑ f : Fin 1024, x0 I b s f * I.W1 f h)
  have e2 := Fin.sum_univ_castSucc (n := 500)
    (fun s : Fin 501 => A I n (Fin.castSucc s) * ∑ f : Fin 1024, x0 I b (Fin.castSucc s) f * I.W1 f h)
  rw [e1, e2]
  -- row 501 is the zero row
  have z : ∀ f : Fin 1024, x0 I b (Fin.last 501) f = 0 := by
    intro f
    simp [x0, Fin.last]
  -- row 500 is the sensor row
  have s5 : ∀ f : Fin 1024, x0 I b (Fin.castSucc (Fin.last 500)) f = I.xs b f := by
    intro f
    simp [x0, Fin.last]
  -- the rows below 500 are the base rows
  have bs : ∀ (s : Fin 500) (f : Fin 1024), x0 I b (Fin.castSucc (Fin.castSucc s)) f = I.xb s f := by
    intro s f
    simp [x0]
  simp only [z, s5, bs, zero_mul, Finset.sum_const_zero, mul_zero, add_zero]
  rfl

end Cert.Model

end
-- ==== Proof.KGlue.lean ====
/-
  The kernel program's real formulas are the model's: the first layer's split, the statistics from the groups, and the
  later layers as a matrix product with the normalised, activated previous layer.
-/
import proofs.«171858_j54966991454756_2_alg».proof.Proof.Alg

noncomputable section

namespace Cert.Model

open Finset

variable (I : Inp)

/-- The first kernel's output formula is the first layer's convolution. -/
theorem y1form_eq :
    (fun (b : Fin 128) (n : Fin 502) (h : Fin 256) =>
      (∑ s : Fin 500, A I n ⟨s.val, by omega⟩ * ∑ f : Fin 1024, I.xb s f * I.W1 f h)
        + A I n ⟨500, by omega⟩ * (∑ f : Fin 1024, I.xs b f * I.W1 f h) + I.b1 h) = Y1 I := by
  funext b n h
  exact (Y1_rank1 I b n h).symm

/-- The mean of the 16 group means is the mean over all rows. -/
theorem gmean_mean (y : Fin 128 → Fin 502 → Fin 256 → ℝ) (h : Fin 256) :
    (∑ g : Fin 16, gmean y g h) / 16 = mean y h := (mean_eq_cmean y h).symm

/-- The variance put together from the groups is the variance over all rows. -/
theorem gm2_var (y : Fin 128 → Fin 502 → Fin 256 → ℝ) (h : Fin 256) :
    ((∑ g : Fin 16, gm2 y g h)
        + 4016 * ∑ g : Fin 16, (gmean y g h - (∑ g' : Fin 16, gmean y g' h) / 16) * (gmean y g h - (∑ g' : Fin 16, gmean y g' h) / 16))
      / 64256 = var y h := (var_eq_cvar y h).symm

theorem Y2_eq : Y2 I = convA (A I) (fun b n f => elu (nz (Y1 I) (mean (Y1 I)) (var (Y1 I)) I.g1 I.be1 b n f)) I.W2 I.b2 := rfl

theorem Y3_eq : Y3 I = convA (A I) (fun b n f => elu (nz (Y2 I) (mean (Y2 I)) (var (Y2 I)) I.g2 I.be2 b n f)) I.W3 I.b3 := rfl

theorem out_eq (b : Fin 128) (n : Fin 502) (h : Fin 256) :
    out I b n h = elu (nz (Y3 I) (mean (Y3 I)) (var (Y3 I)) I.g3 I.be3 b n h) := rfl

end Cert.Model

end
-- ==== Proof.KVal.lean ====
/-
  The kernel program's result is the model's: the run of the four regions with the result buffer named, and the
  buffer contents followed boundary by boundary from the launch memory to the last region's write-backs.
-/
import proofs.«171858_j54966991454756_2_alg».proof.Proof.KRun
import proofs.«171858_j54966991454756_2_alg».proof.Proof.Iface
import proofs.«171858_j54966991454756_2_alg».proof.Proof.KWalk
import proofs.«171858_j54966991454756_2_alg».proof.Proof.KBridge0
import proofs.«171858_j54966991454756_2_alg».proof.Proof.KHost0
import proofs.«171858_j54966991454756_2_alg».proof.Proof.KReg0
import proofs.«171858_j54966991454756_2_alg».proof.Proof.KReg1
import proofs.«171858_j54966991454756_2_alg».proof.Proof.KReg2
import proofs.«171858_j54966991454756_2_alg».proof.Proof.KTail
import proofs.«171858_j54966991454756_2_alg».proof.Proof.KHostRead
import proofs.«171858_j54966991454756_2_alg».proof.Proof.KStats
import proofs.«171858_j54966991454756_2_alg».proof.Proof.KGlue

noncomputable section

namespace Cert.KernelIdeal.KVal

open Idealize.ShloMosaic Idealize.ShloMosaic.TcCoe Idealize.SL.Sem Idealize.ShloMosaic.ValueIdx
open Cert.KernelIdeal Cert.KernelIdeal.Gen Cert.Iface

variable (m : (ℓ : Loc nD τ sig) → Buf (Elt Ideal) ℓ) (ρ : Dev nD → PrngReg)

/-- The argument arrays of device `c` hold the model input `I`. -/
abbrev AgreeK (I : Model.Inp) (c : Dev nD) : Prop :=
  Agree I (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))

set_option maxHeartbeats 8000000 in
/-- What the last region leaves in the result buffer is the model's result. -/
theorem main_val (I : Model.Inp) (c : Dev nD) (hA : AgreeK m I c) (hR : InRange I) :
    W10 (F := Ideal) m ρ c (Proc.devRef .tc main_v125) = outArr I := by
  -- the launch memory read at the first stretch's operands
  have hE : ∀ r e, (W0 (F := Ideal) m ρ c (Proc.devRef .tc main_arg2) : Cert.KernelIdeal.S2x4000.Idx → BitVec 32) (ix2 r e) = I.E r e := hA.E
  -- BOUNDARY 3: the adjacency matrix and the first layer's four operands
  have hAdj : ∀ n s, KBridge0.adjFnK (F := Ideal) (W0 (F := Ideal) m ρ c (Proc.devRef .tc main_arg2)) (ix2 n s)
      = ((Model.A I n s : ℝ) : EReal) :=
    KHost0.adjFn_apply I _ _ _ (KBridge0.srcRawK_toInt I _ hE hR) (KBridge0.dstRawK_toInt I _ hE hR)
      (KBridge0.nrmFnK_apply I _ hE hR)
  have s3_A : ∀ n s, (W3 (F := Ideal) m ρ c (Proc.devRef .tc main_v50) : S502x502.Idx → EReal) (ix2 n s)
      = ((Model.A I n s : ℝ) : EReal) := fun n s =>
    (congrFun (KBridge0.k0_abf (W0 (F := Ideal) m ρ c)) (ix2 n s)).trans (hAdj n s)
  have s3_ybase : ∀ n h, (W3 (F := Ideal) m ρ c (Proc.devRef .tc main_v53) : S502x256.Idx → EReal) (ix2 n h)
      = ((∑ s : Fin 500, Model.A I n ⟨s.val, by omega⟩ * ∑ f : Fin 1024, I.xb s f * I.W1 f h : ℝ) : EReal) := fun n h =>
    (congrFun (KBridge0.k0_ybase (W0 (F := Ideal) m ρ c)) (ix2 n h)).trans
      (KHost0.ybaseFn_apply (Model.A I) I.xb I.W1 _ _ _ hAdj hA.xb hA.W1 n h)
  have s3_asens : ∀ n, (W3 (F := Ideal) m ρ c (Proc.devRef .tc main_v55) : S502x1.Idx → EReal) (ix2 n 0)
      = ((Model.A I n ⟨500, by omega⟩ : ℝ) : EReal) := fun n =>
    (congrFun (KBridge0.k0_asens (W0 (F := Ideal) m ρ c)) (ix2 n 0)).trans
      (KHost0.asensFn_apply (Model.A I) _ hAdj n 0)
  have s3_hsens : ∀ b h, (W3 (F := Ideal) m ρ c (Proc.devRef .tc main_v57) : S128x1x256.Idx → EReal) (ix3 b 0 h)
      = ((∑ f : Fin 1024, I.xs b f * I.W1 f h : ℝ) : EReal) := fun b h =>
    (congrFun (KBridge0.k0_hsens (W0 (F := Ideal) m ρ c)) (ix3 b 0 h)).trans
      (KHost0.hsens3Fn_apply I.xs I.W1 _ _ hA.xs hA.W1 b 0 h)
  have s3_bias : ∀ h, (W3 (F := Ideal) m ρ c (Proc.devRef .tc main_v56) : S1x256.Idx → EReal) (ix2 0 h)
      = ((I.b1 h : ℝ) : EReal) := fun h =>
    (congrFun (KBridge0.k0_bias (W0 (F := Ideal) m ρ c)) (ix2 0 h)).trans
      (KHost0.bias2dFn_apply I.b1 _ hA.b1 0 h)
  -- REGION 0: the first layer before normalisation, and its statistics group by group
  have hy1 : KReg0.y1 (fun n h => ∑ s : Fin 500, Model.A I n ⟨s.val, by omega⟩ * ∑ f : Fin 1024, I.xb s f * I.W1 f h)
      (fun n => Model.A I n ⟨500, by omega⟩) (fun b h => ∑ f : Fin 1024, I.xs b f * I.W1 f h) I.b1 = Model.Y1 I :=
    Model.y1form_eq I
  obtain ⟨r0_y, r0_m, r0_q⟩ := KReg0.region0 (V3 (F := Ideal) m ρ) c _ _ _ _ s3_ybase s3_asens s3_hsens s3_bias
  rw [hy1] at r0_y r0_m r0_q
  -- BOUNDARY 4
  have s4_y : ∀ b n h, (W4 (F := Ideal) m ρ c (Proc.devRef .tc main_v58_0) : S128x502x256.Idx → EReal) (ix3 b n h)
      = ((Model.Y1 I b n h : ℝ) : EReal) := fun b n h =>
    (congrFun (W4_arr (F := Ideal) m ρ c 4) (ix3 b n h)).trans (r0_y b n h)
  have s4_m : ∀ g h, (W4 (F := Ideal) m ρ c (Proc.devRef .tc main_v58_1) : S16x1x256.Idx → EReal) (ix3 g 0 h)
      = ((Model.gmean (Model.Y1 I) g h : ℝ) : EReal) := fun g h =>
    (congrFun (W4_arr (F := Ideal) m ρ c 5) (ix3 g 0 h)).trans (r0_m g h)
  have s4_q : ∀ g h, (W4 (F := Ideal) m ρ c (Proc.devRef .tc main_v58_2) : S16x1x256.Idx → EReal) (ix3 g 0 h)
      = ((Model.gm2 (Model.Y1 I) g h : ℝ) : EReal) := fun g h =>
    (congrFun (W4_arr (F := Ideal) m ρ c 6) (ix3 g 0 h)).trans (r0_q g h)
  have s4_A : ∀ n s, (W4 (F := Ideal) m ρ c (Proc.devRef .tc main_v50) : S502x502.Idx → EReal) (ix2 n s)
      = ((Model.A I n s : ℝ) : EReal) := fun n s =>
    (congrFun (W4_of_ne (F := Ideal) m ρ c main_v50 (by decide)) (ix2 n s)).trans (s3_A n s)
  -- BOUNDARY 5: the first layer's statistics put together, and the second layer's parameters
  have s5_mean : ∀ h, (W5 (F := Ideal) m ρ c (Proc.devRef .tc main_v75) : S1x256.Idx → EReal) (ix2 0 h)
      = ((Model.mean (Model.Y1 I) h : ℝ) : EReal) := fun h =>
    (congrFun (KHostRead.h1_mean (W4 (F := Ideal) m ρ c)) (ix2 0 h)).trans
      ((KTail.reshape_row_apply _ h).trans
        ((KTail.meanFn_apply _ (fun g h => Model.gmean (Model.Y1 I) g h) s4_m h).trans
          (congrArg (fun x : ℝ => (x : EReal)) (Model.gmean_mean (Model.Y1 I) h))))
  have s5_var : ∀ h, (W5 (F := Ideal) m ρ c (Proc.devRef .tc main_v76) : S1x256.Idx → EReal) (ix2 0 h)
      = ((Model.var (Model.Y1 I) h : ℝ) : EReal) := fun h =>
    (congrFun (KHostRead.h1_var (W4 (F := Ideal) m ρ c)) (ix2 0 h)).trans
      ((KTail.reshape_row_apply _ h).trans
        ((KTail.varFn_apply _ _ (fun g h => Model.gmean (Model.Y1 I) g h) (fun g h => Model.gm2 (Model.Y1 I) g h) s4_m s4_q h).trans
          (congrArg (fun x : ℝ => (x : EReal)) (Model.gm2_var (Model.Y1 I) h))))
  have s5_g : ∀ h, (W5 (F := Ideal) m ρ c (Proc.devRef .tc main_v77) : S1x256.Idx → EReal) (ix2 0 h)
      = ((I.g1 h : ℝ) : EReal) := fun h =>
    (congrFun (KHostRead.h1_g (W4 (F := Ideal) m ρ c)) (ix2 0 h)).trans
      ((KTail.reshape_row_apply _ h).trans ((congrFun (W4_main_arg5 (F := Ideal) m ρ c) (ix1 h)).trans (hA.g1 h)))
  have s5_be : ∀ h, (W5 (F := Ideal) m ρ c (Proc.devRef .tc main_v78) : S1x256.Idx → EReal) (ix2 0 h)
      = ((I.be1 h : ℝ) : EReal) := fun h =>
    (congrFun (KHostRead.h1_be (W4 (F := Ideal) m ρ c)) (ix2 0 h)).trans
      ((KTail.reshape_row_apply _ h).trans ((congrFun (W4_main_arg6 (F := Ideal) m ρ c) (ix1 h)).trans (hA.be1 h)))
  have s5_W : ∀ f h, (W5 (F := Ideal) m ρ c (Proc.devRef .tc main_v79) : Cert.KernelIdeal.S256x256.Idx → EReal) (ix2 f h)
      = ((I.W2 f h : ℝ) : EReal) := fun f h =>
    (congrFun (KHostRead.h1_W (W4 (F := Ideal) m ρ c)) (ix2 f h)).trans
      ((congrFun (W4_main_arg7 (F := Ideal) m ρ c) (ix2 f h)).trans (hA.W2 f h))
  have s5_b : ∀ h, (W5 (F := Ideal) m ρ c (Proc.devRef .tc main_v80) : S1x256.Idx → EReal) (ix2 0 h)
      = ((I.b2 h : ℝ) : EReal) := fun h =>
    (congrFun (KHostRead.h1_b (W4 (F := Ideal) m ρ c)) (ix2 0 h)).trans
      ((KTail.reshape_row_apply _ h).trans ((congrFun (W4_main_arg8 (F := Ideal) m ρ c) (ix1 h)).trans (hA.b2 h)))
  have s5_y : ∀ b n h, (W5 (F := Ideal) m ρ c (Proc.devRef .tc main_v58_0) : Cert.KernelIdeal.S128x502x256.Idx → EReal) (ix3 b n h)
      = ((Model.Y1 I b n h : ℝ) : EReal) := fun b n h =>
    (congrFun (KHostRead.h1_y (W4 (F := Ideal) m ρ c)) (ix3 b n h)).trans (s4_y b n h)
  have s5_A : ∀ n s, (W5 (F := Ideal) m ρ c (Proc.devRef .tc main_v50) : S502x502.Idx → EReal) (ix2 n s)
      = ((Model.A I n s : ℝ) : EReal) := fun n s =>
    (congrFun (KHostRead.h1_A (W4 (F := Ideal) m ρ c)) (ix2 n s)).trans (s4_A n s)
  -- REGION 1: the second layer before normalisation, and its statistics group by group
  obtain ⟨r1_y, r1_m, r1_q⟩ := KReg1.region1_val (V5 (F := Ideal) m ρ) c (Model.Y1 I) (Model.mean (Model.Y1 I))
    (Model.var (Model.Y1 I)) I.g1 I.be1 I.b2 I.W2 (Model.A I) (Model.var_nonneg (Model.Y1 I))
    s5_y s5_mean s5_var s5_g s5_be s5_W s5_A s5_b
  -- BOUNDARY 6
  have s6_y : ∀ b n h, (W6 (F := Ideal) m ρ c (Proc.devRef .tc main_v81_0) : Cert.KernelIdeal.S128x502x256.Idx → EReal) (ix3 b n h)
      = ((Model.Y2 I b n h : ℝ) : EReal) := fun b n h =>
    (congrFun (W6_arr (F := Ideal) m ρ c 8) (ix3 b n h)).trans (r1_y b n h)
  have s6_m : ∀ g h, (W6 (F := Ideal) m ρ c (Proc.devRef .tc main_v81_1) : S16x1x256.Idx → EReal) (ix3 g 0 h)
      = ((Model.gmean (Model.Y2 I) g h : ℝ) : EReal) := fun g h =>
    (congrFun (W6_arr (F := Ideal) m ρ c 9) (ix3 g 0 h)).trans (r1_m g h)
  have s6_q : ∀ g h, (W6 (F := Ideal) m ρ c (Proc.devRef .tc main_v81_2) : S16x1x256.Idx → EReal) (ix3 g 0 h)
      = ((Model.gm2 (Model.Y2 I) g h : ℝ) : EReal) := fun g h =>
    (congrFun (W6_arr (F := Ideal) m ρ c 10) (ix3 g 0 h)).trans (r1_q g h)
  -- the adjacency matrix is an input window of region 1: its array is left as entered
  have s6_A : ∀ n s, (W6 (F := Ideal) m ρ c (Proc.devRef .tc main_v50) : S502x502.Idx → EReal) (ix2 n s)
      = ((Model.A I n s : ℝ) : EReal) := fun n s =>
    (congrFun ((W6_arr (F := Ideal) m ρ c 6).trans
      (((dat1 (V5 (F := Ideal) m ρ) c).arrAt_in 6 rfl cfg1.N).trans (A_eq1 (V5 (F := Ideal) m ρ) c 6))) (ix2 n s)).trans (s5_A n s)
  -- BOUNDARY 7: the second layer's statistics put together, and the third layer's parameters
  have s7_mean : ∀ h, (W7 (F := Ideal) m ρ c (Proc.devRef .tc main_v98) : S1x256.Idx → EReal) (ix2 0 h)
      = ((Model.mean (Model.Y2 I) h : ℝ) : EReal) := fun h =>
    (congrFun (KHostRead.h2_mean (W6 (F := Ideal) m ρ c)) (ix2 0 h)).trans
      ((KTail.reshape_row_apply _ h).trans
        ((KTail.meanFn_apply _ (fun g h => Model.gmean (Model.Y2 I) g h) s6_m h).trans
          (congrArg (fun x : ℝ => (x : EReal)) (Model.gmean_mean (Model.Y2 I) h))))
  have s7_var : ∀ h, (W7 (F := Ideal) m ρ c (Proc.devRef .tc main_v99) : S1x256.Idx → EReal) (ix2 0 h)
      = ((Model.var (Model.Y2 I) h : ℝ) : EReal) := fun h =>
    (congrFun (KHostRead.h2_var (W6 (F := Ideal) m ρ c)) (ix2 0 h)).trans
      ((KTail.reshape_row_apply _ h).trans
        ((KTail.varFn_apply _ _ (fun g h => Model.gmean (Model.Y2 I) g h) (fun g h => Model.gm2 (Model.Y2 I) g h) s6_m s6_q h).trans
          (congrArg (fun x : ℝ => (x : EReal)) (Model.gm2_var (Model.Y2 I) h))))
  have s7_g : ∀ h, (W7 (F := Ideal) m ρ c (Proc.devRef .tc main_v100) : S1x256.Idx → EReal) (ix2 0 h)
      = ((I.g2 h : ℝ) : EReal) := fun h =>
    (congrFun (KHostRead.h2_g (W6 (F := Ideal) m ρ c)) (ix2 0 h)).trans
      ((KTail.reshape_row_apply _ h).trans ((congrFun (W6_main_arg9 (F := Ideal) m ρ c) (ix1 h)).trans (hA.g2 h)))
  have s7_be : ∀ h, (W7 (F := Ideal) m ρ c (Proc.devRef .tc main_v101) : S1x256.Idx → EReal) (ix2 0 h)
      = ((I.be2 h : ℝ) : EReal) := fun h =>
    (congrFun (KHostRead.h2_be (W6 (F := Ideal) m ρ c)) (ix2 0 h)).trans
      ((KTail.reshape_row_apply _ h).trans ((congrFun (W6_main_arg10 (F := Ideal) m ρ c) (ix1 h)).trans (hA.be2 h)))
  have s7_W : ∀ f h, (W7 (F := Ideal) m ρ c (Proc.devRef .tc main_v102) : Cert.KernelIdeal.S256x256.Idx → EReal) (ix2 f h)
      = ((I.W3 f h : ℝ) : EReal) := fun f h =>
    (congrFun (KHostRead.h2_W (W6 (F := Ideal) m ρ c)) (ix2 f h)).trans
      ((congrFun (W6_main_arg11 (F := Ideal) m ρ c) (ix2 f h)).trans (hA.W3 f h))
  have s7_b : ∀ h, (W7 (F := Ideal) m ρ c (Proc.devRef .tc main_v103) : S1x256.Idx → EReal) (ix2 0 h)
      = ((I.b3 h : ℝ) : EReal) := fun h =>
    (congrFun (KHostRead.h2_b (W6 (F := Ideal) m ρ c)) (ix2 0 h)).trans
      ((KTail.reshape_row_apply _ h).trans ((congrFun (W6_main_arg12 (F := Ideal) m ρ c) (ix1 h)).trans (hA.b3 h)))
  have s7_y : ∀ b n h, (W7 (F := Ideal) m ρ c (Proc.devRef .tc main_v81_0) : Cert.KernelIdeal.S128x502x256.Idx → EReal) (ix3 b n h)
      = ((Model.Y2 I b n h : ℝ) : EReal) := fun b n h =>
    (congrFun (KHostRead.h2_y (W6 (F := Ideal) m ρ c)) (ix3 b n h)).trans (s6_y b n h)
  have s7_A : ∀ n s, (W7 (F := Ideal) m ρ c (Proc.devRef .tc main_v50) : S502x502.Idx → EReal) (ix2 n s)
      = ((Model.A I n s : ℝ) : EReal) := fun n s =>
    (congrFun (KHostRead.h2_A (W6 (F := Ideal) m ρ c)) (ix2 n s)).trans (s6_A n s)
  -- REGION 2: the third layer before normalisation, and its statistics group by group
  obtain ⟨r2_y, r2_m, r2_q⟩ := KReg2.region2_val (V7 (F := Ideal) m ρ) c (Model.Y2 I) (Model.mean (Model.Y2 I))
    (Model.var (Model.Y2 I)) I.g2 I.be2 I.b3 I.W3 (Model.A I) (Model.var_nonneg (Model.Y2 I))
    s7_y s7_mean s7_var s7_g s7_be s7_W s7_A s7_b
  -- BOUNDARY 8
  have s8_y : ∀ b n h, (W8 (F := Ideal) m ρ c (Proc.devRef .tc main_v104_0) : Cert.KernelIdeal.S128x502x256.Idx → EReal) (ix3 b n h)
      = ((Model.Y3 I b n h : ℝ) : EReal) := fun b n h =>
    (congrFun (W8_arr (F := Ideal) m ρ c 8) (ix3 b n h)).trans (r2_y b n h)
  have s8_m : ∀ g h, (W8 (F := Ideal) m ρ c (Proc.devRef .tc main_v104_1) : S16x1x256.Idx → EReal) (ix3 g 0 h)
      = ((Model.gmean (Model.Y3 I) g h : ℝ) : EReal) := fun g h =>
    (congrFun (W8_arr (F := Ideal) m ρ c 9) (ix3 g 0 h)).trans (r2_m g h)
  have s8_q : ∀ g h, (W8 (F := Ideal) m ρ c (Proc.devRef .tc main_v104_2) : S16x1x256.Idx → EReal) (ix3 g 0 h)
      = ((Model.gm2 (Model.Y3 I) g h : ℝ) : EReal) := fun g h =>
    (congrFun (W8_arr (F := Ideal) m ρ c 10) (ix3 g 0 h)).trans (r2_q g h)
  -- BOUNDARY 9: the third layer's statistics put together, and the last normalisation's parameters
  have s9_mean : ∀ h, (W9 (F := Ideal) m ρ c (Proc.devRef .tc main_v121) : S1x1x256.Idx → EReal) (ix3 0 0 h)
      = ((Model.mean (Model.Y3 I) h : ℝ) : EReal) := fun h =>
    (congrFun (KHostRead.h3_mean (W8 (F := Ideal) m ρ c)) (ix3 0 0 h)).trans
      ((KTail.reshape_row3_apply _ h).trans
        ((KTail.meanFn_apply _ (fun g h => Model.gmean (Model.Y3 I) g h) s8_m h).trans
          (congrArg (fun x : ℝ => (x : EReal)) (Model.gmean_mean (Model.Y3 I) h))))
  have s9_var : ∀ h, (W9 (F := Ideal) m ρ c (Proc.devRef .tc main_v122) : S1x1x256.Idx → EReal) (ix3 0 0 h)
      = ((Model.var (Model.Y3 I) h : ℝ) : EReal) := fun h =>
    (congrFun (KHostRead.h3_var (W8 (F := Ideal) m ρ c)) (ix3 0 0 h)).trans
      ((KTail.reshape_row3_apply _ h).trans
        ((KTail.varFn_apply _ _ (fun g h => Model.gmean (Model.Y3 I) g h) (fun g h => Model.gm2 (Model.Y3 I) g h) s8_m s8_q h).trans
          (congrArg (fun x : ℝ => (x : EReal)) (Model.gm2_var (Model.Y3 I) h))))
  have s9_g : ∀ h, (W9 (F := Ideal) m ρ c (Proc.devRef .tc main_v123) : S1x1x256.Idx → EReal) (ix3 0 0 h)
      = ((I.g3 h : ℝ) : EReal) := fun h =>
    (congrFun (KHostRead.h3_g (W8 (F := Ideal) m ρ c)) (ix3 0 0 h)).trans
      ((KTail.reshape_row3_apply _ h).trans ((congrFun (W8_main_arg13 (F := Ideal) m ρ c) (ix1 h)).trans (hA.g3 h)))
  have s9_be : ∀ h, (W9 (F := Ideal) m ρ c (Proc.devRef .tc main_v124) : S1x1x256.Idx → EReal) (ix3 0 0 h)
      = ((I.be3 h : ℝ) : EReal) := fun h =>
    (congrFun (KHostRead.h3_be (W8 (F := Ideal) m ρ c)) (ix3 0 0 h)).trans
      ((KTail.reshape_row3_apply _ h).trans ((congrFun (W8_main_arg14 (F := Ideal) m ρ c) (ix1 h)).trans (hA.be3 h)))
  have s9_y : ∀ b n h, (W9 (F := Ideal) m ρ c (Proc.devRef .tc main_v104_0) : Cert.KernelIdeal.S128x502x256.Idx → EReal) (ix3 b n h)
      = ((Model.Y3 I b n h : ℝ) : EReal) := fun b n h =>
    (congrFun (KHostRead.h3_y (W8 (F := Ideal) m ρ c)) (ix3 b n h)).trans (s8_y b n h)
  -- REGION 3 and BOUNDARY 10: the last normalisation and unit, index by index
  refine Iface.ext_ix3 _ _ fun b n h => ?_
  rw [outArr_ix3, Model.out_eq]
  exact (congrFun (W10_arr (F := Ideal) m ρ c 5) (ix3 b n h)).trans
    (KTail.region3_value (V9 (F := Ideal) m ρ) c (Model.Y3 I) (Model.mean (Model.Y3 I)) (Model.var (Model.Y3 I)) I.g3 I.be3
      (Model.var_nonneg (Model.Y3 I)) s9_y s9_mean s9_var s9_g s9_be b n h)

/-- Every weakly fair execution of the kernel program terminates with the model's result in the result buffer and
    the arguments unchanged. -/
theorem run (Iof : Dev nD → Model.Inp) (hA : ∀ c, AgreeK m (Iof c) c) (hR : ∀ c, InRange (Iof c)) :
    θ_run (defs (F := Ideal)) (onTc (τ := τ) (main (F := Ideal))) ⟨m, fun _ => 0, ρ⟩ (fun r => ∀ c : Dev nD,
      r.2.mem ((c.tc : Thread nD τ).loc main_v125) = outArr (Iof c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) :=
  (θ_run (defs (F := Ideal)) _ _).mono (fun r h c => ⟨(h c).1.trans (main_val m ρ (Iof c) c (hA c) (hR c)), (h c).2⟩)
    (run_val (F := Ideal) m ρ)

end Cert.KernelIdeal.KVal

end
-- ==== Proof.RefRun.lean ====
import proofs.«171858_j54966991454756_2_alg».proof.Proof.Gen.ReferenceIdeal
import Idealize.ShloMosaic.Lib.StableHlo.Run
import Idealize.ShloMosaic.Lib.Pipeline.Frame

/-!
  The reference program's run.

  @main of the reference makes four calls: one of a selection against a constant (the inverse square roots of the
  degrees, zero where the degree is zero) and three of the exponential linear unit, which itself calls two
  selections. With every call replaced by the callee's statements over the buffers that call names, @main is one
  straight line of 275 operations, each writing one buffer of its own from the buffers of its operands. They are
  listed here in program order, in seventeen stretches that follow the mathematics (the graph's normalisation, then
  per layer: sum over edges, batch normalisation, unit, next product), and @main is shown equal to the line.

  From that, every weakly fair execution of @main from any memory ends, and ends with every buffer at the fold of the
  line over the launch contents ('run'); and since no operation writes an argument's buffer, the fifteen arguments
  end as they began ('kept_main_arg0' … 'kept_main_arg14').
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers of @main's fifteen arguments. -/
abbrev argRefs : List (Ref sig .tc) :=
  [main_arg0, main_arg1, main_arg2, main_arg3, main_arg4, main_arg5, main_arg6, main_arg7, main_arg8, main_arg9,
    main_arg10, main_arg11, main_arg12, main_arg13, main_arg14]

/-- What is asked of one operation of the line: every buffer it touches is a TensorCore buffer, it determines
    what it writes, and the one buffer it writes is not an argument's. -/
abbrev Good (op : HloOp τ sig (Elt F)) : Prop :=
  op.bufs ⊆ tcRefs τ sig ∧ op.fresh = ∅ ∧
    ∃ y : Ref sig .tc, y ∉ argRefs ∧ op.writes = ({Proc.devRef .tc y} : Finset (DevRef τ sig))

/-- A line of such operations leaves an argument's buffer as it was: a buffer is rewritten only by an operation
    that writes it, and two references to one device buffer are one reference. -/
theorem after_kept {l : List (HloOp τ sig (Elt F))} (h : ∀ op ∈ l, Good op) (V : Valuation τ sig (Elt F))
    {r : Ref sig .tc} (hr : r ∈ argRefs) : after l V (Proc.devRef .tc r) = V (Proc.devRef .tc r) :=
  after_of_forall_not_mem l V fun op hop hb => by
    obtain ⟨_, _, y, hy, hw⟩ := h op hop
    rw [hw, Finset.mem_singleton] at hb
    exact hy (Proc.devRef_injective _ hb ▸ hr)

/-- Two lines of such operations, one after the other. -/
theorem good_append {l₁ l₂ : List (HloOp τ sig (Elt F))} (h₁ : ∀ op ∈ l₁, Good op) (h₂ : ∀ op ∈ l₂, Good op) :
    ∀ op ∈ l₁ ++ l₂, Good op :=
  List.forall_mem_append.mpr ⟨h₁, h₂⟩

/-! ## The operations (table) -/

/-- The base rows under a leading axis of one, repeated over the 128 batch elements; a zero row and the sensor row of
    every batch element. (5 operations) -/
abbrev ops0a : List (HloOp τ sig (Elt F)) :=
  [ StableHlo.unary main_arg1 main_v0 (broadcastInDim S1x500x1024 ![1, 2] bcast_S500x1024_S1x500x1024_1_2 : (⟨S500x1024, .f32⟩ : BufTy).Contents (Elt F) → (⟨S1x500x1024, .f32⟩ : BufTy).Contents (Elt F)),
    StableHlo.unary main_v0 main_v1 (broadcastInDim S128x500x1024 ![0, 1, 2] bcast_S1x500x1024_S128x500x1024_0_1_2 : (⟨S1x500x1024, .f32⟩ : BufTy).Contents (Elt F) → (⟨S128x500x1024, .f32⟩ : BufTy).Contents (Elt F)),
    StableHlo.nullary main_cst (constant S_ .f32 0x00000000#32),
    StableHlo.unary main_cst main_v2 (broadcastInDim S128x1x1024 ![] bcast_S_S128x1x1024 : (⟨S_, .f32⟩ : BufTy).Contents (Elt F) → (⟨S128x1x1024, .f32⟩ : BufTy).Contents (Elt F)),
    StableHlo.unary main_arg0 main_v3 (broadcastInDim S128x1x1024 ![0, 2] bcast_S128x1024_S128x1x1024_0_2 : (⟨S128x1024, .f32⟩ : BufTy).Contents (Elt F) → (⟨S128x1x1024, .f32⟩ : BufTy).Contents (Elt F)) ]

theorem ops0a_good : (ops0a : List (HloOp τ sig (Elt F))).Forall Good :=
  ⟨⟨unary_bufs_sub .., rfl, main_v0, by decide, rfl⟩,
    ⟨unary_bufs_sub .., rfl, main_v1, by decide, rfl⟩,
    ⟨nullary_bufs_sub .., rfl, main_cst, by decide, rfl⟩,
    ⟨unary_bufs_sub .., rfl, main_v2, by decide, rfl⟩,
    ⟨unary_bufs_sub .., rfl, main_v3, by decide, rfl⟩⟩

/-- The first layer's input: per batch element the 500 base rows, the sensor row and the zero row, put together along the
    node axis; the node numbers 0 … 501; the source row of the edge words. (4 operations) -/
abbrev ops0b : List (HloOp τ sig (Elt F)) :=
  [ StableHlo.nary ![main_v1, main_v3, main_v2] main_v4 (fun u => concatenate S128x502x1024 1 [⟨S128x500x1024, u 0⟩, ⟨S128x1x1024, u 1⟩, ⟨S128x1x1024, u 2⟩] concatenates_S128x500x1024_S128x1x1024_S128x1x1024_S128x502x1024_d1),
    StableHlo.nullary main_v5 (iotaInDim S502 32 0),
    StableHlo.unary main_arg2 main_v6 ((extractStridedSlice S1x4000 ![0, 0] · slices_S2x4000_S1x4000_0_0) : (⟨S2x4000, .i32⟩ : BufTy).Contents (Elt F) → (⟨S1x4000, .i32⟩ : BufTy).Contents (Elt F)),
    StableHlo.reshape main_v6 main_v7 rfl shapeCasts_S1x4000_S4000 ]

theorem ops0b_good : (ops0b : List (HloOp τ sig (Elt F))).Forall Good :=
  ⟨⟨nary_bufs_sub .., rfl, main_v4, by decide, rfl⟩,
    ⟨nullary_bufs_sub .., rfl, main_v5, by decide, rfl⟩,
    ⟨unary_bufs_sub .., rfl, main_v6, by decide, rfl⟩,
    ⟨reshape_bufs_sub .., rfl, main_v7, by decide, rfl⟩⟩

/-- The 4502 sources: the 4000 given source words, then the 502 loops' node numbers; the target row of the edge words. (3 operations) -/
abbrev ops0c : List (HloOp τ sig (Elt F)) :=
  [ StableHlo.binary main_v7 main_v5 main_v8 ((fun a b => concatenate S4502 0 [⟨S4000, a⟩, ⟨S502, b⟩] concatenates_S4000_S502_S4502_d0) : (⟨S4000, .i32⟩ : BufTy).Contents (Elt F) → (⟨S502, .i32⟩ : BufTy).Contents (Elt F) → (⟨S4502, .i32⟩ : BufTy).Contents (Elt F)),
    StableHlo.unary main_arg2 main_v9 ((extractStridedSlice S1x4000 ![1, 0] · slices_S2x4000_S1x4000_1_0) : (⟨S2x4000, .i32⟩ : BufTy).Contents (Elt F) → (⟨S1x4000, .i32⟩ : BufTy).Contents (Elt F)),
    StableHlo.reshape main_v9 main_v10 rfl shapeCasts_S1x4000_S4000 ]

theorem ops0c_good : (ops0c : List (HloOp τ sig (Elt F))).Forall Good :=
  ⟨⟨binary_bufs_sub .., rfl, main_v8, by decide, rfl⟩,
    ⟨unary_bufs_sub .., rfl, main_v9, by decide, rfl⟩,
    ⟨reshape_bufs_sub .., rfl, main_v10, by decide, rfl⟩⟩

/-- The 4502 targets; a negative target word counted from the end of the node axis; the degree of every node (a one added
    at every edge's target); its inverse square root where the degree is positive, zero elsewhere. (22 operations) -/
abbrev ops0d : List (HloOp τ sig (Elt F)) :=
  [ StableHlo.binary main_v10 main_v5 main_v11 ((fun a b => concatenate S4502 0 [⟨S4000, a⟩, ⟨S502, b⟩] concatenates_S4000_S502_S4502_d0) : (⟨S4000, .i32⟩ : BufTy).Contents (Elt F) → (⟨S502, .i32⟩ : BufTy).Contents (Elt F) → (⟨S4502, .i32⟩ : BufTy).Contents (Elt F)),
    StableHlo.nullary main_cst_0 (constant S_ .f32 0x00000000#32),
    StableHlo.unary main_cst_0 main_v12 (broadcastInDim S502 ![] bcast_S_S502 : (⟨S_, .f32⟩ : BufTy).Contents (Elt F) → (⟨S502, .f32⟩ : BufTy).Contents (Elt F)),
    StableHlo.nullary main_c (constantI S_ 32 0#32),
    StableHlo.unary main_c main_v13 (broadcastInDim S4502 ![] bcast_S_S4502 : (⟨S_, .i32⟩ : BufTy).Contents (Elt F) → (⟨S4502, .i32⟩ : BufTy).Contents (Elt F)),
    StableHlo.binary main_v11 main_v13 main_v14 (cmpi .slt : (⟨S4502, .i32⟩ : BufTy).Contents (Elt F) → (⟨S4502, .i32⟩ : BufTy).Contents (Elt F) → (⟨S4502, .i1⟩ : BufTy).Contents (Elt F)),
    StableHlo.nullary main_c_1 (constantI S_ 32 502#32),
    StableHlo.unary main_c_1 main_v15 (broadcastInDim S4502 ![] bcast_S_S4502 : (⟨S_, .i32⟩ : BufTy).Contents (Elt F) → (⟨S4502, .i32⟩ : BufTy).Contents (Elt F)),
    StableHlo.binary main_v11 main_v15 main_v16 (addi : (⟨S4502, .i32⟩ : BufTy).Contents (Elt F) → (⟨S4502, .i32⟩ : BufTy).Contents (Elt F) → (⟨S4502, .i32⟩ : BufTy).Contents (Elt F)),
    StableHlo.ternary main_v14 main_v16 main_v11 main_v17 (select : (⟨S4502, .i1⟩ : BufTy).Contents (Elt F) → (⟨S4502, .i32⟩ : BufTy).Contents (Elt F) → (⟨S4502, .i32⟩ : BufTy).Contents (Elt F) → (⟨S4502, .i32⟩ : BufTy).Contents (Elt F)),
    StableHlo.unary main_v17 main_v18 (broadcastInDim S4502x1 ![0] bcast_S4502_S4502x1_0 : (⟨S4502, .i32⟩ : BufTy).Contents (Elt F) → (⟨S4502x1, .i32⟩ : BufTy).Contents (Elt F)),
    StableHlo.nullary main_cst_2 (constant S_ .f32 0x3F800000#32),
    StableHlo.unary main_cst_2 main_v19 (broadcastInDim S4502 ![] bcast_S_S4502 : (⟨S_, .f32⟩ : BufTy).Contents (Elt F) → (⟨S4502, .f32⟩ : BufTy).Contents (Elt F)),
    StableHlo.ternary main_v12 main_v18 main_v19 main_v20 ((fun x i u => Host.scatterAdd scatter_S502_S4502x1_S4502_n_0_0_1 x i u) : (⟨S502, .f32⟩ : BufTy).Contents (Elt F) → (⟨S4502x1, .i32⟩ : BufTy).Contents (Elt F) → (⟨S4502, .f32⟩ : BufTy).Contents (Elt F) → (⟨S502, .f32⟩ : BufTy).Contents (Elt F)),
    StableHlo.nullary main_cst_3 (constant S_ .f32 0x00000000#32),
    StableHlo.unary main_cst_3 main_v21 (broadcastInDim S502 ![] bcast_S_S502 : (⟨S_, .f32⟩ : BufTy).Contents (Elt F) → (⟨S502, .f32⟩ : BufTy).Contents (Elt F)),
    StableHlo.binary main_v20 main_v21 main_v22 (cmpf .ogt : (⟨S502, .f32⟩ : BufTy).Contents (Elt F) → (⟨S502, .f32⟩ : BufTy).Contents (Elt F) → (⟨S502, .i1⟩ : BufTy).Contents (Elt F)),
    StableHlo.unary main_v20 main_v23 (Host.rsqrt : (⟨S502, .f32⟩ : BufTy).Contents (Elt F) → (⟨S502, .f32⟩ : BufTy).Contents (Elt F)),
    StableHlo.nullary main_cst_4 (constant S_ .f32 0x00000000#32),
    StableHlo.TRef.unary (.of main_cst_4 : StableHlo.TRef sig ⟨S_, .f32⟩) main_call0.v0 id,
    StableHlo.TRef.unary main_call0.v0 main_call0.v1 (broadcastInDim S502 ![] bcast_S_S502),
    StableHlo.TRef.ternary (.of main_v22 : StableHlo.TRef sig ⟨S502, .i1⟩) (.of main_v23 : StableHlo.TRef sig ⟨S502, .f32⟩) main_call0.v1 main_call0.v2 select ]

theorem ops0d_good : (ops0d : List (HloOp τ sig (Elt F))).Forall Good :=
  ⟨⟨binary_bufs_sub .., rfl, main_v11, by decide, rfl⟩,
    ⟨nullary_bufs_sub .., rfl, main_cst_0, by decide, rfl⟩,
    ⟨unary_bufs_sub .., rfl, main_v12, by decide, rfl⟩,
    ⟨nullary_bufs_sub .., rfl, main_c, by decide, rfl⟩,
    ⟨unary_bufs_sub .., rfl, main_v13, by decide, rfl⟩,
    ⟨binary_bufs_sub .., rfl, main_v14, by decide, rfl⟩,
    ⟨nullary_bufs_sub .., rfl, main_c_1, by decide, rfl⟩,
    ⟨unary_bufs_sub .., rfl, main_v15, by decide, rfl⟩,
    ⟨binary_bufs_sub .., rfl, main_v16, by decide, rfl⟩,
    ⟨ternary_bufs_sub .., rfl, main_v17, by decide, rfl⟩,
    ⟨unary_bufs_sub .., rfl, main_v18, by decide, rfl⟩,
    ⟨nullary_bufs_sub .., rfl, main_cst_2, by decide, rfl⟩,
    ⟨unary_bufs_sub .., rfl, main_v19, by decide, rfl⟩,
    ⟨ternary_bufs_sub .., rfl, main_v20, by decide, rfl⟩,
    ⟨nullary_bufs_sub .., rfl, main_cst_3, by decide, rfl⟩,
    ⟨unary_bufs_sub .., rfl, main_v21, by decide, rfl⟩,
    ⟨binary_bufs_sub .., rfl, main_v22, by decide, rfl⟩,
    ⟨unary_bufs_sub .., rfl, main_v23, by decide, rfl⟩,
    ⟨nullary_bufs_sub .., rfl, main_cst_4, by decide, rfl⟩,
    ⟨unary_bufs_sub .., rfl, main_call0.v0.ref, by decide, rfl⟩,
    ⟨unary_bufs_sub .., rfl, main_call0.v1.ref, by decide, rfl⟩,
    ⟨ternary_bufs_sub .., rfl, main_call0.v2.ref, by decide, rfl⟩⟩

/-- The inverse square roots read at every edge's source and at its target (negative words counted from the end) and
    multiplied: the edges' weights. The first layer's input times its weight matrix. The sources as indices once more. (28 operations) -/
abbrev ops0e : List (HloOp τ sig (Elt F)) :=
  [ StableHlo.nullary main_c_5 (constantI S_ 32 0#32),
    StableHlo.unary main_c_5 main_v25 (broadcastInDim S4502 ![] bcast_S_S4502 : (⟨S_, .i32⟩ : BufTy).Contents (Elt F) → (⟨S4502, .i32⟩ : BufTy).Contents (Elt F)),
    StableHlo.binary main_v8 main_v25 main_v26 (cmpi .slt : (⟨S4502, .i32⟩ : BufTy).Contents (Elt F) → (⟨S4502, .i32⟩ : BufTy).Contents (Elt F) → (⟨S4502, .i1⟩ : BufTy).Contents (Elt F)),
    StableHlo.nullary main_c_6 (constantI S_ 32 502#32),
    StableHlo.unary main_c_6 main_v27 (broadcastInDim S4502 ![] bcast_S_S4502 : (⟨S_, .i32⟩ : BufTy).Contents (Elt F) → (⟨S4502, .i32⟩ : BufTy).Contents (Elt F)),
    StableHlo.binary main_v8 main_v27 main_v28 (addi : (⟨S4502, .i32⟩ : BufTy).Contents (Elt F) → (⟨S4502, .i32⟩ : BufTy).Contents (Elt F) → (⟨S4502, .i32⟩ : BufTy).Contents (Elt F)),
    StableHlo.ternary main_v26 main_v28 main_v8 main_v29 (select : (⟨S4502, .i1⟩ : BufTy).Contents (Elt F) → (⟨S4502, .i32⟩ : BufTy).Contents (Elt F) → (⟨S4502, .i32⟩ : BufTy).Contents (Elt F) → (⟨S4502, .i32⟩ : BufTy).Contents (Elt F)),
    StableHlo.unary main_v29 main_v30 (broadcastInDim S4502x1 ![0] bcast_S4502_S4502x1_0 : (⟨S4502, .i32⟩ : BufTy).Contents (Elt F) → (⟨S4502x1, .i32⟩ : BufTy).Contents (Elt F)),
    StableHlo.binary main_v24 main_v30 main_v31 ((fun x i => Host.gather gather_S502_S4502x1_S4502_n_0_n_n_0_1_1 x i) : (⟨S502, .f32⟩ : BufTy).Contents (Elt F) → (⟨S4502x1, .i32⟩ : BufTy).Contents (Elt F) → (⟨S4502, .f32⟩ : BufTy).Contents (Elt F)),
    StableHlo.nullary main_c_7 (constantI S_ 32 0#32),
    StableHlo.unary main_c_7 main_v32 (broadcastInDim S4502 ![] bcast_S_S4502 : (⟨S_, .i32⟩ : BufTy).Contents (Elt F) → (⟨S4502, .i32⟩ : BufTy).Contents (Elt F)),
    StableHlo.binary main_v11 main_v32 main_v33 (cmpi .slt : (⟨S4502, .i32⟩ : BufTy).Contents (Elt F) → (⟨S4502, .i32⟩ : BufTy).Contents (Elt F) → (⟨S4502, .i1⟩ : BufTy).Contents (Elt F)),
    StableHlo.nullary main_c_8 (constantI S_ 32 502#32),
    StableHlo.unary main_c_8 main_v34 (broadcastInDim S4502 ![] bcast_S_S4502 : (⟨S_, .i32⟩ : BufTy).Contents (Elt F) → (⟨S4502, .i32⟩ : BufTy).Contents (Elt F)),
    StableHlo.binary main_v11 main_v34 main_v35 (addi : (⟨S4502, .i32⟩ : BufTy).Contents (Elt F) → (⟨S4502, .i32⟩ : BufTy).Contents (Elt F) → (⟨S4502, .i32⟩ : BufTy).Contents (Elt F)),
    StableHlo.ternary main_v33 main_v35 main_v11 main_v36 (select : (⟨S4502, .i1⟩ : BufTy).Contents (Elt F) → (⟨S4502, .i32⟩ : BufTy).Contents (Elt F) → (⟨S4502, .i32⟩ : BufTy).Contents (Elt F) → (⟨S4502, .i32⟩ : BufTy).Contents (Elt F)),
    StableHlo.unary main_v36 main_v37 (broadcastInDim S4502x1 ![0] bcast_S4502_S4502x1_0 : (⟨S4502, .i32⟩ : BufTy).Contents (Elt F) → (⟨S4502x1, .i32⟩ : BufTy).Contents (Elt F)),
    StableHlo.binary main_v24 main_v37 main_v38 ((fun x i => Host.gather gather_S502_S4502x1_S4502_n_0_n_n_0_1_1 x i) : (⟨S502, .f32⟩ : BufTy).Contents (Elt F) → (⟨S4502x1, .i32⟩ : BufTy).Contents (Elt F) → (⟨S4502, .f32⟩ : BufTy).Contents (Elt F)),
    StableHlo.binary main_v31 main_v38 main_v39 (mulf : (⟨S4502, .f32⟩ : BufTy).Contents (Elt F) → (⟨S4502, .f32⟩ : BufTy).Contents (Elt F) → (⟨S4502, .f32⟩ : BufTy).Contents (Elt F)),
    StableHlo.binary main_v4 main_arg3 main_v40 ((fun l r => Host.dotGeneral dot_S128x502x1024_S1024x256_S128x502x256_2_0_01_1_n_n none l r) : (⟨S128x502x1024, .f32⟩ : BufTy).Contents (Elt F) → (⟨S1024x256, .f32⟩ : BufTy).Contents (Elt F) → (⟨S128x502x256, .f32⟩ : BufTy).Contents (Elt F)),
    StableHlo.nullary main_c_9 (constantI S_ 32 0#32),
    StableHlo.unary main_c_9 main_v41 (broadcastInDim S4502 ![] bcast_S_S4502 : (⟨S_, .i32⟩ : BufTy).Contents (Elt F) → (⟨S4502, .i32⟩ : BufTy).Contents (Elt F)),
    StableHlo.binary main_v8 main_v41 main_v42 (cmpi .slt : (⟨S4502, .i32⟩ : BufTy).Contents (Elt F) → (⟨S4502, .i32⟩ : BufTy).Contents (Elt F) → (⟨S4502, .i1⟩ : BufTy).Contents (Elt F)),
    StableHlo.nullary main_c_10 (constantI S_ 32 502#32),
    StableHlo.unary main_c_10 main_v43 (broadcastInDim S4502 ![] bcast_S_S4502 : (⟨S_, .i32⟩ : BufTy).Contents (Elt F) → (⟨S4502, .i32⟩ : BufTy).Contents (Elt F)),
    StableHlo.binary main_v8 main_v43 main_v44 (addi : (⟨S4502, .i32⟩ : BufTy).Contents (Elt F) → (⟨S4502, .i32⟩ : BufTy).Contents (Elt F) → (⟨S4502, .i32⟩ : BufTy).Contents (Elt F)),
    StableHlo.ternary main_v42 main_v44 main_v8 main_v45 (select : (⟨S4502, .i1⟩ : BufTy).Contents (Elt F) → (⟨S4502, .i32⟩ : BufTy).Contents (Elt F) → (⟨S4502, .i32⟩ : BufTy).Contents (Elt F) → (⟨S4502, .i32⟩ : BufTy).Contents (Elt F)),
    StableHlo.unary main_v45 main_v46 (broadcastInDim S4502x1 ![0] bcast_S4502_S4502x1_0 : (⟨S4502, .i32⟩ : BufTy).Contents (Elt F) → (⟨S4502x1, .i32⟩ : BufTy).Contents (Elt F)) ]

theorem ops0e_good : (ops0e : List (HloOp τ sig (Elt F))).Forall Good :=
  ⟨⟨nullary_bufs_sub .., rfl, main_c_5, by decide, rfl⟩,
    ⟨unary_bufs_sub .., rfl, main_v25, by decide, rfl⟩,
    ⟨binary_bufs_sub .., rfl, main_v26, by decide, rfl⟩,
    ⟨nullary_bufs_sub .., rfl, main_c_6, by decide, rfl⟩,
    ⟨unary_bufs_sub .., rfl, main_v27, by decide, rfl⟩,
    ⟨binary_bufs_sub .., rfl, main_v28, by decide, rfl⟩,
    ⟨ternary_bufs_sub .., rfl, main_v29, by decide, rfl⟩,
    ⟨unary_bufs_sub .., rfl, main_v30, by decide, rfl⟩,
    ⟨binary_bufs_sub .., rfl, main_v31, by decide, rfl⟩,
    ⟨nullary_bufs_sub .., rfl, main_c_7, by decide, rfl⟩,
    ⟨unary_bufs_sub .., rfl, main_v32, by decide, rfl⟩,
    ⟨binary_bufs_sub .., rfl, main_v33, by decide, rfl⟩,
    ⟨nullary_bufs_sub .., rfl, main_c_8, by decide, rfl⟩,
    ⟨unary_bufs_sub .., rfl, main_v34, by decide, rfl⟩,
    ⟨binary_bufs_sub .., rfl, main_v35, by decide, rfl⟩,
    ⟨ternary_bufs_sub .., rfl, main_v36, by decide, rfl⟩,
    ⟨unary_bufs_sub .., rfl, main_v37, by decide, rfl⟩,
    ⟨binary_bufs_sub .., rfl, main_v38, by decide, rfl⟩,
    ⟨binary_bufs_sub .., rfl, main_v39, by decide, rfl⟩,
    ⟨binary_bufs_sub .., rfl, main_v40, by decide, rfl⟩,
    ⟨nullary_bufs_sub .., rfl, main_c_9, by decide, rfl⟩,
    ⟨unary_bufs_sub .., rfl, main_v41, by decide, rfl⟩,
    ⟨binary_bufs_sub .., rfl, main_v42, by decide, rfl⟩,
    ⟨nullary_bufs_sub .., rfl, main_c_10, by decide, rfl⟩,
    ⟨unary_bufs_sub .., rfl, main_v43, by decide, rfl⟩,
    ⟨binary_bufs_sub .., rfl, main_v44, by decide, rfl⟩,
    ⟨ternary_bufs_sub .., rfl, main_v45, by decide, rfl⟩,
    ⟨unary_bufs_sub .., rfl, main_v46, by decide, rfl⟩⟩

/-- The first layer's sum over edges: the product's rows read at the sources, each times its edge's weight, added at the targets. (15 operations) -/
abbrev ops1a : List (HloOp τ sig (Elt F)) :=
  [ StableHlo.binary main_v40 main_v46 main_v47 ((fun x i => Host.gather gather_S128x502x256_S4502x1_S128x4502x256_02_1_n_n_1_1_1281256 x i) : (⟨S128x502x256, .f32⟩ : BufTy).Contents (Elt F) → (⟨S4502x1, .i32⟩ : BufTy).Contents (Elt F) → (⟨S128x4502x256, .f32⟩ : BufTy).Contents (Elt F)),
    StableHlo.unary main_v39 main_v48 (broadcastInDim S1x4502x1 ![1] bcast_S4502_S1x4502x1_1 : (⟨S4502, .f32⟩ : BufTy).Contents (Elt F) → (⟨S1x4502x1, .f32⟩ : BufTy).Contents (Elt F)),
    StableHlo.unary main_v48 main_v49 (broadcastInDim S128x4502x256 ![0, 1, 2] bcast_S1x4502x1_S128x4502x256_0_1_2 : (⟨S1x4502x1, .f32⟩ : BufTy).Contents (Elt F) → (⟨S128x4502x256, .f32⟩ : BufTy).Contents (Elt F)),
    StableHlo.binary main_v47 main_v49 main_v50 (mulf : (⟨S128x4502x256, .f32⟩ : BufTy).Contents (Elt F) → (⟨S128x4502x256, .f32⟩ : BufTy).Contents (Elt F) → (⟨S128x4502x256, .f32⟩ : BufTy).Contents (Elt F)),
    StableHlo.nullary main_cst_11 (constant S_ .f32 0x00000000#32),
    StableHlo.unary main_cst_11 main_v51 (broadcastInDim S128x502x256 ![] bcast_S_S128x502x256 : (⟨S_, .f32⟩ : BufTy).Contents (Elt F) → (⟨S128x502x256, .f32⟩ : BufTy).Contents (Elt F)),
    StableHlo.nullary main_c_12 (constantI S_ 32 0#32),
    StableHlo.unary main_c_12 main_v52 (broadcastInDim S4502 ![] bcast_S_S4502 : (⟨S_, .i32⟩ : BufTy).Contents (Elt F) → (⟨S4502, .i32⟩ : BufTy).Contents (Elt F)),
    StableHlo.binary main_v11 main_v52 main_v53 (cmpi .slt : (⟨S4502, .i32⟩ : BufTy).Contents (Elt F) → (⟨S4502, .i32⟩ : BufTy).Contents (Elt F) → (⟨S4502, .i1⟩ : BufTy).Contents (Elt F)),
    StableHlo.nullary main_c_13 (constantI S_ 32 502#32),
    StableHlo.unary main_c_13 main_v54 (broadcastInDim S4502 ![] bcast_S_S4502 : (⟨S_, .i32⟩ : BufTy).Contents (Elt F) → (⟨S4502, .i32⟩ : BufTy).Contents (Elt F)),
    StableHlo.binary main_v11 main_v54 main_v55 (addi : (⟨S4502, .i32⟩ : BufTy).Contents (Elt F) → (⟨S4502, .i32⟩ : BufTy).Contents (Elt F) → (⟨S4502, .i32⟩ : BufTy).Contents (Elt F)),
    StableHlo.ternary main_v53 main_v55 main_v11 main_v56 (select : (⟨S4502, .i1⟩ : BufTy).Contents (Elt F) → (⟨S4502, .i32⟩ : BufTy).Contents (Elt F) → (⟨S4502, .i32⟩ : BufTy).Contents (Elt F) → (⟨S4502, .i32⟩ : BufTy).Contents (Elt F)),
    StableHlo.unary main_v56 main_v57 (broadcastInDim S4502x1 ![0] bcast_S4502_S4502x1_0 : (⟨S4502, .i32⟩ : BufTy).Contents (Elt F) → (⟨S4502x1, .i32⟩ : BufTy).Contents (Elt F)),
    StableHlo.ternary main_v51 main_v57 main_v50 main_v58 ((fun x i u => Host.scatterAdd scatter_S128x502x256_S4502x1_S128x4502x256_02_1_1_1 x i u) : (⟨S128x502x256, .f32⟩ : BufTy).Contents (Elt F) → (⟨S4502x1, .i32⟩ : BufTy).Contents (Elt F) → (⟨S128x4502x256, .f32⟩ : BufTy).Contents (Elt F) → (⟨S128x502x256, .f32⟩ : BufTy).Contents (Elt F)) ]

theorem ops1a_good : (ops1a : List (HloOp τ sig (Elt F))).Forall Good :=
  ⟨⟨binary_bufs_sub .., rfl, main_v47, by decide, rfl⟩,
    ⟨unary_bufs_sub .., rfl, main_v48, by decide, rfl⟩,
    ⟨unary_bufs_sub .., rfl, main_v49, by decide, rfl⟩,
    ⟨binary_bufs_sub .., rfl, main_v50, by decide, rfl⟩,
    ⟨nullary_bufs_sub .., rfl, main_cst_11, by decide, rfl⟩,
    ⟨unary_bufs_sub .., rfl, main_v51, by decide, rfl⟩,
    ⟨nullary_bufs_sub .., rfl, main_c_12, by decide, rfl⟩,
    ⟨unary_bufs_sub .., rfl, main_v52, by decide, rfl⟩,
    ⟨binary_bufs_sub .., rfl, main_v53, by decide, rfl⟩,
    ⟨nullary_bufs_sub .., rfl, main_c_13, by decide, rfl⟩,
    ⟨unary_bufs_sub .., rfl, main_v54, by decide, rfl⟩,
    ⟨binary_bufs_sub .., rfl, main_v55, by decide, rfl⟩,
    ⟨ternary_bufs_sub .., rfl, main_v56, by decide, rfl⟩,
    ⟨unary_bufs_sub .., rfl, main_v57, by decide, rfl⟩,
    ⟨ternary_bufs_sub .., rfl, main_v58, by decide, rfl⟩⟩

/-- The first layer's bias added; every feature's mean and biased variance over all 64256 rows; the feature minus its mean,
    times the inverse square root of variance plus epsilon, times the scale, plus the shift. (34 operations) -/
abbrev ops1b : List (HloOp τ sig (Elt F)) :=
  [ StableHlo.unary main_arg4 main_v59 (broadcastInDim S1x1x256 ![2] bcast_S256_S1x1x256_2 : (⟨S256, .f32⟩ : BufTy).Contents (Elt F) → (⟨S1x1x256, .f32⟩ : BufTy).Contents (Elt F)),
    StableHlo.unary main_v59 main_v60 (broadcastInDim S128x502x256 ![0, 1, 2] bcast_S1x1x256_S128x502x256_0_1_2 : (⟨S1x1x256, .f32⟩ : BufTy).Contents (Elt F) → (⟨S128x502x256, .f32⟩ : BufTy).Contents (Elt F)),
    StableHlo.binary main_v58 main_v60 main_v61 (addf : (⟨S128x502x256, .f32⟩ : BufTy).Contents (Elt F) → (⟨S128x502x256, .f32⟩ : BufTy).Contents (Elt F) → (⟨S128x502x256, .f32⟩ : BufTy).Contents (Elt F)),
    StableHlo.reshape main_v61 main_v62 rfl shapeCasts_S128x502x256_S64256x256,
    StableHlo.nullary main_cst_14 (constant S_ .f32 0x00000000#32),
    StableHlo.binary main_v62 main_cst_14 main_v63 ((fun x v => Host.reduceAdd x v reducesTo_S64256x256_S256_d0 h_S_) : (⟨S64256x256, .f32⟩ : BufTy).Contents (Elt F) → (⟨S_, .f32⟩ : BufTy).Contents (Elt F) → (⟨S256, .f32⟩ : BufTy).Contents (Elt F)),
    StableHlo.nullary main_cst_15 (constant S_ .f32 0x477B0000#32),
    StableHlo.unary main_cst_15 main_v64 (broadcastInDim S256 ![] bcast_S_S256 : (⟨S_, .f32⟩ : BufTy).Contents (Elt F) → (⟨S256, .f32⟩ : BufTy).Contents (Elt F)),
    StableHlo.binary main_v63 main_v64 main_v65 (Host.divf : (⟨S256, .f32⟩ : BufTy).Contents (Elt F) → (⟨S256, .f32⟩ : BufTy).Contents (Elt F) → (⟨S256, .f32⟩ : BufTy).Contents (Elt F)),
    StableHlo.unary main_v65 main_v66 (broadcastInDim S1x256 ![1] bcast_S256_S1x256_1 : (⟨S256, .f32⟩ : BufTy).Contents (Elt F) → (⟨S1x256, .f32⟩ : BufTy).Contents (Elt F)),
    StableHlo.unary main_v66 main_v67 (broadcastInDim S64256x256 ![0, 1] bcast_S1x256_S64256x256_0_1 : (⟨S1x256, .f32⟩ : BufTy).Contents (Elt F) → (⟨S64256x256, .f32⟩ : BufTy).Contents (Elt F)),
    StableHlo.binary main_v62 main_v67 main_v68 (subf : (⟨S64256x256, .f32⟩ : BufTy).Contents (Elt F) → (⟨S64256x256, .f32⟩ : BufTy).Contents (Elt F) → (⟨S64256x256, .f32⟩ : BufTy).Contents (Elt F)),
    StableHlo.binary main_v68 main_v68 main_v69 (mulf : (⟨S64256x256, .f32⟩ : BufTy).Contents (Elt F) → (⟨S64256x256, .f32⟩ : BufTy).Contents (Elt F) → (⟨S64256x256, .f32⟩ : BufTy).Contents (Elt F)),
    StableHlo.nullary main_cst_16 (constant S_ .f32 0x00000000#32),
    StableHlo.binary main_v69 main_cst_16 main_v70 ((fun x v => Host.reduceAdd x v reducesTo_S64256x256_S256_d0 h_S_) : (⟨S64256x256, .f32⟩ : BufTy).Contents (Elt F) → (⟨S_, .f32⟩ : BufTy).Contents (Elt F) → (⟨S256, .f32⟩ : BufTy).Contents (Elt F)),
    StableHlo.nullary main_cst_17 (constant S_ .f32 0x477B0000#32),
    StableHlo.unary main_cst_17 main_v71 (broadcastInDim S256 ![] bcast_S_S256 : (⟨S_, .f32⟩ : BufTy).Contents (Elt F) → (⟨S256, .f32⟩ : BufTy).Contents (Elt F)),
    StableHlo.binary main_v70 main_v71 main_v72 (Host.divf : (⟨S256, .f32⟩ : BufTy).Contents (Elt F) → (⟨S256, .f32⟩ : BufTy).Contents (Elt F) → (⟨S256, .f32⟩ : BufTy).Contents (Elt F)),
    StableHlo.unary main_v65 main_v73 (broadcastInDim S1x256 ![1] bcast_S256_S1x256_1 : (⟨S256, .f32⟩ : BufTy).Contents (Elt F) → (⟨S1x256, .f32⟩ : BufTy).Contents (Elt F)),
    StableHlo.unary main_v73 main_v74 (broadcastInDim S64256x256 ![0, 1] bcast_S1x256_S64256x256_0_1 : (⟨S1x256, .f32⟩ : BufTy).Contents (Elt F) → (⟨S64256x256, .f32⟩ : BufTy).Contents (Elt F)),
    StableHlo.binary main_v62 main_v74 main_v75 (subf : (⟨S64256x256, .f32⟩ : BufTy).Contents (Elt F) → (⟨S64256x256, .f32⟩ : BufTy).Contents (Elt F) → (⟨S64256x256, .f32⟩ : BufTy).Contents (Elt F)),
    StableHlo.nullary main_cst_18 (constant S_ .f32 0x3727C5AC#32),
    StableHlo.unary main_cst_18 main_v76 (broadcastInDim S256 ![] bcast_S_S256 : (⟨S_, .f32⟩ : BufTy).Contents (Elt F) → (⟨S256, .f32⟩ : BufTy).Contents (Elt F)),
    StableHlo.binary main_v72 main_v76 main_v77 (addf : (⟨S256, .f32⟩ : BufTy).Contents (Elt F) → (⟨S256, .f32⟩ : BufTy).Contents (Elt F) → (⟨S256, .f32⟩ : BufTy).Contents (Elt F)),
    StableHlo.unary main_v77 main_v78 (Host.rsqrt : (⟨S256, .f32⟩ : BufTy).Contents (Elt F) → (⟨S256, .f32⟩ : BufTy).Contents (Elt F)),
    StableHlo.unary main_v78 main_v79 (broadcastInDim S1x256 ![1] bcast_S256_S1x256_1 : (⟨S256, .f32⟩ : BufTy).Contents (Elt F) → (⟨S1x256, .f32⟩ : BufTy).Contents (Elt F)),
    StableHlo.unary main_v79 main_v80 (broadcastInDim S64256x256 ![0, 1] bcast_S1x256_S64256x256_0_1 : (⟨S1x256, .f32⟩ : BufTy).Contents (Elt F) → (⟨S64256x256, .f32⟩ : BufTy).Contents (Elt F)),
    StableHlo.binary main_v75 main_v80 main_v81 (mulf : (⟨S64256x256, .f32⟩ : BufTy).Contents (Elt F) → (⟨S64256x256, .f32⟩ : BufTy).Contents (Elt F) → (⟨S64256x256, .f32⟩ : BufTy).Contents (Elt F)),
    StableHlo.unary main_arg5 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S64256x256 ![0, 1] bcast_S1x256_S64256x256_0_1 : (⟨S1x256, .f32⟩ : BufTy).Contents (Elt F) → (⟨S64256x256, .f32⟩ : BufTy).Contents (Elt F)),
    StableHlo.binary main_v81 main_v83 main_v84 (mulf : (⟨S64256x256, .f32⟩ : BufTy).Contents (Elt F) → (⟨S64256x256, .f32⟩ : BufTy).Contents (Elt F) → (⟨S64256x256, .f32⟩ : BufTy).Contents (Elt F)),
    StableHlo.unary main_arg6 main_v85 (broadcastInDim S1x256 ![1] bcast_S256_S1x256_1 : (⟨S256, .f32⟩ : BufTy).Contents (Elt F) → (⟨S1x256, .f32⟩ : BufTy).Contents (Elt F)),
    StableHlo.unary main_v85 main_v86 (broadcastInDim S64256x256 ![0, 1] bcast_S1x256_S64256x256_0_1 : (⟨S1x256, .f32⟩ : BufTy).Contents (Elt F) → (⟨S64256x256, .f32⟩ : BufTy).Contents (Elt F)),
    StableHlo.binary main_v84 main_v86 main_v87 (addf : (⟨S64256x256, .f32⟩ : BufTy).Contents (Elt F) → (⟨S64256x256, .f32⟩ : BufTy).Contents (Elt F) → (⟨S64256x256, .f32⟩ : BufTy).Contents (Elt F)) ]

theorem ops1b_good : (ops1b : List (HloOp τ sig (Elt F))).Forall Good :=
  ⟨⟨unary_bufs_sub .., rfl, main_v59, by decide, rfl⟩,
    ⟨unary_bufs_sub .., rfl, main_v60, by decide, rfl⟩,
    ⟨binary_bufs_sub .., rfl, main_v61, by decide, rfl⟩,
    ⟨reshape_bufs_sub .., rfl, main_v62, by decide, rfl⟩,
    ⟨nullary_bufs_sub .., rfl, main_cst_14, by decide, rfl⟩,
    ⟨binary_bufs_sub .., rfl, main_v63, by decide, rfl⟩,
    ⟨nullary_bufs_sub .., rfl, main_cst_15, by decide, rfl⟩,
    ⟨unary_bufs_sub .., rfl, main_v64, by decide, rfl⟩,
    ⟨binary_bufs_sub .., rfl, main_v65, by decide, rfl⟩,
    ⟨unary_bufs_sub .., rfl, main_v66, by decide, rfl⟩,
    ⟨unary_bufs_sub .., rfl, main_v67, by decide, rfl⟩,
    ⟨binary_bufs_sub .., rfl, main_v68, by decide, rfl⟩,
    ⟨binary_bufs_sub .., rfl, main_v69, by decide, rfl⟩,
    ⟨nullary_bufs_sub .., rfl, main_cst_16, by decide, rfl⟩,
    ⟨binary_bufs_sub .., rfl, main_v70, by decide, rfl⟩,
    ⟨nullary_bufs_sub .., rfl, main_cst_17, by decide, rfl⟩,
    ⟨unary_bufs_sub .., rfl, main_v71, by decide, rfl⟩,
    ⟨binary_bufs_sub .., rfl, main_v72, by decide, rfl⟩,
    ⟨unary_bufs_sub .., rfl, main_v73, by decide, rfl⟩,
    ⟨unary_bufs_sub .., rfl, main_v74, by decide, rfl⟩,
    ⟨binary_bufs_sub .., rfl, main_v75, by decide, rfl⟩,
    ⟨nullary_bufs_sub .., rfl, main_cst_18, by decide, rfl⟩,
    ⟨unary_bufs_sub .., rfl, main_v76, by decide, rfl⟩,
    ⟨binary_bufs_sub .., rfl, main_v77, by decide, rfl⟩,
    ⟨unary_bufs_sub .., rfl, main_v78, by decide, rfl⟩,
    ⟨unary_bufs_sub .., rfl, main_v79, by decide, rfl⟩,
    ⟨unary_bufs_sub .., rfl, main_v80, by decide, rfl⟩,
    ⟨binary_bufs_sub .., rfl, main_v81, by decide, rfl⟩,
    ⟨unary_bufs_sub .., rfl, main_v82, by decide, rfl⟩,
    ⟨unary_bufs_sub .., rfl, main_v83, by decide, rfl⟩,
    ⟨binary_bufs_sub .., rfl, main_v84, by decide, rfl⟩,
    ⟨unary_bufs_sub .., rfl, main_v85, by decide, rfl⟩,
    ⟨unary_bufs_sub .., rfl, main_v86, by decide, rfl⟩,
    ⟨binary_bufs_sub .., rfl, main_v87, by decide, rfl⟩⟩

/-- The first layer's unit: z where 0 < z, else exp z - 1. (15 operations) -/
abbrev ops1c : List (HloOp τ sig (Elt F)) :=
  [ StableHlo.TRef.nullary main_call1.cst (constant S_ .f32 0x00000000#32),
    StableHlo.TRef.unary main_call1.cst main_call1.v0 (broadcastInDim S64256x256 ![] bcast_S_S64256x256),
    StableHlo.TRef.binary (.of main_v87 : StableHlo.TRef sig ⟨S64256x256, .f32⟩) main_call1.v0 main_call1.v1 (cmpf .ogt),
    StableHlo.TRef.nullary main_call1.cst_0 (constant S_ .f32 0x00000000#32),
    StableHlo.TRef.unary main_call1.cst_0 main_call1.v2 (broadcastInDim S64256x256 ![] bcast_S_S64256x256),
    StableHlo.TRef.binary (.of main_v87 : StableHlo.TRef sig ⟨S64256x256, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S64256x256 ![] bcast_S_S64256x256),
    StableHlo.TRef.ternary main_call1.v3 main_call1.call0.v1 (.of main_v87 : StableHlo.TRef sig ⟨S64256x256, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S64256x256 ![] bcast_S_S64256x256),
    StableHlo.TRef.binary main_call1.v6 main_call1.v5 main_call1.v7 mulf,
    StableHlo.TRef.ternary main_call1.v1 (.of main_v87 : StableHlo.TRef sig ⟨S64256x256, .f32⟩) main_call1.v7 main_call1.call1.v0 select ]

theorem ops1c_good : (ops1c : List (HloOp τ sig (Elt F))).Forall Good :=
  ⟨⟨nullary_bufs_sub .., rfl, main_call1.cst.ref, by decide, rfl⟩,
    ⟨unary_bufs_sub .., rfl, main_call1.v0.ref, by decide, rfl⟩,
    ⟨binary_bufs_sub .., rfl, main_call1.v1.ref, by decide, rfl⟩,
    ⟨nullary_bufs_sub .., rfl, main_call1.cst_0.ref, by decide, rfl⟩,
    ⟨unary_bufs_sub .., rfl, main_call1.v2.ref, by decide, rfl⟩,
    ⟨binary_bufs_sub .., rfl, main_call1.v3.ref, by decide, rfl⟩,
    ⟨nullary_bufs_sub .., rfl, main_call1.cst_1.ref, by decide, rfl⟩,
    ⟨unary_bufs_sub .., rfl, main_call1.call0.v0.ref, by decide, rfl⟩,
    ⟨unary_bufs_sub .., rfl, main_call1.call0.v1.ref, by decide, rfl⟩,
    ⟨ternary_bufs_sub .., rfl, main_call1.call0.v2.ref, by decide, rfl⟩,
    ⟨unary_bufs_sub .., rfl, main_call1.v5.ref, by decide, rfl⟩,
    ⟨nullary_bufs_sub .., rfl, main_call1.cst_2.ref, by decide, rfl⟩,
    ⟨unary_bufs_sub .., rfl, main_call1.v6.ref, by decide, rfl⟩,
    ⟨binary_bufs_sub .., rfl, main_call1.v7.ref, by decide, rfl⟩,
    ⟨ternary_bufs_sub .., rfl, main_call1.call1.v0.ref, by decide, rfl⟩⟩

/-- The first layer's output in its three axes again, times the second weight matrix; the sources as indices once more. (10 operations) -/
abbrev ops1d : List (HloOp τ sig (Elt F)) :=
  [ StableHlo.reshape main_v88 main_v89 rfl shapeCasts_S64256x256_S128x502x256,
    StableHlo.binary main_v89 main_arg7 main_v90 ((fun l r => Host.dotGeneral dot_S128x502x256_S256x256_S128x502x256_2_0_01_1_n_n none l r) : (⟨S128x502x256, .f32⟩ : BufTy).Contents (Elt F) → (⟨S256x256, .f32⟩ : BufTy).Contents (Elt F) → (⟨S128x502x256, .f32⟩ : BufTy).Contents (Elt F)),
    StableHlo.nullary main_c_19 (constantI S_ 32 0#32),
    StableHlo.unary main_c_19 main_v91 (broadcastInDim S4502 ![] bcast_S_S4502 : (⟨S_, .i32⟩ : BufTy).Contents (Elt F) → (⟨S4502, .i32⟩ : BufTy).Contents (Elt F)),
    StableHlo.binary main_v8 main_v91 main_v92 (cmpi .slt : (⟨S4502, .i32⟩ : BufTy).Contents (Elt F) → (⟨S4502, .i32⟩ : BufTy).Contents (Elt F) → (⟨S4502, .i1⟩ : BufTy).Contents (Elt F)),
    StableHlo.nullary main_c_20 (constantI S_ 32 502#32),
    StableHlo.unary main_c_20 main_v93 (broadcastInDim S4502 ![] bcast_S_S4502 : (⟨S_, .i32⟩ : BufTy).Contents (Elt F) → (⟨S4502, .i32⟩ : BufTy).Contents (Elt F)),
    StableHlo.binary main_v8 main_v93 main_v94 (addi : (⟨S4502, .i32⟩ : BufTy).Contents (Elt F) → (⟨S4502, .i32⟩ : BufTy).Contents (Elt F) → (⟨S4502, .i32⟩ : BufTy).Contents (Elt F)),
    StableHlo.ternary main_v92 main_v94 main_v8 main_v95 (select : (⟨S4502, .i1⟩ : BufTy).Contents (Elt F) → (⟨S4502, .i32⟩ : BufTy).Contents (Elt F) → (⟨S4502, .i32⟩ : BufTy).Contents (Elt F) → (⟨S4502, .i32⟩ : BufTy).Contents (Elt F)),
    StableHlo.unary main_v95 main_v96 (broadcastInDim S4502x1 ![0] bcast_S4502_S4502x1_0 : (⟨S4502, .i32⟩ : BufTy).Contents (Elt F) → (⟨S4502x1, .i32⟩ : BufTy).Contents (Elt F)) ]

theorem ops1d_good : (ops1d : List (HloOp τ sig (Elt F))).Forall Good :=
  ⟨⟨reshape_bufs_sub .., rfl, main_v89, by decide, rfl⟩,
    ⟨binary_bufs_sub .., rfl, main_v90, by decide, rfl⟩,
    ⟨nullary_bufs_sub .., rfl, main_c_19, by decide, rfl⟩,
    ⟨unary_bufs_sub .., rfl, main_v91, by decide, rfl⟩,
    ⟨binary_bufs_sub .., rfl, main_v92, by decide, rfl⟩,
    ⟨nullary_bufs_sub .., rfl, main_c_20, by decide, rfl⟩,
    ⟨unary_bufs_sub .., rfl, main_v93, by decide, rfl⟩,
    ⟨binary_bufs_sub .., rfl, main_v94, by decide, rfl⟩,
    ⟨ternary_bufs_sub .., rfl, main_v95, by decide, rfl⟩,
    ⟨unary_bufs_sub .., rfl, main_v96, by decide, rfl⟩⟩

/-- The second layer's sum over edges: the product's rows read at the sources, each times its edge's weight, added at the targets. (15 operations) -/
abbrev ops2a : List (HloOp τ sig (Elt F)) :=
  [ StableHlo.binary main_v90 main_v96 main_v97 ((fun x i => Host.gather gather_S128x502x256_S4502x1_S128x4502x256_02_1_n_n_1_1_1281256 x i) : (⟨S128x502x256, .f32⟩ : BufTy).Contents (Elt F) → (⟨S4502x1, .i32⟩ : BufTy).Contents (Elt F) → (⟨S128x4502x256, .f32⟩ : BufTy).Contents (Elt F)),
    StableHlo.unary main_v39 main_v98 (broadcastInDim S1x4502x1 ![1] bcast_S4502_S1x4502x1_1 : (⟨S4502, .f32⟩ : BufTy).Contents (Elt F) → (⟨S1x4502x1, .f32⟩ : BufTy).Contents (Elt F)),
    StableHlo.unary main_v98 main_v99 (broadcastInDim S128x4502x256 ![0, 1, 2] bcast_S1x4502x1_S128x4502x256_0_1_2 : (⟨S1x4502x1, .f32⟩ : BufTy).Contents (Elt F) → (⟨S128x4502x256, .f32⟩ : BufTy).Contents (Elt F)),
    StableHlo.binary main_v97 main_v99 main_v100 (mulf : (⟨S128x4502x256, .f32⟩ : BufTy).Contents (Elt F) → (⟨S128x4502x256, .f32⟩ : BufTy).Contents (Elt F) → (⟨S128x4502x256, .f32⟩ : BufTy).Contents (Elt F)),
    StableHlo.nullary main_cst_21 (constant S_ .f32 0x00000000#32),
    StableHlo.unary main_cst_21 main_v101 (broadcastInDim S128x502x256 ![] bcast_S_S128x502x256 : (⟨S_, .f32⟩ : BufTy).Contents (Elt F) → (⟨S128x502x256, .f32⟩ : BufTy).Contents (Elt F)),
    StableHlo.nullary main_c_22 (constantI S_ 32 0#32),
    StableHlo.unary main_c_22 main_v102 (broadcastInDim S4502 ![] bcast_S_S4502 : (⟨S_, .i32⟩ : BufTy).Contents (Elt F) → (⟨S4502, .i32⟩ : BufTy).Contents (Elt F)),
    StableHlo.binary main_v11 main_v102 main_v103 (cmpi .slt : (⟨S4502, .i32⟩ : BufTy).Contents (Elt F) → (⟨S4502, .i32⟩ : BufTy).Contents (Elt F) → (⟨S4502, .i1⟩ : BufTy).Contents (Elt F)),
    StableHlo.nullary main_c_23 (constantI S_ 32 502#32),
    StableHlo.unary main_c_23 main_v104 (broadcastInDim S4502 ![] bcast_S_S4502 : (⟨S_, .i32⟩ : BufTy).Contents (Elt F) → (⟨S4502, .i32⟩ : BufTy).Contents (Elt F)),
    StableHlo.binary main_v11 main_v104 main_v105 (addi : (⟨S4502, .i32⟩ : BufTy).Contents (Elt F) → (⟨S4502, .i32⟩ : BufTy).Contents (Elt F) → (⟨S4502, .i32⟩ : BufTy).Contents (Elt F)),
    StableHlo.ternary main_v103 main_v105 main_v11 main_v106 (select : (⟨S4502, .i1⟩ : BufTy).Contents (Elt F) → (⟨S4502, .i32⟩ : BufTy).Contents (Elt F) → (⟨S4502, .i32⟩ : BufTy).Contents (Elt F) → (⟨S4502, .i32⟩ : BufTy).Contents (Elt F)),
    StableHlo.unary main_v106 main_v107 (broadcastInDim S4502x1 ![0] bcast_S4502_S4502x1_0 : (⟨S4502, .i32⟩ : BufTy).Contents (Elt F) → (⟨S4502x1, .i32⟩ : BufTy).Contents (Elt F)),
    StableHlo.ternary main_v101 main_v107 main_v100 main_v108 ((fun x i u => Host.scatterAdd scatter_S128x502x256_S4502x1_S128x4502x256_02_1_1_1 x i u) : (⟨S128x502x256, .f32⟩ : BufTy).Contents (Elt F) → (⟨S4502x1, .i32⟩ : BufTy).Contents (Elt F) → (⟨S128x4502x256, .f32⟩ : BufTy).Contents (Elt F) → (⟨S128x502x256, .f32⟩ : BufTy).Contents (Elt F)) ]

theorem ops2a_good : (ops2a : List (HloOp τ sig (Elt F))).Forall Good :=
  ⟨⟨binary_bufs_sub .., rfl, main_v97, by decide, rfl⟩,
    ⟨unary_bufs_sub .., rfl, main_v98, by decide, rfl⟩,
    ⟨unary_bufs_sub .., rfl, main_v99, by decide, rfl⟩,
    ⟨binary_bufs_sub .., rfl, main_v100, by decide, rfl⟩,
    ⟨nullary_bufs_sub .., rfl, main_cst_21, by decide, rfl⟩,
    ⟨unary_bufs_sub .., rfl, main_v101, by decide, rfl⟩,
    ⟨nullary_bufs_sub .., rfl, main_c_22, by decide, rfl⟩,
    ⟨unary_bufs_sub .., rfl, main_v102, by decide, rfl⟩,
    ⟨binary_bufs_sub .., rfl, main_v103, by decide, rfl⟩,
    ⟨nullary_bufs_sub .., rfl, main_c_23, by decide, rfl⟩,
    ⟨unary_bufs_sub .., rfl, main_v104, by decide, rfl⟩,
    ⟨binary_bufs_sub .., rfl, main_v105, by decide, rfl⟩,
    ⟨ternary_bufs_sub .., rfl, main_v106, by decide, rfl⟩,
    ⟨unary_bufs_sub .., rfl, main_v107, by decide, rfl⟩,
    ⟨ternary_bufs_sub .., rfl, main_v108, by decide, rfl⟩⟩

/-- The second layer's bias added; every feature's mean and biased variance over all 64256 rows; the feature minus its mean,
    times the inverse square root of variance plus epsilon, times the scale, plus the shift. (34 operations) -/
abbrev ops2b : List (HloOp τ sig (Elt F)) :=
  [ StableHlo.unary main_arg8 main_v109 (broadcastInDim S1x1x256 ![2] bcast_S256_S1x1x256_2 : (⟨S256, .f32⟩ : BufTy).Contents (Elt F) → (⟨S1x1x256, .f32⟩ : BufTy).Contents (Elt F)),
    StableHlo.unary main_v109 main_v110 (broadcastInDim S128x502x256 ![0, 1, 2] bcast_S1x1x256_S128x502x256_0_1_2 : (⟨S1x1x256, .f32⟩ : BufTy).Contents (Elt F) → (⟨S128x502x256, .f32⟩ : BufTy).Contents (Elt F)),
    StableHlo.binary main_v108 main_v110 main_v111 (addf : (⟨S128x502x256, .f32⟩ : BufTy).Contents (Elt F) → (⟨S128x502x256, .f32⟩ : BufTy).Contents (Elt F) → (⟨S128x502x256, .f32⟩ : BufTy).Contents (Elt F)),
    StableHlo.reshape main_v111 main_v112 rfl shapeCasts_S128x502x256_S64256x256,
    StableHlo.nullary main_cst_24 (constant S_ .f32 0x00000000#32),
    StableHlo.binary main_v112 main_cst_24 main_v113 ((fun x v => Host.reduceAdd x v reducesTo_S64256x256_S256_d0 h_S_) : (⟨S64256x256, .f32⟩ : BufTy).Contents (Elt F) → (⟨S_, .f32⟩ : BufTy).Contents (Elt F) → (⟨S256, .f32⟩ : BufTy).Contents (Elt F)),
    StableHlo.nullary main_cst_25 (constant S_ .f32 0x477B0000#32),
    StableHlo.unary main_cst_25 main_v114 (broadcastInDim S256 ![] bcast_S_S256 : (⟨S_, .f32⟩ : BufTy).Contents (Elt F) → (⟨S256, .f32⟩ : BufTy).Contents (Elt F)),
    StableHlo.binary main_v113 main_v114 main_v115 (Host.divf : (⟨S256, .f32⟩ : BufTy).Contents (Elt F) → (⟨S256, .f32⟩ : BufTy).Contents (Elt F) → (⟨S256, .f32⟩ : BufTy).Contents (Elt F)),
    StableHlo.unary main_v115 main_v116 (broadcastInDim S1x256 ![1] bcast_S256_S1x256_1 : (⟨S256, .f32⟩ : BufTy).Contents (Elt F) → (⟨S1x256, .f32⟩ : BufTy).Contents (Elt F)),
    StableHlo.unary main_v116 main_v117 (broadcastInDim S64256x256 ![0, 1] bcast_S1x256_S64256x256_0_1 : (⟨S1x256, .f32⟩ : BufTy).Contents (Elt F) → (⟨S64256x256, .f32⟩ : BufTy).Contents (Elt F)),
    StableHlo.binary main_v112 main_v117 main_v118 (subf : (⟨S64256x256, .f32⟩ : BufTy).Contents (Elt F) → (⟨S64256x256, .f32⟩ : BufTy).Contents (Elt F) → (⟨S64256x256, .f32⟩ : BufTy).Contents (Elt F)),
    StableHlo.binary main_v118 main_v118 main_v119 (mulf : (⟨S64256x256, .f32⟩ : BufTy).Contents (Elt F) → (⟨S64256x256, .f32⟩ : BufTy).Contents (Elt F) → (⟨S64256x256, .f32⟩ : BufTy).Contents (Elt F)),
    StableHlo.nullary main_cst_26 (constant S_ .f32 0x00000000#32),
    StableHlo.binary main_v119 main_cst_26 main_v120 ((fun x v => Host.reduceAdd x v reducesTo_S64256x256_S256_d0 h_S_) : (⟨S64256x256, .f32⟩ : BufTy).Contents (Elt F) → (⟨S_, .f32⟩ : BufTy).Contents (Elt F) → (⟨S256, .f32⟩ : BufTy).Contents (Elt F)),
    StableHlo.nullary main_cst_27 (constant S_ .f32 0x477B0000#32),
    StableHlo.unary main_cst_27 main_v121 (broadcastInDim S256 ![] bcast_S_S256 : (⟨S_, .f32⟩ : BufTy).Contents (Elt F) → (⟨S256, .f32⟩ : BufTy).Contents (Elt F)),
    StableHlo.binary main_v120 main_v121 main_v122 (Host.divf : (⟨S256, .f32⟩ : BufTy).Contents (Elt F) → (⟨S256, .f32⟩ : BufTy).Contents (Elt F) → (⟨S256, .f32⟩ : BufTy).Contents (Elt F)),
    StableHlo.unary main_v115 main_v123 (broadcastInDim S1x256 ![1] bcast_S256_S1x256_1 : (⟨S256, .f32⟩ : BufTy).Contents (Elt F) → (⟨S1x256, .f32⟩ : BufTy).Contents (Elt F)),
    StableHlo.unary main_v123 main_v124 (broadcastInDim S64256x256 ![0, 1] bcast_S1x256_S64256x256_0_1 : (⟨S1x256, .f32⟩ : BufTy).Contents (Elt F) → (⟨S64256x256, .f32⟩ : BufTy).Contents (Elt F)),
    StableHlo.binary main_v112 main_v124 main_v125 (subf : (⟨S64256x256, .f32⟩ : BufTy).Contents (Elt F) → (⟨S64256x256, .f32⟩ : BufTy).Contents (Elt F) → (⟨S64256x256, .f32⟩ : BufTy).Contents (Elt F)),
    StableHlo.nullary main_cst_28 (constant S_ .f32 0x3727C5AC#32),
    StableHlo.unary main_cst_28 main_v126 (broadcastInDim S256 ![] bcast_S_S256 : (⟨S_, .f32⟩ : BufTy).Contents (Elt F) → (⟨S256, .f32⟩ : BufTy).Contents (Elt F)),
    StableHlo.binary main_v122 main_v126 main_v127 (addf : (⟨S256, .f32⟩ : BufTy).Contents (Elt F) → (⟨S256, .f32⟩ : BufTy).Contents (Elt F) → (⟨S256, .f32⟩ : BufTy).Contents (Elt F)),
    StableHlo.unary main_v127 main_v128 (Host.rsqrt : (⟨S256, .f32⟩ : BufTy).Contents (Elt F) → (⟨S256, .f32⟩ : BufTy).Contents (Elt F)),
    StableHlo.unary main_v128 main_v129 (broadcastInDim S1x256 ![1] bcast_S256_S1x256_1 : (⟨S256, .f32⟩ : BufTy).Contents (Elt F) → (⟨S1x256, .f32⟩ : BufTy).Contents (Elt F)),
    StableHlo.unary main_v129 main_v130 (broadcastInDim S64256x256 ![0, 1] bcast_S1x256_S64256x256_0_1 : (⟨S1x256, .f32⟩ : BufTy).Contents (Elt F) → (⟨S64256x256, .f32⟩ : BufTy).Contents (Elt F)),
    StableHlo.binary main_v125 main_v130 main_v131 (mulf : (⟨S64256x256, .f32⟩ : BufTy).Contents (Elt F) → (⟨S64256x256, .f32⟩ : BufTy).Contents (Elt F) → (⟨S64256x256, .f32⟩ : BufTy).Contents (Elt F)),
    StableHlo.unary main_arg9 main_v132 (broadcastInDim S1x256 ![1] bcast_S256_S1x256_1 : (⟨S256, .f32⟩ : BufTy).Contents (Elt F) → (⟨S1x256, .f32⟩ : BufTy).Contents (Elt F)),
    StableHlo.unary main_v132 main_v133 (broadcastInDim S64256x256 ![0, 1] bcast_S1x256_S64256x256_0_1 : (⟨S1x256, .f32⟩ : BufTy).Contents (Elt F) → (⟨S64256x256, .f32⟩ : BufTy).Contents (Elt F)),
    StableHlo.binary main_v131 main_v133 main_v134 (mulf : (⟨S64256x256, .f32⟩ : BufTy).Contents (Elt F) → (⟨S64256x256, .f32⟩ : BufTy).Contents (Elt F) → (⟨S64256x256, .f32⟩ : BufTy).Contents (Elt F)),
    StableHlo.unary main_arg10 main_v135 (broadcastInDim S1x256 ![1] bcast_S256_S1x256_1 : (⟨S256, .f32⟩ : BufTy).Contents (Elt F) → (⟨S1x256, .f32⟩ : BufTy).Contents (Elt F)),
    StableHlo.unary main_v135 main_v136 (broadcastInDim S64256x256 ![0, 1] bcast_S1x256_S64256x256_0_1 : (⟨S1x256, .f32⟩ : BufTy).Contents (Elt F) → (⟨S64256x256, .f32⟩ : BufTy).Contents (Elt F)),
    StableHlo.binary main_v134 main_v136 main_v137 (addf : (⟨S64256x256, .f32⟩ : BufTy).Contents (Elt F) → (⟨S64256x256, .f32⟩ : BufTy).Contents (Elt F) → (⟨S64256x256, .f32⟩ : BufTy).Contents (Elt F)) ]

theorem ops2b_good : (ops2b : List (HloOp τ sig (Elt F))).Forall Good :=
  ⟨⟨unary_bufs_sub .., rfl, main_v109, by decide, rfl⟩,
    ⟨unary_bufs_sub .., rfl, main_v110, by decide, rfl⟩,
    ⟨binary_bufs_sub .., rfl, main_v111, by decide, rfl⟩,
    ⟨reshape_bufs_sub .., rfl, main_v112, by decide, rfl⟩,
    ⟨nullary_bufs_sub .., rfl, main_cst_24, by decide, rfl⟩,
    ⟨binary_bufs_sub .., rfl, main_v113, by decide, rfl⟩,
    ⟨nullary_bufs_sub .., rfl, main_cst_25, by decide, rfl⟩,
    ⟨unary_bufs_sub .., rfl, main_v114, by decide, rfl⟩,
    ⟨binary_bufs_sub .., rfl, main_v115, by decide, rfl⟩,
    ⟨unary_bufs_sub .., rfl, main_v116, by decide, rfl⟩,
    ⟨unary_bufs_sub .., rfl, main_v117, by decide, rfl⟩,
    ⟨binary_bufs_sub .., rfl, main_v118, by decide, rfl⟩,
    ⟨binary_bufs_sub .., rfl, main_v119, by decide, rfl⟩,
    ⟨nullary_bufs_sub .., rfl, main_cst_26, by decide, rfl⟩,
    ⟨binary_bufs_sub .., rfl, main_v120, by decide, rfl⟩,
    ⟨nullary_bufs_sub .., rfl, main_cst_27, by decide, rfl⟩,
    ⟨unary_bufs_sub .., rfl, main_v121, by decide, rfl⟩,
    ⟨binary_bufs_sub .., rfl, main_v122, by decide, rfl⟩,
    ⟨unary_bufs_sub .., rfl, main_v123, by decide, rfl⟩,
    ⟨unary_bufs_sub .., rfl, main_v124, by decide, rfl⟩,
    ⟨binary_bufs_sub .., rfl, main_v125, by decide, rfl⟩,
    ⟨nullary_bufs_sub .., rfl, main_cst_28, by decide, rfl⟩,
    ⟨unary_bufs_sub .., rfl, main_v126, by decide, rfl⟩,
    ⟨binary_bufs_sub .., rfl, main_v127, by decide, rfl⟩,
    ⟨unary_bufs_sub .., rfl, main_v128, by decide, rfl⟩,
    ⟨unary_bufs_sub .., rfl, main_v129, by decide, rfl⟩,
    ⟨unary_bufs_sub .., rfl, main_v130, by decide, rfl⟩,
    ⟨binary_bufs_sub .., rfl, main_v131, by decide, rfl⟩,
    ⟨unary_bufs_sub .., rfl, main_v132, by decide, rfl⟩,
    ⟨unary_bufs_sub .., rfl, main_v133, by decide, rfl⟩,
    ⟨binary_bufs_sub .., rfl, main_v134, by decide, rfl⟩,
    ⟨unary_bufs_sub .., rfl, main_v135, by decide, rfl⟩,
    ⟨unary_bufs_sub .., rfl, main_v136, by decide, rfl⟩,
    ⟨binary_bufs_sub .., rfl, main_v137, by decide, rfl⟩⟩

/-- The second layer's unit: z where 0 < z, else exp z - 1. (15 operations) -/
abbrev ops2c : List (HloOp τ sig (Elt F)) :=
  [ StableHlo.TRef.nullary main_call2.cst (constant S_ .f32 0x00000000#32),
    StableHlo.TRef.unary main_call2.cst main_call2.v0 (broadcastInDim S64256x256 ![] bcast_S_S64256x256),
    StableHlo.TRef.binary (.of main_v137 : StableHlo.TRef sig ⟨S64256x256, .f32⟩) main_call2.v0 main_call2.v1 (cmpf .ogt),
    StableHlo.TRef.nullary main_call2.cst_0 (constant S_ .f32 0x00000000#32),
    StableHlo.TRef.unary main_call2.cst_0 main_call2.v2 (broadcastInDim S64256x256 ![] bcast_S_S64256x256),
    StableHlo.TRef.binary (.of main_v137 : StableHlo.TRef sig ⟨S64256x256, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S64256x256 ![] bcast_S_S64256x256),
    StableHlo.TRef.ternary main_call2.v3 main_call2.call0.v1 (.of main_v137 : StableHlo.TRef sig ⟨S64256x256, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S64256x256 ![] bcast_S_S64256x256),
    StableHlo.TRef.binary main_call2.v6 main_call2.v5 main_call2.v7 mulf,
    StableHlo.TRef.ternary main_call2.v1 (.of main_v137 : StableHlo.TRef sig ⟨S64256x256, .f32⟩) main_call2.v7 main_call2.call1.v0 select ]

theorem ops2c_good : (ops2c : List (HloOp τ sig (Elt F))).Forall Good :=
  ⟨⟨nullary_bufs_sub .., rfl, main_call2.cst.ref, by decide, rfl⟩,
    ⟨unary_bufs_sub .., rfl, main_call2.v0.ref, by decide, rfl⟩,
    ⟨binary_bufs_sub .., rfl, main_call2.v1.ref, by decide, rfl⟩,
    ⟨nullary_bufs_sub .., rfl, main_call2.cst_0.ref, by decide, rfl⟩,
    ⟨unary_bufs_sub .., rfl, main_call2.v2.ref, by decide, rfl⟩,
    ⟨binary_bufs_sub .., rfl, main_call2.v3.ref, by decide, rfl⟩,
    ⟨nullary_bufs_sub .., rfl, main_call2.cst_1.ref, by decide, rfl⟩,
    ⟨unary_bufs_sub .., rfl, main_call2.call0.v0.ref, by decide, rfl⟩,
    ⟨unary_bufs_sub .., rfl, main_call2.call0.v1.ref, by decide, rfl⟩,
    ⟨ternary_bufs_sub .., rfl, main_call2.call0.v2.ref, by decide, rfl⟩,
    ⟨unary_bufs_sub .., rfl, main_call2.v5.ref, by decide, rfl⟩,
    ⟨nullary_bufs_sub .., rfl, main_call2.cst_2.ref, by decide, rfl⟩,
    ⟨unary_bufs_sub .., rfl, main_call2.v6.ref, by decide, rfl⟩,
    ⟨binary_bufs_sub .., rfl, main_call2.v7.ref, by decide, rfl⟩,
    ⟨ternary_bufs_sub .., rfl, main_call2.call1.v0.ref, by decide, rfl⟩⟩

/-- The second layer's output in its three axes again, times the third weight matrix; the sources as indices once more. (10 operations) -/
abbrev ops2d : List (HloOp τ sig (Elt F)) :=
  [ StableHlo.reshape main_v138 main_v139 rfl shapeCasts_S64256x256_S128x502x256,
    StableHlo.binary main_v139 main_arg11 main_v140 ((fun l r => Host.dotGeneral dot_S128x502x256_S256x256_S128x502x256_2_0_01_1_n_n none l r) : (⟨S128x502x256, .f32⟩ : BufTy).Contents (Elt F) → (⟨S256x256, .f32⟩ : BufTy).Contents (Elt F) → (⟨S128x502x256, .f32⟩ : BufTy).Contents (Elt F)),
    StableHlo.nullary main_c_29 (constantI S_ 32 0#32),
    StableHlo.unary main_c_29 main_v141 (broadcastInDim S4502 ![] bcast_S_S4502 : (⟨S_, .i32⟩ : BufTy).Contents (Elt F) → (⟨S4502, .i32⟩ : BufTy).Contents (Elt F)),
    StableHlo.binary main_v8 main_v141 main_v142 (cmpi .slt : (⟨S4502, .i32⟩ : BufTy).Contents (Elt F) → (⟨S4502, .i32⟩ : BufTy).Contents (Elt F) → (⟨S4502, .i1⟩ : BufTy).Contents (Elt F)),
    StableHlo.nullary main_c_30 (constantI S_ 32 502#32),
    StableHlo.unary main_c_30 main_v143 (broadcastInDim S4502 ![] bcast_S_S4502 : (⟨S_, .i32⟩ : BufTy).Contents (Elt F) → (⟨S4502, .i32⟩ : BufTy).Contents (Elt F)),
    StableHlo.binary main_v8 main_v143 main_v144 (addi : (⟨S4502, .i32⟩ : BufTy).Contents (Elt F) → (⟨S4502, .i32⟩ : BufTy).Contents (Elt F) → (⟨S4502, .i32⟩ : BufTy).Contents (Elt F)),
    StableHlo.ternary main_v142 main_v144 main_v8 main_v145 (select : (⟨S4502, .i1⟩ : BufTy).Contents (Elt F) → (⟨S4502, .i32⟩ : BufTy).Contents (Elt F) → (⟨S4502, .i32⟩ : BufTy).Contents (Elt F) → (⟨S4502, .i32⟩ : BufTy).Contents (Elt F)),
    StableHlo.unary main_v145 main_v146 (broadcastInDim S4502x1 ![0] bcast_S4502_S4502x1_0 : (⟨S4502, .i32⟩ : BufTy).Contents (Elt F) → (⟨S4502x1, .i32⟩ : BufTy).Contents (Elt F)) ]

theorem ops2d_good : (ops2d : List (HloOp τ sig (Elt F))).Forall Good :=
  ⟨⟨reshape_bufs_sub .., rfl, main_v139, by decide, rfl⟩,
    ⟨binary_bufs_sub .., rfl, main_v140, by decide, rfl⟩,
    ⟨nullary_bufs_sub .., rfl, main_c_29, by decide, rfl⟩,
    ⟨unary_bufs_sub .., rfl, main_v141, by decide, rfl⟩,
    ⟨binary_bufs_sub .., rfl, main_v142, by decide, rfl⟩,
    ⟨nullary_bufs_sub .., rfl, main_c_30, by decide, rfl⟩,
    ⟨unary_bufs_sub .., rfl, main_v143, by decide, rfl⟩,
    ⟨binary_bufs_sub .., rfl, main_v144, by decide, rfl⟩,
    ⟨ternary_bufs_sub .., rfl, main_v145, by decide, rfl⟩,
    ⟨unary_bufs_sub .., rfl, main_v146, by decide, rfl⟩⟩

/-- The third layer's sum over edges: the product's rows read at the sources, each times its edge's weight, added at the targets. (15 operations) -/
abbrev ops3a : List (HloOp τ sig (Elt F)) :=
  [ StableHlo.binary main_v140 main_v146 main_v147 ((fun x i => Host.gather gather_S128x502x256_S4502x1_S128x4502x256_02_1_n_n_1_1_1281256 x i) : (⟨S128x502x256, .f32⟩ : BufTy).Contents (Elt F) → (⟨S4502x1, .i32⟩ : BufTy).Contents (Elt F) → (⟨S128x4502x256, .f32⟩ : BufTy).Contents (Elt F)),
    StableHlo.unary main_v39 main_v148 (broadcastInDim S1x4502x1 ![1] bcast_S4502_S1x4502x1_1 : (⟨S4502, .f32⟩ : BufTy).Contents (Elt F) → (⟨S1x4502x1, .f32⟩ : BufTy).Contents (Elt F)),
    StableHlo.unary main_v148 main_v149 (broadcastInDim S128x4502x256 ![0, 1, 2] bcast_S1x4502x1_S128x4502x256_0_1_2 : (⟨S1x4502x1, .f32⟩ : BufTy).Contents (Elt F) → (⟨S128x4502x256, .f32⟩ : BufTy).Contents (Elt F)),
    StableHlo.binary main_v147 main_v149 main_v150 (mulf : (⟨S128x4502x256, .f32⟩ : BufTy).Contents (Elt F) → (⟨S128x4502x256, .f32⟩ : BufTy).Contents (Elt F) → (⟨S128x4502x256, .f32⟩ : BufTy).Contents (Elt F)),
    StableHlo.nullary main_cst_31 (constant S_ .f32 0x00000000#32),
    StableHlo.unary main_cst_31 main_v151 (broadcastInDim S128x502x256 ![] bcast_S_S128x502x256 : (⟨S_, .f32⟩ : BufTy).Contents (Elt F) → (⟨S128x502x256, .f32⟩ : BufTy).Contents (Elt F)),
    StableHlo.nullary main_c_32 (constantI S_ 32 0#32),
    StableHlo.unary main_c_32 main_v152 (broadcastInDim S4502 ![] bcast_S_S4502 : (⟨S_, .i32⟩ : BufTy).Contents (Elt F) → (⟨S4502, .i32⟩ : BufTy).Contents (Elt F)),
    StableHlo.binary main_v11 main_v152 main_v153 (cmpi .slt : (⟨S4502, .i32⟩ : BufTy).Contents (Elt F) → (⟨S4502, .i32⟩ : BufTy).Contents (Elt F) → (⟨S4502, .i1⟩ : BufTy).Contents (Elt F)),
    StableHlo.nullary main_c_33 (constantI S_ 32 502#32),
    StableHlo.unary main_c_33 main_v154 (broadcastInDim S4502 ![] bcast_S_S4502 : (⟨S_, .i32⟩ : BufTy).Contents (Elt F) → (⟨S4502, .i32⟩ : BufTy).Contents (Elt F)),
    StableHlo.binary main_v11 main_v154 main_v155 (addi : (⟨S4502, .i32⟩ : BufTy).Contents (Elt F) → (⟨S4502, .i32⟩ : BufTy).Contents (Elt F) → (⟨S4502, .i32⟩ : BufTy).Contents (Elt F)),
    StableHlo.ternary main_v153 main_v155 main_v11 main_v156 (select : (⟨S4502, .i1⟩ : BufTy).Contents (Elt F) → (⟨S4502, .i32⟩ : BufTy).Contents (Elt F) → (⟨S4502, .i32⟩ : BufTy).Contents (Elt F) → (⟨S4502, .i32⟩ : BufTy).Contents (Elt F)),
    StableHlo.unary main_v156 main_v157 (broadcastInDim S4502x1 ![0] bcast_S4502_S4502x1_0 : (⟨S4502, .i32⟩ : BufTy).Contents (Elt F) → (⟨S4502x1, .i32⟩ : BufTy).Contents (Elt F)),
    StableHlo.ternary main_v151 main_v157 main_v150 main_v158 ((fun x i u => Host.scatterAdd scatter_S128x502x256_S4502x1_S128x4502x256_02_1_1_1 x i u) : (⟨S128x502x256, .f32⟩ : BufTy).Contents (Elt F) → (⟨S4502x1, .i32⟩ : BufTy).Contents (Elt F) → (⟨S128x4502x256, .f32⟩ : BufTy).Contents (Elt F) → (⟨S128x502x256, .f32⟩ : BufTy).Contents (Elt F)) ]

theorem ops3a_good : (ops3a : List (HloOp τ sig (Elt F))).Forall Good :=
  ⟨⟨binary_bufs_sub .., rfl, main_v147, by decide, rfl⟩,
    ⟨unary_bufs_sub .., rfl, main_v148, by decide, rfl⟩,
    ⟨unary_bufs_sub .., rfl, main_v149, by decide, rfl⟩,
    ⟨binary_bufs_sub .., rfl, main_v150, by decide, rfl⟩,
    ⟨nullary_bufs_sub .., rfl, main_cst_31, by decide, rfl⟩,
    ⟨unary_bufs_sub .., rfl, main_v151, by decide, rfl⟩,
    ⟨nullary_bufs_sub .., rfl, main_c_32, by decide, rfl⟩,
    ⟨unary_bufs_sub .., rfl, main_v152, by decide, rfl⟩,
    ⟨binary_bufs_sub .., rfl, main_v153, by decide, rfl⟩,
    ⟨nullary_bufs_sub .., rfl, main_c_33, by decide, rfl⟩,
    ⟨unary_bufs_sub .., rfl, main_v154, by decide, rfl⟩,
    ⟨binary_bufs_sub .., rfl, main_v155, by decide, rfl⟩,
    ⟨ternary_bufs_sub .., rfl, main_v156, by decide, rfl⟩,
    ⟨unary_bufs_sub .., rfl, main_v157, by decide, rfl⟩,
    ⟨ternary_bufs_sub .., rfl, main_v158, by decide, rfl⟩⟩

/-- The third layer's bias added; every feature's mean and biased variance over all 64256 rows; the feature minus its mean,
    times the inverse square root of variance plus epsilon, times the scale, plus the shift. (34 operations) -/
abbrev ops3b : List (HloOp τ sig (Elt F)) :=
  [ StableHlo.unary main_arg12 main_v159 (broadcastInDim S1x1x256 ![2] bcast_S256_S1x1x256_2 : (⟨S256, .f32⟩ : BufTy).Contents (Elt F) → (⟨S1x1x256, .f32⟩ : BufTy).Contents (Elt F)),
    StableHlo.unary main_v159 main_v160 (broadcastInDim S128x502x256 ![0, 1, 2] bcast_S1x1x256_S128x502x256_0_1_2 : (⟨S1x1x256, .f32⟩ : BufTy).Contents (Elt F) → (⟨S128x502x256, .f32⟩ : BufTy).Contents (Elt F)),
    StableHlo.binary main_v158 main_v160 main_v161 (addf : (⟨S128x502x256, .f32⟩ : BufTy).Contents (Elt F) → (⟨S128x502x256, .f32⟩ : BufTy).Contents (Elt F) → (⟨S128x502x256, .f32⟩ : BufTy).Contents (Elt F)),
    StableHlo.reshape main_v161 main_v162 rfl shapeCasts_S128x502x256_S64256x256,
    StableHlo.nullary main_cst_34 (constant S_ .f32 0x00000000#32),
    StableHlo.binary main_v162 main_cst_34 main_v163 ((fun x v => Host.reduceAdd x v reducesTo_S64256x256_S256_d0 h_S_) : (⟨S64256x256, .f32⟩ : BufTy).Contents (Elt F) → (⟨S_, .f32⟩ : BufTy).Contents (Elt F) → (⟨S256, .f32⟩ : BufTy).Contents (Elt F)),
    StableHlo.nullary main_cst_35 (constant S_ .f32 0x477B0000#32),
    StableHlo.unary main_cst_35 main_v164 (broadcastInDim S256 ![] bcast_S_S256 : (⟨S_, .f32⟩ : BufTy).Contents (Elt F) → (⟨S256, .f32⟩ : BufTy).Contents (Elt F)),
    StableHlo.binary main_v163 main_v164 main_v165 (Host.divf : (⟨S256, .f32⟩ : BufTy).Contents (Elt F) → (⟨S256, .f32⟩ : BufTy).Contents (Elt F) → (⟨S256, .f32⟩ : BufTy).Contents (Elt F)),
    StableHlo.unary main_v165 main_v166 (broadcastInDim S1x256 ![1] bcast_S256_S1x256_1 : (⟨S256, .f32⟩ : BufTy).Contents (Elt F) → (⟨S1x256, .f32⟩ : BufTy).Contents (Elt F)),
    StableHlo.unary main_v166 main_v167 (broadcastInDim S64256x256 ![0, 1] bcast_S1x256_S64256x256_0_1 : (⟨S1x256, .f32⟩ : BufTy).Contents (Elt F) → (⟨S64256x256, .f32⟩ : BufTy).Contents (Elt F)),
    StableHlo.binary main_v162 main_v167 main_v168 (subf : (⟨S64256x256, .f32⟩ : BufTy).Contents (Elt F) → (⟨S64256x256, .f32⟩ : BufTy).Contents (Elt F) → (⟨S64256x256, .f32⟩ : BufTy).Contents (Elt F)),
    StableHlo.binary main_v168 main_v168 main_v169 (mulf : (⟨S64256x256, .f32⟩ : BufTy).Contents (Elt F) → (⟨S64256x256, .f32⟩ : BufTy).Contents (Elt F) → (⟨S64256x256, .f32⟩ : BufTy).Contents (Elt F)),
    StableHlo.nullary main_cst_36 (constant S_ .f32 0x00000000#32),
    StableHlo.binary main_v169 main_cst_36 main_v170 ((fun x v => Host.reduceAdd x v reducesTo_S64256x256_S256_d0 h_S_) : (⟨S64256x256, .f32⟩ : BufTy).Contents (Elt F) → (⟨S_, .f32⟩ : BufTy).Contents (Elt F) → (⟨S256, .f32⟩ : BufTy).Contents (Elt F)),
    StableHlo.nullary main_cst_37 (constant S_ .f32 0x477B0000#32),
    StableHlo.unary main_cst_37 main_v171 (broadcastInDim S256 ![] bcast_S_S256 : (⟨S_, .f32⟩ : BufTy).Contents (Elt F) → (⟨S256, .f32⟩ : BufTy).Contents (Elt F)),
    StableHlo.binary main_v170 main_v171 main_v172 (Host.divf : (⟨S256, .f32⟩ : BufTy).Contents (Elt F) → (⟨S256, .f32⟩ : BufTy).Contents (Elt F) → (⟨S256, .f32⟩ : BufTy).Contents (Elt F)),
    StableHlo.unary main_v165 main_v173 (broadcastInDim S1x256 ![1] bcast_S256_S1x256_1 : (⟨S256, .f32⟩ : BufTy).Contents (Elt F) → (⟨S1x256, .f32⟩ : BufTy).Contents (Elt F)),
    StableHlo.unary main_v173 main_v174 (broadcastInDim S64256x256 ![0, 1] bcast_S1x256_S64256x256_0_1 : (⟨S1x256, .f32⟩ : BufTy).Contents (Elt F) → (⟨S64256x256, .f32⟩ : BufTy).Contents (Elt F)),
    StableHlo.binary main_v162 main_v174 main_v175 (subf : (⟨S64256x256, .f32⟩ : BufTy).Contents (Elt F) → (⟨S64256x256, .f32⟩ : BufTy).Contents (Elt F) → (⟨S64256x256, .f32⟩ : BufTy).Contents (Elt F)),
    StableHlo.nullary main_cst_38 (constant S_ .f32 0x3727C5AC#32),
    StableHlo.unary main_cst_38 main_v176 (broadcastInDim S256 ![] bcast_S_S256 : (⟨S_, .f32⟩ : BufTy).Contents (Elt F) → (⟨S256, .f32⟩ : BufTy).Contents (Elt F)),
    StableHlo.binary main_v172 main_v176 main_v177 (addf : (⟨S256, .f32⟩ : BufTy).Contents (Elt F) → (⟨S256, .f32⟩ : BufTy).Contents (Elt F) → (⟨S256, .f32⟩ : BufTy).Contents (Elt F)),
    StableHlo.unary main_v177 main_v178 (Host.rsqrt : (⟨S256, .f32⟩ : BufTy).Contents (Elt F) → (⟨S256, .f32⟩ : BufTy).Contents (Elt F)),
    StableHlo.unary main_v178 main_v179 (broadcastInDim S1x256 ![1] bcast_S256_S1x256_1 : (⟨S256, .f32⟩ : BufTy).Contents (Elt F) → (⟨S1x256, .f32⟩ : BufTy).Contents (Elt F)),
    StableHlo.unary main_v179 main_v180 (broadcastInDim S64256x256 ![0, 1] bcast_S1x256_S64256x256_0_1 : (⟨S1x256, .f32⟩ : BufTy).Contents (Elt F) → (⟨S64256x256, .f32⟩ : BufTy).Contents (Elt F)),
    StableHlo.binary main_v175 main_v180 main_v181 (mulf : (⟨S64256x256, .f32⟩ : BufTy).Contents (Elt F) → (⟨S64256x256, .f32⟩ : BufTy).Contents (Elt F) → (⟨S64256x256, .f32⟩ : BufTy).Contents (Elt F)),
    StableHlo.unary main_arg13 main_v182 (broadcastInDim S1x256 ![1] bcast_S256_S1x256_1 : (⟨S256, .f32⟩ : BufTy).Contents (Elt F) → (⟨S1x256, .f32⟩ : BufTy).Contents (Elt F)),
    StableHlo.unary main_v182 main_v183 (broadcastInDim S64256x256 ![0, 1] bcast_S1x256_S64256x256_0_1 : (⟨S1x256, .f32⟩ : BufTy).Contents (Elt F) → (⟨S64256x256, .f32⟩ : BufTy).Contents (Elt F)),
    StableHlo.binary main_v181 main_v183 main_v184 (mulf : (⟨S64256x256, .f32⟩ : BufTy).Contents (Elt F) → (⟨S64256x256, .f32⟩ : BufTy).Contents (Elt F) → (⟨S64256x256, .f32⟩ : BufTy).Contents (Elt F)),
    StableHlo.unary main_arg14 main_v185 (broadcastInDim S1x256 ![1] bcast_S256_S1x256_1 : (⟨S256, .f32⟩ : BufTy).Contents (Elt F) → (⟨S1x256, .f32⟩ : BufTy).Contents (Elt F)),
    StableHlo.unary main_v185 main_v186 (broadcastInDim S64256x256 ![0, 1] bcast_S1x256_S64256x256_0_1 : (⟨S1x256, .f32⟩ : BufTy).Contents (Elt F) → (⟨S64256x256, .f32⟩ : BufTy).Contents (Elt F)),
    StableHlo.binary main_v184 main_v186 main_v187 (addf : (⟨S64256x256, .f32⟩ : BufTy).Contents (Elt F) → (⟨S64256x256, .f32⟩ : BufTy).Contents (Elt F) → (⟨S64256x256, .f32⟩ : BufTy).Contents (Elt F)) ]

theorem ops3b_good : (ops3b : List (HloOp τ sig (Elt F))).Forall Good :=
  ⟨⟨unary_bufs_sub .., rfl, main_v159, by decide, rfl⟩,
    ⟨unary_bufs_sub .., rfl, main_v160, by decide, rfl⟩,
    ⟨binary_bufs_sub .., rfl, main_v161, by decide, rfl⟩,
    ⟨reshape_bufs_sub .., rfl, main_v162, by decide, rfl⟩,
    ⟨nullary_bufs_sub .., rfl, main_cst_34, by decide, rfl⟩,
    ⟨binary_bufs_sub .., rfl, main_v163, by decide, rfl⟩,
    ⟨nullary_bufs_sub .., rfl, main_cst_35, by decide, rfl⟩,
    ⟨unary_bufs_sub .., rfl, main_v164, by decide, rfl⟩,
    ⟨binary_bufs_sub .., rfl, main_v165, by decide, rfl⟩,
    ⟨unary_bufs_sub .., rfl, main_v166, by decide, rfl⟩,
    ⟨unary_bufs_sub .., rfl, main_v167, by decide, rfl⟩,
    ⟨binary_bufs_sub .., rfl, main_v168, by decide, rfl⟩,
    ⟨binary_bufs_sub .., rfl, main_v169, by decide, rfl⟩,
    ⟨nullary_bufs_sub .., rfl, main_cst_36, by decide, rfl⟩,
    ⟨binary_bufs_sub .., rfl, main_v170, by decide, rfl⟩,
    ⟨nullary_bufs_sub .., rfl, main_cst_37, by decide, rfl⟩,
    ⟨unary_bufs_sub .., rfl, main_v171, by decide, rfl⟩,
    ⟨binary_bufs_sub .., rfl, main_v172, by decide, rfl⟩,
    ⟨unary_bufs_sub .., rfl, main_v173, by decide, rfl⟩,
    ⟨unary_bufs_sub .., rfl, main_v174, by decide, rfl⟩,
    ⟨binary_bufs_sub .., rfl, main_v175, by decide, rfl⟩,
    ⟨nullary_bufs_sub .., rfl, main_cst_38, by decide, rfl⟩,
    ⟨unary_bufs_sub .., rfl, main_v176, by decide, rfl⟩,
    ⟨binary_bufs_sub .., rfl, main_v177, by decide, rfl⟩,
    ⟨unary_bufs_sub .., rfl, main_v178, by decide, rfl⟩,
    ⟨unary_bufs_sub .., rfl, main_v179, by decide, rfl⟩,
    ⟨unary_bufs_sub .., rfl, main_v180, by decide, rfl⟩,
    ⟨binary_bufs_sub .., rfl, main_v181, by decide, rfl⟩,
    ⟨unary_bufs_sub .., rfl, main_v182, by decide, rfl⟩,
    ⟨unary_bufs_sub .., rfl, main_v183, by decide, rfl⟩,
    ⟨binary_bufs_sub .., rfl, main_v184, by decide, rfl⟩,
    ⟨unary_bufs_sub .., rfl, main_v185, by decide, rfl⟩,
    ⟨unary_bufs_sub .., rfl, main_v186, by decide, rfl⟩,
    ⟨binary_bufs_sub .., rfl, main_v187, by decide, rfl⟩⟩

/-- The third layer's unit: z where 0 < z, else exp z - 1. (15 operations) -/
abbrev ops3c : List (HloOp τ sig (Elt F)) :=
  [ StableHlo.TRef.nullary main_call3.cst (constant S_ .f32 0x00000000#32),
    StableHlo.TRef.unary main_call3.cst main_call3.v0 (broadcastInDim S64256x256 ![] bcast_S_S64256x256),
    StableHlo.TRef.binary (.of main_v187 : StableHlo.TRef sig ⟨S64256x256, .f32⟩) main_call3.v0 main_call3.v1 (cmpf .ogt),
    StableHlo.TRef.nullary main_call3.cst_0 (constant S_ .f32 0x00000000#32),
    StableHlo.TRef.unary main_call3.cst_0 main_call3.v2 (broadcastInDim S64256x256 ![] bcast_S_S64256x256),
    StableHlo.TRef.binary (.of main_v187 : StableHlo.TRef sig ⟨S64256x256, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S64256x256 ![] bcast_S_S64256x256),
    StableHlo.TRef.ternary main_call3.v3 main_call3.call0.v1 (.of main_v187 : StableHlo.TRef sig ⟨S64256x256, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S64256x256 ![] bcast_S_S64256x256),
    StableHlo.TRef.binary main_call3.v6 main_call3.v5 main_call3.v7 mulf,
    StableHlo.TRef.ternary main_call3.v1 (.of main_v187 : StableHlo.TRef sig ⟨S64256x256, .f32⟩) main_call3.v7 main_call3.call1.v0 select ]

theorem ops3c_good : (ops3c : List (HloOp τ sig (Elt F))).Forall Good :=
  ⟨⟨nullary_bufs_sub .., rfl, main_call3.cst.ref, by decide, rfl⟩,
    ⟨unary_bufs_sub .., rfl, main_call3.v0.ref, by decide, rfl⟩,
    ⟨binary_bufs_sub .., rfl, main_call3.v1.ref, by decide, rfl⟩,
    ⟨nullary_bufs_sub .., rfl, main_call3.cst_0.ref, by decide, rfl⟩,
    ⟨unary_bufs_sub .., rfl, main_call3.v2.ref, by decide, rfl⟩,
    ⟨binary_bufs_sub .., rfl, main_call3.v3.ref, by decide, rfl⟩,
    ⟨nullary_bufs_sub .., rfl, main_call3.cst_1.ref, by decide, rfl⟩,
    ⟨unary_bufs_sub .., rfl, main_call3.call0.v0.ref, by decide, rfl⟩,
    ⟨unary_bufs_sub .., rfl, main_call3.call0.v1.ref, by decide, rfl⟩,
    ⟨ternary_bufs_sub .., rfl, main_call3.call0.v2.ref, by decide, rfl⟩,
    ⟨unary_bufs_sub .., rfl, main_call3.v5.ref, by decide, rfl⟩,
    ⟨nullary_bufs_sub .., rfl, main_call3.cst_2.ref, by decide, rfl⟩,
    ⟨unary_bufs_sub .., rfl, main_call3.v6.ref, by decide, rfl⟩,
    ⟨binary_bufs_sub .., rfl, main_call3.v7.ref, by decide, rfl⟩,
    ⟨ternary_bufs_sub .., rfl, main_call3.call1.v0.ref, by decide, rfl⟩⟩

/-- The result in its three axes again. (1 operation) -/
abbrev ops3d : List (HloOp τ sig (Elt F)) :=
  [ StableHlo.reshape main_v188 main_v189 rfl shapeCasts_S64256x256_S128x502x256 ]

theorem ops3d_good : (ops3d : List (HloOp τ sig (Elt F))).Forall Good :=
  ⟨reshape_bufs_sub .., rfl, main_v189, by decide, rfl⟩

-- 275 operations in all
/-! ## The windows (end of the table) -/

/-- @main's statements 1 … 60. -/
abbrev ops_part0 : List (HloOp τ sig (Elt F)) := ops0a ++ (ops0b ++ (ops0c ++ (ops0d ++ ops0e)))
/-- @main's statements 61 … 120. -/
abbrev ops_part1 : List (HloOp τ sig (Elt F)) := ops1a ++ (ops1b ++ (ops1c ++ ops1d))
/-- @main's statements 121 … 180. -/
abbrev ops_part2 : List (HloOp τ sig (Elt F)) := ops2a ++ (ops2b ++ (ops2c ++ ops2d))
/-- @main's statements 181 … 231. -/
abbrev ops_part3 : List (HloOp τ sig (Elt F)) := ops3a ++ (ops3b ++ (ops3c ++ ops3d))

/-- Every operation of @main, in program order, the callees' inline at their calls. -/
abbrev ops : List (HloOp τ sig (Elt F)) := ops_part0 ++ (ops_part1 ++ (ops_part2 ++ ops_part3))

private theorem mem_good {l : List (HloOp τ sig (Elt F))} (h : l.Forall Good) : ∀ op ∈ l, Good op :=
  List.forall_iff_forall_mem.mp h

theorem ops_part0_good : ∀ op ∈ (ops_part0 : List (HloOp τ sig (Elt F))), Good op :=
  good_append (mem_good ops0a_good) (good_append (mem_good ops0b_good) (good_append (mem_good ops0c_good)
    (good_append (mem_good ops0d_good) (mem_good ops0e_good))))
theorem ops_part1_good : ∀ op ∈ (ops_part1 : List (HloOp τ sig (Elt F))), Good op :=
  good_append (mem_good ops1a_good) (good_append (mem_good ops1b_good) (good_append (mem_good ops1c_good) (mem_good ops1d_good)))
theorem ops_part2_good : ∀ op ∈ (ops_part2 : List (HloOp τ sig (Elt F))), Good op :=
  good_append (mem_good ops2a_good) (good_append (mem_good ops2b_good) (good_append (mem_good ops2c_good) (mem_good ops2d_good)))
theorem ops_part3_good : ∀ op ∈ (ops_part3 : List (HloOp τ sig (Elt F))), Good op :=
  good_append (mem_good ops3a_good) (good_append (mem_good ops3b_good) (good_append (mem_good ops3c_good) (mem_good ops3d_good)))

theorem ops_good : ∀ op ∈ (ops : List (HloOp τ sig (Elt F))), Good op :=
  good_append ops_part0_good (good_append ops_part1_good (good_append ops_part2_good ops_part3_good))

/-! ## @main is the line

A window is a chain of steps, one per statement, and a call is the callee's chain in its place: both sides are the
same chain once the calls are unfolded and the sequencing is associated to the right, which is how the free monad's
sequencing computes. -/

set_option maxRecDepth 8192 in
set_option maxHeartbeats 4000000 in
theorem main_part0_eq (d : Dev nD) : main_part0 (F := F) d = seq ops_part0 := rfl

set_option maxRecDepth 8192 in
set_option maxHeartbeats 4000000 in
theorem main_part1_eq (d : Dev nD) : main_part1 (F := F) d = seq ops_part1 := rfl

set_option maxRecDepth 8192 in
set_option maxHeartbeats 4000000 in
theorem main_part2_eq (d : Dev nD) : main_part2 (F := F) d = seq ops_part2 := rfl

set_option maxRecDepth 8192 in
set_option maxHeartbeats 4000000 in
theorem main_part3_eq (d : Dev nD) : main_part3 (F := F) d = seq ops_part3 := rfl

/-- Four lines run one after the other are their concatenation run as one. -/
theorem seq_append4 {nD : Nat} {Λ : Labels} (a b c e : List (HloOp τ sig (Elt F))) :
    (seq (a ++ (b ++ (c ++ e))) : Prog (TpuEff nD τ sig (Elt F) Λ .tc) PUnit)
      = seq a >>= fun _ => seq b >>= fun _ => seq c >>= fun _ => seq e := by
  rw [seq_append, seq_append, seq_append]

/-- @main runs its four windows in order; the line is their four lists in order. -/
theorem main_eq (d : Dev nD) : main (F := F) d = seq ops := by
  refine Eq.trans ?_ (seq_append4 ops_part0 ops_part1 ops_part2 ops_part3).symm
  rw [← main_part0_eq d, ← main_part1_eq d, ← main_part2_eq d, ← main_part3_eq d]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => (ops_good op h).1

theorem ops_fresh : ∀ op ∈ (ops : List (HloOp τ sig (Elt F))), op.fresh = ∅ :=
  fun op h => (ops_good op h).2.1

/-- On every device, for any float values, from any memory with zero counters: every weakly fair execution of @main
    terminates, and every final state has each TensorCore buffer at the fold of the line over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The fold of the whole line is the folds of the seventeen stretches, one after the other. -/
theorem after_ops (V : Valuation τ sig (Elt F)) :
    after ops V = after ops3d (after ops3c (after ops3b (after ops3a (after ops2d (after ops2c (after ops2b (after ops2a
      (after ops1d (after ops1c (after ops1b (after ops1a (after ops0e (after ops0d (after ops0c (after ops0b
        (after ops0a V)))))))))))))))) := by
  simp only [ops, ops_part0, ops_part1, ops_part2, ops_part3, after_append]

/-! ## The arguments are kept -/

/-- An argument's buffer ends at the contents the launch gave it. -/
theorem kept (m : (ℓ : Loc nD τ sig) → Buf (Elt F) ℓ) (d : Dev nD) {r : Ref sig .tc} (hr : r ∈ argRefs) :
    after ops (launchContents m d) (Proc.devRef .tc r) = m ((d.tc : Thread nD τ).loc r) :=
  after_kept ops_good (launchContents m d) hr

theorem kept_main_arg0 (m : (ℓ : Loc nD τ sig) → Buf (Elt F) ℓ) (d : Dev nD) :
    after ops (launchContents m d) (Proc.devRef .tc main_arg0) = m ((d.tc : Thread nD τ).loc main_arg0) := kept m d (by decide)
theorem kept_main_arg1 (m : (ℓ : Loc nD τ sig) → Buf (Elt F) ℓ) (d : Dev nD) :
    after ops (launchContents m d) (Proc.devRef .tc main_arg1) = m ((d.tc : Thread nD τ).loc main_arg1) := kept m d (by decide)
theorem kept_main_arg2 (m : (ℓ : Loc nD τ sig) → Buf (Elt F) ℓ) (d : Dev nD) :
    after ops (launchContents m d) (Proc.devRef .tc main_arg2) = m ((d.tc : Thread nD τ).loc main_arg2) := kept m d (by decide)
theorem kept_main_arg3 (m : (ℓ : Loc nD τ sig) → Buf (Elt F) ℓ) (d : Dev nD) :
    after ops (launchContents m d) (Proc.devRef .tc main_arg3) = m ((d.tc : Thread nD τ).loc main_arg3) := kept m d (by decide)
theorem kept_main_arg4 (m : (ℓ : Loc nD τ sig) → Buf (Elt F) ℓ) (d : Dev nD) :
    after ops (launchContents m d) (Proc.devRef .tc main_arg4) = m ((d.tc : Thread nD τ).loc main_arg4) := kept m d (by decide)
theorem kept_main_arg5 (m : (ℓ : Loc nD τ sig) → Buf (Elt F) ℓ) (d : Dev nD) :
    after ops (launchContents m d) (Proc.devRef .tc main_arg5) = m ((d.tc : Thread nD τ).loc main_arg5) := kept m d (by decide)
theorem kept_main_arg6 (m : (ℓ : Loc nD τ sig) → Buf (Elt F) ℓ) (d : Dev nD) :
    after ops (launchContents m d) (Proc.devRef .tc main_arg6) = m ((d.tc : Thread nD τ).loc main_arg6) := kept m d (by decide)
theorem kept_main_arg7 (m : (ℓ : Loc nD τ sig) → Buf (Elt F) ℓ) (d : Dev nD) :
    after ops (launchContents m d) (Proc.devRef .tc main_arg7) = m ((d.tc : Thread nD τ).loc main_arg7) := kept m d (by decide)
theorem kept_main_arg8 (m : (ℓ : Loc nD τ sig) → Buf (Elt F) ℓ) (d : Dev nD) :
    after ops (launchContents m d) (Proc.devRef .tc main_arg8) = m ((d.tc : Thread nD τ).loc main_arg8) := kept m d (by decide)
theorem kept_main_arg9 (m : (ℓ : Loc nD τ sig) → Buf (Elt F) ℓ) (d : Dev nD) :
    after ops (launchContents m d) (Proc.devRef .tc main_arg9) = m ((d.tc : Thread nD τ).loc main_arg9) := kept m d (by decide)
theorem kept_main_arg10 (m : (ℓ : Loc nD τ sig) → Buf (Elt F) ℓ) (d : Dev nD) :
    after ops (launchContents m d) (Proc.devRef .tc main_arg10) = m ((d.tc : Thread nD τ).loc main_arg10) := kept m d (by decide)
theorem kept_main_arg11 (m : (ℓ : Loc nD τ sig) → Buf (Elt F) ℓ) (d : Dev nD) :
    after ops (launchContents m d) (Proc.devRef .tc main_arg11) = m ((d.tc : Thread nD τ).loc main_arg11) := kept m d (by decide)
theorem kept_main_arg12 (m : (ℓ : Loc nD τ sig) → Buf (Elt F) ℓ) (d : Dev nD) :
    after ops (launchContents m d) (Proc.devRef .tc main_arg12) = m ((d.tc : Thread nD τ).loc main_arg12) := kept m d (by decide)
theorem kept_main_arg13 (m : (ℓ : Loc nD τ sig) → Buf (Elt F) ℓ) (d : Dev nD) :
    after ops (launchContents m d) (Proc.devRef .tc main_arg13) = m ((d.tc : Thread nD τ).loc main_arg13) := kept m d (by decide)
theorem kept_main_arg14 (m : (ℓ : Loc nD τ sig) → Buf (Elt F) ℓ) (d : Dev nD) :
    after ops (launchContents m d) (Proc.devRef .tc main_arg14) = m ((d.tc : Thread nD τ).loc main_arg14) := kept m d (by decide)

end Cert.ReferenceIdeal.RefRun

end
-- ==== Proof.RefDot.lean ====
/-
  Two reads of the reference at an index, over the reals: the first layer's input (the base rows, the sensor row, a
  zero row, laid along the node axis) and a layer's dense product (a sum over the input features).
-/
import proofs.«171858_j54966991454756_2_alg».proof.ReferenceIdeal
import proofs.«171858_j54966991454756_2_alg».proof.Proof.Gen.ReferenceIdeal
import proofs.«171858_j54966991454756_2_alg».proof.Proof.Model
import proofs.«171858_j54966991454756_2_alg».proof.Proof.Iface
import proofs.«171858_j54966991454756_2_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefDot

open Idealize.ShloMosaic Idealize.ShloMosaic.ValueIdx
open Cert.ReferenceIdeal Cert.ReferenceIdeal.Facts₀ Cert.ReferenceIdeal.Facts

section Fns
variable {F : FTy → Type} [FloatOps F]

/-- The first layer's input: the base rows for every batch element, then the element's sensor row, then a zero row,
    along the node axis. -/
def x0Fn (xs : FVec F S128x1024 .f32) (xb : FVec F S500x1024 .f32) : FVec F S128x502x1024 .f32 :=
  concatenate S128x502x1024 1
    [⟨S128x500x1024, broadcastInDim S128x500x1024 ![0, 1, 2] bcast_S1x500x1024_S128x500x1024_0_1_2
        (broadcastInDim S1x500x1024 ![1, 2] bcast_S500x1024_S1x500x1024_1_2 xb)⟩,
     ⟨S128x1x1024, broadcastInDim S128x1x1024 ![0, 2] bcast_S128x1024_S128x1x1024_0_2 xs⟩,
     ⟨S128x1x1024, broadcastInDim S128x1x1024 ![] bcast_S_S128x1x1024 (constant S_ .f32 0x00000000#32)⟩]
    concatenates_S128x500x1024_S128x1x1024_S128x1x1024_S128x502x1024_d1

/-- The first layer's dense product: every row times the 1024 × 256 weight matrix. -/
def dotFn1 (x : FVec F S128x502x1024 .f32) (W : FVec F S1024x256 .f32) : FVec F S128x502x256 .f32 :=
  Host.dotGeneral dot_S128x502x1024_S1024x256_S128x502x256_2_0_01_1_n_n none x W

/-- A later layer's dense product: every row times the 256 × 256 weight matrix. -/
def dotFn2 (x : FVec F S128x502x256 .f32) (W : FVec F S256x256 .f32) : FVec F S128x502x256 .f32 :=
  Host.dotGeneral dot_S128x502x256_S256x256_S128x502x256_2_0_01_1_n_n none x W

end Fns

/-- A finite sum of reals, taken in the extended reals, is the sum of the terms taken there. -/
theorem coe_sum {ι : Type} (t : Finset ι) (g : ι → ℝ) :
    ((∑ i ∈ t, g i : ℝ) : EReal) = ∑ i ∈ t, ((g i : ℝ) : EReal) := by
  classical
  induction t using Finset.induction_on with
  | empty => simp
  | insert a t ha ih => rw [Finset.sum_insert ha, Finset.sum_insert ha, EReal.coe_add, ih]

/-- The first layer's input at an index: a base row below node 500, the batch element's sensor row at node 500, zero at
    node 501. -/
theorem x0Fn_apply (I : Cert.Model.Inp) (xs : FVec Ideal S128x1024 .f32) (xb : FVec Ideal S500x1024 .f32)
    (hxs : ∀ p q, xs (ix2 p q) = ((I.xs p q : ℝ) : EReal))
    (hxb : ∀ p q, xb (ix2 p q) = ((I.xb p q : ℝ) : EReal))
    (b : Fin 128) (s : Fin 502) (f : Fin 1024) :
    x0Fn xs xb (ix3 b s f) = ((Cert.Model.x0 I b s f : ℝ) : EReal) := by
  unfold x0Fn
  by_cases h1 : s.val < 500
  · -- a base row: the first piece, the same for every batch element
    rw [concatenate_apply_piece (t := S128x502x1024) 1 _ _ (ix3 b s f) 0 (by show 0 < 3; omega) S128x500x1024 _ rfl rfl 0 rfl
      (ix3 b (⟨s.val, h1⟩ : Fin 500) f)
      (by intro a ha; match a with | ⟨0, _⟩ => rfl | ⟨1, _⟩ => exact absurd rfl ha | ⟨2, _⟩ => rfl)
      (by show 0 + s.val = s.val; omega)]
    rw [broadcastInDim_apply _ _ _ _ (ix3 (0 : Fin 1) (⟨s.val, h1⟩ : Fin 500) f)
      (by intro a; match a with | ⟨0, _⟩ => rfl | ⟨1, _⟩ => rfl | ⟨2, _⟩ => rfl)]
    rw [broadcastInDim_apply _ _ _ _ (ix2 (⟨s.val, h1⟩ : Fin 500) f)
      (by intro a; match a with | ⟨0, _⟩ => rfl | ⟨1, _⟩ => rfl)]
    rw [hxb]
    simp [Cert.Model.x0, h1]
  · by_cases h2 : s.val = 500
    · -- the sensor row: the second piece
      rw [concatenate_apply_piece (t := S128x502x1024) 1 _ _ (ix3 b s f) 1 (by show 1 < 3; omega) S128x1x1024 _ rfl rfl 500 rfl
        (ix3 b (0 : Fin 1) f)
        (by intro a ha; match a with | ⟨0, _⟩ => rfl | ⟨1, _⟩ => exact absurd rfl ha | ⟨2, _⟩ => rfl)
        (by show 500 + 0 = s.val; omega)]
      rw [broadcastInDim_apply _ _ _ _ (ix2 b f)
        (by intro a; match a with | ⟨0, _⟩ => rfl | ⟨1, _⟩ => rfl)]
      rw [hxs]
      simp [Cert.Model.x0, h2]
    · -- the zero row: the third piece
      have h3 : s.val = 501 := by have := s.isLt; omega
      rw [concatenate_apply_piece (t := S128x502x1024) 1 _ _ (ix3 b s f) 2 (by show 2 < 3; omega) S128x1x1024 _ rfl rfl 501 rfl
        (ix3 b (0 : Fin 1) f)
        (by intro a ha; match a with | ⟨0, _⟩ => rfl | ⟨1, _⟩ => exact absurd rfl ha | ⟨2, _⟩ => rfl)
        (by show 501 + 0 = s.val; omega)]
      rw [broadcastInDim_apply _ _ _ _ ix0 (fun a => a.elim0)]
      rw [constant_apply, Cert.Consts.ofBits_zero]
      simp [Cert.Model.x0, h3]

/-! ## The dense products at an index

The product contracts the one axis the two operands share. Its index there is one coordinate; the operands'
indices at a result index and a contraction index have the result's coordinates off that axis and the contraction's
on it. -/

theorem lhs_dot_S128x502x1024_S1024x256_S128x502x256_2_0_01_1_n_n_0 (j : S128x502x256.Idx)
    (k : (dot_S128x502x1024_S1024x256_S128x502x256_2_0_01_1_n_n).contr.Idx) :
    ((dot_S128x502x1024_S1024x256_S128x502x256_2_0_01_1_n_n).lhsIdx j k 0).val = (j 0).val := rfl

theorem lhs_dot_S128x502x1024_S1024x256_S128x502x256_2_0_01_1_n_n_1 (j : S128x502x256.Idx)
    (k : (dot_S128x502x1024_S1024x256_S128x502x256_2_0_01_1_n_n).contr.Idx) :
    ((dot_S128x502x1024_S1024x256_S128x502x256_2_0_01_1_n_n).lhsIdx j k 1).val = (j 1).val := rfl

theorem lhs_dot_S128x502x1024_S1024x256_S128x502x256_2_0_01_1_n_n_2 (j : S128x502x256.Idx)
    (k : (dot_S128x502x1024_S1024x256_S128x502x256_2_0_01_1_n_n).contr.Idx) :
    ((dot_S128x502x1024_S1024x256_S128x502x256_2_0_01_1_n_n).lhsIdx j k 2).val = (k ⟨0, by decide⟩).val :=
  (dot_S128x502x1024_S1024x256_S128x502x256_2_0_01_1_n_n).lhsIdx_val_of_single rfl j k

theorem rhs_dot_S128x502x1024_S1024x256_S128x502x256_2_0_01_1_n_n_0 (j : S128x502x256.Idx)
    (k : (dot_S128x502x1024_S1024x256_S128x502x256_2_0_01_1_n_n).contr.Idx) :
    ((dot_S128x502x1024_S1024x256_S128x502x256_2_0_01_1_n_n).rhsIdx j k 0).val = (k ⟨0, by decide⟩).val :=
  (dot_S128x502x1024_S1024x256_S128x502x256_2_0_01_1_n_n).rhsIdx_val_of_single rfl j k

theorem rhs_dot_S128x502x1024_S1024x256_S128x502x256_2_0_01_1_n_n_1 (j : S128x502x256.Idx)
    (k : (dot_S128x502x1024_S1024x256_S128x502x256_2_0_01_1_n_n).contr.Idx) :
    ((dot_S128x502x1024_S1024x256_S128x502x256_2_0_01_1_n_n).rhsIdx j k 1).val = (j 2).val := rfl

/-- The first layer's dense product at an index: the sum over the 1024 input features of row entry times weight. -/
theorem dotFn1_apply (x : FVec Ideal S128x502x1024 .f32) (W : FVec Ideal S1024x256 .f32)
    (xr : Fin 128 → Fin 502 → Fin 1024 → ℝ) (Wr : Fin 1024 → Fin 256 → ℝ)
    (hx : ∀ b s f, x (ix3 b s f) = ((xr b s f : ℝ) : EReal))
    (hW : ∀ f h, W (ix2 f h) = ((Wr f h : ℝ) : EReal))
    (b : Fin 128) (s : Fin 502) (h : Fin 256) :
    dotFn1 x W (ix3 b s h) = ((∑ f : Fin 1024, xr b s f * Wr f h : ℝ) : EReal) := by
  unfold dotFn1
  simp only [Host.dotGeneral]
  rw [Ideal.dotGeneral_apply,
    ← Equiv.sum_comp (contrEquiv1 dot_S128x502x1024_S1024x256_S128x502x256_2_0_01_1_n_n 1024 rfl rfl).symm, coe_sum]
  apply Finset.sum_congr rfl
  intro f _
  have hk := contrEquiv1_symm_val dot_S128x502x1024_S1024x256_S128x502x256_2_0_01_1_n_n 1024 rfl rfl f
  have hl : (dot_S128x502x1024_S1024x256_S128x502x256_2_0_01_1_n_n).lhsIdx (ix3 b s h)
      ((contrEquiv1 dot_S128x502x1024_S1024x256_S128x502x256_2_0_01_1_n_n 1024 rfl rfl).symm f) = ix3 b s f := by
    funext a
    apply Fin.ext
    match a with
    | ⟨0, _⟩ => exact lhs_dot_S128x502x1024_S1024x256_S128x502x256_2_0_01_1_n_n_0 _ _
    | ⟨1, _⟩ => exact lhs_dot_S128x502x1024_S1024x256_S128x502x256_2_0_01_1_n_n_1 _ _
    | ⟨2, _⟩ => exact (lhs_dot_S128x502x1024_S1024x256_S128x502x256_2_0_01_1_n_n_2 _ _).trans hk
  have hr : (dot_S128x502x1024_S1024x256_S128x502x256_2_0_01_1_n_n).rhsIdx (ix3 b s h)
      ((contrEquiv1 dot_S128x502x1024_S1024x256_S128x502x256_2_0_01_1_n_n 1024 rfl rfl).symm f) = ix2 f h := by
    funext a
    apply Fin.ext
    match a with
    | ⟨0, _⟩ => exact (rhs_dot_S128x502x1024_S1024x256_S128x502x256_2_0_01_1_n_n_0 _ _).trans hk
    | ⟨1, _⟩ => exact rhs_dot_S128x502x1024_S1024x256_S128x502x256_2_0_01_1_n_n_1 _ _
  rw [hl, hr, hx, hW, EReal.coe_mul]

theorem lhs_dot_S128x502x256_S256x256_S128x502x256_2_0_01_1_n_n_0 (j : S128x502x256.Idx)
    (k : (dot_S128x502x256_S256x256_S128x502x256_2_0_01_1_n_n).contr.Idx) :
    ((dot_S128x502x256_S256x256_S128x502x256_2_0_01_1_n_n).lhsIdx j k 0).val = (j 0).val := rfl

theorem lhs_dot_S128x502x256_S256x256_S128x502x256_2_0_01_1_n_n_1 (j : S128x502x256.Idx)
    (k : (dot_S128x502x256_S256x256_S128x502x256_2_0_01_1_n_n).contr.Idx) :
    ((dot_S128x502x256_S256x256_S128x502x256_2_0_01_1_n_n).lhsIdx j k 1).val = (j 1).val := rfl

theorem lhs_dot_S128x502x256_S256x256_S128x502x256_2_0_01_1_n_n_2 (j : S128x502x256.Idx)
    (k : (dot_S128x502x256_S256x256_S128x502x256_2_0_01_1_n_n).contr.Idx) :
    ((dot_S128x502x256_S256x256_S128x502x256_2_0_01_1_n_n).lhsIdx j k 2).val = (k ⟨0, by decide⟩).val :=
  (dot_S128x502x256_S256x256_S128x502x256_2_0_01_1_n_n).lhsIdx_val_of_single rfl j k

theorem rhs_dot_S128x502x256_S256x256_S128x502x256_2_0_01_1_n_n_0 (j : S128x502x256.Idx)
    (k : (dot_S128x502x256_S256x256_S128x502x256_2_0_01_1_n_n).contr.Idx) :
    ((dot_S128x502x256_S256x256_S128x502x256_2_0_01_1_n_n).rhsIdx j k 0).val = (k ⟨0, by decide⟩).val :=
  (dot_S128x502x256_S256x256_S128x502x256_2_0_01_1_n_n).rhsIdx_val_of_single rfl j k

theorem rhs_dot_S128x502x256_S256x256_S128x502x256_2_0_01_1_n_n_1 (j : S128x502x256.Idx)
    (k : (dot_S128x502x256_S256x256_S128x502x256_2_0_01_1_n_n).contr.Idx) :
    ((dot_S128x502x256_S256x256_S128x502x256_2_0_01_1_n_n).rhsIdx j k 1).val = (j 2).val := rfl

/-- A later layer's dense product at an index: the sum over the 256 input features of row entry times weight. -/
theorem dotFn2_apply (x : FVec Ideal S128x502x256 .f32) (W : FVec Ideal S256x256 .f32)
    (xr : Fin 128 → Fin 502 → Fin 256 → ℝ) (Wr : Fin 256 → Fin 256 → ℝ)
    (hx : ∀ b s f, x (ix3 b s f) = ((xr b s f : ℝ) : EReal))
    (hW : ∀ f h, W (ix2 f h) = ((Wr f h : ℝ) : EReal))
    (b : Fin 128) (s : Fin 502) (h : Fin 256) :
    dotFn2 x W (ix3 b s h) = ((∑ f : Fin 256, xr b s f * Wr f h : ℝ) : EReal) := by
  unfold dotFn2
  simp only [Host.dotGeneral]
  rw [Ideal.dotGeneral_apply,
    ← Equiv.sum_comp (contrEquiv1 dot_S128x502x256_S256x256_S128x502x256_2_0_01_1_n_n 256 rfl rfl).symm, coe_sum]
  apply Finset.sum_congr rfl
  intro f _
  have hk := contrEquiv1_symm_val dot_S128x502x256_S256x256_S128x502x256_2_0_01_1_n_n 256 rfl rfl f
  have hl : (dot_S128x502x256_S256x256_S128x502x256_2_0_01_1_n_n).lhsIdx (ix3 b s h)
      ((contrEquiv1 dot_S128x502x256_S256x256_S128x502x256_2_0_01_1_n_n 256 rfl rfl).symm f) = ix3 b s f := by
    funext a
    apply Fin.ext
    match a with
    | ⟨0, _⟩ => exact lhs_dot_S128x502x256_S256x256_S128x502x256_2_0_01_1_n_n_0 _ _
    | ⟨1, _⟩ => exact lhs_dot_S128x502x256_S256x256_S128x502x256_2_0_01_1_n_n_1 _ _
    | ⟨2, _⟩ => exact (lhs_dot_S128x502x256_S256x256_S128x502x256_2_0_01_1_n_n_2 _ _).trans hk
  have hr : (dot_S128x502x256_S256x256_S128x502x256_2_0_01_1_n_n).rhsIdx (ix3 b s h)
      ((contrEquiv1 dot_S128x502x256_S256x256_S128x502x256_2_0_01_1_n_n 256 rfl rfl).symm f) = ix2 f h := by
    funext a
    apply Fin.ext
    match a with
    | ⟨0, _⟩ => exact (rhs_dot_S128x502x256_S256x256_S128x502x256_2_0_01_1_n_n_0 _ _).trans hk
    | ⟨1, _⟩ => exact rhs_dot_S128x502x256_S256x256_S128x502x256_2_0_01_1_n_n_1 _ _
  rw [hl, hr, hx, hW, EReal.coe_mul]

end Cert.ReferenceIdeal.RefDot

end
-- ==== Proof.RefConv.lean ====
/-
  The middle stretch of one graph-convolution layer of the reference, as one function and its value.

  Given the projected features y (one row of 256 per batch element and node), the two index vectors of the 4502 edges
  (source, target), one weight per edge and a bias of 256, the stretch forms, for every batch element b, node n and
  feature h,

      (∑ over the edges e whose target is n of  y b (source e) h · weight e)  +  bias h.

  An index word is read into the axis of 502 nodes with a negative word counting from the end. The rows of the sources are
  read off (a gather along the node axis), every edge's row is scaled by the edge's weight, the scaled rows are added up at
  the targets starting from zero (a scatter with addition), and the bias is added along the feature axis.

  Two index computations carry the proof: the gather's result entry (b, e, h) reads the operand at (b, r, h) where r is the
  e-th source word, and the scatter's update entry (b, e, h) lands at (b, r, h) where r is the e-th target word; both words
  lie in [0, 502), so the gather's clamp is the identity and no update is dropped. The updates landing at (b, n, h) are then
  exactly the entries (b, e, h) with target e = n, one per such edge, which re-indexes the sum over update entries as a sum
  over edges.
-/
import proofs.«171858_j54966991454756_2_alg».proof.ReferenceIdeal
import proofs.«171858_j54966991454756_2_alg».proof.Proof.Gen.ReferenceIdeal
import proofs.«171858_j54966991454756_2_alg».proof.Proof.Model
import proofs.«171858_j54966991454756_2_alg».proof.Proof.Consts
import Idealize.ShloMosaic.Lib.ValueIdx
import Idealize.ShloMosaic.PureOps.Ideal
import Mathlib.Data.EReal.Basic
import Mathlib.Algebra.BigOperators.Group.Finset.Basic

noncomputable section

namespace Cert.ReferenceIdeal.RefConv

open Idealize.ShloMosaic Idealize.ShloMosaic.ValueIdx
open Cert.ReferenceIdeal Cert.ReferenceIdeal.Facts₀ Cert.ReferenceIdeal.Facts

variable {F : FTy → Type} [FloatOps F]

/-- An index vector read into an axis of 502, a negative word counting from the end: where a word is negative, 502 is added. -/
def normVec (raw : IVec S4502 32) : IVec S4502 32 :=
  let z : IVec S4502 32 := broadcastInDim S4502 ![] bcast_S_S4502 (constantI S_ 32 0#32)
  let neg : IVec S4502 1 := cmpi .slt raw z
  let c : IVec S4502 32 := broadcastInDim S4502 ![] bcast_S_S4502 (constantI S_ 32 502#32)
  let wrapped : IVec S4502 32 := addi raw c
  select neg wrapped raw

/-- Gather the rows the sources name, scale every edge's row by the edge's weight, add the rows up at the targets, add the bias. -/
def gsFn (h0 : FVec F S128x502x256 .f32) (srcraw dstraw : IVec S4502 32) (w : FVec F S4502 .f32)
    (bias : FVec F S256 .f32) : FVec F S128x502x256 .f32 :=
  let v41 : IVec S4502 32 := broadcastInDim S4502 ![] bcast_S_S4502 (constantI S_ 32 0#32)
  let v42 : IVec S4502 1 := cmpi .slt srcraw v41
  let v43 : IVec S4502 32 := broadcastInDim S4502 ![] bcast_S_S4502 (constantI S_ 32 502#32)
  let v44 : IVec S4502 32 := addi srcraw v43
  let v45 : IVec S4502 32 := select v42 v44 srcraw
  let v46 : IVec S4502x1 32 := broadcastInDim S4502x1 ![0] bcast_S4502_S4502x1_0 v45
  let v47 : FVec F S128x4502x256 .f32 := Host.gather gather_S128x502x256_S4502x1_S128x4502x256_02_1_n_n_1_1_1281256 h0 v46
  let v48 : FVec F S1x4502x1 .f32 := broadcastInDim S1x4502x1 ![1] bcast_S4502_S1x4502x1_1 w
  let v49 : FVec F S128x4502x256 .f32 := broadcastInDim S128x4502x256 ![0, 1, 2] bcast_S1x4502x1_S128x4502x256_0_1_2 v48
  let v50 : FVec F S128x4502x256 .f32 := mulf v47 v49
  let v51 : FVec F S128x502x256 .f32 := broadcastInDim S128x502x256 ![] bcast_S_S128x502x256 (constant S_ .f32 0x00000000#32)
  let v52 : IVec S4502 32 := broadcastInDim S4502 ![] bcast_S_S4502 (constantI S_ 32 0#32)
  let v53 : IVec S4502 1 := cmpi .slt dstraw v52
  let v54 : IVec S4502 32 := broadcastInDim S4502 ![] bcast_S_S4502 (constantI S_ 32 502#32)
  let v55 : IVec S4502 32 := addi dstraw v54
  let v56 : IVec S4502 32 := select v53 v55 dstraw
  let v57 : IVec S4502x1 32 := broadcastInDim S4502x1 ![0] bcast_S4502_S4502x1_0 v56
  let v58 : FVec F S128x502x256 .f32 := Host.scatterAdd scatter_S128x502x256_S4502x1_S128x4502x256_02_1_1_1 v51 v57 v50
  let v59 : FVec F S1x1x256 .f32 := broadcastInDim S1x1x256 ![2] bcast_S256_S1x1x256_2 bias
  let v60 : FVec F S128x502x256 .f32 := broadcastInDim S128x502x256 ![0, 1, 2] bcast_S1x1x256_S128x502x256_0_1_2 v59
  addf v58 v60

/-- A word broadcast to the edge axis reads the word everywhere. -/
theorem bcastWord_apply (c : BitVec 32) (i : S4502.Idx) :
    (broadcastInDim S4502 ![] bcast_S_S4502 (constantI S_ 32 c) : IVec S4502 32) i = c := rfl

/-- The normalised vector, entry by entry, is the word with 502 added where it is negative. -/
theorem normVec_apply (raw : IVec S4502 32) (i : S4502.Idx) : normVec raw i = Cert.Model.normw (raw i) := by
  show (if BitVec.ofBool ((raw i).slt 0#32) = 1#1 then raw i + 502#32 else raw i) =
    if (raw i).slt 0#32 then raw i + 502#32 else raw i
  generalize (raw i).slt 0#32 = c
  cases c <;> rfl

/-- A vector stood up as a column reads, at row e, the vector at e. -/
theorem col_apply {α : Type} (v : S4502.Idx → α) (e : Fin 4502) :
    broadcastInDim S4502x1 ![0] bcast_S4502_S4502x1_0 v (ix2 e 0) = v (ix1 e) := by
  unfold broadcastInDim
  refine congrArg v (funext fun a => ?_)
  match a with
  | ⟨0, _⟩ => rfl

/-- The edge weights laid along the middle axis read, at (b, e, h), the weight of edge e. -/
theorem wgt_apply {α : Type} (v : S4502.Idx → α) (b : Fin 128) (e : Fin 4502) (h : Fin 256) :
    broadcastInDim S128x4502x256 ![0, 1, 2] bcast_S1x4502x1_S128x4502x256_0_1_2
      (broadcastInDim S1x4502x1 ![1] bcast_S4502_S1x4502x1_1 v) (ix3 b e h) = v (ix1 e) := by
  unfold broadcastInDim
  refine congrArg v (funext fun a => ?_)
  match a with
  | ⟨0, _⟩ => rfl

/-- The bias laid along the last axis reads, at (b, n, h), the bias of feature h. -/
theorem bias_apply {α : Type} (v : S256.Idx → α) (b : Fin 128) (n : Fin 502) (h : Fin 256) :
    broadcastInDim S128x502x256 ![0, 1, 2] bcast_S1x1x256_S128x502x256_0_1_2
      (broadcastInDim S1x1x256 ![2] bcast_S256_S1x1x256_2 v) (ix3 b n h) = v (ix1 h) := by
  unfold broadcastInDim
  refine congrArg v (funext fun a => ?_)
  match a with
  | ⟨0, _⟩ => rfl

local notation "gd" => gather_S128x502x256_S4502x1_S128x4502x256_02_1_n_n_1_1_1281256
local notation "sd" => scatter_S128x502x256_S4502x1_S128x4502x256_02_1_1_1

/-- The gather of rows: result entry (b, e, h) is the operand's entry (b, r, h), r the e-th index word read signed and clamped into the axis of 502. -/
theorem gather_apply {α : Type} (x : S128x502x256.Idx → α) (idx : IVec S4502x1 32) (b : Fin 128) (e : Fin 4502) (h : Fin 256) :
    Host.gather gd x idx (ix3 b e h) = x (ix3 b ⟨min (idx (ix2 e 0)).toInt.toNat 501, by omega⟩ h) := by
  unfold Host.gather
  refine congrArg x (funext fun a => Fin.ext ?_)
  match a with
  | ⟨0, _⟩ =>
    have hb : (⟨0, by decide⟩ : Fin 3) ∉ (gd).operandBatchingDims := by decide
    have hm : (⟨0, by decide⟩ : Fin 3) ∉ (gd).startIndexMap := by decide
    have hk : (⟨0, by decide⟩ : Fin 3) ∈ (gd).sKept := by decide
    simp only [GatherDims.operandIdx, GatherDims.batchCoord_eq_zero _ _ _ hb, GatherDims.start, dif_neg hm,
      GatherDims.offCoord, dif_pos hk, Nat.zero_add, Nat.add_zero]
    rfl
  | ⟨1, _⟩ =>
    have hb : (⟨1, by decide⟩ : Fin 3) ∉ (gd).operandBatchingDims := by decide
    have hm : (⟨1, by decide⟩ : Fin 3) ∈ (gd).startIndexMap := by decide
    have hk : (⟨1, by decide⟩ : Fin 3) ∉ (gd).sKept := by decide
    simp only [GatherDims.operandIdx, GatherDims.batchCoord_eq_zero _ _ _ hb, GatherDims.offCoord_eq_zero _ _ _ hk,
      GatherDims.start, dif_pos hm, Nat.add_zero]
    have hsi : (gd).siIdx (ix3 b e h) ⟨(gd).startIndexMap.idxOf (⟨1, by decide⟩ : Fin 3), List.idxOf_lt_length_iff.2 hm⟩ = ix2 e 0 := by
      funext c
      match c with
      | ⟨0, _⟩ => rfl
      | ⟨1, _⟩ => rfl
    rw [hsi]
    rfl
  | ⟨2, _⟩ =>
    have hb : (⟨2, by decide⟩ : Fin 3) ∉ (gd).operandBatchingDims := by decide
    have hm : (⟨2, by decide⟩ : Fin 3) ∉ (gd).startIndexMap := by decide
    have hk : (⟨2, by decide⟩ : Fin 3) ∈ (gd).sKept := by decide
    simp only [GatherDims.operandIdx, GatherDims.batchCoord_eq_zero _ _ _ hb, GatherDims.start, dif_neg hm,
      GatherDims.offCoord, dif_pos hk, Nat.zero_add, Nat.add_zero]
    rfl

/-- The gather of rows where the index word is a row of the operand: no clamping happens. -/
theorem gather_apply_inRange {α : Type} (x : S128x502x256.Idx → α) (idx : IVec S4502x1 32) (b : Fin 128) (e : Fin 4502)
    (h : Fin 256) (r : Fin 502) (hr : (idx (ix2 e 0)).toInt = (r.val : ℤ)) :
    Host.gather gd x idx (ix3 b e h) = x (ix3 b r h) := by
  rw [gather_apply]
  have hc : (⟨min (idx (ix2 e 0)).toInt.toNat 501, by omega⟩ : Fin 502) = r := by
    apply Fin.ext
    show min (idx (ix2 e 0)).toInt.toNat 501 = r.val
    rw [hr, Int.toNat_natCast]
    have := r.isLt
    omega
  rw [hc]

/-- The scatter's landing index: update entry (b, e, h) lands at (b, r, h), r the e-th index word, when that word is a row of the operand. -/
theorem scatter_resultIdx (idx : IVec S4502x1 32) (b : Fin 128) (e : Fin 4502) (h : Fin 256) (r : Fin 502)
    (hr : (idx (ix2 e 0)).toInt = (r.val : ℤ)) :
    (sd).resultIdx? (ix3 b e h) idx = some (ix3 b r h) := by
  have key : ∀ a : Fin 3, (sd).start (ix3 b e h) idx a + ((sd).window (ix3 b e h) a : ℤ) =
      (((ix3 b r h : S128x502x256.Idx) a).val : ℤ) := by
    intro a
    match a with
    | ⟨0, _⟩ =>
      have hm : (⟨0, by decide⟩ : Fin 3) ∉ (sd).scatterDimsToOperandDims := by decide
      have hk : (⟨0, by decide⟩ : Fin 3) ∈ (sd).sKept := by decide
      simp only [ScatterDims.start, dif_neg hm, ScatterDims.window, dif_pos hk, Int.zero_add]
      rfl
    | ⟨1, _⟩ =>
      have hm : (⟨1, by decide⟩ : Fin 3) ∈ (sd).scatterDimsToOperandDims := by decide
      have hk : (⟨1, by decide⟩ : Fin 3) ∉ (sd).sKept := by decide
      have hsi : (sd).siIdx (ix3 b e h)
          ⟨(sd).scatterDimsToOperandDims.idxOf (⟨1, by decide⟩ : Fin 3), List.idxOf_lt_length_iff.2 hm⟩ = ix2 e 0 := by
        funext c
        match c with
        | ⟨0, _⟩ => rfl
        | ⟨1, _⟩ => rfl
      simp only [ScatterDims.start, dif_pos hm, ScatterDims.window, dif_neg hk, Nat.cast_zero, Int.add_zero]
      rw [hsi, hr]
    | ⟨2, _⟩ =>
      have hm : (⟨2, by decide⟩ : Fin 3) ∉ (sd).scatterDimsToOperandDims := by decide
      have hk : (⟨2, by decide⟩ : Fin 3) ∈ (sd).sKept := by decide
      simp only [ScatterDims.start, dif_neg hm, ScatterDims.window, dif_pos hk, Int.zero_add]
      rfl
  unfold ScatterDims.resultIdx?
  split
  · congr 1
    funext a
    apply Fin.ext
    simp only [key a, Int.toNat_natCast]
  · next H =>
    refine absurd (fun a => ?_) H
    rw [key a]
    exact ⟨Int.natCast_nonneg _, by exact_mod_cast ((ix3 b r h : S128x502x256.Idx) a).isLt⟩

/-- The scatter-add of the edge rows: entry (b, n, h) is the operand's plus the sum of the update rows of the edges whose target is n. -/
theorem scatterAdd_apply (x : FVec Ideal S128x502x256 .f32) (idx : IVec S4502x1 32) (upd : FVec Ideal S128x4502x256 .f32)
    (dstN : Fin 4502 → Fin 502) (hd : ∀ e, (idx (ix2 e 0)).toInt = ((dstN e).val : ℤ))
    (b : Fin 128) (n : Fin 502) (h : Fin 256) :
    Host.scatterAdd (F := Ideal) sd x idx upd (ix3 b n h) =
      x (ix3 b n h) + ∑ e : Fin 4502, if dstN e = n then upd (ix3 b e h) else 0 := by
  have hmem : ∀ j : S128x4502x256.Idx,
      (sd).resultIdx? j idx = some (ix3 b n h) ↔ j 0 = b ∧ dstN (j 1) = n ∧ j 2 = h := by
    intro j
    obtain ⟨a, e, c, rfl⟩ : ∃ a e c, j = ix3 a e c := ⟨_, _, _, eq_ix3 j⟩
    rw [scatter_resultIdx idx a e c (dstN e) (hd e)]
    constructor
    · intro H
      have H' := Option.some.inj H
      exact ⟨congrFun H' 0, congrFun H' 1, congrFun H' 2⟩
    · rintro ⟨h0, h1, h2⟩
      have h0' : a = b := h0
      have h1' : dstN e = n := h1
      have h2' : c = h := h2
      rw [h0', h1', h2']
  simp only [Host.scatterAdd, Ideal.hostScatterAdd_def, Ideal.hostScatterAdd]
  congr 1
  rw [← Finset.sum_filter]
  refine Finset.sum_bij' (fun j _ => j 1) (fun e _ => ix3 b e h) ?_ ?_ ?_ ?_ ?_
  · intro j hj
    exact Finset.mem_filter.2 ⟨Finset.mem_univ _, ((hmem j).1 (Finset.mem_filter.1 hj).2).2.1⟩
  · intro e he
    exact Finset.mem_filter.2 ⟨Finset.mem_univ _, (hmem _).2 ⟨rfl, (Finset.mem_filter.1 he).2, rfl⟩⟩
  · intro j hj
    obtain ⟨h0, _, h2⟩ := (hmem j).1 (Finset.mem_filter.1 hj).2
    rw [← h0, ← h2]
    exact (eq_ix3 j).symm
  · intro e he
    rfl
  · intro j hj
    obtain ⟨h0, _, h2⟩ := (hmem j).1 (Finset.mem_filter.1 hj).2
    rw [← h0, ← h2]
    exact congrArg upd (eq_ix3 j)

/-- The stretch, with the two normalised index vectors named. -/
theorem gsFn_eq (h0 : FVec F S128x502x256 .f32) (srcraw dstraw : IVec S4502 32) (w : FVec F S4502 .f32)
    (bias : FVec F S256 .f32) :
    gsFn h0 srcraw dstraw w bias =
      addf
        (Host.scatterAdd sd
          (broadcastInDim S128x502x256 ![] bcast_S_S128x502x256 (constant S_ .f32 0x00000000#32))
          (broadcastInDim S4502x1 ![0] bcast_S4502_S4502x1_0 (normVec dstraw))
          (mulf
            (Host.gather gd h0 (broadcastInDim S4502x1 ![0] bcast_S4502_S4502x1_0 (normVec srcraw)))
            (broadcastInDim S128x4502x256 ![0, 1, 2] bcast_S1x4502x1_S128x4502x256_0_1_2
              (broadcastInDim S1x4502x1 ![1] bcast_S4502_S1x4502x1_1 w))))
        (broadcastInDim S128x502x256 ![0, 1, 2] bcast_S1x1x256_S128x502x256_0_1_2
          (broadcastInDim S1x1x256 ![2] bcast_S256_S1x1x256_2 bias)) := rfl

/-- The embedding of the reals in the extended reals goes through a finite sum. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The value of the stretch: at (b, n, h), the sum over the edges into n of the source's row entry times the edge's weight, plus the bias. -/
theorem gsFn_apply (h0r : Fin 128 → Fin 502 → Fin 256 → ℝ) (srcN dstN : Fin 4502 → Fin 502) (wr : Fin 4502 → ℝ)
    (br : Fin 256 → ℝ) (h0 : FVec Ideal S128x502x256 .f32) (srcraw dstraw : IVec S4502 32)
    (w : FVec Ideal S4502 .f32) (bias : FVec Ideal S256 .f32)
    (hh : ∀ b s h, h0 (ix3 b s h) = ((h0r b s h : ℝ) : EReal))
    (hs : ∀ e, (Cert.Model.normw (srcraw (ix1 e))).toInt = ((srcN e).val : ℤ))
    (hd : ∀ e, (Cert.Model.normw (dstraw (ix1 e))).toInt = ((dstN e).val : ℤ))
    (hw : ∀ e, w (ix1 e) = ((wr e : ℝ) : EReal)) (hb : ∀ h, bias (ix1 h) = ((br h : ℝ) : EReal))
    (b : Fin 128) (n : Fin 502) (h : Fin 256) :
    gsFn (F := Ideal) h0 srcraw dstraw w bias (ix3 b n h) =
      (((∑ e : Fin 4502, if dstN e = n then h0r b (srcN e) h * wr e else 0) + br h : ℝ) : EReal) := by
  have hsrc : ∀ e, ((broadcastInDim S4502x1 ![0] bcast_S4502_S4502x1_0 (normVec srcraw) : IVec S4502x1 32) (ix2 e 0)).toInt =
      ((srcN e).val : ℤ) := fun e => by rw [col_apply, normVec_apply]; exact hs e
  have hdst : ∀ e, ((broadcastInDim S4502x1 ![0] bcast_S4502_S4502x1_0 (normVec dstraw) : IVec S4502x1 32) (ix2 e 0)).toInt =
      ((dstN e).val : ℤ) := fun e => by rw [col_apply, normVec_apply]; exact hd e
  rw [gsFn_eq, addf_apply, bias_apply, hb, scatterAdd_apply _ _ _ dstN hdst]
  have hz : (broadcastInDim S128x502x256 ![] bcast_S_S128x502x256 (constant (F := Ideal) S_ .f32 0x00000000#32) :
      FVec Ideal S128x502x256 .f32) (ix3 b n h) = 0 := Cert.Consts.ofBits_zero
  rw [hz, zero_add]
  have hterm : ∀ e : Fin 4502,
      (if dstN e = n then
        (mulf (Host.gather gd h0 (broadcastInDim S4502x1 ![0] bcast_S4502_S4502x1_0 (normVec srcraw)))
          (broadcastInDim S128x4502x256 ![0, 1, 2] bcast_S1x4502x1_S128x4502x256_0_1_2
            (broadcastInDim S1x4502x1 ![1] bcast_S4502_S1x4502x1_1 w)) : FVec Ideal S128x4502x256 .f32) (ix3 b e h)
       else 0) = (((if dstN e = n then h0r b (srcN e) h * wr e else 0 : ℝ)) : EReal) := fun e => by
    rw [mulf_apply, gather_apply_inRange _ _ _ _ _ (srcN e) (hsrc e), wgt_apply, hh, hw, ← EReal.coe_mul]
    split
    · rfl
    · exact EReal.coe_zero.symm
  rw [Finset.sum_congr rfl (fun e _ => hterm e), ← coe_sum, ← EReal.coe_add]

end Cert.ReferenceIdeal.RefConv

end
-- ==== Proof.RefBn.lean ====
/-
  The batch normalisation and the exponential linear unit of one layer of the reference, as one function of the
  layer's convolution output, its scale and its shift, and that function's value at an index: the model's `bnelu`.

  The reference flattens the [128, 502, 256] array to 64256 rows of 256 features (row `502 · b + n`), takes per
  feature the mean and the biased variance over the rows, normalises, scales, shifts, applies the unit entry by
  entry, and folds the rows back.
-/
import proofs.«171858_j54966991454756_2_alg».proof.ReferenceIdeal
import proofs.«171858_j54966991454756_2_alg».proof.Proof.Gen.ReferenceIdeal
import proofs.«171858_j54966991454756_2_alg».proof.Proof.Model
import proofs.«171858_j54966991454756_2_alg».proof.Proof.Consts
import Idealize.ShloMosaic.PureOps.Ideal.Laws
import Idealize.ShloMosaic.Lib.ValueIdx
import Idealize.ShloMosaic.Lib.Pipeline.Value

noncomputable section

namespace Cert.ReferenceIdeal.RefBn

open Idealize.ShloMosaic Idealize.ShloMosaic.ValueIdx
open Cert.ReferenceIdeal Cert.ReferenceIdeal.Facts₀ Cert.ReferenceIdeal.Facts

section Defs
variable {F : FTy → Type} [FloatOps F]

/-- %62: the rows, flattened. -/
def rowsFn (y : FVec F S128x502x256 .f32) : FVec F S64256x256 .f32 :=
  shapeCast S64256x256 y shapeCasts_S128x502x256_S64256x256

/-- %63 .. %65: the mean of every feature over the rows. -/
def meanFn (v62 : FVec F S64256x256 .f32) : FVec F S256 .f32 :=
  let cst_14 : FVec F S_ .f32 := constant S_ .f32 0x00000000#32
  let v63 : FVec F S256 .f32 := Host.reduceAdd v62 cst_14 reducesTo_S64256x256_S256_d0 h_S_
  let cst_15 : FVec F S_ .f32 := constant S_ .f32 0x477B0000#32
  let v64 : FVec F S256 .f32 := broadcastInDim S256 ![] bcast_S_S256 cst_15
  Host.divf v63 v64

/-- %66 .. %72: the biased variance of every feature over the rows. -/
def varFn (v62 : FVec F S64256x256 .f32) (v65 : FVec F S256 .f32) : FVec F S256 .f32 :=
  let v66 : FVec F S1x256 .f32 := broadcastInDim S1x256 ![1] bcast_S256_S1x256_1 v65
  let v67 : FVec F S64256x256 .f32 := broadcastInDim S64256x256 ![0, 1] bcast_S1x256_S64256x256_0_1 v66
  let v68 : FVec F S64256x256 .f32 := subf v62 v67
  let v69 : FVec F S64256x256 .f32 := mulf v68 v68
  let cst_16 : FVec F S_ .f32 := constant S_ .f32 0x00000000#32
  let v70 : FVec F S256 .f32 := Host.reduceAdd v69 cst_16 reducesTo_S64256x256_S256_d0 h_S_
  let cst_17 : FVec F S_ .f32 := constant S_ .f32 0x477B0000#32
  let v71 : FVec F S256 .f32 := broadcastInDim S256 ![] bcast_S_S256 cst_17
  Host.divf v70 v71

/-- %73 .. %87: centre, divide by the deviation, scale, shift. -/
def normFn (v62 : FVec F S64256x256 .f32) (v65 v72 g be : FVec F S256 .f32) : FVec F S64256x256 .f32 :=
  let v73 : FVec F S1x256 .f32 := broadcastInDim S1x256 ![1] bcast_S256_S1x256_1 v65
  let v74 : FVec F S64256x256 .f32 := broadcastInDim S64256x256 ![0, 1] bcast_S1x256_S64256x256_0_1 v73
  let v75 : FVec F S64256x256 .f32 := subf v62 v74
  let cst_18 : FVec F S_ .f32 := constant S_ .f32 0x3727C5AC#32
  let v76 : FVec F S256 .f32 := broadcastInDim S256 ![] bcast_S_S256 cst_18
  let v77 : FVec F S256 .f32 := addf v72 v76
  let v78 : FVec F S256 .f32 := Host.rsqrt v77
  let v79 : FVec F S1x256 .f32 := broadcastInDim S1x256 ![1] bcast_S256_S1x256_1 v78
  let v80 : FVec F S64256x256 .f32 := broadcastInDim S64256x256 ![0, 1] bcast_S1x256_S64256x256_0_1 v79
  let v81 : FVec F S64256x256 .f32 := mulf v75 v80
  let v82 : FVec F S1x256 .f32 := broadcastInDim S1x256 ![1] bcast_S256_S1x256_1 g
  let v83 : FVec F S64256x256 .f32 := broadcastInDim S64256x256 ![0, 1] bcast_S1x256_S64256x256_0_1 v82
  let v84 : FVec F S64256x256 .f32 := mulf v81 v83
  let v85 : FVec F S1x256 .f32 := broadcastInDim S1x256 ![1] bcast_S256_S1x256_1 be
  let v86 : FVec F S64256x256 .f32 := broadcastInDim S64256x256 ![0, 1] bcast_S1x256_S64256x256_0_1 v85
  addf v84 v86

/-- The call of the unit on %87, its two selections inline: `z` where `z > 0`, elsewhere `1 · expm1` of `z` with
    the positive entries put to zero first. -/
def eluFn (z : FVec F S64256x256 .f32) : FVec F S64256x256 .f32 :=
  let cst : FVec F S_ .f32 := constant S_ .f32 0x00000000#32
  let e0 : FVec F S64256x256 .f32 := broadcastInDim S64256x256 ![] bcast_S_S64256x256 cst
  let e1 : IVec S64256x256 1 := cmpf .ogt z e0
  let cst_0 : FVec F S_ .f32 := constant S_ .f32 0x00000000#32
  let e2 : FVec F S64256x256 .f32 := broadcastInDim S64256x256 ![] bcast_S_S64256x256 cst_0
  let e3 : IVec S64256x256 1 := cmpf .ogt z e2
  let cst_1 : FVec F S_ .f32 := constant S_ .f32 0x00000000#32
  let w0 : FVec F S_ .f32 := id cst_1
  let w1 : FVec F S64256x256 .f32 := broadcastInDim S64256x256 ![] bcast_S_S64256x256 w0
  let e4 : FVec F S64256x256 .f32 := select e3 w1 z
  let e5 : FVec F S64256x256 .f32 := Host.expm1 e4
  let cst_2 : FVec F S_ .f32 := constant S_ .f32 0x3F800000#32
  let e6 : FVec F S64256x256 .f32 := broadcastInDim S64256x256 ![] bcast_S_S64256x256 cst_2
  let e7 : FVec F S64256x256 .f32 := mulf e6 e5
  select e1 z e7

/-- %62 .. %89: the layer's normalisation and unit, from the convolution output %61, the scale and the shift. -/
def bnFn (y : FVec F S128x502x256 .f32) (g be : FVec F S256 .f32) : FVec F S128x502x256 .f32 :=
  let v62 : FVec F S64256x256 .f32 := rowsFn y
  let v65 : FVec F S256 .f32 := meanFn v62
  let v72 : FVec F S256 .f32 := varFn v62 v65
  let v87 : FVec F S64256x256 .f32 := normFn v62 v65 v72 g be
  let v88 : FVec F S64256x256 .f32 := eluFn v87
  shapeCast S128x502x256 v88 shapeCasts_S64256x256_S128x502x256

end Defs

/-! ## The rows -/

/-- Row `502 · b + n` of the flattened array. -/
def row (b : Fin 128) (n : Fin 502) : Fin 64256 := ⟨502 * b.val + n.val, by omega⟩

/-- The rows and the pairs (batch element, node). -/
def rowEquiv : Fin 128 × Fin 502 ≃ Fin 64256 where
  toFun p := row p.1 p.2
  invFun r := (⟨r.val / 502, by omega⟩, ⟨r.val % 502, Nat.mod_lt _ (by norm_num)⟩)
  left_inv p := by
    rcases p with ⟨b, n⟩
    apply Prod.ext <;> apply Fin.ext <;> simp only [row] <;> omega
  right_inv r := by
    apply Fin.ext; simp only [row]; omega

theorem sum_rows {M : Type*} [AddCommMonoid M] (f : Fin 64256 → M) :
    ∑ r : Fin 64256, f r = ∑ b : Fin 128, ∑ n : Fin 502, f (row b n) := by
  rw [← Equiv.sum_comp rowEquiv f, Fintype.sum_prod_type]
  rfl

/-- The flattened array at row `502 · b + n` is the array at `(b, n)`. -/
theorem rowsFn_apply (y : FVec Ideal S128x502x256 .f32) (b : Fin 128) (n : Fin 502) (h : Fin 256) :
    rowsFn (F := Ideal) y (ix2 (row b n) h) = y (ix3 b n h) := by
  unfold rowsFn
  refine shapeCast_apply _ _ _ _ ?_
  rw [Shape.rowMajor_val_three, Shape.rowMajor_val_two]
  show (b.val * 502 + n.val) * 256 + h.val = (502 * b.val + n.val) * 256 + h.val
  omega

/-- … and folded back. -/
theorem unrows_apply (v : FVec Ideal S64256x256 .f32) (b : Fin 128) (n : Fin 502) (h : Fin 256) :
    shapeCast S128x502x256 v shapeCasts_S64256x256_S128x502x256 (ix3 b n h) = v (ix2 (row b n) h) := by
  refine shapeCast_apply _ _ _ _ ?_
  rw [Shape.rowMajor_val_three, Shape.rowMajor_val_two]
  show (502 * b.val + n.val) * 256 + h.val = (b.val * 502 + n.val) * 256 + h.val
  omega

/-! ## A sum over the rows -/

theorem reducesRows : S64256x256.Reduces [0] S256 := by decide

/-- The reference's sum over axis 0 of a [64256, 256] array, at feature `h`: the initial value plus the sum of the
    column. -/
theorem reduceRows_apply (x : FVec Ideal S64256x256 .f32) (c : FVec Ideal S_ .f32) (h : Fin 256) :
    Host.reduceAdd (F := Ideal) x c reducesTo_S64256x256_S256_d0 h_S_ (ix1 h)
      = c ix0 + ∑ r : Fin 64256, x (ix2 r h) := by
  unfold Host.reduceAdd
  rw [Ideal.hostReduceAdd_def, Ideal.hostReduceAdd_single _ reducesRows]
  refine congrArg₂ (· + ·) (congrArg c (eq_ix0 _)) ?_
  show ∑ r : Fin 64256, x (reducesRows.lift (ix1 h) r) = ∑ r : Fin 64256, x (ix2 r h)
  refine Finset.sum_congr rfl fun r _ => congrArg x ?_
  funext a
  match a with
  | ⟨0, _⟩ => rfl
  | ⟨1, _⟩ => rfl

/-- A finite sum of reals, read in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Broadcasts read at an index -/

theorem bcastScalar256_apply (c : FVec Ideal S_ .f32) (h : Fin 256) :
    broadcastInDim (s := S_) S256 ![] bcast_S_S256 c (ix1 h) = c ix0 :=
  broadcastInDim_apply _ _ _ _ ix0 (fun a => a.elim0)

theorem bcastScalarRows_apply (c : FVec Ideal S_ .f32) (i : S64256x256.Idx) :
    broadcastInDim (s := S_) S64256x256 ![] bcast_S_S64256x256 c i = c ix0 :=
  broadcastInDim_apply _ _ _ _ ix0 (fun a => a.elim0)

/-- A feature vector broadcast to every row ([256] → [1, 256] → [64256, 256]) reads the feature's entry. -/
theorem bcastRows_apply (v : FVec Ideal S256 .f32) (r : Fin 64256) (h : Fin 256) :
    broadcastInDim (s := S1x256) S64256x256 ![0, 1] bcast_S1x256_S64256x256_0_1
      (broadcastInDim (s := S256) S1x256 ![1] bcast_S256_S1x256_1 v) (ix2 r h) = v (ix1 h) := by
  rw [broadcastInDim_apply _ _ _ _ (ix2 (0 : Fin 1) h) (fun a => by
    match a with
    | ⟨0, _⟩ => rfl
    | ⟨1, _⟩ => rfl)]
  exact broadcastInDim_apply _ _ _ _ (ix1 h) (fun a => by
    match a with
    | ⟨0, _⟩ => rfl)

/-! ## The mean -/

theorem meanFn_apply (x : FVec Ideal S64256x256 .f32) (xr : Fin 64256 → Fin 256 → ℝ)
    (hx : ∀ r h, x (ix2 r h) = ((xr r h : ℝ) : EReal)) (h : Fin 256) :
    meanFn (F := Ideal) x (ix1 h) = (((∑ r : Fin 64256, xr r h) / 64256 : ℝ) : EReal) := by
  unfold meanFn
  dsimp only
  show Ideal.div (Host.reduceAdd (F := Ideal) x _ reducesTo_S64256x256_S256_d0 h_S_ (ix1 h))
    (broadcastInDim (s := S_) S256 ![] bcast_S_S256 _ (ix1 h)) = _
  rw [reduceRows_apply, bcastScalar256_apply, constant_apply, constant_apply, Cert.Consts.ofBits_zero,
    Cert.Consts.ofBits_64256, Ideal.div_coe (by norm_num), zero_add,
    Finset.sum_congr rfl (fun r _ => hx r h), ← coe_sum, ← EReal.coe_mul]
  congr 1
  ring

/-! ## The variance -/

/-- An entry less its feature's mean (%68, %75). -/
theorem centre_apply (x : FVec Ideal S64256x256 .f32) (mu : FVec Ideal S256 .f32) (xr : Fin 64256 → Fin 256 → ℝ)
    (mur : Fin 256 → ℝ) (hx : ∀ r h, x (ix2 r h) = ((xr r h : ℝ) : EReal)) (hmu : ∀ h, mu (ix1 h) = ((mur h : ℝ) : EReal))
    (r : Fin 64256) (h : Fin 256) :
    subf x (broadcastInDim (s := S1x256) S64256x256 ![0, 1] bcast_S1x256_S64256x256_0_1
      (broadcastInDim (s := S256) S1x256 ![1] bcast_S256_S1x256_1 mu)) (ix2 r h) = ((xr r h - mur h : ℝ) : EReal) := by
  rw [subf_apply]
  rw [bcastRows_apply mu r h]
  rw [hx r h, hmu h, ← EReal.coe_sub]

theorem varFn_apply (x : FVec Ideal S64256x256 .f32) (mu : FVec Ideal S256 .f32) (xr : Fin 64256 → Fin 256 → ℝ)
    (mur : Fin 256 → ℝ) (hx : ∀ r h, x (ix2 r h) = ((xr r h : ℝ) : EReal)) (hmu : ∀ h, mu (ix1 h) = ((mur h : ℝ) : EReal))
    (h : Fin 256) :
    varFn (F := Ideal) x mu (ix1 h) = (((∑ r : Fin 64256, (xr r h - mur h) ^ 2) / 64256 : ℝ) : EReal) := by
  unfold varFn
  dsimp only
  show Ideal.div (Host.reduceAdd (F := Ideal) _ _ reducesTo_S64256x256_S256_d0 h_S_ (ix1 h))
    (broadcastInDim (s := S_) S256 ![] bcast_S_S256 _ (ix1 h)) = _
  rw [reduceRows_apply, bcastScalar256_apply, constant_apply, constant_apply, Cert.Consts.ofBits_zero,
    Cert.Consts.ofBits_64256, Ideal.div_coe (by norm_num), zero_add]
  simp only [mulf_apply, centre_apply x mu xr mur hx hmu, ← EReal.coe_mul]
  rw [← coe_sum, ← EReal.coe_mul]
  refine congrArg Real.toEReal ?_
  simp only [pow_two]
  ring

/-! ## Normalise, scale, shift -/

/-- %76 .. %78: the inverse deviation of a feature. -/
theorem rstd_apply (va : FVec Ideal S256 .f32) (var : Fin 256 → ℝ) (hva : ∀ h, va (ix1 h) = ((var h : ℝ) : EReal))
    (hpos : ∀ h, 0 < var h + Cert.Model.eps) (h : Fin 256) :
    Host.rsqrt (F := Ideal) (addf va (broadcastInDim (s := S_) S256 ![] bcast_S_S256
      (constant (F := Ideal) S_ .f32 0x3727C5AC#32))) (ix1 h)
      = (((Real.sqrt (var h + Cert.Model.eps))⁻¹ : ℝ) : EReal) := by
  show Ideal.rsqrt (va (ix1 h) + broadcastInDim (s := S_) S256 ![] bcast_S_S256
      (constant (F := Ideal) S_ .f32 0x3727C5AC#32) (ix1 h)) = _
  have hp : 0 < var h + 10995116 / 2 ^ 40 := hpos h
  unfold Cert.Model.eps
  rw [bcastScalar256_apply, constant_apply, Cert.Consts.ofBits_eps, hva, ← EReal.coe_add, Ideal.rsqrt_coe,
    if_neg (not_lt.mpr (le_of_lt hp)), if_neg (ne_of_gt hp)]

theorem normFn_apply (x : FVec Ideal S64256x256 .f32) (mu va g be : FVec Ideal S256 .f32)
    (xr : Fin 64256 → Fin 256 → ℝ) (mur var gr ber : Fin 256 → ℝ)
    (hx : ∀ r h, x (ix2 r h) = ((xr r h : ℝ) : EReal)) (hmu : ∀ h, mu (ix1 h) = ((mur h : ℝ) : EReal))
    (hva : ∀ h, va (ix1 h) = ((var h : ℝ) : EReal)) (hg : ∀ h, g (ix1 h) = ((gr h : ℝ) : EReal))
    (hbe : ∀ h, be (ix1 h) = ((ber h : ℝ) : EReal)) (hpos : ∀ h, 0 < var h + Cert.Model.eps)
    (r : Fin 64256) (h : Fin 256) :
    normFn (F := Ideal) x mu va g be (ix2 r h)
      = (((xr r h - mur h) * (Real.sqrt (var h + Cert.Model.eps))⁻¹ * gr h + ber h : ℝ) : EReal) := by
  unfold normFn
  dsimp only
  rw [addf_apply, mulf_apply, mulf_apply, centre_apply x mu xr mur hx hmu, bcastRows_apply, bcastRows_apply,
    bcastRows_apply, rstd_apply va var hva hpos, hg, hbe, ← EReal.coe_mul, ← EReal.coe_mul, ← EReal.coe_add]

/-! ## The unit -/

theorem cmp_ogt_zero (zr : ℝ) :
    Ideal.cmp .ogt ((zr : ℝ) : EReal) 0 = if 0 < zr then 1#1 else 0#1 := by
  by_cases hp : 0 < zr
  · rw [if_pos hp]
    show BitVec.ofBool (decide ((0 : EReal) < ((zr : ℝ) : EReal))) = 1#1
    rw [decide_eq_true (EReal.coe_pos.mpr hp)]
    rfl
  · rw [if_neg hp]
    show BitVec.ofBool (decide ((0 : EReal) < ((zr : ℝ) : EReal))) = 0#1
    rw [decide_eq_false (fun h => hp (EReal.coe_pos.mp h))]
    rfl

theorem eluFn_apply (z : FVec Ideal S64256x256 .f32) (i : S64256x256.Idx) (zr : ℝ) (hz : z i = ((zr : ℝ) : EReal)) :
    eluFn (F := Ideal) z i = ((Cert.Model.elu zr : ℝ) : EReal) := by
  unfold eluFn
  dsimp only
  rw [select_apply, cmpf_apply, Ideal.cmpf_def, bcastScalarRows_apply, constant_apply, Cert.Consts.ofBits_zero, hz,
    cmp_ogt_zero]
  unfold Cert.Model.elu
  by_cases hp : 0 < zr
  · rw [if_pos hp, if_pos hp, select_one]
  · rw [if_neg hp, if_neg hp, select_zero, mulf_apply, bcastScalarRows_apply, constant_apply, Cert.Consts.ofBits_one]
    show ((1 : ℝ) : EReal) * (Ideal.exp (select (cmpf .ogt z _) _ z i) - 1) = _
    rw [select_apply, cmpf_apply, Ideal.cmpf_def, bcastScalarRows_apply, constant_apply, Cert.Consts.ofBits_zero, hz,
      cmp_ogt_zero, if_neg hp, select_zero, Ideal.exp_coe, ← EReal.coe_one, ← EReal.coe_sub, ← EReal.coe_mul, one_mul]

/-! ## The layer's normalisation and unit -/

theorem bnFn_apply (yr : Fin 128 → Fin 502 → Fin 256 → ℝ) (gr ber : Fin 256 → ℝ)
    (y : FVec Ideal S128x502x256 .f32) (g be : FVec Ideal S256 .f32)
    (hy : ∀ b n h, y (ix3 b n h) = ((yr b n h : ℝ) : EReal)) (hg : ∀ h, g (ix1 h) = ((gr h : ℝ) : EReal))
    (hbe : ∀ h, be (ix1 h) = ((ber h : ℝ) : EReal))
    (b : Fin 128) (n : Fin 502) (h : Fin 256) :
    bnFn (F := Ideal) y g be (ix3 b n h) = ((Cert.Model.bnelu yr gr ber b n h : ℝ) : EReal) := by
  -- the rows' entries, as reals
  let xr : Fin 64256 → Fin 256 → ℝ := fun r h => yr (rowEquiv.symm r).1 (rowEquiv.symm r).2 h
  have hrow : ∀ b n h, xr (row b n) h = yr b n h := fun b n h => by
    show yr (rowEquiv.symm (rowEquiv (b, n))).1 (rowEquiv.symm (rowEquiv (b, n))).2 h = yr b n h
    rw [Equiv.symm_apply_apply]
  have hx : ∀ r h, rowsFn (F := Ideal) y (ix2 r h) = ((xr r h : ℝ) : EReal) := fun r h => by
    have e : row (rowEquiv.symm r).1 (rowEquiv.symm r).2 = r := rowEquiv.apply_symm_apply r
    have := rowsFn_apply y (rowEquiv.symm r).1 (rowEquiv.symm r).2 h
    rw [e] at this
    rw [this, hy]
  have hmu : ∀ h, meanFn (F := Ideal) (rowsFn y) (ix1 h) = ((Cert.Model.mean yr h : ℝ) : EReal) := fun h => by
    rw [meanFn_apply _ xr hx, sum_rows]
    unfold Cert.Model.mean
    simp only [hrow]
  have hva : ∀ h, varFn (F := Ideal) (rowsFn y) (meanFn (rowsFn y)) (ix1 h) = ((Cert.Model.var yr h : ℝ) : EReal) :=
    fun h => by
      rw [varFn_apply _ _ xr (Cert.Model.mean yr) hx hmu, sum_rows]
      unfold Cert.Model.var
      simp only [hrow]
  unfold bnFn
  rw [unrows_apply, eluFn_apply _ _ _ (normFn_apply _ _ _ _ _ xr (Cert.Model.mean yr) (Cert.Model.var yr) gr ber hx hmu hva
    hg hbe (Cert.Model.var_eps_pos yr) (row b n) h), hrow]
  rfl

end Cert.ReferenceIdeal.RefBn

end
-- ==== Proof.RPure.lean ====
/-
  The reference's result, as a composition of pure functions of the argument arrays, is the model's result.

  The composition follows the layers: the first layer's input is put together from the base rows and the sensor
  rows; the edge list gets its self loops and every edge its weight; then, three times, the features are
  transformed by the layer's matrix, gathered along the edges, scaled by the edges' weights, summed into the
  edges' targets and shifted by the bias, and the result is batch-normalised and passed through the unit.
  Each piece computes, on arrays that hold real numbers, the corresponding real-valued function of the model;
  the sum over the edges ending at a node is the model's product with the normalised adjacency matrix.
-/
import proofs.«171858_j54966991454756_2_alg».proof.Proof.Iface
import proofs.«171858_j54966991454756_2_alg».proof.Proof.Alg
import proofs.«171858_j54966991454756_2_alg».proof.Proof.GraphPre
import proofs.«171858_j54966991454756_2_alg».proof.Proof.RefDot
import proofs.«171858_j54966991454756_2_alg».proof.Proof.RefConv
import proofs.«171858_j54966991454756_2_alg».proof.Proof.RefBn

noncomputable section

namespace Cert.ReferenceIdeal.RPure

open Idealize.ShloMosaic Idealize.ShloMosaic.ValueIdx
open Cert.ReferenceIdeal.RefConv Cert.ReferenceIdeal.RefBn Cert.ReferenceIdeal.RefDot Cert.GraphPre

/-- The shape of the first layer's input: 128 batch elements, 502 nodes, 1024 features. -/
abbrev SIn : Shape := ⟨3, ![128, 502, 1024]⟩

/-- The reference's result as a composition of pure functions of the fifteen argument arrays: the first layer's
    input, the edge list with its self loops and the edges' weights, then three times a feature transform, the
    gather-scale-scatter over the edges with the bias, and the batch normalisation with the unit. -/
def refFn {F : FTy → Type} [FloatOps F]
    (a0 : FVec F Iface.S128x1024 .f32) (a1 : FVec F Iface.S500x1024 .f32) (a2 : IVec Iface.S2x4000 32)
    (a3 : FVec F Iface.S1024x256 .f32) (a4 a5 a6 : FVec F Iface.S256 .f32)
    (a7 : FVec F Iface.S256x256 .f32) (a8 a9 a10 : FVec F Iface.S256 .f32)
    (a11 : FVec F Iface.S256x256 .f32) (a12 a13 a14 : FVec F Iface.S256 .f32) : FVec F Iface.S128x502x256 .f32 :=
  let x0 := x0Fn a0 a1
  let s := srcRaw a2
  let d := dstRaw a2
  let w := nrmFn (F := F) a2
  let y1 := gsFn (dotFn1 x0 a3) s d w a4
  let x1 := bnFn y1 a5 a6
  let y2 := gsFn (dotFn2 x1 a7) s d w a8
  let x2 := bnFn y2 a9 a10
  let y3 := gsFn (dotFn2 x2 a11) s d w a12
  bnFn y3 a13 a14

section Layers

variable (I : Model.Inp) (a2 : IVec Iface.S2x4000 32) (hE : ∀ r e, a2 (ix2 r e) = I.E r e) (hR : Iface.InRange I)
include hE hR

/-- The first layer's convolution, computed edge by edge from an array holding the reals `xr`, is the model's:
    the sum over the edges ending at a node is the row of the normalised adjacency matrix applied. -/
theorem conv1_apply (xr : Fin 128 → Fin 502 → Fin 1024 → ℝ) (Wr : Fin 1024 → Fin 256 → ℝ) (br : Fin 256 → ℝ)
    (x : FVec Ideal SIn .f32) (W : FVec Ideal Iface.S1024x256 .f32) (bias : FVec Ideal Iface.S256 .f32)
    (hx : ∀ b s f, x (ix3 b s f) = ((xr b s f : ℝ) : EReal)) (hW : ∀ f h, W (ix2 f h) = ((Wr f h : ℝ) : EReal))
    (hb : ∀ h, bias (ix1 h) = ((br h : ℝ) : EReal)) (b : Fin 128) (n : Fin 502) (h : Fin 256) :
    gsFn (F := Ideal) (dotFn1 x W) (srcRaw a2) (dstRaw a2) (nrmFn a2) bias (ix3 b n h)
      = ((Model.conv I xr Wr br b n h : ℝ) : EReal) := by
  rw [Model.conv_edges]
  exact gsFn_apply (fun b s h => ∑ f : Fin 1024, xr b s f * Wr f h) (Model.src I) (Model.dst I) (Model.nrm I) br
    (dotFn1 x W) (srcRaw a2) (dstRaw a2) (nrmFn a2) bias (dotFn1_apply x W xr Wr hx hW)
    (src_toInt I a2 hE hR) (dst_toInt I a2 hE hR) (nrmFn_apply I a2 hE hR) hb b n h

/-- A later layer's convolution, computed edge by edge from an array holding the reals `xr`, is the model's. -/
theorem conv2_apply (xr : Fin 128 → Fin 502 → Fin 256 → ℝ) (Wr : Fin 256 → Fin 256 → ℝ) (br : Fin 256 → ℝ)
    (x : FVec Ideal Iface.S128x502x256 .f32) (W : FVec Ideal Iface.S256x256 .f32) (bias : FVec Ideal Iface.S256 .f32)
    (hx : ∀ b s f, x (ix3 b s f) = ((xr b s f : ℝ) : EReal)) (hW : ∀ f h, W (ix2 f h) = ((Wr f h : ℝ) : EReal))
    (hb : ∀ h, bias (ix1 h) = ((br h : ℝ) : EReal)) (b : Fin 128) (n : Fin 502) (h : Fin 256) :
    gsFn (F := Ideal) (dotFn2 x W) (srcRaw a2) (dstRaw a2) (nrmFn a2) bias (ix3 b n h)
      = ((Model.conv I xr Wr br b n h : ℝ) : EReal) := by
  rw [Model.conv_edges]
  exact gsFn_apply (fun b s h => ∑ f : Fin 256, xr b s f * Wr f h) (Model.src I) (Model.dst I) (Model.nrm I) br
    (dotFn2 x W) (srcRaw a2) (dstRaw a2) (nrmFn a2) bias (dotFn2_apply x W xr Wr hx hW)
    (src_toInt I a2 hE hR) (dst_toInt I a2 hE hR) (nrmFn_apply I a2 hE hR) hb b n h

end Layers

/-- The composition is the model's result: layer by layer, every intermediate array holds the model's reals. -/
theorem refFn_eq (I : Model.Inp)
    (a0 : FVec Ideal Iface.S128x1024 .f32) (a1 : FVec Ideal Iface.S500x1024 .f32) (a2 : IVec Iface.S2x4000 32)
    (a3 : FVec Ideal Iface.S1024x256 .f32) (a4 a5 a6 : FVec Ideal Iface.S256 .f32)
    (a7 : FVec Ideal Iface.S256x256 .f32) (a8 a9 a10 : FVec Ideal Iface.S256 .f32)
    (a11 : FVec Ideal Iface.S256x256 .f32) (a12 a13 a14 : FVec Ideal Iface.S256 .f32)
    (hA : Iface.Agree I a0 a1 a2 a3 a4 a5 a6 a7 a8 a9 a10 a11 a12 a13 a14) (hR : Iface.InRange I) :
    refFn (F := Ideal) a0 a1 a2 a3 a4 a5 a6 a7 a8 a9 a10 a11 a12 a13 a14 = Iface.outArr I := by
  apply Iface.ext_ix3
  intro b n h
  rw [Iface.outArr_ix3]
  unfold refFn
  -- the first layer's input
  have hx0 : ∀ b s f, x0Fn (F := Ideal) a0 a1 (ix3 b s f) = ((Model.x0 I b s f : ℝ) : EReal) :=
    x0Fn_apply I a0 a1 hA.xs hA.xb
  -- the first layer: its convolution, then its normalisation and unit
  have hy1 := conv1_apply I a2 hA.E hR (Model.x0 I) I.W1 I.b1 _ a3 a4 hx0 hA.W1 hA.b1
  have hx1 := bnFn_apply (Model.conv I (Model.x0 I) I.W1 I.b1) I.g1 I.be1 _ a5 a6 hy1 hA.g1 hA.be1
  -- the second layer
  have hy2 := conv2_apply I a2 hA.E hR (Model.X1 I) I.W2 I.b2 _ a7 a8 hx1 hA.W2 hA.b2
  have hx2 := bnFn_apply (Model.conv I (Model.X1 I) I.W2 I.b2) I.g2 I.be2 _ a9 a10 hy2 hA.g2 hA.be2
  -- the third layer
  have hy3 := conv2_apply I a2 hA.E hR (Model.X2 I) I.W3 I.b3 _ a11 a12 hx2 hA.W3 hA.b3
  exact bnFn_apply (Model.conv I (Model.X2 I) I.W3 I.b3) I.g3 I.be3 _ a13 a14 hy3 hA.g3 hA.be3 b n h

end Cert.ReferenceIdeal.RPure

end
-- ==== Proof.RBridge.lean ====
import proofs.«171858_j54966991454756_2_alg».proof.Proof.RefRun
import proofs.«171858_j54966991454756_2_alg».proof.Proof.RPure

/-!
  The reference's run computes the composition of pure functions.

  The fold of the reference's line of operations over any contents of the buffers is read stretch by stretch.  After
  each stretch the buffers that later stretches read hold a named function of the argument arrays: the first layer's
  input, the sources and targets with the loops appended, the edges' weights; then per layer the product with the
  weight matrix, the sum over edges with the bias, the normalised feature, the unit.  A buffer that a stretch does not
  write keeps what it held.  At the end the result buffer holds the composition of all of them.
-/

noncomputable section

namespace Cert.ReferenceIdeal.RBridge

open Cert.ReferenceIdeal Cert.ReferenceIdeal.Gen Idealize.ShloMosaic Idealize.ShloMosaic.TcCoe Idealize.SL.Sem
open Idealize.ShloMosaic.StableHlo Idealize.ShloMosaic.ValueIdx
open Cert.ReferenceIdeal.RefRun Cert.ReferenceIdeal.RefDot Cert.ReferenceIdeal.RefBn Cert.ReferenceIdeal.RefConv

variable {F : FTy → Type} [FloatOps F]

/-- The contents of a reference's buffer. -/
local notation:max W "⟦" r "⟧" => W (Proc.devRef Proc.tc r)

/-- An operation that writes one buffer, a member of a list of references, writes inside the list. -/
theorem wr {op : HloOp τ sig (Elt F)} {L : List (Ref sig .tc)} (y : Ref sig .tc)
    (hw : op.writes = ({Proc.devRef .tc y} : Finset (DevRef τ sig))) (hy : y ∈ L) :
    op.writes ⊆ (L.map (Proc.devRef (τ := τ) .tc)).toFinset := by
  rw [hw, Finset.singleton_subset_iff, List.mem_toFinset]
  exact List.mem_map_of_mem hy

/-! ## What each stretch writes (table) -/

/-- The buffers that `ops0a` writes. -/
abbrev ops0a_W : List (Ref sig .tc) :=
  [main_v0, main_v1, main_cst, main_v2, main_v3]
theorem ops0a_writes : (RefRun.ops0a : List (HloOp τ sig (Elt F))).Forall fun op =>
    op.writes ⊆ (ops0a_W.map (Proc.devRef (τ := τ) .tc)).toFinset :=
  ⟨wr main_v0 rfl (by decide),
    wr main_v1 rfl (by decide),
    wr main_cst rfl (by decide),
    wr main_v2 rfl (by decide),
    wr main_v3 rfl (by decide)⟩

/-- The buffers that `ops0b` writes. -/
abbrev ops0b_W : List (Ref sig .tc) :=
  [main_v4, main_v5, main_v6, main_v7]
theorem ops0b_writes : (RefRun.ops0b : List (HloOp τ sig (Elt F))).Forall fun op =>
    op.writes ⊆ (ops0b_W.map (Proc.devRef (τ := τ) .tc)).toFinset :=
  ⟨wr main_v4 rfl (by decide),
    wr main_v5 rfl (by decide),
    wr main_v6 rfl (by decide),
    wr main_v7 rfl (by decide)⟩

/-- The buffers that `ops0c` writes. -/
abbrev ops0c_W : List (Ref sig .tc) :=
  [main_v8, main_v9, main_v10]
theorem ops0c_writes : (RefRun.ops0c : List (HloOp τ sig (Elt F))).Forall fun op =>
    op.writes ⊆ (ops0c_W.map (Proc.devRef (τ := τ) .tc)).toFinset :=
  ⟨wr main_v8 rfl (by decide),
    wr main_v9 rfl (by decide),
    wr main_v10 rfl (by decide)⟩

/-- The buffers that `ops0d` writes. -/
abbrev ops0d_W : List (Ref sig .tc) :=
  [main_v11, main_cst_0, main_v12, main_c, main_v13, main_v14, main_c_1, main_v15, main_v16, main_v17, main_v18, main_cst_2, main_v19, main_v20, main_cst_3, main_v21, main_v22, main_v23, main_cst_4, main_call0.v0.ref, main_call0.v1.ref, main_call0.v2.ref]
theorem ops0d_writes : (RefRun.ops0d : List (HloOp τ sig (Elt F))).Forall fun op =>
    op.writes ⊆ (ops0d_W.map (Proc.devRef (τ := τ) .tc)).toFinset :=
  ⟨wr main_v11 rfl (by decide),
    wr main_cst_0 rfl (by decide),
    wr main_v12 rfl (by decide),
    wr main_c rfl (by decide),
    wr main_v13 rfl (by decide),
    wr main_v14 rfl (by decide),
    wr main_c_1 rfl (by decide),
    wr main_v15 rfl (by decide),
    wr main_v16 rfl (by decide),
    wr main_v17 rfl (by decide),
    wr main_v18 rfl (by decide),
    wr main_cst_2 rfl (by decide),
    wr main_v19 rfl (by decide),
    wr main_v20 rfl (by decide),
    wr main_cst_3 rfl (by decide),
    wr main_v21 rfl (by decide),
    wr main_v22 rfl (by decide),
    wr main_v23 rfl (by decide),
    wr main_cst_4 rfl (by decide),
    wr main_call0.v0.ref rfl (by decide),
    wr main_call0.v1.ref rfl (by decide),
    wr main_call0.v2.ref rfl (by decide)⟩

/-- The buffers that `ops0e` writes. -/
abbrev ops0e_W : List (Ref sig .tc) :=
  [main_c_5, main_v25, main_v26, main_c_6, main_v27, main_v28, main_v29, main_v30, main_v31, main_c_7, main_v32, main_v33, main_c_8, main_v34, main_v35, main_v36, main_v37, main_v38, main_v39, main_v40, main_c_9, main_v41, main_v42, main_c_10, main_v43, main_v44, main_v45, main_v46]
theorem ops0e_writes : (RefRun.ops0e : List (HloOp τ sig (Elt F))).Forall fun op =>
    op.writes ⊆ (ops0e_W.map (Proc.devRef (τ := τ) .tc)).toFinset :=
  ⟨wr main_c_5 rfl (by decide),
    wr main_v25 rfl (by decide),
    wr main_v26 rfl (by decide),
    wr main_c_6 rfl (by decide),
    wr main_v27 rfl (by decide),
    wr main_v28 rfl (by decide),
    wr main_v29 rfl (by decide),
    wr main_v30 rfl (by decide),
    wr main_v31 rfl (by decide),
    wr main_c_7 rfl (by decide),
    wr main_v32 rfl (by decide),
    wr main_v33 rfl (by decide),
    wr main_c_8 rfl (by decide),
    wr main_v34 rfl (by decide),
    wr main_v35 rfl (by decide),
    wr main_v36 rfl (by decide),
    wr main_v37 rfl (by decide),
    wr main_v38 rfl (by decide),
    wr main_v39 rfl (by decide),
    wr main_v40 rfl (by decide),
    wr main_c_9 rfl (by decide),
    wr main_v41 rfl (by decide),
    wr main_v42 rfl (by decide),
    wr main_c_10 rfl (by decide),
    wr main_v43 rfl (by decide),
    wr main_v44 rfl (by decide),
    wr main_v45 rfl (by decide),
    wr main_v46 rfl (by decide)⟩

/-- The buffers that `ops1a` writes. -/
abbrev ops1a_W : List (Ref sig .tc) :=
  [main_v47, main_v48, main_v49, main_v50, main_cst_11, main_v51, main_c_12, main_v52, main_v53, main_c_13, main_v54, main_v55, main_v56, main_v57, main_v58]
theorem ops1a_writes : (RefRun.ops1a : List (HloOp τ sig (Elt F))).Forall fun op =>
    op.writes ⊆ (ops1a_W.map (Proc.devRef (τ := τ) .tc)).toFinset :=
  ⟨wr main_v47 rfl (by decide),
    wr main_v48 rfl (by decide),
    wr main_v49 rfl (by decide),
    wr main_v50 rfl (by decide),
    wr main_cst_11 rfl (by decide),
    wr main_v51 rfl (by decide),
    wr main_c_12 rfl (by decide),
    wr main_v52 rfl (by decide),
    wr main_v53 rfl (by decide),
    wr main_c_13 rfl (by decide),
    wr main_v54 rfl (by decide),
    wr main_v55 rfl (by decide),
    wr main_v56 rfl (by decide),
    wr main_v57 rfl (by decide),
    wr main_v58 rfl (by decide)⟩

/-- The buffers that `ops1b` writes. -/
abbrev ops1b_W : List (Ref sig .tc) :=
  [main_v59, main_v60, main_v61, main_v62, main_cst_14, main_v63, main_cst_15, main_v64, main_v65, main_v66, main_v67, main_v68, main_v69, main_cst_16, main_v70, main_cst_17, main_v71, main_v72, main_v73, main_v74, main_v75, main_cst_18, main_v76, main_v77, main_v78, main_v79, main_v80, main_v81, main_v82, main_v83, main_v84, main_v85, main_v86, main_v87]
theorem ops1b_writes : (RefRun.ops1b : List (HloOp τ sig (Elt F))).Forall fun op =>
    op.writes ⊆ (ops1b_W.map (Proc.devRef (τ := τ) .tc)).toFinset :=
  ⟨wr main_v59 rfl (by decide),
    wr main_v60 rfl (by decide),
    wr main_v61 rfl (by decide),
    wr main_v62 rfl (by decide),
    wr main_cst_14 rfl (by decide),
    wr main_v63 rfl (by decide),
    wr main_cst_15 rfl (by decide),
    wr main_v64 rfl (by decide),
    wr main_v65 rfl (by decide),
    wr main_v66 rfl (by decide),
    wr main_v67 rfl (by decide),
    wr main_v68 rfl (by decide),
    wr main_v69 rfl (by decide),
    wr main_cst_16 rfl (by decide),
    wr main_v70 rfl (by decide),
    wr main_cst_17 rfl (by decide),
    wr main_v71 rfl (by decide),
    wr main_v72 rfl (by decide),
    wr main_v73 rfl (by decide),
    wr main_v74 rfl (by decide),
    wr main_v75 rfl (by decide),
    wr main_cst_18 rfl (by decide),
    wr main_v76 rfl (by decide),
    wr main_v77 rfl (by decide),
    wr main_v78 rfl (by decide),
    wr main_v79 rfl (by decide),
    wr main_v80 rfl (by decide),
    wr main_v81 rfl (by decide),
    wr main_v82 rfl (by decide),
    wr main_v83 rfl (by decide),
    wr main_v84 rfl (by decide),
    wr main_v85 rfl (by decide),
    wr main_v86 rfl (by decide),
    wr main_v87 rfl (by decide)⟩

/-- The buffers that `ops1c` writes. -/
abbrev ops1c_W : List (Ref sig .tc) :=
  [main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref]
theorem ops1c_writes : (RefRun.ops1c : List (HloOp τ sig (Elt F))).Forall fun op =>
    op.writes ⊆ (ops1c_W.map (Proc.devRef (τ := τ) .tc)).toFinset :=
  ⟨wr main_call1.cst.ref rfl (by decide),
    wr main_call1.v0.ref rfl (by decide),
    wr main_call1.v1.ref rfl (by decide),
    wr main_call1.cst_0.ref rfl (by decide),
    wr main_call1.v2.ref rfl (by decide),
    wr main_call1.v3.ref rfl (by decide),
    wr main_call1.cst_1.ref rfl (by decide),
    wr main_call1.call0.v0.ref rfl (by decide),
    wr main_call1.call0.v1.ref rfl (by decide),
    wr main_call1.call0.v2.ref rfl (by decide),
    wr main_call1.v5.ref rfl (by decide),
    wr main_call1.cst_2.ref rfl (by decide),
    wr main_call1.v6.ref rfl (by decide),
    wr main_call1.v7.ref rfl (by decide),
    wr main_call1.call1.v0.ref rfl (by decide)⟩

/-- The buffers that `ops1d` writes. -/
abbrev ops1d_W : List (Ref sig .tc) :=
  [main_v89, main_v90, main_c_19, main_v91, main_v92, main_c_20, main_v93, main_v94, main_v95, main_v96]
theorem ops1d_writes : (RefRun.ops1d : List (HloOp τ sig (Elt F))).Forall fun op =>
    op.writes ⊆ (ops1d_W.map (Proc.devRef (τ := τ) .tc)).toFinset :=
  ⟨wr main_v89 rfl (by decide),
    wr main_v90 rfl (by decide),
    wr main_c_19 rfl (by decide),
    wr main_v91 rfl (by decide),
    wr main_v92 rfl (by decide),
    wr main_c_20 rfl (by decide),
    wr main_v93 rfl (by decide),
    wr main_v94 rfl (by decide),
    wr main_v95 rfl (by decide),
    wr main_v96 rfl (by decide)⟩

/-- The buffers that `ops2a` writes. -/
abbrev ops2a_W : List (Ref sig .tc) :=
  [main_v97, main_v98, main_v99, main_v100, main_cst_21, main_v101, main_c_22, main_v102, main_v103, main_c_23, main_v104, main_v105, main_v106, main_v107, main_v108]
theorem ops2a_writes : (RefRun.ops2a : List (HloOp τ sig (Elt F))).Forall fun op =>
    op.writes ⊆ (ops2a_W.map (Proc.devRef (τ := τ) .tc)).toFinset :=
  ⟨wr main_v97 rfl (by decide),
    wr main_v98 rfl (by decide),
    wr main_v99 rfl (by decide),
    wr main_v100 rfl (by decide),
    wr main_cst_21 rfl (by decide),
    wr main_v101 rfl (by decide),
    wr main_c_22 rfl (by decide),
    wr main_v102 rfl (by decide),
    wr main_v103 rfl (by decide),
    wr main_c_23 rfl (by decide),
    wr main_v104 rfl (by decide),
    wr main_v105 rfl (by decide),
    wr main_v106 rfl (by decide),
    wr main_v107 rfl (by decide),
    wr main_v108 rfl (by decide)⟩

/-- The buffers that `ops2b` writes. -/
abbrev ops2b_W : List (Ref sig .tc) :=
  [main_v109, main_v110, main_v111, main_v112, main_cst_24, main_v113, main_cst_25, main_v114, main_v115, main_v116, main_v117, main_v118, main_v119, main_cst_26, main_v120, main_cst_27, main_v121, main_v122, main_v123, main_v124, main_v125, main_cst_28, main_v126, main_v127, main_v128, main_v129, main_v130, main_v131, main_v132, main_v133, main_v134, main_v135, main_v136, main_v137]
theorem ops2b_writes : (RefRun.ops2b : List (HloOp τ sig (Elt F))).Forall fun op =>
    op.writes ⊆ (ops2b_W.map (Proc.devRef (τ := τ) .tc)).toFinset :=
  ⟨wr main_v109 rfl (by decide),
    wr main_v110 rfl (by decide),
    wr main_v111 rfl (by decide),
    wr main_v112 rfl (by decide),
    wr main_cst_24 rfl (by decide),
    wr main_v113 rfl (by decide),
    wr main_cst_25 rfl (by decide),
    wr main_v114 rfl (by decide),
    wr main_v115 rfl (by decide),
    wr main_v116 rfl (by decide),
    wr main_v117 rfl (by decide),
    wr main_v118 rfl (by decide),
    wr main_v119 rfl (by decide),
    wr main_cst_26 rfl (by decide),
    wr main_v120 rfl (by decide),
    wr main_cst_27 rfl (by decide),
    wr main_v121 rfl (by decide),
    wr main_v122 rfl (by decide),
    wr main_v123 rfl (by decide),
    wr main_v124 rfl (by decide),
    wr main_v125 rfl (by decide),
    wr main_cst_28 rfl (by decide),
    wr main_v126 rfl (by decide),
    wr main_v127 rfl (by decide),
    wr main_v128 rfl (by decide),
    wr main_v129 rfl (by decide),
    wr main_v130 rfl (by decide),
    wr main_v131 rfl (by decide),
    wr main_v132 rfl (by decide),
    wr main_v133 rfl (by decide),
    wr main_v134 rfl (by decide),
    wr main_v135 rfl (by decide),
    wr main_v136 rfl (by decide),
    wr main_v137 rfl (by decide)⟩

/-- The buffers that `ops2c` writes. -/
abbrev ops2c_W : List (Ref sig .tc) :=
  [main_call2.cst.ref, main_call2.v0.ref, main_call2.v1.ref, main_call2.cst_0.ref, main_call2.v2.ref, main_call2.v3.ref, main_call2.cst_1.ref, main_call2.call0.v0.ref, main_call2.call0.v1.ref, main_call2.call0.v2.ref, main_call2.v5.ref, main_call2.cst_2.ref, main_call2.v6.ref, main_call2.v7.ref, main_call2.call1.v0.ref]
theorem ops2c_writes : (RefRun.ops2c : List (HloOp τ sig (Elt F))).Forall fun op =>
    op.writes ⊆ (ops2c_W.map (Proc.devRef (τ := τ) .tc)).toFinset :=
  ⟨wr main_call2.cst.ref rfl (by decide),
    wr main_call2.v0.ref rfl (by decide),
    wr main_call2.v1.ref rfl (by decide),
    wr main_call2.cst_0.ref rfl (by decide),
    wr main_call2.v2.ref rfl (by decide),
    wr main_call2.v3.ref rfl (by decide),
    wr main_call2.cst_1.ref rfl (by decide),
    wr main_call2.call0.v0.ref rfl (by decide),
    wr main_call2.call0.v1.ref rfl (by decide),
    wr main_call2.call0.v2.ref rfl (by decide),
    wr main_call2.v5.ref rfl (by decide),
    wr main_call2.cst_2.ref rfl (by decide),
    wr main_call2.v6.ref rfl (by decide),
    wr main_call2.v7.ref rfl (by decide),
    wr main_call2.call1.v0.ref rfl (by decide)⟩

/-- The buffers that `ops2d` writes. -/
abbrev ops2d_W : List (Ref sig .tc) :=
  [main_v139, main_v140, main_c_29, main_v141, main_v142, main_c_30, main_v143, main_v144, main_v145, main_v146]
theorem ops2d_writes : (RefRun.ops2d : List (HloOp τ sig (Elt F))).Forall fun op =>
    op.writes ⊆ (ops2d_W.map (Proc.devRef (τ := τ) .tc)).toFinset :=
  ⟨wr main_v139 rfl (by decide),
    wr main_v140 rfl (by decide),
    wr main_c_29 rfl (by decide),
    wr main_v141 rfl (by decide),
    wr main_v142 rfl (by decide),
    wr main_c_30 rfl (by decide),
    wr main_v143 rfl (by decide),
    wr main_v144 rfl (by decide),
    wr main_v145 rfl (by decide),
    wr main_v146 rfl (by decide)⟩

/-- The buffers that `ops3a` writes. -/
abbrev ops3a_W : List (Ref sig .tc) :=
  [main_v147, main_v148, main_v149, main_v150, main_cst_31, main_v151, main_c_32, main_v152, main_v153, main_c_33, main_v154, main_v155, main_v156, main_v157, main_v158]
theorem ops3a_writes : (RefRun.ops3a : List (HloOp τ sig (Elt F))).Forall fun op =>
    op.writes ⊆ (ops3a_W.map (Proc.devRef (τ := τ) .tc)).toFinset :=
  ⟨wr main_v147 rfl (by decide),
    wr main_v148 rfl (by decide),
    wr main_v149 rfl (by decide),
    wr main_v150 rfl (by decide),
    wr main_cst_31 rfl (by decide),
    wr main_v151 rfl (by decide),
    wr main_c_32 rfl (by decide),
    wr main_v152 rfl (by decide),
    wr main_v153 rfl (by decide),
    wr main_c_33 rfl (by decide),
    wr main_v154 rfl (by decide),
    wr main_v155 rfl (by decide),
    wr main_v156 rfl (by decide),
    wr main_v157 rfl (by decide),
    wr main_v158 rfl (by decide)⟩

/-- The buffers that `ops3b` writes. -/
abbrev ops3b_W : List (Ref sig .tc) :=
  [main_v159, main_v160, main_v161, main_v162, main_cst_34, main_v163, main_cst_35, main_v164, main_v165, main_v166, main_v167, main_v168, main_v169, main_cst_36, main_v170, main_cst_37, main_v171, main_v172, main_v173, main_v174, main_v175, main_cst_38, main_v176, main_v177, main_v178, main_v179, main_v180, main_v181, main_v182, main_v183, main_v184, main_v185, main_v186, main_v187]
theorem ops3b_writes : (RefRun.ops3b : List (HloOp τ sig (Elt F))).Forall fun op =>
    op.writes ⊆ (ops3b_W.map (Proc.devRef (τ := τ) .tc)).toFinset :=
  ⟨wr main_v159 rfl (by decide),
    wr main_v160 rfl (by decide),
    wr main_v161 rfl (by decide),
    wr main_v162 rfl (by decide),
    wr main_cst_34 rfl (by decide),
    wr main_v163 rfl (by decide),
    wr main_cst_35 rfl (by decide),
    wr main_v164 rfl (by decide),
    wr main_v165 rfl (by decide),
    wr main_v166 rfl (by decide),
    wr main_v167 rfl (by decide),
    wr main_v168 rfl (by decide),
    wr main_v169 rfl (by decide),
    wr main_cst_36 rfl (by decide),
    wr main_v170 rfl (by decide),
    wr main_cst_37 rfl (by decide),
    wr main_v171 rfl (by decide),
    wr main_v172 rfl (by decide),
    wr main_v173 rfl (by decide),
    wr main_v174 rfl (by decide),
    wr main_v175 rfl (by decide),
    wr main_cst_38 rfl (by decide),
    wr main_v176 rfl (by decide),
    wr main_v177 rfl (by decide),
    wr main_v178 rfl (by decide),
    wr main_v179 rfl (by decide),
    wr main_v180 rfl (by decide),
    wr main_v181 rfl (by decide),
    wr main_v182 rfl (by decide),
    wr main_v183 rfl (by decide),
    wr main_v184 rfl (by decide),
    wr main_v185 rfl (by decide),
    wr main_v186 rfl (by decide),
    wr main_v187 rfl (by decide)⟩

/-- The buffers that `ops3c` writes. -/
abbrev ops3c_W : List (Ref sig .tc) :=
  [main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref]
theorem ops3c_writes : (RefRun.ops3c : List (HloOp τ sig (Elt F))).Forall fun op =>
    op.writes ⊆ (ops3c_W.map (Proc.devRef (τ := τ) .tc)).toFinset :=
  ⟨wr main_call3.cst.ref rfl (by decide),
    wr main_call3.v0.ref rfl (by decide),
    wr main_call3.v1.ref rfl (by decide),
    wr main_call3.cst_0.ref rfl (by decide),
    wr main_call3.v2.ref rfl (by decide),
    wr main_call3.v3.ref rfl (by decide),
    wr main_call3.cst_1.ref rfl (by decide),
    wr main_call3.call0.v0.ref rfl (by decide),
    wr main_call3.call0.v1.ref rfl (by decide),
    wr main_call3.call0.v2.ref rfl (by decide),
    wr main_call3.v5.ref rfl (by decide),
    wr main_call3.cst_2.ref rfl (by decide),
    wr main_call3.v6.ref rfl (by decide),
    wr main_call3.v7.ref rfl (by decide),
    wr main_call3.call1.v0.ref rfl (by decide)⟩

/-- The buffers that `ops3d` writes. -/
abbrev ops3d_W : List (Ref sig .tc) :=
  [main_v189]
theorem ops3d_writes : (RefRun.ops3d : List (HloOp τ sig (Elt F))).Forall fun op =>
    op.writes ⊆ (ops3d_W.map (Proc.devRef (τ := τ) .tc)).toFinset :=
  wr main_v189 rfl (by decide)

-- 275 operations in all
/-! ## The graph (end of the table) -/

/-- A buffer that a stretch does not write keeps its contents through it. -/
theorem keep {l : List (HloOp τ sig (Elt F))} {L : List (Ref sig .tc)}
    (hw : l.Forall fun op => op.writes ⊆ (L.map (Proc.devRef (τ := τ) .tc)).toFinset)
    (W : Valuation τ sig (Elt F)) {r : Ref sig .tc} (hr : r ∉ L) : (after l W)⟦r⟧ = W⟦r⟧ :=
  after_of_writes_sub l W hw hr

/-- An argument's buffer keeps its contents through a stretch. -/
theorem keepArg {l : List (HloOp τ sig (Elt F))} (hg : l.Forall Good) (W : Valuation τ sig (Elt F))
    {r : Ref sig .tc} (hr : r ∈ argRefs) : (after l W)⟦r⟧ = W⟦r⟧ :=
  after_kept (List.forall_iff_forall_mem.mp hg) W hr

variable (V : Valuation τ sig (Elt F))

/-! ### The first layer's input, the sources -/

/-- The buffers once the first layer's input and the sources are in place. -/
def g1 : Valuation τ sig (Elt F) := after ops0c (after ops0b (after ops0a V))

theorem g1_arg {r : Ref sig .tc} (hr : r ∈ argRefs) : g1 V (no_index (Proc.devRef .tc r)) = V⟦r⟧ :=
  (keepArg ops0c_good _ hr).trans ((keepArg ops0b_good _ hr).trans (keepArg ops0a_good _ hr))

/-- The first layer's input: base rows, sensor row, zero row. -/
theorem g1_v4 : g1 V (no_index (Proc.devRef .tc main_v4)) = x0Fn V⟦main_arg0⟧ V⟦main_arg1⟧ := by
  unfold g1
  after_results_simp
  rfl

/-- The node numbers. -/
theorem g1_v5 : g1 V (no_index (Proc.devRef .tc main_v5)) = iotaInDim S502 32 0 := by
  unfold g1
  after_results_simp

/-- The sources: the source words, then the node numbers. -/
theorem g1_v8 : g1 V (no_index (Proc.devRef .tc main_v8)) = GraphPre.srcRaw V⟦main_arg2⟧ := by
  unfold g1
  after_results_simp
  rfl

/-- The target words. -/
theorem g1_v10 : g1 V (no_index (Proc.devRef .tc main_v10))
    = shapeCast S4000 (extractStridedSlice S1x4000 ![1, 0] V⟦main_arg2⟧ slices_S2x4000_S1x4000_1_0) shapeCasts_S1x4000_S4000 := by
  unfold g1
  after_results_simp
  rfl

/-! ### The targets, the inverse square roots of the degrees -/

/-- The buffers once the targets and the degrees' inverse square roots are in place. -/
def g2 : Valuation τ sig (Elt F) := after ops0d (g1 V)

theorem g2_arg {r : Ref sig .tc} (hr : r ∈ argRefs) : g2 V (no_index (Proc.devRef .tc r)) = V⟦r⟧ :=
  (keepArg ops0d_good _ hr).trans (g1_arg V hr)

theorem g2_v4 : g2 V (no_index (Proc.devRef .tc main_v4)) = x0Fn V⟦main_arg0⟧ V⟦main_arg1⟧ :=
  (keep ops0d_writes _ (by decide)).trans (g1_v4 V)

theorem g2_v8 : g2 V (no_index (Proc.devRef .tc main_v8)) = GraphPre.srcRaw V⟦main_arg2⟧ :=
  (keep ops0d_writes _ (by decide)).trans (g1_v8 V)

/-- The targets: the target words, then the node numbers. -/
theorem g2_v11 : g2 V (no_index (Proc.devRef .tc main_v11)) = GraphPre.dstRaw V⟦main_arg2⟧ := by
  unfold g2
  after_results_simp
  rw [g1_v10, g1_v5]
  rfl

/-- The inverse square root of every node's degree, zero where the degree is zero. -/
theorem g2_v24 : g2 V (no_index (Proc.devRef .tc main_v24)) = GraphPre.dinvFn (F := F) V⟦main_arg2⟧ := by
  unfold g2
  after_results_simp
  rw [g1_v10, g1_v5]
  rfl

/-! ### The edges' weights, the first product -/

/-- The buffers once the edges' weights and the first layer's product are in place. -/
def g3 : Valuation τ sig (Elt F) := after ops0e (g2 V)

theorem g3_arg {r : Ref sig .tc} (hr : r ∈ argRefs) : g3 V (no_index (Proc.devRef .tc r)) = V⟦r⟧ :=
  (keepArg ops0e_good _ hr).trans (g2_arg V hr)

theorem g3_v8 : g3 V (no_index (Proc.devRef .tc main_v8)) = GraphPre.srcRaw V⟦main_arg2⟧ :=
  (keep ops0e_writes _ (by decide)).trans (g2_v8 V)

theorem g3_v11 : g3 V (no_index (Proc.devRef .tc main_v11)) = GraphPre.dstRaw V⟦main_arg2⟧ :=
  (keep ops0e_writes _ (by decide)).trans (g2_v11 V)

/-- The edges' weights: the inverse square roots at the two ends, multiplied. -/
theorem g3_v39 : g3 V (no_index (Proc.devRef .tc main_v39)) = GraphPre.nrmFn (F := F) V⟦main_arg2⟧ := by
  unfold g3
  after_results_simp
  simp only [g2_v8, g2_v11, g2_v24]
  rfl

/-- The first layer's input times its weight matrix. -/
theorem g3_v40 : g3 V (no_index (Proc.devRef .tc main_v40)) = dotFn1 (x0Fn V⟦main_arg0⟧ V⟦main_arg1⟧) V⟦main_arg3⟧ := by
  unfold g3
  after_results_simp
  simp only [g2_v4, g2_arg V (r := main_arg3) (by decide)]
  rfl

/-- The sources as a column of indices, a negative word counted from the end. -/
theorem g3_v46 : g3 V (no_index (Proc.devRef .tc main_v46)) = GraphPre.colIdx (GraphPre.srcRaw V⟦main_arg2⟧) := by
  unfold g3
  after_results_simp
  simp only [g2_v8]
  rfl

/-! ## The layers

Names for the functions of the argument arrays that the buffers hold between stretches. -/

/-- An edge vector repeated over batch elements and features. -/
abbrev wB (w : FVec F S4502 .f32) : FVec F S128x4502x256 .f32 :=
  broadcastInDim S128x4502x256 ![0, 1, 2] bcast_S1x4502x1_S128x4502x256_0_1_2
    (broadcastInDim S1x4502x1 ![1] bcast_S4502_S1x4502x1_1 w)

/-- A feature vector repeated over batch elements and nodes. -/
abbrev biasB (b : FVec F S256 .f32) : FVec F S128x502x256 .f32 :=
  broadcastInDim S128x502x256 ![0, 1, 2] bcast_S1x1x256_S128x502x256_0_1_2
    (broadcastInDim S1x1x256 ![2] bcast_S256_S1x1x256_2 b)

/-- The sum over the edges: the rows at the source indices, each times its edge's weight, added at the target indices. -/
abbrev edgeSum (h0 : FVec F S128x502x256 .f32) (si di : IVec S4502x1 32) (w : FVec F S4502 .f32) : FVec F S128x502x256 .f32 :=
  Host.scatterAdd scatter_S128x502x256_S4502x1_S128x4502x256_02_1_1_1
    (broadcastInDim S128x502x256 ![] bcast_S_S128x502x256 (constant S_ .f32 0x00000000#32)) di
    (mulf (Host.gather gather_S128x502x256_S4502x1_S128x4502x256_02_1_n_n_1_1_1281256 h0 si) (wB w))

/-- The normalised, scaled and shifted feature before the unit. -/
abbrev nzFn (y : FVec F S128x502x256 .f32) (g be : FVec F S256 .f32) : FVec F S64256x256 .f32 :=
  normFn (rowsFn y) (meanFn (rowsFn y)) (varFn (rowsFn y) (meanFn (rowsFn y))) g be

/-- The first layer's input. -/
abbrev X0 : FVec F S128x502x1024 .f32 := x0Fn V⟦main_arg0⟧ V⟦main_arg1⟧
/-- The sources, the loops appended. -/
abbrev Sr : IVec S4502 32 := GraphPre.srcRaw V⟦main_arg2⟧
/-- The targets, the loops appended. -/
abbrev Ds : IVec S4502 32 := GraphPre.dstRaw V⟦main_arg2⟧
/-- The edges' weights. -/
abbrev Nw : FVec F S4502 .f32 := GraphPre.nrmFn V⟦main_arg2⟧
/-- The first layer's sum over edges with its bias, and its output. -/
abbrev Y1 : FVec F S128x502x256 .f32 := gsFn (dotFn1 (X0 V) V⟦main_arg3⟧) (Sr V) (Ds V) (Nw V) V⟦main_arg4⟧
abbrev X1 : FVec F S128x502x256 .f32 := bnFn (Y1 V) V⟦main_arg5⟧ V⟦main_arg6⟧
/-- The second layer's. -/
abbrev Y2 : FVec F S128x502x256 .f32 := gsFn (dotFn2 (X1 V) V⟦main_arg7⟧) (Sr V) (Ds V) (Nw V) V⟦main_arg8⟧
abbrev X2 : FVec F S128x502x256 .f32 := bnFn (Y2 V) V⟦main_arg9⟧ V⟦main_arg10⟧
/-- The third layer's. -/
abbrev Y3 : FVec F S128x502x256 .f32 := gsFn (dotFn2 (X2 V) V⟦main_arg11⟧) (Sr V) (Ds V) (Nw V) V⟦main_arg12⟧
abbrev X3 : FVec F S128x502x256 .f32 := bnFn (Y3 V) V⟦main_arg13⟧ V⟦main_arg14⟧

/-! ### The first layer -/

/-- The buffers after the first layer's sum over edges. -/
def p1 : Valuation τ sig (Elt F) := after ops1a (g3 V)

theorem p1_arg {r : Ref sig .tc} (hr : r ∈ argRefs) : p1 V (no_index (Proc.devRef .tc r)) = V⟦r⟧ :=
  (keepArg ops1a_good _ hr).trans (g3_arg V hr)
theorem p1_v8 : p1 V (no_index (Proc.devRef .tc main_v8)) = Sr V := (keep ops1a_writes _ (by decide)).trans (g3_v8 V)
theorem p1_v11 : p1 V (no_index (Proc.devRef .tc main_v11)) = Ds V := (keep ops1a_writes _ (by decide)).trans (g3_v11 V)
theorem p1_v39 : p1 V (no_index (Proc.devRef .tc main_v39)) = Nw V := (keep ops1a_writes _ (by decide)).trans (g3_v39 V)

/-- The sum over edges of the layer's product, before the bias. -/
theorem p1_v58 : p1 V (no_index (Proc.devRef .tc main_v58))
    = edgeSum (dotFn1 (X0 V) V⟦main_arg3⟧) (GraphPre.colIdx (Sr V)) (GraphPre.colIdx (Ds V)) (Nw V) := by
  unfold p1
  after_results_simp
  simp only [g3_v40, g3_v46, g3_v39, g3_v11]
  rfl

/-- The buffers after the first layer's normalisation. -/
def q1 : Valuation τ sig (Elt F) := after ops1b (p1 V)

theorem q1_arg {r : Ref sig .tc} (hr : r ∈ argRefs) : q1 V (no_index (Proc.devRef .tc r)) = V⟦r⟧ :=
  (keepArg ops1b_good _ hr).trans (p1_arg V hr)
theorem q1_v8 : q1 V (no_index (Proc.devRef .tc main_v8)) = Sr V := (keep ops1b_writes _ (by decide)).trans (p1_v8 V)
theorem q1_v11 : q1 V (no_index (Proc.devRef .tc main_v11)) = Ds V := (keep ops1b_writes _ (by decide)).trans (p1_v11 V)
theorem q1_v39 : q1 V (no_index (Proc.devRef .tc main_v39)) = Nw V := (keep ops1b_writes _ (by decide)).trans (p1_v39 V)

/-- The layer's sum with its bias is the layer's convolution; its features normalised, scaled and shifted. -/
theorem q1_v87 : q1 V (no_index (Proc.devRef .tc main_v87)) = nzFn (Y1 V) V⟦main_arg5⟧ V⟦main_arg6⟧ := by
  unfold q1
  after_results_simp
  simp only [p1_v58, p1_arg V (r := main_arg4) (by decide), p1_arg V (r := main_arg5) (by decide),
    p1_arg V (r := main_arg6) (by decide)]
  rw [show addf (edgeSum (dotFn1 (X0 V) V⟦main_arg3⟧) (GraphPre.colIdx (Sr V)) (GraphPre.colIdx (Ds V)) (Nw V)) (biasB V⟦main_arg4⟧)
    = Y1 V from rfl]
  rfl

/-- The buffers after the first layer's unit. -/
def r1 : Valuation τ sig (Elt F) := after ops1c (q1 V)

theorem r1_arg {r : Ref sig .tc} (hr : r ∈ argRefs) : r1 V (no_index (Proc.devRef .tc r)) = V⟦r⟧ :=
  (keepArg ops1c_good _ hr).trans (q1_arg V hr)
theorem r1_v8 : r1 V (no_index (Proc.devRef .tc main_v8)) = Sr V := (keep ops1c_writes _ (by decide)).trans (q1_v8 V)
theorem r1_v11 : r1 V (no_index (Proc.devRef .tc main_v11)) = Ds V := (keep ops1c_writes _ (by decide)).trans (q1_v11 V)
theorem r1_v39 : r1 V (no_index (Proc.devRef .tc main_v39)) = Nw V := (keep ops1c_writes _ (by decide)).trans (q1_v39 V)

/-- The unit of the normalised feature. -/
theorem r1_v88 : r1 V (no_index (Proc.devRef .tc main_v88)) = eluFn (nzFn (Y1 V) V⟦main_arg5⟧ V⟦main_arg6⟧) := by
  unfold r1
  after_results_simp
  simp only [q1_v87]
  rfl

/-- The buffers after the first layer's output is multiplied by the next weight matrix. -/
def s1 : Valuation τ sig (Elt F) := after ops1d (r1 V)

theorem s1_arg {r : Ref sig .tc} (hr : r ∈ argRefs) : s1 V (no_index (Proc.devRef .tc r)) = V⟦r⟧ :=
  (keepArg ops1d_good _ hr).trans (r1_arg V hr)
theorem s1_v8 : s1 V (no_index (Proc.devRef .tc main_v8)) = Sr V := (keep ops1d_writes _ (by decide)).trans (r1_v8 V)
theorem s1_v11 : s1 V (no_index (Proc.devRef .tc main_v11)) = Ds V := (keep ops1d_writes _ (by decide)).trans (r1_v11 V)
theorem s1_v39 : s1 V (no_index (Proc.devRef .tc main_v39)) = Nw V := (keep ops1d_writes _ (by decide)).trans (r1_v39 V)

/-- The layer's output, in its three axes again, times the next weight matrix. -/
theorem s1_v90 : s1 V (no_index (Proc.devRef .tc main_v90)) = dotFn2 (X1 V) V⟦main_arg7⟧ := by
  unfold s1
  after_results_simp
  simp only [r1_v88, r1_arg V (r := main_arg7) (by decide)]
  rfl

/-- The sources as a column of indices once more. -/
theorem s1_v96 : s1 V (no_index (Proc.devRef .tc main_v96)) = GraphPre.colIdx (Sr V) := by
  unfold s1
  after_results_simp
  simp only [r1_v8]
  rfl

/-! ### The second layer -/

/-- The buffers after the second layer's sum over edges. -/
def p2 : Valuation τ sig (Elt F) := after ops2a (s1 V)

theorem p2_arg {r : Ref sig .tc} (hr : r ∈ argRefs) : p2 V (no_index (Proc.devRef .tc r)) = V⟦r⟧ :=
  (keepArg ops2a_good _ hr).trans (s1_arg V hr)
theorem p2_v8 : p2 V (no_index (Proc.devRef .tc main_v8)) = Sr V := (keep ops2a_writes _ (by decide)).trans (s1_v8 V)
theorem p2_v11 : p2 V (no_index (Proc.devRef .tc main_v11)) = Ds V := (keep ops2a_writes _ (by decide)).trans (s1_v11 V)
theorem p2_v39 : p2 V (no_index (Proc.devRef .tc main_v39)) = Nw V := (keep ops2a_writes _ (by decide)).trans (s1_v39 V)

/-- The sum over edges of the layer's product, before the bias. -/
theorem p2_v108 : p2 V (no_index (Proc.devRef .tc main_v108))
    = edgeSum (dotFn2 (X1 V) V⟦main_arg7⟧) (GraphPre.colIdx (Sr V)) (GraphPre.colIdx (Ds V)) (Nw V) := by
  unfold p2
  after_results_simp
  simp only [s1_v90, s1_v96, s1_v39, s1_v11]
  rfl

/-- The buffers after the second layer's normalisation. -/
def q2 : Valuation τ sig (Elt F) := after ops2b (p2 V)

theorem q2_arg {r : Ref sig .tc} (hr : r ∈ argRefs) : q2 V (no_index (Proc.devRef .tc r)) = V⟦r⟧ :=
  (keepArg ops2b_good _ hr).trans (p2_arg V hr)
theorem q2_v8 : q2 V (no_index (Proc.devRef .tc main_v8)) = Sr V := (keep ops2b_writes _ (by decide)).trans (p2_v8 V)
theorem q2_v11 : q2 V (no_index (Proc.devRef .tc main_v11)) = Ds V := (keep ops2b_writes _ (by decide)).trans (p2_v11 V)
theorem q2_v39 : q2 V (no_index (Proc.devRef .tc main_v39)) = Nw V := (keep ops2b_writes _ (by decide)).trans (p2_v39 V)

/-- The layer's sum with its bias is the layer's convolution; its features normalised, scaled and shifted. -/
theorem q2_v137 : q2 V (no_index (Proc.devRef .tc main_v137)) = nzFn (Y2 V) V⟦main_arg9⟧ V⟦main_arg10⟧ := by
  unfold q2
  after_results_simp
  simp only [p2_v108, p2_arg V (r := main_arg8) (by decide), p2_arg V (r := main_arg9) (by decide),
    p2_arg V (r := main_arg10) (by decide)]
  rw [show addf (edgeSum (dotFn2 (X1 V) V⟦main_arg7⟧) (GraphPre.colIdx (Sr V)) (GraphPre.colIdx (Ds V)) (Nw V)) (biasB V⟦main_arg8⟧)
    = Y2 V from rfl]
  rfl

/-- The buffers after the second layer's unit. -/
def r2 : Valuation τ sig (Elt F) := after ops2c (q2 V)

theorem r2_arg {r : Ref sig .tc} (hr : r ∈ argRefs) : r2 V (no_index (Proc.devRef .tc r)) = V⟦r⟧ :=
  (keepArg ops2c_good _ hr).trans (q2_arg V hr)
theorem r2_v8 : r2 V (no_index (Proc.devRef .tc main_v8)) = Sr V := (keep ops2c_writes _ (by decide)).trans (q2_v8 V)
theorem r2_v11 : r2 V (no_index (Proc.devRef .tc main_v11)) = Ds V := (keep ops2c_writes _ (by decide)).trans (q2_v11 V)
theorem r2_v39 : r2 V (no_index (Proc.devRef .tc main_v39)) = Nw V := (keep ops2c_writes _ (by decide)).trans (q2_v39 V)

/-- The unit of the normalised feature. -/
theorem r2_v138 : r2 V (no_index (Proc.devRef .tc main_v138)) = eluFn (nzFn (Y2 V) V⟦main_arg9⟧ V⟦main_arg10⟧) := by
  unfold r2
  after_results_simp
  simp only [q2_v137]
  rfl

/-- The buffers after the second layer's output is multiplied by the next weight matrix. -/
def s2 : Valuation τ sig (Elt F) := after ops2d (r2 V)

theorem s2_arg {r : Ref sig .tc} (hr : r ∈ argRefs) : s2 V (no_index (Proc.devRef .tc r)) = V⟦r⟧ :=
  (keepArg ops2d_good _ hr).trans (r2_arg V hr)
theorem s2_v8 : s2 V (no_index (Proc.devRef .tc main_v8)) = Sr V := (keep ops2d_writes _ (by decide)).trans (r2_v8 V)
theorem s2_v11 : s2 V (no_index (Proc.devRef .tc main_v11)) = Ds V := (keep ops2d_writes _ (by decide)).trans (r2_v11 V)
theorem s2_v39 : s2 V (no_index (Proc.devRef .tc main_v39)) = Nw V := (keep ops2d_writes _ (by decide)).trans (r2_v39 V)

/-- The layer's output, in its three axes again, times the next weight matrix. -/
theorem s2_v140 : s2 V (no_index (Proc.devRef .tc main_v140)) = dotFn2 (X2 V) V⟦main_arg11⟧ := by
  unfold s2
  after_results_simp
  simp only [r2_v138, r2_arg V (r := main_arg11) (by decide)]
  rfl

/-- The sources as a column of indices once more. -/
theorem s2_v146 : s2 V (no_index (Proc.devRef .tc main_v146)) = GraphPre.colIdx (Sr V) := by
  unfold s2
  after_results_simp
  simp only [r2_v8]
  rfl

/-! ### The third layer -/

/-- The buffers after the third layer's sum over edges. -/
def p3 : Valuation τ sig (Elt F) := after ops3a (s2 V)

theorem p3_arg {r : Ref sig .tc} (hr : r ∈ argRefs) : p3 V (no_index (Proc.devRef .tc r)) = V⟦r⟧ :=
  (keepArg ops3a_good _ hr).trans (s2_arg V hr)
theorem p3_v8 : p3 V (no_index (Proc.devRef .tc main_v8)) = Sr V := (keep ops3a_writes _ (by decide)).trans (s2_v8 V)
theorem p3_v11 : p3 V (no_index (Proc.devRef .tc main_v11)) = Ds V := (keep ops3a_writes _ (by decide)).trans (s2_v11 V)
theorem p3_v39 : p3 V (no_index (Proc.devRef .tc main_v39)) = Nw V := (keep ops3a_writes _ (by decide)).trans (s2_v39 V)

/-- The sum over edges of the layer's product, before the bias. -/
theorem p3_v158 : p3 V (no_index (Proc.devRef .tc main_v158))
    = edgeSum (dotFn2 (X2 V) V⟦main_arg11⟧) (GraphPre.colIdx (Sr V)) (GraphPre.colIdx (Ds V)) (Nw V) := by
  unfold p3
  after_results_simp
  simp only [s2_v140, s2_v146, s2_v39, s2_v11]
  rfl

/-- The buffers after the third layer's normalisation. -/
def q3 : Valuation τ sig (Elt F) := after ops3b (p3 V)

theorem q3_arg {r : Ref sig .tc} (hr : r ∈ argRefs) : q3 V (no_index (Proc.devRef .tc r)) = V⟦r⟧ :=
  (keepArg ops3b_good _ hr).trans (p3_arg V hr)
theorem q3_v8 : q3 V (no_index (Proc.devRef .tc main_v8)) = Sr V := (keep ops3b_writes _ (by decide)).trans (p3_v8 V)
theorem q3_v11 : q3 V (no_index (Proc.devRef .tc main_v11)) = Ds V := (keep ops3b_writes _ (by decide)).trans (p3_v11 V)
theorem q3_v39 : q3 V (no_index (Proc.devRef .tc main_v39)) = Nw V := (keep ops3b_writes _ (by decide)).trans (p3_v39 V)

/-- The layer's sum with its bias is the layer's convolution; its features normalised, scaled and shifted. -/
theorem q3_v187 : q3 V (no_index (Proc.devRef .tc main_v187)) = nzFn (Y3 V) V⟦main_arg13⟧ V⟦main_arg14⟧ := by
  unfold q3
  after_results_simp
  simp only [p3_v158, p3_arg V (r := main_arg12) (by decide), p3_arg V (r := main_arg13) (by decide),
    p3_arg V (r := main_arg14) (by decide)]
  rw [show addf (edgeSum (dotFn2 (X2 V) V⟦main_arg11⟧) (GraphPre.colIdx (Sr V)) (GraphPre.colIdx (Ds V)) (Nw V)) (biasB V⟦main_arg12⟧)
    = Y3 V from rfl]
  rfl

/-- The buffers after the third layer's unit. -/
def r3 : Valuation τ sig (Elt F) := after ops3c (q3 V)

theorem r3_arg {r : Ref sig .tc} (hr : r ∈ argRefs) : r3 V (no_index (Proc.devRef .tc r)) = V⟦r⟧ :=
  (keepArg ops3c_good _ hr).trans (q3_arg V hr)
theorem r3_v8 : r3 V (no_index (Proc.devRef .tc main_v8)) = Sr V := (keep ops3c_writes _ (by decide)).trans (q3_v8 V)
theorem r3_v11 : r3 V (no_index (Proc.devRef .tc main_v11)) = Ds V := (keep ops3c_writes _ (by decide)).trans (q3_v11 V)
theorem r3_v39 : r3 V (no_index (Proc.devRef .tc main_v39)) = Nw V := (keep ops3c_writes _ (by decide)).trans (q3_v39 V)

/-- The unit of the normalised feature. -/
theorem r3_v188 : r3 V (no_index (Proc.devRef .tc main_v188)) = eluFn (nzFn (Y3 V) V⟦main_arg13⟧ V⟦main_arg14⟧) := by
  unfold r3
  after_results_simp
  simp only [q3_v187]
  rfl

/-- The buffers at the end. -/
def s3 : Valuation τ sig (Elt F) := after ops3d (r3 V)

/-- The result: the third layer's output in its three axes again. -/
theorem s3_v189 : s3 V (no_index (Proc.devRef .tc main_v189)) = X3 V := by
  unfold s3
  after_results_simp
  simp only [r3_v188]
  rfl

/-! ## The whole line -/

/-- The fold of the reference's whole line leaves, in the result buffer, the composition of the pure functions applied
    to the contents of the fifteen argument buffers. -/
theorem bridge : (after (ops (F := F)) V)⟦main_v189⟧
    = RPure.refFn V⟦main_arg0⟧ V⟦main_arg1⟧ V⟦main_arg2⟧ V⟦main_arg3⟧ V⟦main_arg4⟧ V⟦main_arg5⟧ V⟦main_arg6⟧ V⟦main_arg7⟧
        V⟦main_arg8⟧ V⟦main_arg9⟧ V⟦main_arg10⟧ V⟦main_arg11⟧ V⟦main_arg12⟧ V⟦main_arg13⟧ V⟦main_arg14⟧ := by
  rw [after_ops]
  exact s3_v189 V

end Cert.ReferenceIdeal.RBridge

end
-- ==== Proof.RVal.lean ====
/-
  The reference program's result is the model's, and its frame: its run read operation by operation.
-/
import proofs.«171858_j54966991454756_2_alg».proof.Proof.RefRun
import proofs.«171858_j54966991454756_2_alg».proof.Proof.RBridge
import proofs.«171858_j54966991454756_2_alg».proof.Proof.Iface

noncomputable section

namespace Cert.ReferenceIdeal.RVal

open Idealize.ShloMosaic Idealize.ShloMosaic.TcCoe Idealize.SL.Sem Idealize.ShloMosaic.ValueIdx
open Cert.ReferenceIdeal Cert.Iface

variable (m : (ℓ : Loc nD τ sig) → Buf (Elt Ideal) ℓ) (ρ : Dev nD → PrngReg)

/-- The argument arrays of device `c` hold the model input `I`. -/
abbrev AgreeR (I : Model.Inp) (c : Dev nD) : Prop :=
  Agree I (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))

/-- The run's result term is the model's result. -/
theorem main_val (I : Model.Inp) (c : Dev nD) (hA : AgreeR m I c) (hR : InRange I) :
    StableHlo.after (RefRun.ops (F := Ideal)) (StableHlo.launchContents m c) (Proc.devRef .tc main_v189) = outArr I :=
  (RBridge.bridge (StableHlo.launchContents m c)).trans (RPure.refFn_eq I _ _ _ _ _ _ _ _ _ _ _ _ _ _ _ hA hR)

/-- Every weakly fair execution of the reference terminates with the model's result and the arguments unchanged. -/
theorem run (Iof : Dev nD → Model.Inp) (hA : ∀ c, AgreeR m (Iof c) c) (hR : ∀ c, InRange (Iof c)) :
    θ_run (defs (F := Ideal)) (onTc (τ := τ) (main (F := Ideal))) ⟨m, fun _ => 0, ρ⟩ (fun r => ∀ c : Dev nD,
      r.2.mem ((c.tc : Thread nD τ).loc main_v189) = outArr (Iof c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)) :=
  (θ_run (defs (F := Ideal)) _ _).mono (fun r h c => ⟨(h c main_v189).trans (main_val m (Iof c) c (hA c) (hR c)),
    (h c main_arg0).trans (RefRun.kept_main_arg0 m c),
    (h c main_arg1).trans (RefRun.kept_main_arg1 m c),
    (h c main_arg2).trans (RefRun.kept_main_arg2 m c),
    (h c main_arg3).trans (RefRun.kept_main_arg3 m c),
    (h c main_arg4).trans (RefRun.kept_main_arg4 m c),
    (h c main_arg5).trans (RefRun.kept_main_arg5 m c),
    (h c main_arg6).trans (RefRun.kept_main_arg6 m c),
    (h c main_arg7).trans (RefRun.kept_main_arg7 m c),
    (h c main_arg8).trans (RefRun.kept_main_arg8 m c),
    (h c main_arg9).trans (RefRun.kept_main_arg9 m c),
    (h c main_arg10).trans (RefRun.kept_main_arg10 m c),
    (h c main_arg11).trans (RefRun.kept_main_arg11 m c),
    (h c main_arg12).trans (RefRun.kept_main_arg12 m c),
    (h c main_arg13).trans (RefRun.kept_main_arg13 m c),
    (h c main_arg14).trans (RefRun.kept_main_arg14 m c)⟩)
    (RefRun.run (F := Ideal) m ρ)

/-- The reference's frame: it runs, and its arguments end unchanged. -/
theorem frame :
    θ_run (defs (F := Ideal)) (onTc (τ := τ) (main (F := Ideal))) ⟨m, fun _ => 0, ρ⟩ (fun r => ∀ c : Dev nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)) :=
  (θ_run (defs (F := Ideal)) _ _).mono (fun r h c => ⟨
    (h c main_arg0).trans (RefRun.kept_main_arg0 m c),
    (h c main_arg1).trans (RefRun.kept_main_arg1 m c),
    (h c main_arg2).trans (RefRun.kept_main_arg2 m c),
    (h c main_arg3).trans (RefRun.kept_main_arg3 m c),
    (h c main_arg4).trans (RefRun.kept_main_arg4 m c),
    (h c main_arg5).trans (RefRun.kept_main_arg5 m c),
    (h c main_arg6).trans (RefRun.kept_main_arg6 m c),
    (h c main_arg7).trans (RefRun.kept_main_arg7 m c),
    (h c main_arg8).trans (RefRun.kept_main_arg8 m c),
    (h c main_arg9).trans (RefRun.kept_main_arg9 m c),
    (h c main_arg10).trans (RefRun.kept_main_arg10 m c),
    (h c main_arg11).trans (RefRun.kept_main_arg11 m c),
    (h c main_arg12).trans (RefRun.kept_main_arg12 m c),
    (h c main_arg13).trans (RefRun.kept_main_arg13 m c),
    (h c main_arg14).trans (RefRun.kept_main_arg14 m c)⟩)
    (RefRun.run (F := Ideal) m ρ)

end Cert.ReferenceIdeal.RVal

end
-- ==== Proof.Pre.lean ====
/-
  What the precondition says: every float argument entry is a real number, and every edge word lies in [-502, 502).

  The precondition is a conjunction of sixteen facts, each a conjunction over all the entries of one argument array:
  for a float array, that the entry's absolute value lies strictly below +∞ (so the entry is neither infinity nor
  the junk value, hence a real number); for the array of edge words, that the word lies in [-502, 502) as a signed
  integer.  A word in that range, read as an index into an axis of 502 (a negative word counts from the end),
  lies in [0, 502).
-/
import proofs.«171858_j54966991454756_2_alg».proof.Pre_finite_inputs
import proofs.«171858_j54966991454756_2_alg».proof.Proof.Gen.Pre_finite_inputs
import proofs.«171858_j54966991454756_2_alg».proof.Proof.Iface
import Idealize.ShloMosaic.Lib.ReduceAll
import Idealize.ShloMosaic.Lib.StableHlo.Predicate

noncomputable section

namespace Cert.PreDecode

open Idealize.ShloMosaic Idealize.ShloMosaic.ValueIdx Cert.Iface

/-- The shape of a scalar. -/
abbrev S0 : Shape := Cert.Pre_finite_inputs.S_

/-- A scalar has one index. -/
instance : Subsingleton S0.Idx := ⟨fun a b => funext fun d => d.elim0⟩

/-- An extended real whose absolute value lies strictly below the single-precision pattern of +∞ is a real number:
    `max x (-x) < ⊤` excludes both `x = ⊤` and `x = ⊥`. -/
theorem real_of_abs_lt (x : Ideal .f32)
    (h : FloatOps.cmpf .olt (FloatOps.hostAbsf x) (FloatOps.ofBits (F := Ideal) .f32 0x7F800000#32) = 1#1) :
    ∃ r : ℝ, x = ((r : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  obtain ⟨h1, h2⟩ := hlt
  induction x using EReal.rec with
  | bot => simp at h2
  | coe r => exact ⟨r, rfl⟩
  | top => simp at h1

/-- "All entries have absolute value below +∞", as the conjunction over a whole array: every entry is a real number. -/
theorem all_real {s : Shape} {axes : List (Fin s.rank)} (hb : S0.BroadcastsInDim s ![])
    (hr : s.ReducesTo axes S0) (hu : 0 < S0.numel) (x : FVec Ideal s .f32)
    (h : Host.reduce IntOp.andi
          (cmpf .olt (Host.absf x) (broadcastInDim s ![] hb (constant (F := Ideal) S0 .f32 0x7F800000#32)))
          (constantI S0 1 1#1) hr hu ix0 = 1#1) :
    ∀ i : s.Idx, ∃ r : ℝ, x i = ((r : ℝ) : EReal) := by
  intro i
  have e := Host.reduce_andi_all _ _ hr hu ix0 h i
  exact real_of_abs_lt (x i) e

/-- A conjunction of two scalar truth values that is true has both conjuncts true. -/
theorem and_split (x y : IVec S0 1) (h : andi x y ix0 = 1#1) : x ix0 = 1#1 ∧ y ix0 = 1#1 :=
  IntOp.andi_eq_one.1 h

/-- A word in [-502, 502), read as an index into an axis of 502 (a negative word counts from the end), lies in
    [0, 502): a negative word
    `w ≥ -502` becomes `w + 502`, which does not wrap. -/
theorem normw_range (w : BitVec 32) (h1 : IntOp.cmpi .sge w 4294966794#32 = 1#1) (h2 : IntOp.cmpi .slt w 502#32 = 1#1) :
    0 ≤ (Model.normw w).toInt ∧ (Model.normw w).toInt < 502 := by
  rw [IntOp.cmpi_sge] at h1
  rw [IntOp.cmpi_slt] at h2
  have e1 : (4294966794#32 : BitVec 32).toInt = -502 := by decide
  have e2 : (502#32 : BitVec 32).toInt = 502 := by decide
  have e0 : (0#32 : BitVec 32).toInt = 0 := by decide
  rw [e1] at h1
  rw [e2] at h2
  unfold Model.normw
  by_cases hs : w.slt 0#32 = true
  · rw [if_pos hs]
    rw [BitVec.slt_iff_toInt_lt, e0] at hs
    rw [BitVec.toInt_add, e2, Int.bmod_eq_of_le_mul_two (by omega) (by omega)]
    omega
  · rw [if_neg hs]
    rw [BitVec.slt_iff_toInt_lt, e0] at hs
    omega

/-- "All words lie in [-502, 502)", as the conjunction over a whole array: every word names a node. -/
theorem all_words {s : Shape} {axes : List (Fin s.rank)} (hb hb' : S0.BroadcastsInDim s ![])
    (hr : s.ReducesTo axes S0) (hu : 0 < S0.numel) (x : IVec s 32)
    (h : Host.reduce IntOp.andi
          (andi (cmpi .sge x (broadcastInDim s ![] hb (constantI S0 32 4294966794#32)))
            (cmpi .slt x (broadcastInDim s ![] hb' (constantI S0 32 502#32))))
          (constantI S0 1 1#1) hr hu ix0 = 1#1) :
    ∀ i : s.Idx, 0 ≤ (Model.normw (x i)).toInt ∧ (Model.normw (x i)).toInt < 502 := by
  intro i
  have e := Host.reduce_andi_all _ _ hr hu ix0 h i
  have e' : IntOp.andi (IntOp.cmpi .sge (x i) 4294966794#32) (IntOp.cmpi .slt (x i) 502#32) = 1#1 := e
  obtain ⟨e1, e2⟩ := IntOp.andi_eq_one.1 e'
  exact normw_range (x i) e1 e2

/-- From the printed precondition at the ideal instance: the argument arrays hold a model input, whose edge words are
    in range. -/
theorem decode
    (a0 : FVec Ideal S128x1024 .f32) (a1 : FVec Ideal S500x1024 .f32) (a2 : IVec S2x4000 32)
    (a3 : FVec Ideal S1024x256 .f32) (a4 a5 a6 : FVec Ideal S256 .f32)
    (a7 : FVec Ideal S256x256 .f32) (a8 a9 a10 : FVec Ideal S256 .f32)
    (a11 : FVec Ideal S256x256 .f32) (a12 a13 a14 : FVec Ideal S256 .f32)
    (h : Cert.Pre_finite_inputs.fn (F := Ideal) a0 a1 a2 a3 a4 a5 a6 a7 a8 a9 a10 a11 a12 a13 a14 = (fun _ => 1#1)) :
    ∃ I : Model.Inp, Agree I a0 a1 a2 a3 a4 a5 a6 a7 a8 a9 a10 a11 a12 a13 a14 ∧ InRange I := by
  -- the precondition at its one index, as the nested conjunction of the sixteen facts
  have hc := congrFun h ix0
  unfold Cert.Pre_finite_inputs.fn Cert.Pre_finite_inputs.fn_part1 Cert.Pre_finite_inputs.fn_part2
    Cert.Pre_finite_inputs.fn_part3 Cert.Pre_finite_inputs.fn_part4 at hc
  dsimp only at hc
  obtain ⟨hc, hE⟩ := and_split _ _ hc
  obtain ⟨hc, h14⟩ := and_split _ _ hc
  obtain ⟨hc, h13⟩ := and_split _ _ hc
  obtain ⟨hc, h12⟩ := and_split _ _ hc
  obtain ⟨hc, h11⟩ := and_split _ _ hc
  obtain ⟨hc, h10⟩ := and_split _ _ hc
  obtain ⟨hc, h9⟩ := and_split _ _ hc
  obtain ⟨hc, h8⟩ := and_split _ _ hc
  obtain ⟨hc, h7⟩ := and_split _ _ hc
  obtain ⟨hc, h6⟩ := and_split _ _ hc
  obtain ⟨hc, h5⟩ := and_split _ _ hc
  obtain ⟨hc, h4⟩ := and_split _ _ hc
  obtain ⟨hc, h3⟩ := and_split _ _ hc
  obtain ⟨h0, h1⟩ := and_split _ _ hc
  -- every float entry is a real number: name it
  choose r0 e0 using all_real _ _ _ a0 h0
  choose r1 e1 using all_real _ _ _ a1 h1
  choose r3 e3 using all_real _ _ _ a3 h3
  choose r4 e4 using all_real _ _ _ a4 h4
  choose r5 e5 using all_real _ _ _ a5 h5
  choose r6 e6 using all_real _ _ _ a6 h6
  choose r7 e7 using all_real _ _ _ a7 h7
  choose r8 e8 using all_real _ _ _ a8 h8
  choose r9 e9 using all_real _ _ _ a9 h9
  choose r10 e10 using all_real _ _ _ a10 h10
  choose r11 e11 using all_real _ _ _ a11 h11
  choose r12 e12 using all_real _ _ _ a12 h12
  choose r13 e13 using all_real _ _ _ a13 h13
  choose r14 e14 using all_real _ _ _ a14 h14
  -- every edge word names a node
  have hw := all_words _ _ _ _ a2 hE
  refine ⟨{ xs := fun p q => r0 (ix2 p q), xb := fun p q => r1 (ix2 p q), E := fun r e => a2 (ix2 r e),
            W1 := fun p q => r3 (ix2 p q), b1 := fun p => r4 (ix1 p), g1 := fun p => r5 (ix1 p),
            be1 := fun p => r6 (ix1 p),
            W2 := fun p q => r7 (ix2 p q), b2 := fun p => r8 (ix1 p), g2 := fun p => r9 (ix1 p),
            be2 := fun p => r10 (ix1 p),
            W3 := fun p q => r11 (ix2 p q), b3 := fun p => r12 (ix1 p), g3 := fun p => r13 (ix1 p),
            be3 := fun p => r14 (ix1 p) }, ?_, ?_⟩
  · exact
      { xs := fun p q => e0 (ix2 p q), xb := fun p q => e1 (ix2 p q), E := fun _ _ => rfl,
        W1 := fun p q => e3 (ix2 p q), b1 := fun p => e4 (ix1 p), g1 := fun p => e5 (ix1 p),
        be1 := fun p => e6 (ix1 p),
        W2 := fun p q => e7 (ix2 p q), b2 := fun p => e8 (ix1 p), g2 := fun p => e9 (ix1 p),
        be2 := fun p => e10 (ix1 p),
        W3 := fun p q => e11 (ix2 p q), b3 := fun p => e12 (ix1 p), g3 := fun p => e13 (ix1 p),
        be3 := fun p => e14 (ix1 p) }
  · intro r e
    exact hw (ix2 r e)

end Cert.PreDecode

end
-- ==== Proof.lean ====
/-
  The certificate of a three-layer graph-convolution network: the Pallas program (four kernels and the jax code
  around them) against the plain reference (gather and scatter-add over the edge list), equal over the extended
  reals on finite inputs whose edge words name nodes.

  Both programs compute the real-valued model of Proof/Model.lean: a symmetric-normalised adjacency matrix built
  from the edge list, and three times `A · (x · W) + bias`, batch normalisation over all rows, and the
  exponential linear unit.  The kernel program builds the matrix once and multiplies by it, restructures the first
  layer as a batch-invariant term plus a rank-one correction, and puts each layer's batch statistics together from
  sixteen groups of rows; the reference gathers, scales and scatter-adds along the edges and takes the statistics
  over all rows at once.  Proof/Alg.lean has the three identities between the two; the other modules read each
  program's operations at an index.  The precondition gives real inputs (finiteness) and edge words in [-502, 502).
-/
import proofs.«171858_j54966991454756_2_alg».proof.Defs
import proofs.«171858_j54966991454756_2_alg».proof.Proof.Gen.Kernel
import proofs.«171858_j54966991454756_2_alg».proof.Proof.Gen.KernelIdeal
import proofs.«171858_j54966991454756_2_alg».proof.Proof.Gen.ReferenceIdeal
import proofs.«171858_j54966991454756_2_alg».proof.Proof.Gen.Pre_finite_inputs
import proofs.«171858_j54966991454756_2_alg».proof.Proof.KFrame
import proofs.«171858_j54966991454756_2_alg».proof.Proof.KIFrame
import proofs.«171858_j54966991454756_2_alg».proof.Proof.KVal
import proofs.«171858_j54966991454756_2_alg».proof.Proof.RVal
import proofs.«171858_j54966991454756_2_alg».proof.Proof.Pre

noncomputable section

namespace Cert.Proof

open Idealize.ShloMosaic Idealize.SL.Sem

namespace Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RVal.frame m ρ

/-- Under the precondition each device's argument arrays hold a model input with edge words in range; both
    programs then end with that input's model result. -/
theorem algebraic : Cert.algebraic_KernelIdeal_ReferenceIdeal := by
  intro m ρ m' ρ' hpre hagree
  have hdec := fun c => Cert.PreDecode.decode _ _ _ _ _ _ _ _ _ _ _ _ _ _ _ (hpre c)
  choose Iof hIof using hdec
  refine ⟨fun c => Cert.Iface.outArr (Iof c),
    Cert.KernelIdeal.KVal.run m ρ Iof (fun c => (hIof c).1) (fun c => (hIof c).2),
    Cert.ReferenceIdeal.RVal.run m' ρ' Iof (fun c => ?_) (fun c => (hIof c).2)⟩
  obtain ⟨h0, h1, h2, h3, h4, h5, h6, h7, h8, h9, h10, h11, h12, h13, h14⟩ := hagree c
  show Cert.Iface.Agree (Iof c) _ _ _ _ _ _ _ _ _ _ _ _ _ _ _
  rw [h0, h1, h2, h3, h4, h5, h6, h7, h8, h9, h10, h11, h12, h13, h14]
  exact (hIof c).1

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
